-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S8192x1024 : Shape := ⟨2, ![8192, 1024]⟩
abbrev S4096x1024 : Shape := ⟨2, ![4096, 1024]⟩
abbrev S32 : Shape := ⟨1, ![32]⟩
abbrev S1 : Shape := ⟨1, ![1]⟩
abbrev S_ : Shape := ⟨0, ![]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .local _ .vmem, ⟨0, _⟩ => ⟨S8192x1024, .bf16⟩
  | .local _ .vmem, ⟨1, _⟩ => ⟨S4096x1024, .f32⟩
  | .local _ .vmem, ⟨2, _⟩ => ⟨S4096x1024, .bf16⟩
  | .local _ .vmem, ⟨3, _⟩ => ⟨S4096x1024, .bf16⟩
  | _, _ => ⟨S8192x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 161 → Bool
  | ⟨i, _⟩ => dmaSemScopedAt i

abbrev sig : RefSig :=
  (ofTc nBuf bufTy 1 161 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v8 : BitVec 32 := Scalar.muli v2 c4096_i32
  let v9 : BitVec 32 := Scalar.addi v8 c0_i32
  let c0_i32_7 : BitVec 32 := 0#32
  ![v9.toNat, 0]
def k0_dev1 (d0 : Dev nD) : Nat :=
  let c0_i32_105 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_104 : BitVec 32 := 2#32
  let v170 : BitVec 32 := Scalar.muli v2 c2_i32_104
  let v171 : BitVec 32 := Scalar.addi c0_i32_105 v170
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_106 : BitVec 32 := 1#32
  let v172 : BitVec 32 := Scalar.muli v6 c1_i32_106
  let v173 : BitVec 32 := Scalar.addi v171 v172
  v173.toNat
def k0_dev2 (d0 : Dev nD) : Nat :=
  let c0_i32_109 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_108 : BitVec 32 := 2#32
  let v174 : BitVec 32 := Scalar.muli v7 c2_i32_108
  let v175 : BitVec 32 := Scalar.addi c0_i32_109 v174
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_110 : BitVec 32 := 1#32
  let v176 : BitVec 32 := Scalar.muli v5 c1_i32_110
  let v177 : BitVec 32 := Scalar.addi v175 v176
  v177.toNat
def k0_dev3 (d0 : Dev nD) : Nat :=
  let c0_i32_122 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_121 : BitVec 32 := 2#32
  let v187 : BitVec 32 := Scalar.muli v2 c2_i32_121
  let v188 : BitVec 32 := Scalar.addi c0_i32_122 v187
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_123 : BitVec 32 := 1#32
  let v189 : BitVec 32 := Scalar.muli v6 c1_i32_123
  let v190 : BitVec 32 := Scalar.addi v188 v189
  v190.toNat
def k0_dev4 (d0 : Dev nD) : Nat :=
  let c0_i32_138 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_137 : BitVec 32 := 2#32
  let v206 : BitVec 32 := Scalar.muli v2 c2_i32_137
  let v207 : BitVec 32 := Scalar.addi c0_i32_138 v206
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_139 : BitVec 32 := 1#32
  let v208 : BitVec 32 := Scalar.muli v6 c1_i32_139
  let v209 : BitVec 32 := Scalar.addi v207 v208
  v209.toNat
def k0_dev5 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_153 : BitVec 32 := 2#32
  let v225 : BitVec 32 := Scalar.muli v2 c2_i32_153
  let v226 : BitVec 32 := Scalar.addi c0_i32_154 v225
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_155 : BitVec 32 := 1#32
  let v227 : BitVec 32 := Scalar.muli v6 c1_i32_155
  let v228 : BitVec 32 := Scalar.addi v226 v227
  v228.toNat
def k0_dev6 (d0 : Dev nD) : Nat :=
  let c0_i32_170 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_169 : BitVec 32 := 2#32
  let v244 : BitVec 32 := Scalar.muli v2 c2_i32_169
  let v245 : BitVec 32 := Scalar.addi c0_i32_170 v244
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_171 : BitVec 32 := 1#32
  let v246 : BitVec 32 := Scalar.muli v6 c1_i32_171
  let v247 : BitVec 32 := Scalar.addi v245 v246
  v247.toNat
def k0_dev7 (d0 : Dev nD) : Nat :=
  let c0_i32_186 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_185 : BitVec 32 := 2#32
  let v263 : BitVec 32 := Scalar.muli v2 c2_i32_185
  let v264 : BitVec 32 := Scalar.addi c0_i32_186 v263
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_187 : BitVec 32 := 1#32
  let v265 : BitVec 32 := Scalar.muli v6 c1_i32_187
  let v266 : BitVec 32 := Scalar.addi v264 v265
  v266.toNat
def k0_dev8 (d0 : Dev nD) : Nat :=
  let c0_i32_202 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_201 : BitVec 32 := 2#32
  let v282 : BitVec 32 := Scalar.muli v2 c2_i32_201
  let v283 : BitVec 32 := Scalar.addi c0_i32_202 v282
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_203 : BitVec 32 := 1#32
  let v284 : BitVec 32 := Scalar.muli v6 c1_i32_203
  let v285 : BitVec 32 := Scalar.addi v283 v284
  v285.toNat
def k0_dev9 (d0 : Dev nD) : Nat :=
  let c0_i32_218 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_217 : BitVec 32 := 2#32
  let v301 : BitVec 32 := Scalar.muli v2 c2_i32_217
  let v302 : BitVec 32 := Scalar.addi c0_i32_218 v301
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_219 : BitVec 32 := 1#32
  let v303 : BitVec 32 := Scalar.muli v6 c1_i32_219
  let v304 : BitVec 32 := Scalar.addi v302 v303
  v304.toNat
def k0_dev10 (d0 : Dev nD) : Nat :=
  let c0_i32_234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_233 : BitVec 32 := 2#32
  let v320 : BitVec 32 := Scalar.muli v2 c2_i32_233
  let v321 : BitVec 32 := Scalar.addi c0_i32_234 v320
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_235 : BitVec 32 := 1#32
  let v322 : BitVec 32 := Scalar.muli v6 c1_i32_235
  let v323 : BitVec 32 := Scalar.addi v321 v322
  v323.toNat
def k0_dev11 (d0 : Dev nD) : Nat :=
  let c0_i32_250 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_249 : BitVec 32 := 2#32
  let v339 : BitVec 32 := Scalar.muli v2 c2_i32_249
  let v340 : BitVec 32 := Scalar.addi c0_i32_250 v339
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_251 : BitVec 32 := 1#32
  let v341 : BitVec 32 := Scalar.muli v6 c1_i32_251
  let v342 : BitVec 32 := Scalar.addi v340 v341
  v342.toNat
def k0_dev12 (d0 : Dev nD) : Nat :=
  let c0_i32_266 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_265 : BitVec 32 := 2#32
  let v358 : BitVec 32 := Scalar.muli v2 c2_i32_265
  let v359 : BitVec 32 := Scalar.addi c0_i32_266 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_267 : BitVec 32 := 1#32
  let v360 : BitVec 32 := Scalar.muli v6 c1_i32_267
  let v361 : BitVec 32 := Scalar.addi v359 v360
  v361.toNat
def k0_dev13 (d0 : Dev nD) : Nat :=
  let c0_i32_282 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_281 : BitVec 32 := 2#32
  let v377 : BitVec 32 := Scalar.muli v2 c2_i32_281
  let v378 : BitVec 32 := Scalar.addi c0_i32_282 v377
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_283 : BitVec 32 := 1#32
  let v379 : BitVec 32 := Scalar.muli v6 c1_i32_283
  let v380 : BitVec 32 := Scalar.addi v378 v379
  v380.toNat
def k0_dev14 (d0 : Dev nD) : Nat :=
  let c0_i32_298 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_297 : BitVec 32 := 2#32
  let v396 : BitVec 32 := Scalar.muli v2 c2_i32_297
  let v397 : BitVec 32 := Scalar.addi c0_i32_298 v396
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_299 : BitVec 32 := 1#32
  let v398 : BitVec 32 := Scalar.muli v6 c1_i32_299
  let v399 : BitVec 32 := Scalar.addi v397 v398
  v399.toNat
def k0_dev15 (d0 : Dev nD) : Nat :=
  let c0_i32_314 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_313 : BitVec 32 := 2#32
  let v415 : BitVec 32 := Scalar.muli v2 c2_i32_313
  let v416 : BitVec 32 := Scalar.addi c0_i32_314 v415
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_315 : BitVec 32 := 1#32
  let v417 : BitVec 32 := Scalar.muli v6 c1_i32_315
  let v418 : BitVec 32 := Scalar.addi v416 v417
  v418.toNat
def k0_dev16 (d0 : Dev nD) : Nat :=
  let c0_i32_330 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_329 : BitVec 32 := 2#32
  let v434 : BitVec 32 := Scalar.muli v2 c2_i32_329
  let v435 : BitVec 32 := Scalar.addi c0_i32_330 v434
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_331 : BitVec 32 := 1#32
  let v436 : BitVec 32 := Scalar.muli v6 c1_i32_331
  let v437 : BitVec 32 := Scalar.addi v435 v436
  v437.toNat
def k0_dev17 (d0 : Dev nD) : Nat :=
  let c0_i32_346 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_345 : BitVec 32 := 2#32
  let v453 : BitVec 32 := Scalar.muli v2 c2_i32_345
  let v454 : BitVec 32 := Scalar.addi c0_i32_346 v453
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_347 : BitVec 32 := 1#32
  let v455 : BitVec 32 := Scalar.muli v6 c1_i32_347
  let v456 : BitVec 32 := Scalar.addi v454 v455
  v456.toNat
def k0_dev18 (d0 : Dev nD) : Nat :=
  let c0_i32_362 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_361 : BitVec 32 := 2#32
  let v472 : BitVec 32 := Scalar.muli v2 c2_i32_361
  let v473 : BitVec 32 := Scalar.addi c0_i32_362 v472
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_363 : BitVec 32 := 1#32
  let v474 : BitVec 32 := Scalar.muli v6 c1_i32_363
  let v475 : BitVec 32 := Scalar.addi v473 v474
  v475.toNat
def k0_dev19 (d0 : Dev nD) : Nat :=
  let c0_i32_378 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_377 : BitVec 32 := 2#32
  let v491 : BitVec 32 := Scalar.muli v2 c2_i32_377
  let v492 : BitVec 32 := Scalar.addi c0_i32_378 v491
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_379 : BitVec 32 := 1#32
  let v493 : BitVec 32 := Scalar.muli v6 c1_i32_379
  let v494 : BitVec 32 := Scalar.addi v492 v493
  v494.toNat
def k0_dev20 (d0 : Dev nD) : Nat :=
  let c0_i32_394 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_393 : BitVec 32 := 2#32
  let v510 : BitVec 32 := Scalar.muli v2 c2_i32_393
  let v511 : BitVec 32 := Scalar.addi c0_i32_394 v510
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_395 : BitVec 32 := 1#32
  let v512 : BitVec 32 := Scalar.muli v6 c1_i32_395
  let v513 : BitVec 32 := Scalar.addi v511 v512
  v513.toNat
def k0_dev21 (d0 : Dev nD) : Nat :=
  let c0_i32_410 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_409 : BitVec 32 := 2#32
  let v529 : BitVec 32 := Scalar.muli v2 c2_i32_409
  let v530 : BitVec 32 := Scalar.addi c0_i32_410 v529
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_411 : BitVec 32 := 1#32
  let v531 : BitVec 32 := Scalar.muli v6 c1_i32_411
  let v532 : BitVec 32 := Scalar.addi v530 v531
  v532.toNat
def k0_dev22 (d0 : Dev nD) : Nat :=
  let c0_i32_426 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_425 : BitVec 32 := 2#32
  let v548 : BitVec 32 := Scalar.muli v2 c2_i32_425
  let v549 : BitVec 32 := Scalar.addi c0_i32_426 v548
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_427 : BitVec 32 := 1#32
  let v550 : BitVec 32 := Scalar.muli v6 c1_i32_427
  let v551 : BitVec 32 := Scalar.addi v549 v550
  v551.toNat
def k0_dev23 (d0 : Dev nD) : Nat :=
  let c0_i32_442 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_441 : BitVec 32 := 2#32
  let v567 : BitVec 32 := Scalar.muli v2 c2_i32_441
  let v568 : BitVec 32 := Scalar.addi c0_i32_442 v567
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_443 : BitVec 32 := 1#32
  let v569 : BitVec 32 := Scalar.muli v6 c1_i32_443
  let v570 : BitVec 32 := Scalar.addi v568 v569
  v570.toNat
def k0_dev24 (d0 : Dev nD) : Nat :=
  let c0_i32_458 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_457 : BitVec 32 := 2#32
  let v586 : BitVec 32 := Scalar.muli v2 c2_i32_457
  let v587 : BitVec 32 := Scalar.addi c0_i32_458 v586
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_459 : BitVec 32 := 1#32
  let v588 : BitVec 32 := Scalar.muli v6 c1_i32_459
  let v589 : BitVec 32 := Scalar.addi v587 v588
  v589.toNat
def k0_dev25 (d0 : Dev nD) : Nat :=
  let c0_i32_474 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_473 : BitVec 32 := 2#32
  let v605 : BitVec 32 := Scalar.muli v2 c2_i32_473
  let v606 : BitVec 32 := Scalar.addi c0_i32_474 v605
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_475 : BitVec 32 := 1#32
  let v607 : BitVec 32 := Scalar.muli v6 c1_i32_475
  let v608 : BitVec 32 := Scalar.addi v606 v607
  v608.toNat
def k0_dev26 (d0 : Dev nD) : Nat :=
  let c0_i32_490 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_489 : BitVec 32 := 2#32
  let v624 : BitVec 32 := Scalar.muli v2 c2_i32_489
  let v625 : BitVec 32 := Scalar.addi c0_i32_490 v624
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_491 : BitVec 32 := 1#32
  let v626 : BitVec 32 := Scalar.muli v6 c1_i32_491
  let v627 : BitVec 32 := Scalar.addi v625 v626
  v627.toNat
def k0_dev27 (d0 : Dev nD) : Nat :=
  let c0_i32_506 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_505 : BitVec 32 := 2#32
  let v643 : BitVec 32 := Scalar.muli v2 c2_i32_505
  let v644 : BitVec 32 := Scalar.addi c0_i32_506 v643
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_507 : BitVec 32 := 1#32
  let v645 : BitVec 32 := Scalar.muli v6 c1_i32_507
  let v646 : BitVec 32 := Scalar.addi v644 v645
  v646.toNat
def k0_dev28 (d0 : Dev nD) : Nat :=
  let c0_i32_522 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_521 : BitVec 32 := 2#32
  let v662 : BitVec 32 := Scalar.muli v2 c2_i32_521
  let v663 : BitVec 32 := Scalar.addi c0_i32_522 v662
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_523 : BitVec 32 := 1#32
  let v664 : BitVec 32 := Scalar.muli v6 c1_i32_523
  let v665 : BitVec 32 := Scalar.addi v663 v664
  v665.toNat
def k0_dev29 (d0 : Dev nD) : Nat :=
  let c0_i32_538 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_537 : BitVec 32 := 2#32
  let v681 : BitVec 32 := Scalar.muli v2 c2_i32_537
  let v682 : BitVec 32 := Scalar.addi c0_i32_538 v681
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_539 : BitVec 32 := 1#32
  let v683 : BitVec 32 := Scalar.muli v6 c1_i32_539
  let v684 : BitVec 32 := Scalar.addi v682 v683
  v684.toNat
def k0_dev30 (d0 : Dev nD) : Nat :=
  let c0_i32_554 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_553 : BitVec 32 := 2#32
  let v700 : BitVec 32 := Scalar.muli v2 c2_i32_553
  let v701 : BitVec 32 := Scalar.addi c0_i32_554 v700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_555 : BitVec 32 := 1#32
  let v702 : BitVec 32 := Scalar.muli v6 c1_i32_555
  let v703 : BitVec 32 := Scalar.addi v701 v702
  v703.toNat
def k0_dev31 (d0 : Dev nD) : Nat :=
  let c0_i32_570 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_569 : BitVec 32 := 2#32
  let v719 : BitVec 32 := Scalar.muli v2 c2_i32_569
  let v720 : BitVec 32 := Scalar.addi c0_i32_570 v719
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_571 : BitVec 32 := 1#32
  let v721 : BitVec 32 := Scalar.muli v6 c1_i32_571
  let v722 : BitVec 32 := Scalar.addi v720 v721
  v722.toNat
def k0_dev32 (d0 : Dev nD) : Nat :=
  let c0_i32_586 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_585 : BitVec 32 := 2#32
  let v738 : BitVec 32 := Scalar.muli v2 c2_i32_585
  let v739 : BitVec 32 := Scalar.addi c0_i32_586 v738
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_587 : BitVec 32 := 1#32
  let v740 : BitVec 32 := Scalar.muli v6 c1_i32_587
  let v741 : BitVec 32 := Scalar.addi v739 v740
  v741.toNat
def k0_dev33 (d0 : Dev nD) : Nat :=
  let c0_i32_602 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_601 : BitVec 32 := 2#32
  let v757 : BitVec 32 := Scalar.muli v2 c2_i32_601
  let v758 : BitVec 32 := Scalar.addi c0_i32_602 v757
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_603 : BitVec 32 := 1#32
  let v759 : BitVec 32 := Scalar.muli v6 c1_i32_603
  let v760 : BitVec 32 := Scalar.addi v758 v759
  v760.toNat
def k0_dev34 (d0 : Dev nD) : Nat :=
  let c0_i32_618 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_617 : BitVec 32 := 2#32
  let v776 : BitVec 32 := Scalar.muli v2 c2_i32_617
  let v777 : BitVec 32 := Scalar.addi c0_i32_618 v776
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_619 : BitVec 32 := 1#32
  let v778 : BitVec 32 := Scalar.muli v6 c1_i32_619
  let v779 : BitVec 32 := Scalar.addi v777 v778
  v779.toNat
def k0_off2 (d0 : Dev nD) (c0_i32_633 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v8 : BitVec 32 := Scalar.muli v2 c4096_i32
  let v794 : BitVec 32 := Scalar.addi v8 c0_i32_633
  let v798 : Index := Scalar.indexCast v794
  let c0_638 : Index := 0#32
  ![v798.toNat, 0]
def k0_dev35 (d0 : Dev nD) : Nat :=
  let c0_i32_642 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_641 : BitVec 32 := 2#32
  let v800 : BitVec 32 := Scalar.muli v7 c2_i32_641
  let v801 : BitVec 32 := Scalar.addi c0_i32_642 v800
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_643 : BitVec 32 := 1#32
  let v802 : BitVec 32 := Scalar.muli v5 c1_i32_643
  let v803 : BitVec 32 := Scalar.addi v801 v802
  v803.toNat
def k0_dev36 (d0 : Dev nD) : Nat :=
  let c0_i32_664 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_663 : BitVec 32 := 2#32
  let v824 : BitVec 32 := Scalar.muli v7 c2_i32_663
  let v825 : BitVec 32 := Scalar.addi c0_i32_664 v824
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_665 : BitVec 32 := 1#32
  let v826 : BitVec 32 := Scalar.muli v5 c1_i32_665
  let v827 : BitVec 32 := Scalar.addi v825 v826
  v827.toNat
def k0_dev37 (d0 : Dev nD) : Nat :=
  let c0_i32_686 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_685 : BitVec 32 := 2#32
  let v848 : BitVec 32 := Scalar.muli v7 c2_i32_685
  let v849 : BitVec 32 := Scalar.addi c0_i32_686 v848
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_687 : BitVec 32 := 1#32
  let v850 : BitVec 32 := Scalar.muli v5 c1_i32_687
  let v851 : BitVec 32 := Scalar.addi v849 v850
  v851.toNat
def k0_dev38 (d0 : Dev nD) : Nat :=
  let c0_i32_708 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_707 : BitVec 32 := 2#32
  let v872 : BitVec 32 := Scalar.muli v7 c2_i32_707
  let v873 : BitVec 32 := Scalar.addi c0_i32_708 v872
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_709 : BitVec 32 := 1#32
  let v874 : BitVec 32 := Scalar.muli v5 c1_i32_709
  let v875 : BitVec 32 := Scalar.addi v873 v874
  v875.toNat
def k0_dev39 (d0 : Dev nD) : Nat :=
  let c0_i32_730 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_729 : BitVec 32 := 2#32
  let v896 : BitVec 32 := Scalar.muli v7 c2_i32_729
  let v897 : BitVec 32 := Scalar.addi c0_i32_730 v896
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_731 : BitVec 32 := 1#32
  let v898 : BitVec 32 := Scalar.muli v5 c1_i32_731
  let v899 : BitVec 32 := Scalar.addi v897 v898
  v899.toNat
def k0_dev40 (d0 : Dev nD) : Nat :=
  let c0_i32_752 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_751 : BitVec 32 := 2#32
  let v920 : BitVec 32 := Scalar.muli v7 c2_i32_751
  let v921 : BitVec 32 := Scalar.addi c0_i32_752 v920
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_753 : BitVec 32 := 1#32
  let v922 : BitVec 32 := Scalar.muli v5 c1_i32_753
  let v923 : BitVec 32 := Scalar.addi v921 v922
  v923.toNat
def k0_dev41 (d0 : Dev nD) : Nat :=
  let c0_i32_774 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_773 : BitVec 32 := 2#32
  let v944 : BitVec 32 := Scalar.muli v7 c2_i32_773
  let v945 : BitVec 32 := Scalar.addi c0_i32_774 v944
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_775 : BitVec 32 := 1#32
  let v946 : BitVec 32 := Scalar.muli v5 c1_i32_775
  let v947 : BitVec 32 := Scalar.addi v945 v946
  v947.toNat
def k0_dev42 (d0 : Dev nD) : Nat :=
  let c0_i32_796 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_795 : BitVec 32 := 2#32
  let v968 : BitVec 32 := Scalar.muli v7 c2_i32_795
  let v969 : BitVec 32 := Scalar.addi c0_i32_796 v968
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_797 : BitVec 32 := 1#32
  let v970 : BitVec 32 := Scalar.muli v5 c1_i32_797
  let v971 : BitVec 32 := Scalar.addi v969 v970
  v971.toNat
def k0_dev43 (d0 : Dev nD) : Nat :=
  let c0_i32_818 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_817 : BitVec 32 := 2#32
  let v992 : BitVec 32 := Scalar.muli v7 c2_i32_817
  let v993 : BitVec 32 := Scalar.addi c0_i32_818 v992
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_819 : BitVec 32 := 1#32
  let v994 : BitVec 32 := Scalar.muli v5 c1_i32_819
  let v995 : BitVec 32 := Scalar.addi v993 v994
  v995.toNat
def k0_dev44 (d0 : Dev nD) : Nat :=
  let c0_i32_840 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_839 : BitVec 32 := 2#32
  let v1016 : BitVec 32 := Scalar.muli v7 c2_i32_839
  let v1017 : BitVec 32 := Scalar.addi c0_i32_840 v1016
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_841 : BitVec 32 := 1#32
  let v1018 : BitVec 32 := Scalar.muli v5 c1_i32_841
  let v1019 : BitVec 32 := Scalar.addi v1017 v1018
  v1019.toNat
def k0_dev45 (d0 : Dev nD) : Nat :=
  let c0_i32_862 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_861 : BitVec 32 := 2#32
  let v1040 : BitVec 32 := Scalar.muli v7 c2_i32_861
  let v1041 : BitVec 32 := Scalar.addi c0_i32_862 v1040
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_863 : BitVec 32 := 1#32
  let v1042 : BitVec 32 := Scalar.muli v5 c1_i32_863
  let v1043 : BitVec 32 := Scalar.addi v1041 v1042
  v1043.toNat
def k0_dev46 (d0 : Dev nD) : Nat :=
  let c0_i32_884 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_883 : BitVec 32 := 2#32
  let v1064 : BitVec 32 := Scalar.muli v7 c2_i32_883
  let v1065 : BitVec 32 := Scalar.addi c0_i32_884 v1064
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_885 : BitVec 32 := 1#32
  let v1066 : BitVec 32 := Scalar.muli v5 c1_i32_885
  let v1067 : BitVec 32 := Scalar.addi v1065 v1066
  v1067.toNat
def k0_dev47 (d0 : Dev nD) : Nat :=
  let c0_i32_906 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_905 : BitVec 32 := 2#32
  let v1088 : BitVec 32 := Scalar.muli v7 c2_i32_905
  let v1089 : BitVec 32 := Scalar.addi c0_i32_906 v1088
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_907 : BitVec 32 := 1#32
  let v1090 : BitVec 32 := Scalar.muli v5 c1_i32_907
  let v1091 : BitVec 32 := Scalar.addi v1089 v1090
  v1091.toNat
def k0_dev48 (d0 : Dev nD) : Nat :=
  let c0_i32_928 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_927 : BitVec 32 := 2#32
  let v1112 : BitVec 32 := Scalar.muli v7 c2_i32_927
  let v1113 : BitVec 32 := Scalar.addi c0_i32_928 v1112
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_929 : BitVec 32 := 1#32
  let v1114 : BitVec 32 := Scalar.muli v5 c1_i32_929
  let v1115 : BitVec 32 := Scalar.addi v1113 v1114
  v1115.toNat
def k0_dev49 (d0 : Dev nD) : Nat :=
  let c0_i32_950 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_949 : BitVec 32 := 2#32
  let v1136 : BitVec 32 := Scalar.muli v7 c2_i32_949
  let v1137 : BitVec 32 := Scalar.addi c0_i32_950 v1136
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_951 : BitVec 32 := 1#32
  let v1138 : BitVec 32 := Scalar.muli v5 c1_i32_951
  let v1139 : BitVec 32 := Scalar.addi v1137 v1138
  v1139.toNat
def k0_dev50 (d0 : Dev nD) : Nat :=
  let c0_i32_972 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_971 : BitVec 32 := 2#32
  let v1160 : BitVec 32 := Scalar.muli v7 c2_i32_971
  let v1161 : BitVec 32 := Scalar.addi c0_i32_972 v1160
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_973 : BitVec 32 := 1#32
  let v1162 : BitVec 32 := Scalar.muli v5 c1_i32_973
  let v1163 : BitVec 32 := Scalar.addi v1161 v1162
  v1163.toNat
def k0_dev51 (d0 : Dev nD) : Nat :=
  let c0_i32_994 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_993 : BitVec 32 := 2#32
  let v1184 : BitVec 32 := Scalar.muli v7 c2_i32_993
  let v1185 : BitVec 32 := Scalar.addi c0_i32_994 v1184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_995 : BitVec 32 := 1#32
  let v1186 : BitVec 32 := Scalar.muli v5 c1_i32_995
  let v1187 : BitVec 32 := Scalar.addi v1185 v1186
  v1187.toNat
def k0_dev52 (d0 : Dev nD) : Nat :=
  let c0_i32_1016 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1015 : BitVec 32 := 2#32
  let v1208 : BitVec 32 := Scalar.muli v7 c2_i32_1015
  let v1209 : BitVec 32 := Scalar.addi c0_i32_1016 v1208
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1017 : BitVec 32 := 1#32
  let v1210 : BitVec 32 := Scalar.muli v5 c1_i32_1017
  let v1211 : BitVec 32 := Scalar.addi v1209 v1210
  v1211.toNat
def k0_dev53 (d0 : Dev nD) : Nat :=
  let c0_i32_1038 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1037 : BitVec 32 := 2#32
  let v1232 : BitVec 32 := Scalar.muli v7 c2_i32_1037
  let v1233 : BitVec 32 := Scalar.addi c0_i32_1038 v1232
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1039 : BitVec 32 := 1#32
  let v1234 : BitVec 32 := Scalar.muli v5 c1_i32_1039
  let v1235 : BitVec 32 := Scalar.addi v1233 v1234
  v1235.toNat
def k0_dev54 (d0 : Dev nD) : Nat :=
  let c0_i32_1060 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1059 : BitVec 32 := 2#32
  let v1256 : BitVec 32 := Scalar.muli v7 c2_i32_1059
  let v1257 : BitVec 32 := Scalar.addi c0_i32_1060 v1256
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1061 : BitVec 32 := 1#32
  let v1258 : BitVec 32 := Scalar.muli v5 c1_i32_1061
  let v1259 : BitVec 32 := Scalar.addi v1257 v1258
  v1259.toNat
def k0_dev55 (d0 : Dev nD) : Nat :=
  let c0_i32_1082 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1081 : BitVec 32 := 2#32
  let v1280 : BitVec 32 := Scalar.muli v7 c2_i32_1081
  let v1281 : BitVec 32 := Scalar.addi c0_i32_1082 v1280
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1083 : BitVec 32 := 1#32
  let v1282 : BitVec 32 := Scalar.muli v5 c1_i32_1083
  let v1283 : BitVec 32 := Scalar.addi v1281 v1282
  v1283.toNat
def k0_dev56 (d0 : Dev nD) : Nat :=
  let c0_i32_1104 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1103 : BitVec 32 := 2#32
  let v1304 : BitVec 32 := Scalar.muli v7 c2_i32_1103
  let v1305 : BitVec 32 := Scalar.addi c0_i32_1104 v1304
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1105 : BitVec 32 := 1#32
  let v1306 : BitVec 32 := Scalar.muli v5 c1_i32_1105
  let v1307 : BitVec 32 := Scalar.addi v1305 v1306
  v1307.toNat
def k0_dev57 (d0 : Dev nD) : Nat :=
  let c0_i32_1126 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1125 : BitVec 32 := 2#32
  let v1328 : BitVec 32 := Scalar.muli v7 c2_i32_1125
  let v1329 : BitVec 32 := Scalar.addi c0_i32_1126 v1328
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1127 : BitVec 32 := 1#32
  let v1330 : BitVec 32 := Scalar.muli v5 c1_i32_1127
  let v1331 : BitVec 32 := Scalar.addi v1329 v1330
  v1331.toNat
def k0_dev58 (d0 : Dev nD) : Nat :=
  let c0_i32_1148 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1147 : BitVec 32 := 2#32
  let v1352 : BitVec 32 := Scalar.muli v7 c2_i32_1147
  let v1353 : BitVec 32 := Scalar.addi c0_i32_1148 v1352
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1149 : BitVec 32 := 1#32
  let v1354 : BitVec 32 := Scalar.muli v5 c1_i32_1149
  let v1355 : BitVec 32 := Scalar.addi v1353 v1354
  v1355.toNat
def k0_dev59 (d0 : Dev nD) : Nat :=
  let c0_i32_1170 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1169 : BitVec 32 := 2#32
  let v1376 : BitVec 32 := Scalar.muli v7 c2_i32_1169
  let v1377 : BitVec 32 := Scalar.addi c0_i32_1170 v1376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1171 : BitVec 32 := 1#32
  let v1378 : BitVec 32 := Scalar.muli v5 c1_i32_1171
  let v1379 : BitVec 32 := Scalar.addi v1377 v1378
  v1379.toNat
def k0_dev60 (d0 : Dev nD) : Nat :=
  let c0_i32_1192 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1191 : BitVec 32 := 2#32
  let v1400 : BitVec 32 := Scalar.muli v7 c2_i32_1191
  let v1401 : BitVec 32 := Scalar.addi c0_i32_1192 v1400
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1193 : BitVec 32 := 1#32
  let v1402 : BitVec 32 := Scalar.muli v5 c1_i32_1193
  let v1403 : BitVec 32 := Scalar.addi v1401 v1402
  v1403.toNat
def k0_dev61 (d0 : Dev nD) : Nat :=
  let c0_i32_1214 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1213 : BitVec 32 := 2#32
  let v1424 : BitVec 32 := Scalar.muli v7 c2_i32_1213
  let v1425 : BitVec 32 := Scalar.addi c0_i32_1214 v1424
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1215 : BitVec 32 := 1#32
  let v1426 : BitVec 32 := Scalar.muli v5 c1_i32_1215
  let v1427 : BitVec 32 := Scalar.addi v1425 v1426
  v1427.toNat
def k0_dev62 (d0 : Dev nD) : Nat :=
  let c0_i32_1236 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1235 : BitVec 32 := 2#32
  let v1448 : BitVec 32 := Scalar.muli v7 c2_i32_1235
  let v1449 : BitVec 32 := Scalar.addi c0_i32_1236 v1448
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1237 : BitVec 32 := 1#32
  let v1450 : BitVec 32 := Scalar.muli v5 c1_i32_1237
  let v1451 : BitVec 32 := Scalar.addi v1449 v1450
  v1451.toNat
def k0_dev63 (d0 : Dev nD) : Nat :=
  let c0_i32_1258 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1257 : BitVec 32 := 2#32
  let v1472 : BitVec 32 := Scalar.muli v7 c2_i32_1257
  let v1473 : BitVec 32 := Scalar.addi c0_i32_1258 v1472
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1259 : BitVec 32 := 1#32
  let v1474 : BitVec 32 := Scalar.muli v5 c1_i32_1259
  let v1475 : BitVec 32 := Scalar.addi v1473 v1474
  v1475.toNat
def k0_dev64 (d0 : Dev nD) : Nat :=
  let c0_i32_1280 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1279 : BitVec 32 := 2#32
  let v1496 : BitVec 32 := Scalar.muli v7 c2_i32_1279
  let v1497 : BitVec 32 := Scalar.addi c0_i32_1280 v1496
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1281 : BitVec 32 := 1#32
  let v1498 : BitVec 32 := Scalar.muli v5 c1_i32_1281
  let v1499 : BitVec 32 := Scalar.addi v1497 v1498
  v1499.toNat
def k0_dev65 (d0 : Dev nD) : Nat :=
  let c0_i32_1302 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1301 : BitVec 32 := 2#32
  let v1520 : BitVec 32 := Scalar.muli v7 c2_i32_1301
  let v1521 : BitVec 32 := Scalar.addi c0_i32_1302 v1520
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1303 : BitVec 32 := 1#32
  let v1522 : BitVec 32 := Scalar.muli v5 c1_i32_1303
  let v1523 : BitVec 32 := Scalar.addi v1521 v1522
  v1523.toNat
def k0_dev66 (d0 : Dev nD) : Nat :=
  let c0_i32_1324 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1323 : BitVec 32 := 2#32
  let v1544 : BitVec 32 := Scalar.muli v7 c2_i32_1323
  let v1545 : BitVec 32 := Scalar.addi c0_i32_1324 v1544
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1325 : BitVec 32 := 1#32
  let v1546 : BitVec 32 := Scalar.muli v5 c1_i32_1325
  let v1547 : BitVec 32 := Scalar.addi v1545 v1546
  v1547.toNat
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S32_S1_0 : ∀ a, (![0] : Fin 1 → Nat) a + S1.size a ≤ S32.size a
  squeezes_S1_S_ : S1.Squeezes S_
  inb_S4096x1024_S128x1024_0_0 : ∀ a, (![0, 0] : Fin 2 → Nat) a + S128x1024.size a ≤ S4096x1024.size a
  inb_S32_S1_1 : ∀ a, (![1] : Fin 1 → Nat) a + S1.size a ≤ S32.size a
  inb_S4096x1024_S128x1024_128_0 : ∀ a, (![128, 0] : Fin 2 → Nat) a + S128x1024.size a ≤ S4096x1024.size a
  inb_S32_S1_2 : ∀ a, (![2] : Fin 1 → Nat) a + S1.size a ≤ S32.size a
  inb_S4096x1024_S128x1024_256_0 : ∀ a, (![256, 0] : Fin 2 → Nat) a + S128x1024.size a ≤ S4096x1024.size a
  inb_S32_S1_3 : ∀ a, (![3] : Fin 1 → Nat) a + S1.size a ≤ S32.size a
  inb_S4096x1024_S128x1024_384_0 : ∀ a, (![384, 0] : Fin 2 → Nat) a + S128x1024.size a ≤ S4096x1024.size a
  inb_S32_S1_4 : ∀ a, (![4] : Fin 1 → Nat) a + S1.size a ≤ S32.size a
  inb_S4096x1024_S128x1024_512_0 : ∀ a, (![512, 0] : Fin 2 → Nat) a + S128x1024.size a ≤ S4096x1024.size a
  inb_S32_S1_5 : ∀ a, (![5] : Fin 1 → Nat) a + S1.size a ≤ S32.size a
  inb_S4096x1024_S128x1024_640_0 : ∀ a, (![640, 0] : Fin 2 → Nat) a + S128x1024.size a ≤ S4096x1024.size a
  inb_S32_S1_6 : ∀ a, (![6] : Fin 1 → Nat) a + S1.size a ≤ S32.size a
  inb_S4096x1024_S128x1024_768_0 : ∀ a, (![768, 0] : Fin 2 → Nat) a + S128x1024.size a ≤ S4096x1024.size a
  inb_S32_S1_7 : ∀ a, (![7] : Fin 1 → Nat) a + S1.size a ≤ S32.size a
  inb_S4096x1024_S128x1024_896_0 : ∀ a, (![896, 0] : Fin 2 → Nat) a + S128x1024.size a ≤ S4096x1024.size a
  inb_S32_S1_8 : ∀ a, (![8] : Fin 1 → Nat) a + S1.size a ≤ S32.size a
  inb_S4096x1024_S128x1024_1024_0 : ∀ a, (![1024, 0] : Fin 2 → Nat) a + S128x1024.size a ≤ S4096x1024.size a
  inb_S32_S1_9 : ∀ a, (![9] : Fin 1 → Nat) a + S1.size a ≤ S32.size a
  inb_S4096x1024_S128x1024_1152_0 : ∀ a, (![1152, 0] : Fin 2 → Nat) a + S128x1024.size a ≤ S4096x1024.size a
  inb_S32_S1_10 : ∀ a, (![10] : Fin 1 → Nat) a + S1.size a ≤ S32.size a
  inb_S4096x1024_S128x1024_1280_0 : ∀ a, (![1280, 0] : Fin 2 → Nat) a + S128x1024.size a ≤ S4096x1024.size a
  inb_S32_S1_11 : ∀ a, (![11] : Fin 1 → Nat) a + S1.size a ≤ S32.size a
  inb_S4096x1024_S128x1024_1408_0 : ∀ a, (![1408, 0] : Fin 2 → Nat) a + S128x1024.size a ≤ S4096x1024.size a
  inb_S32_S1_12 : ∀ a, (![12] : Fin 1 → Nat) a + S1.size a ≤ S32.size a
  inb_S4096x1024_S128x1024_1536_0 : ∀ a, (![1536, 0] : Fin 2 → Nat) a + S128x1024.size a ≤ S4096x1024.size a
  inb_S32_S1_13 : ∀ a, (![13] : Fin 1 → Nat) a + S1.size a ≤ S32.size a
  inb_S4096x1024_S128x1024_1664_0 : ∀ a, (![1664, 0] : Fin 2 → Nat) a + S128x1024.size a ≤ S4096x1024.size a
  inb_S32_S1_14 : ∀ a, (![14] : Fin 1 → Nat) a + S1.size a ≤ S32.size a
  inb_S4096x1024_S128x1024_1792_0 : ∀ a, (![1792, 0] : Fin 2 → Nat) a + S128x1024.size a ≤ S4096x1024.size a
  inb_S32_S1_15 : ∀ a, (![15] : Fin 1 → Nat) a + S1.size a ≤ S32.size a
  inb_S4096x1024_S128x1024_1920_0 : ∀ a, (![1920, 0] : Fin 2 → Nat) a + S128x1024.size a ≤ S4096x1024.size a
  inb_S32_S1_16 : ∀ a, (![16] : Fin 1 → Nat) a + S1.size a ≤ S32.size a
  inb_S4096x1024_S128x1024_2048_0 : ∀ a, (![2048, 0] : Fin 2 → Nat) a + S128x1024.size a ≤ S4096x1024.size a
  inb_S32_S1_17 : ∀ a, (![17] : Fin 1 → Nat) a + S1.size a ≤ S32.size a
  inb_S4096x1024_S128x1024_2176_0 : ∀ a, (![2176, 0] : Fin 2 → Nat) a + S128x1024.size a ≤ S4096x1024.size a
  inb_S32_S1_18 : ∀ a, (![18] : Fin 1 → Nat) a + S1.size a ≤ S32.size a
  inb_S4096x1024_S128x1024_2304_0 : ∀ a, (![2304, 0] : Fin 2 → Nat) a + S128x1024.size a ≤ S4096x1024.size a
  inb_S32_S1_19 : ∀ a, (![19] : Fin 1 → Nat) a + S1.size a ≤ S32.size a
  inb_S4096x1024_S128x1024_2432_0 : ∀ a, (![2432, 0] : Fin 2 → Nat) a + S128x1024.size a ≤ S4096x1024.size a
  inb_S32_S1_20 : ∀ a, (![20] : Fin 1 → Nat) a + S1.size a ≤ S32.size a
  inb_S4096x1024_S128x1024_2560_0 : ∀ a, (![2560, 0] : Fin 2 → Nat) a + S128x1024.size a ≤ S4096x1024.size a
  inb_S32_S1_21 : ∀ a, (![21] : Fin 1 → Nat) a + S1.size a ≤ S32.size a
  inb_S4096x1024_S128x1024_2688_0 : ∀ a, (![2688, 0] : Fin 2 → Nat) a + S128x1024.size a ≤ S4096x1024.size a
  inb_S32_S1_22 : ∀ a, (![22] : Fin 1 → Nat) a + S1.size a ≤ S32.size a
  inb_S4096x1024_S128x1024_2816_0 : ∀ a, (![2816, 0] : Fin 2 → Nat) a + S128x1024.size a ≤ S4096x1024.size a
  inb_S32_S1_23 : ∀ a, (![23] : Fin 1 → Nat) a + S1.size a ≤ S32.size a
  inb_S4096x1024_S128x1024_2944_0 : ∀ a, (![2944, 0] : Fin 2 → Nat) a + S128x1024.size a ≤ S4096x1024.size a
  inb_S32_S1_24 : ∀ a, (![24] : Fin 1 → Nat) a + S1.size a ≤ S32.size a
  inb_S4096x1024_S128x1024_3072_0 : ∀ a, (![3072, 0] : Fin 2 → Nat) a + S128x1024.size a ≤ S4096x1024.size a
  inb_S32_S1_25 : ∀ a, (![25] : Fin 1 → Nat) a + S1.size a ≤ S32.size a
  inb_S4096x1024_S128x1024_3200_0 : ∀ a, (![3200, 0] : Fin 2 → Nat) a + S128x1024.size a ≤ S4096x1024.size a
  inb_S32_S1_26 : ∀ a, (![26] : Fin 1 → Nat) a + S1.size a ≤ S32.size a
  inb_S4096x1024_S128x1024_3328_0 : ∀ a, (![3328, 0] : Fin 2 → Nat) a + S128x1024.size a ≤ S4096x1024.size a
  inb_S32_S1_27 : ∀ a, (![27] : Fin 1 → Nat) a + S1.size a ≤ S32.size a
  inb_S4096x1024_S128x1024_3456_0 : ∀ a, (![3456, 0] : Fin 2 → Nat) a + S128x1024.size a ≤ S4096x1024.size a
  inb_S32_S1_28 : ∀ a, (![28] : Fin 1 → Nat) a + S1.size a ≤ S32.size a
  inb_S4096x1024_S128x1024_3584_0 : ∀ a, (![3584, 0] : Fin 2 → Nat) a + S128x1024.size a ≤ S4096x1024.size a
  inb_S32_S1_29 : ∀ a, (![29] : Fin 1 → Nat) a + S1.size a ≤ S32.size a
  inb_S4096x1024_S128x1024_3712_0 : ∀ a, (![3712, 0] : Fin 2 → Nat) a + S128x1024.size a ≤ S4096x1024.size a
  inb_S32_S1_30 : ∀ a, (![30] : Fin 1 → Nat) a + S1.size a ≤ S32.size a
  inb_S4096x1024_S128x1024_3840_0 : ∀ a, (![3840, 0] : Fin 2 → Nat) a + S128x1024.size a ≤ S4096x1024.size a
  inb_S32_S1_31 : ∀ a, (![31] : Fin 1 → Nat) a + S1.size a ≤ S32.size a
  inb_S4096x1024_S128x1024_3968_0 : ∀ a, (![3968, 0] : Fin 2 → Nat) a + S128x1024.size a ≤ S4096x1024.size a
  hamt_1 : (1#32 : BitVec 32).msb = false
  hamt_2 : (2#32 : BitVec 32).msb = false
  h_S128x1024 : 0 < S128x1024.numel
  bitsLt_bf16_f32 : FTy.bits .bf16 < FTy.bits .f32
  shapeCasts_S128x1024_S128x1024 : S128x1024.ShapeCasts S128x1024
  packedbf16_S4096x1024_S128x1024_0_0 : (Rect.unit (s := S4096x1024) ![0, 0] S128x1024.size inb_S4096x1024_S128x1024_0_0).PackedRows (EltTy.packing .bf16)
  wordsbf16_S4096x1024_S128x1024_0_0 : (Rect.unit (s := S4096x1024) ![0, 0] S128x1024.size inb_S4096x1024_S128x1024_0_0).WholeWords (EltTy.packing .bf16)
  packedbf16_S4096x1024_S128x1024_128_0 : (Rect.unit (s := S4096x1024) ![128, 0] S128x1024.size inb_S4096x1024_S128x1024_128_0).PackedRows (EltTy.packing .bf16)
  wordsbf16_S4096x1024_S128x1024_128_0 : (Rect.unit (s := S4096x1024) ![128, 0] S128x1024.size inb_S4096x1024_S128x1024_128_0).WholeWords (EltTy.packing .bf16)
  packedbf16_S4096x1024_S128x1024_256_0 : (Rect.unit (s := S4096x1024) ![256, 0] S128x1024.size inb_S4096x1024_S128x1024_256_0).PackedRows (EltTy.packing .bf16)
  wordsbf16_S4096x1024_S128x1024_256_0 : (Rect.unit (s := S4096x1024) ![256, 0] S128x1024.size inb_S4096x1024_S128x1024_256_0).WholeWords (EltTy.packing .bf16)
  packedbf16_S4096x1024_S128x1024_384_0 : (Rect.unit (s := S4096x1024) ![384, 0] S128x1024.size inb_S4096x1024_S128x1024_384_0).PackedRows (EltTy.packing .bf16)
  wordsbf16_S4096x1024_S128x1024_384_0 : (Rect.unit (s := S4096x1024) ![384, 0] S128x1024.size inb_S4096x1024_S128x1024_384_0).WholeWords (EltTy.packing .bf16)
  packedbf16_S4096x1024_S128x1024_512_0 : (Rect.unit (s := S4096x1024) ![512, 0] S128x1024.size inb_S4096x1024_S128x1024_512_0).PackedRows (EltTy.packing .bf16)
  wordsbf16_S4096x1024_S128x1024_512_0 : (Rect.unit (s := S4096x1024) ![512, 0] S128x1024.size inb_S4096x1024_S128x1024_512_0).WholeWords (EltTy.packing .bf16)
  packedbf16_S4096x1024_S128x1024_640_0 : (Rect.unit (s := S4096x1024) ![640, 0] S128x1024.size inb_S4096x1024_S128x1024_640_0).PackedRows (EltTy.packing .bf16)
  wordsbf16_S4096x1024_S128x1024_640_0 : (Rect.unit (s := S4096x1024) ![640, 0] S128x1024.size inb_S4096x1024_S128x1024_640_0).WholeWords (EltTy.packing .bf16)
  packedbf16_S4096x1024_S128x1024_768_0 : (Rect.unit (s := S4096x1024) ![768, 0] S128x1024.size inb_S4096x1024_S128x1024_768_0).PackedRows (EltTy.packing .bf16)
  wordsbf16_S4096x1024_S128x1024_768_0 : (Rect.unit (s := S4096x1024) ![768, 0] S128x1024.size inb_S4096x1024_S128x1024_768_0).WholeWords (EltTy.packing .bf16)
  packedbf16_S4096x1024_S128x1024_896_0 : (Rect.unit (s := S4096x1024) ![896, 0] S128x1024.size inb_S4096x1024_S128x1024_896_0).PackedRows (EltTy.packing .bf16)
  wordsbf16_S4096x1024_S128x1024_896_0 : (Rect.unit (s := S4096x1024) ![896, 0] S128x1024.size inb_S4096x1024_S128x1024_896_0).WholeWords (EltTy.packing .bf16)
  packedbf16_S4096x1024_S128x1024_1024_0 : (Rect.unit (s := S4096x1024) ![1024, 0] S128x1024.size inb_S4096x1024_S128x1024_1024_0).PackedRows (EltTy.packing .bf16)
  wordsbf16_S4096x1024_S128x1024_1024_0 : (Rect.unit (s := S4096x1024) ![1024, 0] S128x1024.size inb_S4096x1024_S128x1024_1024_0).WholeWords (EltTy.packing .bf16)
  packedbf16_S4096x1024_S128x1024_1152_0 : (Rect.unit (s := S4096x1024) ![1152, 0] S128x1024.size inb_S4096x1024_S128x1024_1152_0).PackedRows (EltTy.packing .bf16)
  wordsbf16_S4096x1024_S128x1024_1152_0 : (Rect.unit (s := S4096x1024) ![1152, 0] S128x1024.size inb_S4096x1024_S128x1024_1152_0).WholeWords (EltTy.packing .bf16)
  packedbf16_S4096x1024_S128x1024_1280_0 : (Rect.unit (s := S4096x1024) ![1280, 0] S128x1024.size inb_S4096x1024_S128x1024_1280_0).PackedRows (EltTy.packing .bf16)
  wordsbf16_S4096x1024_S128x1024_1280_0 : (Rect.unit (s := S4096x1024) ![1280, 0] S128x1024.size inb_S4096x1024_S128x1024_1280_0).WholeWords (EltTy.packing .bf16)
  packedbf16_S4096x1024_S128x1024_1408_0 : (Rect.unit (s := S4096x1024) ![1408, 0] S128x1024.size inb_S4096x1024_S128x1024_1408_0).PackedRows (EltTy.packing .bf16)
  wordsbf16_S4096x1024_S128x1024_1408_0 : (Rect.unit (s := S4096x1024) ![1408, 0] S128x1024.size inb_S4096x1024_S128x1024_1408_0).WholeWords (EltTy.packing .bf16)
  packedbf16_S4096x1024_S128x1024_1536_0 : (Rect.unit (s := S4096x1024) ![1536, 0] S128x1024.size inb_S4096x1024_S128x1024_1536_0).PackedRows (EltTy.packing .bf16)
  wordsbf16_S4096x1024_S128x1024_1536_0 : (Rect.unit (s := S4096x1024) ![1536, 0] S128x1024.size inb_S4096x1024_S128x1024_1536_0).WholeWords (EltTy.packing .bf16)
  packedbf16_S4096x1024_S128x1024_1664_0 : (Rect.unit (s := S4096x1024) ![1664, 0] S128x1024.size inb_S4096x1024_S128x1024_1664_0).PackedRows (EltTy.packing .bf16)
  wordsbf16_S4096x1024_S128x1024_1664_0 : (Rect.unit (s := S4096x1024) ![1664, 0] S128x1024.size inb_S4096x1024_S128x1024_1664_0).WholeWords (EltTy.packing .bf16)
  packedbf16_S4096x1024_S128x1024_1792_0 : (Rect.unit (s := S4096x1024) ![1792, 0] S128x1024.size inb_S4096x1024_S128x1024_1792_0).PackedRows (EltTy.packing .bf16)
  wordsbf16_S4096x1024_S128x1024_1792_0 : (Rect.unit (s := S4096x1024) ![1792, 0] S128x1024.size inb_S4096x1024_S128x1024_1792_0).WholeWords (EltTy.packing .bf16)
  packedbf16_S4096x1024_S128x1024_1920_0 : (Rect.unit (s := S4096x1024) ![1920, 0] S128x1024.size inb_S4096x1024_S128x1024_1920_0).PackedRows (EltTy.packing .bf16)
  wordsbf16_S4096x1024_S128x1024_1920_0 : (Rect.unit (s := S4096x1024) ![1920, 0] S128x1024.size inb_S4096x1024_S128x1024_1920_0).WholeWords (EltTy.packing .bf16)
  packedbf16_S4096x1024_S128x1024_2048_0 : (Rect.unit (s := S4096x1024) ![2048, 0] S128x1024.size inb_S4096x1024_S128x1024_2048_0).PackedRows (EltTy.packing .bf16)
  wordsbf16_S4096x1024_S128x1024_2048_0 : (Rect.unit (s := S4096x1024) ![2048, 0] S128x1024.size inb_S4096x1024_S128x1024_2048_0).WholeWords (EltTy.packing .bf16)
  packedbf16_S4096x1024_S128x1024_2176_0 : (Rect.unit (s := S4096x1024) ![2176, 0] S128x1024.size inb_S4096x1024_S128x1024_2176_0).PackedRows (EltTy.packing .bf16)
  wordsbf16_S4096x1024_S128x1024_2176_0 : (Rect.unit (s := S4096x1024) ![2176, 0] S128x1024.size inb_S4096x1024_S128x1024_2176_0).WholeWords (EltTy.packing .bf16)
  packedbf16_S4096x1024_S128x1024_2304_0 : (Rect.unit (s := S4096x1024) ![2304, 0] S128x1024.size inb_S4096x1024_S128x1024_2304_0).PackedRows (EltTy.packing .bf16)
  wordsbf16_S4096x1024_S128x1024_2304_0 : (Rect.unit (s := S4096x1024) ![2304, 0] S128x1024.size inb_S4096x1024_S128x1024_2304_0).WholeWords (EltTy.packing .bf16)
  packedbf16_S4096x1024_S128x1024_2432_0 : (Rect.unit (s := S4096x1024) ![2432, 0] S128x1024.size inb_S4096x1024_S128x1024_2432_0).PackedRows (EltTy.packing .bf16)
  wordsbf16_S4096x1024_S128x1024_2432_0 : (Rect.unit (s := S4096x1024) ![2432, 0] S128x1024.size inb_S4096x1024_S128x1024_2432_0).WholeWords (EltTy.packing .bf16)
  packedbf16_S4096x1024_S128x1024_2560_0 : (Rect.unit (s := S4096x1024) ![2560, 0] S128x1024.size inb_S4096x1024_S128x1024_2560_0).PackedRows (EltTy.packing .bf16)
  wordsbf16_S4096x1024_S128x1024_2560_0 : (Rect.unit (s := S4096x1024) ![2560, 0] S128x1024.size inb_S4096x1024_S128x1024_2560_0).WholeWords (EltTy.packing .bf16)
  packedbf16_S4096x1024_S128x1024_2688_0 : (Rect.unit (s := S4096x1024) ![2688, 0] S128x1024.size inb_S4096x1024_S128x1024_2688_0).PackedRows (EltTy.packing .bf16)
  wordsbf16_S4096x1024_S128x1024_2688_0 : (Rect.unit (s := S4096x1024) ![2688, 0] S128x1024.size inb_S4096x1024_S128x1024_2688_0).WholeWords (EltTy.packing .bf16)
  packedbf16_S4096x1024_S128x1024_2816_0 : (Rect.unit (s := S4096x1024) ![2816, 0] S128x1024.size inb_S4096x1024_S128x1024_2816_0).PackedRows (EltTy.packing .bf16)
  wordsbf16_S4096x1024_S128x1024_2816_0 : (Rect.unit (s := S4096x1024) ![2816, 0] S128x1024.size inb_S4096x1024_S128x1024_2816_0).WholeWords (EltTy.packing .bf16)
  packedbf16_S4096x1024_S128x1024_2944_0 : (Rect.unit (s := S4096x1024) ![2944, 0] S128x1024.size inb_S4096x1024_S128x1024_2944_0).PackedRows (EltTy.packing .bf16)
  wordsbf16_S4096x1024_S128x1024_2944_0 : (Rect.unit (s := S4096x1024) ![2944, 0] S128x1024.size inb_S4096x1024_S128x1024_2944_0).WholeWords (EltTy.packing .bf16)
  packedbf16_S4096x1024_S128x1024_3072_0 : (Rect.unit (s := S4096x1024) ![3072, 0] S128x1024.size inb_S4096x1024_S128x1024_3072_0).PackedRows (EltTy.packing .bf16)
  wordsbf16_S4096x1024_S128x1024_3072_0 : (Rect.unit (s := S4096x1024) ![3072, 0] S128x1024.size inb_S4096x1024_S128x1024_3072_0).WholeWords (EltTy.packing .bf16)
  packedbf16_S4096x1024_S128x1024_3200_0 : (Rect.unit (s := S4096x1024) ![3200, 0] S128x1024.size inb_S4096x1024_S128x1024_3200_0).PackedRows (EltTy.packing .bf16)
  wordsbf16_S4096x1024_S128x1024_3200_0 : (Rect.unit (s := S4096x1024) ![3200, 0] S128x1024.size inb_S4096x1024_S128x1024_3200_0).WholeWords (EltTy.packing .bf16)
  packedbf16_S4096x1024_S128x1024_3328_0 : (Rect.unit (s := S4096x1024) ![3328, 0] S128x1024.size inb_S4096x1024_S128x1024_3328_0).PackedRows (EltTy.packing .bf16)
  wordsbf16_S4096x1024_S128x1024_3328_0 : (Rect.unit (s := S4096x1024) ![3328, 0] S128x1024.size inb_S4096x1024_S128x1024_3328_0).WholeWords (EltTy.packing .bf16)
  packedbf16_S4096x1024_S128x1024_3456_0 : (Rect.unit (s := S4096x1024) ![3456, 0] S128x1024.size inb_S4096x1024_S128x1024_3456_0).PackedRows (EltTy.packing .bf16)
  wordsbf16_S4096x1024_S128x1024_3456_0 : (Rect.unit (s := S4096x1024) ![3456, 0] S128x1024.size inb_S4096x1024_S128x1024_3456_0).WholeWords (EltTy.packing .bf16)
  packedbf16_S4096x1024_S128x1024_3584_0 : (Rect.unit (s := S4096x1024) ![3584, 0] S128x1024.size inb_S4096x1024_S128x1024_3584_0).PackedRows (EltTy.packing .bf16)
  wordsbf16_S4096x1024_S128x1024_3584_0 : (Rect.unit (s := S4096x1024) ![3584, 0] S128x1024.size inb_S4096x1024_S128x1024_3584_0).WholeWords (EltTy.packing .bf16)
  packedbf16_S4096x1024_S128x1024_3712_0 : (Rect.unit (s := S4096x1024) ![3712, 0] S128x1024.size inb_S4096x1024_S128x1024_3712_0).PackedRows (EltTy.packing .bf16)
  wordsbf16_S4096x1024_S128x1024_3712_0 : (Rect.unit (s := S4096x1024) ![3712, 0] S128x1024.size inb_S4096x1024_S128x1024_3712_0).WholeWords (EltTy.packing .bf16)
  packedbf16_S4096x1024_S128x1024_3840_0 : (Rect.unit (s := S4096x1024) ![3840, 0] S128x1024.size inb_S4096x1024_S128x1024_3840_0).PackedRows (EltTy.packing .bf16)
  wordsbf16_S4096x1024_S128x1024_3840_0 : (Rect.unit (s := S4096x1024) ![3840, 0] S128x1024.size inb_S4096x1024_S128x1024_3840_0).WholeWords (EltTy.packing .bf16)
  packedbf16_S4096x1024_S128x1024_3968_0 : (Rect.unit (s := S4096x1024) ![3968, 0] S128x1024.size inb_S4096x1024_S128x1024_3968_0).PackedRows (EltTy.packing .bf16)
  wordsbf16_S4096x1024_S128x1024_3968_0 : (Rect.unit (s := S4096x1024) ![3968, 0] S128x1024.size inb_S4096x1024_S128x1024_3968_0).WholeWords (EltTy.packing .bf16)
  hcc0_scratch3 : 1 + S32.numel ≤ 161
  hcc0_scratch4 : 33 + S32.numel ≤ 161
  hcc0_scratch5 : 65 + S32.numel ≤ 161
  hcc0_scratch6 : 97 + S32.numel ≤ 161
  hcc0_scratch7 : 129 + S32.numel ≤ 161
  k0_off1_inb : ∀ d0 : Dev nD, ∀ (r : Fin 32), ∀ a, (k0_off1 d0 (BitVec.ofNat 32 (128 * r.val))) a + S128x1024.size a ≤ S8192x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off2_inb : ∀ d0 : Dev nD, ∀ (r : Fin 32), ∀ a, (k0_off2 d0 (BitVec.ofNat 32 (128 * r.val))) a + S128x1024.size a ≤ S8192x1024.size a
  k0_off2_packedbf16 : ∀ d0 : Dev nD, ∀ (r : Fin 32), (Rect.unit (s := S8192x1024) (k0_off2 d0 (BitVec.ofNat 32 (128 * r.val))) S128x1024.size (k0_off2_inb d0 r)).PackedRows (EltTy.packing .bf16)
  k0_off1_wordsbf16 : ∀ d0 : Dev nD, ∀ (r : Fin 32), (Rect.unit (s := S8192x1024) (k0_off1 d0 (BitVec.ofNat 32 (128 * r.val))) S128x1024.size (k0_off1_inb d0 r)).WholeWords (EltTy.packing .bf16)
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  hstage0_0 : ∀ j, (stage0_0 j).IsWhole

variable [Facts₀]

abbrev cc0_scratch3 : DmaSems sig S32 := SemArray.consecutive 1 S32 hcc0_scratch3
abbrev cc0_scratch4 : DmaSems sig S32 := SemArray.consecutive 33 S32 hcc0_scratch4
abbrev cc0_scratch5 : DmaSems sig S32 := SemArray.consecutive 65 S32 hcc0_scratch5
abbrev cc0_scratch6 : DmaSems sig S32 := SemArray.consecutive 97 S32 hcc0_scratch6
abbrev cc0_scratch7 : DmaSems sig S32 := SemArray.consecutive 129 S32 hcc0_scratch7

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | .hbm, ⟨4, _⟩ => ⟨S8192x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S16384x1024_S2x8192x1024 : S16384x1024.ShapeCasts S2x8192x1024
  reducesTo_S2x8192x1024_S8192x1024_d0 : S2x8192x1024.ReducesTo [0] S8192x1024
  h_S_ : 0 < S_.numel
  bitsLt_bf16_f32 : FTy.bits .bf16 < FTy.bits .f32

variable [Facts₀]

class Facts : Prop extends Facts₀ where

variable [Facts]
-- ==== Proof.Spec.lean ====
/-
  The values of the two-phase all-reduce on the 2×2 mesh, as pure functions of the devices' argument blocks.

  Device `c` sits at mesh position (c / 2, c % 2).  Its argument block `X c` has 8192 rows.  The device works on the
  half of the rows that starts at row `4096 * (c / 2)`: it casts those 4096 rows to bf16 (`sendW`), receives the same
  rows of its neighbour along the second mesh axis (`ynbr c`, whose block is the other block of the whole array), adds
  the two (`sumW`), and exchanges the sum with its neighbour along the first mesh axis (`xnbr c`), which worked on the
  other half of the rows.  So every device ends with all 8192 rows of  cast (block of c) + cast (block of ynbr c),
  the own half computed by itself and the other half by `xnbr c` (`outW`).
-/
import proofs.«900152_g7700000000000153_dist_ar_v7x_xy2x2_y_m8192_n1024_bf16_1_alg».proof.KernelIdeal
import proofs.«900152_g7700000000000153_dist_ar_v7x_xy2x2_y_m8192_n1024_bf16_1_alg».proof.Proof.Gen.KernelIdeal

noncomputable section

namespace Cert.KernelIdeal.AR

open Cert.KernelIdeal Cert.KernelIdeal.Gen
open Idealize.ShloMosaic Idealize.ShloMosaic.TcCoe Idealize.SL.Sem

variable {F : FTy → Type} [FloatOps F]

/-- The neighbour along the second mesh axis: same c / 2, the other c % 2. -/
def ynbr (c : Dev nD) : Dev nD := ⟨(2 * (c.val / 2) + 1) - (c.val % 2), by have := c.isLt; simp only [nD] at this ⊢; omega⟩
/-- The neighbour along the first mesh axis: the other c / 2, same c % 2. -/
def xnbr (c : Dev nD) : Dev nD := ⟨((c.val % 2) + 2) - 2 * (c.val / 2), by have := c.isLt; simp only [nD] at this ⊢; omega⟩

theorem ynbr_ynbr (c : Dev nD) : ynbr (ynbr c) = c := by revert c; decide
theorem xnbr_xnbr (c : Dev nD) : xnbr (xnbr c) = c := by revert c; decide
theorem ynbr_xnbr (c : Dev nD) : ynbr (xnbr c) = xnbr (ynbr c) := by revert c; decide
theorem ynbr_ne (c : Dev nD) : ynbr c ≠ c := by revert c; decide
theorem xnbr_ne (c : Dev nD) : xnbr c ≠ c := by revert c; decide
theorem xnbr_ne_ynbr (c : Dev nD) : xnbr c ≠ ynbr c := by revert c; decide
theorem ynbr_half (c : Dev nD) : (ynbr c).val / 2 = c.val / 2 := by revert c; decide
theorem xnbr_half (c : Dev nD) : (xnbr c).val / 2 = 1 - c.val / 2 := by revert c; decide
theorem xnbr_par (c : Dev nD) : (xnbr c).val % 2 = c.val % 2 := by revert c; decide
theorem ynbr_par (c : Dev nD) : (ynbr c).val % 2 = 1 - c.val % 2 := by revert c; decide

/-- The blocks of the argument, one per device. -/
abbrev Blocks (F : FTy → Type) : Type := Dev nD → S8192x1024.Idx → Elt F .f32

/-- Row `4096 * h + r` of an 8192-row array, for a row `r` of a 4096-row half. -/
def halfRow (h : Nat) (hh : h < 2) (i : S4096x1024.Idx) : S8192x1024.Idx := fun a =>
  match a with
  | ⟨0, _⟩ => ⟨4096 * h + (i 0).val, by have h0 : (i 0).val < 4096 := (i 0).isLt; show 4096 * h + (i 0).val < 8192; omega⟩
  | ⟨1, _⟩ => ⟨(i 1).val, (i 1).isLt⟩

theorem half_lt (c : Dev nD) : c.val / 2 < 2 := by have := c.isLt; simp only [nD] at this; omega

/-- What device `c` casts and sends: its half of its block, in bf16. -/
def sendW (X : Blocks F) (c : Dev nD) : S4096x1024.Idx → Elt F .bf16 := fun i =>
  FloatOps.truncf (F := F) .bf16 bitsLt_bf16_f32 (X c (halfRow (c.val / 2) (half_lt c) i))

/-- What lands in device `c`'s receive buffer: the same rows of `ynbr c`'s block. -/
def recvW (X : Blocks F) (c : Dev nD) : S4096x1024.Idx → Elt F .bf16 := sendW X (ynbr c)

/-- The sum device `c` computes for its half of the rows. -/
def sumW (X : Blocks F) (c : Dev nD) : S4096x1024.Idx → Elt F .bf16 := fun i =>
  FloatOps.addf (F := F) (sendW X c i) (recvW X c i)

/-- Row `r` of the 8192-row result lies in half `r / 4096`, at row `r % 4096` of it. -/
def inHalf (j : S8192x1024.Idx) : S4096x1024.Idx := fun a =>
  match a with
  | ⟨0, _⟩ => ⟨(j 0).val % 4096, Nat.mod_lt _ (by decide)⟩
  | ⟨1, _⟩ => ⟨(j 1).val, (j 1).isLt⟩

/-- The result array on device `c`: the half of the rows `c` works on holds `c`'s sum, the other half `xnbr c`'s. -/
def outW (X : Blocks F) (c : Dev nD) : S8192x1024.Idx → Elt F .bf16 := fun j =>
  if (j 0).val / 4096 = c.val / 2 then sumW X c (inHalf j) else sumW X (xnbr c) (inHalf j)

end Cert.KernelIdeal.AR

end
-- ==== Proof.Value.lean ====
/-
  The value bridge.  At the ideal instance a change of float format is the identity and the float sum is the sum of
  extended reals.  Device `c` holds block `c % 2` of the whole 16384-row array `W` (rows [8192 * (c % 2), +8192)), its
  neighbour along the second mesh axis holds the other block, its neighbour along the first mesh axis the same block.
  So row `r` of what every device ends with is  W[8192 * (c % 2) + r] + W[8192 * ((c + 1) % 2) + r],  the two rows
  `r` and `8192 + r` of the whole array added in one of the two orders.  The reference reshapes the whole array to
  [2, 8192, 1024] and sums over the first axis from the initial value 0:  0 + (W[r] + W[8192 + r]).  Addition of
  extended reals is commutative and `0 + a = a`, at the infinities too, so the two agree with no finiteness.
-/
import proofs.«900152_g7700000000000153_dist_ar_v7x_xy2x2_y_m8192_n1024_bf16_1_alg».proof.Proof.Spec
import proofs.«900152_g7700000000000153_dist_ar_v7x_xy2x2_y_m8192_n1024_bf16_1_alg».proof.Proof.Gen.ReferenceIdeal.Run
import proofs.«900152_g7700000000000153_dist_ar_v7x_xy2x2_y_m8192_n1024_bf16_1_alg».proof.Proof.Gen.ReferenceIdeal.Read

noncomputable section

namespace Cert.KernelIdeal.ARValue

open Idealize.ShloMosaic Idealize.ShloMosaic.TcCoe Idealize.SL.Sem
open Cert.KernelIdeal Cert.KernelIdeal.Gen Cert.KernelIdeal.AR

/-- The whole array's index type and a block's. -/
abbrev WIdx : Type := (⟨2, ![16384, 1024]⟩ : Shape).Idx
abbrev BIdx : Type := (⟨2, ![8192, 1024]⟩ : Shape).Idx

/-- Row `8192 * (b % 2) + r` of the whole array, for a row `r` of an 8192-row block: row `r` of block `b % 2`. -/
def wholeRow (b : Nat) (j : BIdx) : WIdx := fun a =>
  match a with
  | ⟨0, _⟩ => ⟨8192 * (b % 2) + (j 0).val, by have h0 : (j 0).val < 8192 := (j 0).isLt; show 8192 * (b % 2) + (j 0).val < 16384; omega⟩
  | ⟨1, _⟩ => ⟨(j 1).val, (j 1).isLt⟩

/-- Only the parity of the block number matters. -/
theorem wholeRow_par {b b' : Nat} (h : b % 2 = b' % 2) (j : BIdx) : wholeRow b j = wholeRow b' j :=
  funext fun a => Fin.ext (by
    match a with
    | ⟨0, _⟩ => show 8192 * (b % 2) + (j 0).val = 8192 * (b' % 2) + (j 0).val; rw [h]
    | ⟨1, _⟩ => rfl)

/-- On the 2×2 mesh, an array cut along its rows by the second mesh axis: device `d` holds block `d % 2` of the rows
    and the one block of the columns. -/
theorem meshBlock_row (d : Dev nD) : ((Layout.meshBlock [2, 2] ![[1], []] d) 0).val = d.val % 2 := by revert d; decide
theorem meshBlock_col (d : Dev nD) : ((Layout.meshBlock [2, 2] ![[1], []] d) 1).val = 0 := by revert d; decide

/-- Device `d`'s block of the whole array `W`, read at an index. -/
theorem block_at (W : WIdx → EReal) (d : Dev nD) (i : BIdx) :
    (Layout.blockN ⟨2, ![8192, 1024]⟩ ⟨2, ![16384, 1024]⟩ (Layout.meshBlock [2, 2] ![[1], []] d) W) i
      = W (wholeRow d.val i) := by
  rw [Layout.blockN_apply]
  refine congrArg W (funext fun a => Fin.ext ?_)
  rw [Layout.TilesN.idx_val]
  match a with
  | ⟨0, _⟩ =>
    show ((Layout.meshBlock [2, 2] ![[1], []] d) 0).val * 8192 + (i 0).val = 8192 * (d.val % 2) + (i 0).val
    rw [meshBlock_row]; omega
  | ⟨1, _⟩ =>
    show ((Layout.meshBlock [2, 2] ![[1], []] d) 1).val * 1024 + (i 1).val = (i 1).val
    rw [meshBlock_col]; omega

section
variable (X : Blocks Ideal) (W : WIdx → EReal)
  (hX : ∀ d : Dev nD, X d = Layout.blockN ⟨2, ![8192, 1024]⟩ ⟨2, ![16384, 1024]⟩ (Layout.meshBlock [2, 2] ![[1], []] d) W)
include hX

/-- The sum a device computes, at a row `r` of the half it works on: its own block's row `r` plus the other block's. -/
theorem sumW_at (d : Dev nD) (j : BIdx) (hj : (j 0).val / 4096 = d.val / 2) :
    sumW X d (inHalf j) = (W (wholeRow d.val j) + W (wholeRow (d.val + 1) j) : EReal) := by
  have h0 : (j 0).val < 8192 := (j 0).isLt
  have e1 : wholeRow d.val (halfRow (d.val / 2) (half_lt d) (inHalf j)) = wholeRow d.val j :=
    funext fun a => Fin.ext (by
      match a with
      | ⟨0, _⟩ => show 8192 * (d.val % 2) + (4096 * (d.val / 2) + (j 0).val % 4096) = 8192 * (d.val % 2) + (j 0).val; omega
      | ⟨1, _⟩ => rfl)
  have e2 : wholeRow (ynbr d).val (halfRow ((ynbr d).val / 2) (half_lt (ynbr d)) (inHalf j)) = wholeRow (d.val + 1) j :=
    funext fun a => Fin.ext (by
      match a with
      | ⟨0, _⟩ =>
        show 8192 * ((ynbr d).val % 2) + (4096 * ((ynbr d).val / 2) + (j 0).val % 4096) = 8192 * ((d.val + 1) % 2) + (j 0).val
        rw [ynbr_par, ynbr_half]; omega
      | ⟨1, _⟩ => rfl)
  show (FloatOps.addf (F := Ideal) (FloatOps.truncf (F := Ideal) .bf16 bitsLt_bf16_f32 (X d (halfRow (d.val / 2) (half_lt d) (inHalf j))))
      (FloatOps.truncf (F := Ideal) .bf16 bitsLt_bf16_f32 (X (ynbr d) (halfRow ((ynbr d).val / 2) (half_lt (ynbr d)) (inHalf j)))) : EReal) = _
  rw [Ideal.addf_def, Ideal.truncf_def, Ideal.truncf_def, hX d, hX (ynbr d), block_at, block_at, e1, e2]

/-- What every device ends with, at row `r`: row `r` of its own block plus row `r` of the other block. -/
theorem outW_at (c : Dev nD) (j : BIdx) :
    outW X c j = (W (wholeRow c.val j) + W (wholeRow (c.val + 1) j) : EReal) := by
  have h0 : (j 0).val < 8192 := (j 0).isLt
  have hc : c.val / 2 < 2 := half_lt c
  unfold outW
  split
  · next h => exact sumW_at X W hX c j h
  · next h =>
    have hx : (j 0).val / 4096 = (xnbr c).val / 2 := by rw [xnbr_half]; omega
    rw [sumW_at X W hX (xnbr c) j hx, wholeRow_par (xnbr_par c) j,
      wholeRow_par (b := (xnbr c).val + 1) (b' := c.val + 1) (by have := xnbr_par c; omega) j]

end

/-- The reference's result at row `r`: the initial value 0 plus rows `r` and `8192 + r` of the whole array. -/
theorem ref_at (W : WIdx → EReal) (j : BIdx) :
    Cert.ReferenceIdeal.Read.val_main_v2 (F := Ideal) W j = (W (wholeRow 0 j) + W (wholeRow 1 j) : EReal) := by
  have h0 : (j 0).val < 8192 := (j 0).isLt
  have h1 : (j 1).val < 1024 := (j 1).isLt
  have e0 : Cert.ReferenceIdeal.Read.idx_main_v0 (Cert.ReferenceIdeal.Read.idx_main_v1 j 0) = wholeRow 0 j :=
    funext fun a => Fin.ext (by
      match a with
      | ⟨0, _⟩ => show ((0 * 8192 + (j 0).val) * 1024 + (j 1).val) / 1024 = 8192 * (0 % 2) + (j 0).val; omega
      | ⟨1, _⟩ => show ((0 * 8192 + (j 0).val) * 1024 + (j 1).val) % 1024 = (j 1).val; omega)
  have e1 : Cert.ReferenceIdeal.Read.idx_main_v0 (Cert.ReferenceIdeal.Read.idx_main_v1 j 1) = wholeRow 1 j :=
    funext fun a => Fin.ext (by
      match a with
      | ⟨0, _⟩ => show ((1 * 8192 + (j 0).val) * 1024 + (j 1).val) / 1024 = 8192 * (1 % 2) + (j 0).val; omega
      | ⟨1, _⟩ => show ((1 * 8192 + (j 0).val) * 1024 + (j 1).val) % 1024 = (j 1).val; omega)
  rw [Cert.ReferenceIdeal.Read.val_main_v2_apply, Ideal.truncf_def, Cert.ReferenceIdeal.Read.val_main_v1_apply,
    Fin.sum_univ_two, Cert.ReferenceIdeal.Read.val_main_v0_apply, Cert.ReferenceIdeal.Read.val_main_v0_apply,
    Cert.ReferenceIdeal.Read.val_main_cst_apply, Ideal.ofBits_def, Ideal.ofBits_zero_f32, e0, e1]
  exact zero_add _

/-- Every device's result is the reference's: the two blocks' rows added, in either order. -/
theorem outW_eq_ref (X : Blocks Ideal) (W : WIdx → EReal)
    (hX : ∀ d : Dev nD, X d = Layout.blockN ⟨2, ![8192, 1024]⟩ ⟨2, ![16384, 1024]⟩ (Layout.meshBlock [2, 2] ![[1], []] d) W)
    (c : Dev nD) :
    outW X c = Cert.ReferenceIdeal.Read.val_main_v2 (F := Ideal) W := by
  funext j
  rw [outW_at X W hX c j, ref_at W j]
  rcases Nat.mod_two_eq_zero_or_one c.val with h | h
  · rw [wholeRow_par (b := c.val) (b' := 0) (by omega) j, wholeRow_par (b := c.val + 1) (b' := 1) (by omega) j]
  · rw [wholeRow_par (b := c.val) (b' := 1) (by omega) j, wholeRow_par (b := c.val + 1) (b' := 0) (by omega) j]
    exact add_comm (G := EReal) _ _

/-- The bridge as the claim states it: for memories `m` of the four devices and `m'` of the reference's one device
    that agree (each device's argument block is its block of the reference's whole array), what every device ends
    with is the reference run's result term. -/
theorem outW_eq_run
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2] ![[1], []] c) (m' (((0 : Dev Cert.ReferenceIdeal.nD).tc : Thread Cert.ReferenceIdeal.nD Cert.ReferenceIdeal.τ).loc Cert.ReferenceIdeal.main_arg0)))
    (c : Dev Cert.KernelIdeal.nD) :
    outW (F := Ideal) (fun d => m ((d.tc : Thread Cert.KernelIdeal.nD Cert.KernelIdeal.τ).loc Cert.KernelIdeal.main_arg0)) c
      = truncf (F := Ideal) .bf16 (Host.reduceAdd (F := Ideal) (shapeCast _ (m' (((0 : Dev Cert.ReferenceIdeal.nD).tc : Thread Cert.ReferenceIdeal.nD Cert.ReferenceIdeal.τ).loc Cert.ReferenceIdeal.main_arg0)) Cert.ReferenceIdeal.Gen.shapeCasts_S16384x1024_S2x8192x1024) (constant (F := Ideal) Cert.ReferenceIdeal.S_ .f32 0x00000000#32) Cert.ReferenceIdeal.Gen.reducesTo_S2x8192x1024_S8192x1024_d0 Cert.ReferenceIdeal.Gen.h_S_) Cert.ReferenceIdeal.Gen.bitsLt_bf16_f32 :=
  (outW_eq_ref _ _ hagree c).trans (Cert.ReferenceIdeal.Read.val_main_v2_eq (F := Ideal) _).symm

end Cert.KernelIdeal.ARValue

end
-- ==== Proof.Claims.lean ====
/-
  The five conjuncts of the claim, from the runs of the two kernel programs.  The kernel at the word level runs and
  leaves its argument unchanged on every device; the idealized kernel runs, leaves its argument unchanged and ends
  with the result array `outW` of the devices' argument blocks; the reference runs on one device over the whole array.
  Where each device's block is its block of the reference's whole array, `outW` is the reference's result on every
  device (the value bridge), so the replicated result is that one array.
-/
import proofs.«900152_g7700000000000153_dist_ar_v7x_xy2x2_y_m8192_n1024_bf16_1_alg».proof.Defs
import proofs.«900152_g7700000000000153_dist_ar_v7x_xy2x2_y_m8192_n1024_bf16_1_alg».proof.Proof.Gen.Kernel
import proofs.«900152_g7700000000000153_dist_ar_v7x_xy2x2_y_m8192_n1024_bf16_1_alg».proof.Proof.Gen.KernelIdeal
import proofs.«900152_g7700000000000153_dist_ar_v7x_xy2x2_y_m8192_n1024_bf16_1_alg».proof.Proof.Gen.ReferenceIdeal
import proofs.«900152_g7700000000000153_dist_ar_v7x_xy2x2_y_m8192_n1024_bf16_1_alg».proof.Proof.Gen.Pre_finite_inputs_Kernel
import proofs.«900152_g7700000000000153_dist_ar_v7x_xy2x2_y_m8192_n1024_bf16_1_alg».proof.Proof.Gen.Pre_finite_inputs_ReferenceIdeal
import proofs.«900152_g7700000000000153_dist_ar_v7x_xy2x2_y_m8192_n1024_bf16_1_alg».proof.Proof.Gen.ReferenceIdeal.Run
import proofs.«900152_g7700000000000153_dist_ar_v7x_xy2x2_y_m8192_n1024_bf16_1_alg».proof.Proof.Spec
import proofs.«900152_g7700000000000153_dist_ar_v7x_xy2x2_y_m8192_n1024_bf16_1_alg».proof.Proof.Value

noncomputable section

namespace Cert.Proof.ARClaims

open Idealize.ShloMosaic Idealize.ShloMosaic.TcCoe Idealize.SL.Sem

/-- The reference runs on its one device and leaves its argument unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim_of_runs
    (hK : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (fun r => ∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)))
    (hKI : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1)
            = Cert.KernelIdeal.AR.outW (F := Ideal) (fun d => m ((d.tc : Thread Cert.KernelIdeal.nD Cert.KernelIdeal.τ).loc Cert.KernelIdeal.main_arg0)) c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.Claim := by
  refine ⟨Cert.Kernel.Gen.facts, Cert.KernelIdeal.Gen.facts, Cert.ReferenceIdeal.Gen.facts, Cert.Pre_finite_inputs_Kernel.Gen.facts,
    Cert.Pre_finite_inputs_ReferenceIdeal.Gen.facts, ?_, ?_, ?_, ?_, ?_⟩
  · -- the word-level kernel's frame
    exact fun m ρ _ => hK m ρ
  · -- the idealized kernel's frame: its run, the result dropped
    exact fun m ρ _ => (θ_run Cert.KernelIdeal.defs _ _).mono (fun _ h c => (h c).2) (hKI m ρ)
  · exact frame_ri
  · exact trivial
  · -- the two results agree: every device's `outW` is the reference run's result term
    intro m ρ m' ρ' _ hagree
    refine ⟨_, (θ_run Cert.KernelIdeal.defs _ _).mono (fun _ h c => ⟨(h c).1.trans ?_, (h c).2⟩) (hKI m ρ),
      (θ_run Cert.ReferenceIdeal.defs _ _).mono (fun _ h => h 0) (Cert.ReferenceIdeal.Value.run (F := Ideal) m' ρ')⟩
    exact Cert.KernelIdeal.ARValue.outW_eq_run m m' hagree c

end Cert.Proof.ARClaims

end
-- ==== Proof.Protocol.lean ====
/-
  The cross-device protocol of the two-phase all-reduce, stated over the rounds discipline.

  Every device owns one barrier cell and, per chunk k of 32, five transfer cells: ld k (its local copy of input rows
  into its f32 scratch has completed), s1 k (its phase-1 copy has been read out of its send chunk), r1 k (the phase-1
  copy of its second-axis neighbour has landed in its receive chunk), s2 k and r2 k (the same for the phase-2 copy of
  the summed rows, exchanged with the first-axis neighbour).  A barrier cell has
  two duties of one unit in its only round: the second-axis neighbour's signal hands over that neighbour's 32 receive
  chunks, the first-axis neighbour's signal hands over the 32 chunks of that neighbour's result buffer that this device
  writes.  Every transfer cell has one duty whose payload is the chunk it reports on, at its final contents.
-/
import proofs.«900152_g7700000000000153_dist_ar_v7x_xy2x2_y_m8192_n1024_bf16_1_alg».proof.Proof.Spec
import proofs.«900152_g7700000000000153_dist_ar_v7x_xy2x2_y_m8192_n1024_bf16_1_alg».proof.Proof.Gen.KernelIdeal.Skeleton
import proofs.«900152_g7700000000000153_dist_ar_v7x_xy2x2_y_m8192_n1024_bf16_1_alg».proof.Proof.Gen.KernelIdeal.Launch
import proofs.«900152_g7700000000000153_dist_ar_v7x_xy2x2_y_m8192_n1024_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by Bool) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-- The devices' argument blocks. -/
abbrev X : Blocks F := fun d => m ((d : Thread nD τ).loc main_arg0)

/-! ## Memrefs and their chunks -/

abbrev xM : Memref sig .tc .hbm S8192x1024 .f32 := Memref.whole main_arg0
abbrev oM : Memref sig .tc .vmem S8192x1024 .bf16 := Memref.whole cc0_stg0_0
abbrev vM : Memref sig .tc .vmem S4096x1024 .f32 := Memref.whole cc0_scratch0
abbrev sM : Memref sig .tc .vmem S4096x1024 .bf16 := Memref.whole cc0_scratch1
abbrev rM : Memref sig .tc .vmem S4096x1024 .bf16 := Memref.whole cc0_scratch2

theorem inbS (k : Fin 32) : ∀ a, (![128 * k.val, 0] : Fin 2 → Nat) a + S128x1024.size a ≤ S4096x1024.size a := by
  revert k; decide
/-- Chunk k of a 4096-row scratch: rows [128 k, 128 k + 128). -/
abbrev rS (k : Fin 32) : Rect S4096x1024 := Rect.unit (s := S4096x1024) ![128 * k.val, 0] S128x1024.size (inbS k)

theorem inbO (h : Fin 2) (k : Fin 32) : ∀ a, (![4096 * h.val + 128 * k.val, 0] : Fin 2 → Nat) a + S128x1024.size a ≤ S8192x1024.size a := by
  revert h k; decide
/-- Chunk k of half h of an 8192-row array: rows [4096 h + 128 k, + 128). -/
abbrev rO (h : Fin 2) (k : Fin 32) : Rect S8192x1024 := Rect.unit (s := S8192x1024) ![4096 * h.val + 128 * k.val, 0] S128x1024.size (inbO h k)

/-- The half of the rows device c works on. -/
def hf (c : Dev nD) : Fin 2 := ⟨c.val / 2, half_lt c⟩

abbrev vSl (k : Fin 32) : Memref sig .tc .vmem S128x1024 .f32 := vM.slice (rS k) (fun _ => rfl)
abbrev sSl (k : Fin 32) : Memref sig .tc .vmem S128x1024 .bf16 := sM.slice (rS k) (fun _ => rfl)
abbrev rSl (k : Fin 32) : Memref sig .tc .vmem S128x1024 .bf16 := rM.slice (rS k) (fun _ => rfl)
abbrev oSl (h : Fin 2) (k : Fin 32) : Memref sig .tc .vmem S128x1024 .bf16 := oM.slice (rO h k) (fun _ => rfl)
abbrev xSl (h : Fin 2) (k : Fin 32) : Memref sig .tc .hbm S128x1024 .f32 := xM.slice (rO h k) (fun _ => rfl)

/-- Share q of the elements of memref M on device c, holding f. -/
abbrev pts {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

/-! ## Cells -/

abbrev barS : Sem sig := (SemArray.scalar (sig.barrier 0 rfl) : Sems sig S_).sem

theorem inb32 (k : Fin 32) : ∀ a, (![k.val] : Fin 1 → Nat) a + S1.size a ≤ S32.size a := by revert k; decide
/-- Semaphore k of an array of 32. -/
abbrev semA (A : DmaSems sig S32) (k : Fin 32) : DmaSem sig :=
  ((A.slice (Rect.unit (s := S32) ![k.val] S1.size (inb32 k))).squeeze S_ squeezes_S1_S_).sem

/-- The five arrays of transfer semaphores: 0 = ld, 1 = s1, 2 = r1, 3 = s2, 4 = r2. -/
abbrev arrJ : Fin 5 → DmaSems sig S32 := fun j => match j with
  | 0 => cc0_scratch3 | 1 => cc0_scratch4 | 2 => cc0_scratch5 | 3 => cc0_scratch6 | 4 => cc0_scratch7

abbrev barCell (c : Dev nD) : GSem nD τ sig := ((c : Thread nD τ), .reg barS)
abbrev xcell (c : Dev nD) (j : Fin 5) (k : Fin 32) : GSem nD τ sig := ((c : Thread nD τ), .dma (semA (arrJ j) k))

/-- Which transfer cell a semaphore is, if any. -/
def kindOf (s : SemLoc sig) : Option (Fin 5 × Fin 32) := match s with
  | .dma q => if h : 1 ≤ q.val ∧ q.val < 161 then
      some (⟨(q.val - 1) / 32, by omega⟩, ⟨(q.val - 1) % 32, Nat.mod_lt _ (by decide)⟩) else none
  | _ => none

theorem kindOf_semA (j : Fin 5) (k : Fin 32) : kindOf (.dma (semA (arrJ j) k)) = some (j, k) := by
  revert j k; decide +kernel
theorem kindOf_bar : kindOf (.reg barS : SemLoc sig) = none := rfl

/-- The credit of one bf16 chunk's transfer, and of one f32 chunk's. -/
abbrev N : ℕ := (sSl 0).view.dmaCredit
theorem N_pos : 0 < N := View.dmaCredit_pos _ (by decide)
abbrev Nv : ℕ := (vSl 0).view.dmaCredit
theorem Nv_pos : 0 < Nv := View.dmaCredit_pos _ (by decide)
/-- The amount of the one duty of a transfer cell of array j. -/
def amt (j : Fin 5) : ℕ := if j = 0 then Nv else N
theorem amt_pos (j : Fin 5) : 0 < amt j := by unfold amt; split; exact Nv_pos; exact N_pos

/-! ## Contents -/

/-- The f32 scratch after the local copies: the device's half of its block. -/
def xvW (X : Blocks F) (c : Dev nD) : S4096x1024.Idx → Elt F .f32 := fun i => X c (halfRow (c.val / 2) (half_lt c) i)
abbrev xvB (c : Dev nD) : Buf (Elt F) ((c : Thread nD τ).loc cc0_scratch0) := xvW (X m) c
abbrev sendB (c : Dev nD) : Buf (Elt F) ((c : Thread nD τ).loc cc0_scratch1) := sendW (X m) c
abbrev recvB (c : Dev nD) : Buf (Elt F) ((c : Thread nD τ).loc cc0_scratch2) := recvW (X m) c
abbrev outB (c : Dev nD) : Buf (Elt F) ((c : Thread nD τ).loc cc0_stg0_0) := outW (X m) c

/-! ## The schedule -/

def halfShare : PosShare TreeShare := fullShare.left

/-- What the second-axis neighbour's signal hands device c: that neighbour's receive chunks, each at some contents,
    and that each of its r1 cells is at round 0. -/
def barPayY (c : Dev nD) : sProp 𝕄 :=
  bigSep Finset.univ fun k : Fin 32 => iprop((∃ f, pts (rSl k) (ynbr c) fullShare f) ∗ reached ER (xcell (ynbr c) 2 k) 0)
/-- What the first-axis neighbour's signal hands device c: the chunks of that neighbour's result buffer in c's half, and
    that each of its r2 cells is at round 0. -/
def barPayX (c : Dev nD) : sProp 𝕄 :=
  bigSep Finset.univ fun k : Fin 32 => iprop((∃ f, pts (oSl (hf c) k) (xnbr c) fullShare f) ∗ reached ER (xcell (xnbr c) 4 k) 0)

/-- The payload of transfer cell (j, k) of device c. -/
def xPay (c : Dev nD) (j : Fin 5) (k : Fin 32) : sProp 𝕄 := match j with
  | 0 => iprop(pts (vSl k) c fullShare (xvB m c) ∗ pts (xSl (hf c) k) c fullShare (X m c))
  | 1 => pts (sSl k) c halfShare (sendB m c)
  | 2 => pts (rSl k) c fullShare (recvB m c)
  | 3 => pts (oSl (hf c) k) c fullShare (outB m c)
  | 4 => pts (oSl (hf (xnbr c)) k) c fullShare (outB m c)

def Rd : Rounds.Schedule (GSem nD τ sig) Bool 𝕄 where
  duties g r := if r = 0 ∧ g.1.2 = .tc ∧ g.2 = .reg barS then Finset.univ
    else if r = 0 ∧ g.1.2 = .tc ∧ (kindOf g.2).isSome then {false} else ∅
  unitless _ := False
  amount g _ _ := if g.2 = .reg barS then 1 else match kindOf g.2 with
    | some (j, _) => amt j
    | none => 1
  payload g _ d :=
    if g.2 = .reg barS then (if d then barPayX g.1.1 else barPayY g.1.1)
    else match kindOf g.2 with
      | some (j, k) => xPay m g.1.1 j k
      | none => iprop(emp)
  amount_pos g _ _ _ := by
    by_cases h : g.2 = .reg barS
    · rw [if_pos h]; exact Nat.one_pos
    · rw [if_neg h]; split
      · exact amt_pos _
      · exact Nat.one_pos

instance Rd_payload_storable (g : GSem nD τ sig) (r : ℕ) (d : Bool) :
    BI.Storable (upEmb : UEmb _ 𝕄) ((Rd (F := F) m).payload g r d) := by
  show BI.Storable upEmb (if g.2 = .reg barS then (if d then barPayX g.1.1 else barPayY g.1.1)
    else match kindOf g.2 with
      | some (j, k) => xPay m g.1.1 j k
      | none => iprop(emp))
  unfold barPayX barPayY xPay
  (repeat' split) <;> infer_instance

section Tables
variable (c : Dev nD) (j : Fin 5) (k : Fin 32)

theorem xsem_ne_bar : (SemLoc.dma (semA (arrJ j) k) : SemLoc sig) ≠ .reg barS := fun h => by cases h

theorem duties_bar : (Rd (F := F) m).duties (barCell c) 0 = Finset.univ := by
  dsimp only [Rd]; exact if_pos ⟨rfl, rfl, rfl⟩
theorem duties_x : (Rd (F := F) m).duties (xcell c j k) 0 = {false} := by
  dsimp only [Rd]; rw [if_neg (fun h => xsem_ne_bar j k h.2.2)]
  exact if_pos ⟨rfl, rfl, by rw [kindOf_semA]; rfl⟩
theorem duties_later (g : GSem nD τ sig) : ∀ r, 1 ≤ r → (Rd (F := F) m).duties g r = ∅ :=
  fun r hr => by dsimp only [Rd]; rw [if_neg fun h => by omega, if_neg fun h => by omega]
theorem amount_bar (d : Bool) : (Rd (F := F) m).amount (barCell c) 0 d = 1 := by dsimp only [Rd]; exact if_pos rfl
theorem amount_x (d : Bool) : (Rd (F := F) m).amount (xcell c j k) 0 d = amt j := by
  dsimp only [Rd]; rw [if_neg (xsem_ne_bar j k), kindOf_semA]
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_x : (Rd (F := F) m).expect (xcell c j k) 0 = amt j := by
  unfold Schedule.expect Schedule.amountOf; rw [duties_x, Finset.sum_singleton, amount_x]
theorem payload_bar_true : (Rd (F := F) m).payload (barCell c) 0 true = barPayX c := by dsimp only [Rd]; rw [if_pos rfl, if_pos rfl]
theorem payload_bar_false : (Rd (F := F) m).payload (barCell c) 0 false = barPayY c := by
  dsimp only [Rd]; rw [if_pos rfl]; exact if_neg Bool.false_ne_true
theorem payload_x (d : Bool) : (Rd (F := F) m).payload (xcell c j k) 0 d = xPay m c j k := by
  dsimp only [Rd]; rw [if_neg (xsem_ne_bar j k), kindOf_semA]
theorem rest_bar : bigSep ((Rd (F := F) m).duties (barCell c) 0 \ ∅) (fun d => (Rd (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_x : bigSep ((Rd (F := F) m).duties (xcell c j k) 0 \ ∅) (fun d => (Rd (F := F) m).payload (xcell c j k) 0 d) = xPay m c j k := by
  rw [Finset.sdiff_empty, duties_x, bigSep_singleton, payload_x]

end Tables

/-! ## What each device owes, action by action -/

/-- The cell device c pays with its i-th paying action: 0 the signal to ynbr c, 1 the signal to xnbr c, 2 + k the
    phase-1 copy of chunk k (lands on ynbr c), 34 + k the phase-2 copy of chunk k (lands on xnbr c). -/
def actCell (c : Dev nD) (i : ℕ) : GSem nD τ sig :=
  if i = 0 then barCell (ynbr c) else if i = 1 then barCell (xnbr c)
  else if h : i < 34 then xcell (ynbr c) 2 ⟨(i - 2) % 32, Nat.mod_lt _ (by decide)⟩
  else xcell (xnbr c) 4 ⟨(i - 34) % 32, Nat.mod_lt _ (by decide)⟩
def actAmt (i : ℕ) : ℕ := if i < 2 then 1 else N

/-- What device c still owes when its last r paying actions are left (66 in all). -/
def owe (c : Dev nD) : ℕ → CellTallies nD τ sig Unit
  | 0 => 0
  | r + 1 => owe c r + tallyAt (actCell c (65 - r)) () (actAmt (65 - r))

theorem owe_succ (c : Dev nD) (r : ℕ) : owe c (r + 1) = owe c r + tallyAt (actCell c (65 - r)) () (actAmt (65 - r)) := rfl

def O₀ (c : Dev nD) : CellTallies nD τ sig Unit := owe c 66

/-! ## Levels: a barrier cell below a phase-1 landing cell below a phase-2 landing cell; everything else at 0 -/

def L (g : GSem nD τ sig) : Finset Unit := if g.1.2 = .tc then {()} else ∅
def lv (g : GSem nD τ sig) (_ : Unit) : ℕ :=
  if g.2 = .reg barS then 1 else match kindOf g.2 with
    | some (j, _) => if j = 2 then 2 else if j = 4 then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.AR

end
-- ==== Proof.Data.lean ====
/-
  What each device holds: the protocol's ghost state, the kernel's resources before and after its one grid point, and
  the pipeline's proof data (the result's staging buffer ends at `outW`).
-/
import proofs.«900152_g7700000000000153_dist_ar_v7x_xy2x2_y_m8192_n1024_bf16_1_alg».proof.Proof.Protocol

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, indexed: none the barrier cell, some (j, k) transfer cell (j, k) -/

abbrev CIx : Type := Option (Fin 5 × Fin 32)
abbrev kcell (ck : Dev nD × CIx) : GSem nD τ sig := match ck.2 with
  | none => barCell ck.1
  | some jk => xcell ck.1 jk.1 jk.2

/-- Every cell's invariant, under the names K the launch allocated them at, and that every cell is at round 0:
    persistent, so every device has all of it. -/
def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

instance records_persistent (K : Dev nD × CIx → ℕ) : BI.Persistent (records m K) := by unfold records; infer_instance

/-- The tokens of the duties device c pays for chunk k: its local copy's, its two departures', and the two landings' on
    its neighbours. -/
def chunkToks (c : Dev nD) (k : Fin 32) : sProp 𝕄 :=
  iprop(dutyTok ER (xcell c 0 k) 0 false ∗ dutyTok ER (xcell c 1 k) 0 false ∗ dutyTok ER (xcell (ynbr c) 2 k) 0 false
    ∗ dutyTok ER (xcell c 3 k) 0 false ∗ dutyTok ER (xcell (xnbr c) 4 k) 0 false)
/-- The tokens of the duties device c pays: one at each neighbour's barrier cell, and every chunk's. -/
def payToks (c : Dev nD) : sProp 𝕄 :=
  iprop(dutyTok ER (barCell (ynbr c)) 0 false ∗ dutyTok ER (barCell (xnbr c)) 0 true
    ∗ bigSep Finset.univ fun k : Fin 32 => chunkToks c k)

/-- Device c's position at round 0 of each of its cells. -/
def positions (c : Dev nD) : sProp 𝕄 := bigSep Finset.univ fun i : CIx => atPos ER (kcell (c, i)) 0 ∅ 0

def ghost (K : Dev nD × CIx → ℕ) (c : Dev nD) : sProp 𝕄 := iprop(records m K ∗ positions c ∗ payToks c)

/-- The credit tokens device c waits with: two units on its barrier cell, a chunk's credit on each landing cell. -/
def creds (c : Dev nD) : sProp 𝕄 :=
  iprop(cred (tallyAt (barCell c) () 2)
    ∗ bigSep Finset.univ fun k : Fin 32 => iprop(cred (tallyAt (xcell c 2 k) () N) ∗ cred (tallyAt (xcell c 4 k) () N)))

/-- The 160 transfer semaphores, at zero. -/
def xferSems (c : Dev nD) : sProp 𝕄 := bigSep Finset.univ fun jk : Fin 5 × Fin 32 => semVal (xcell c jk.1 jk.2) 0

/-- The argument array, whole, at its launch contents. -/
def argPts (c : Dev nD) : sProp 𝕄 := ((c : Thread nD τ).loc main_arg0) ↦{fullShare} m ((c : Thread nD τ).loc main_arg0)

/-- The three scratch buffers, each whole at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def start (c : Dev nD) : sProp 𝕄 :=
  iprop((∃ K, ghost m K c) ∗ creds c ∗ levAts L lv ∗ argPts m c)

def Φ₀ (c : Dev nD) : sProp 𝕄 := iprop(start m c ∗ scratches c)
def Φ₁ (c : Dev nD) : sProp 𝕄 := iprop(scratches c ∗ xferSems c ∗ argPts m c)

/-- The kernel's own (scoped) semaphores other than the staging one: DMA semaphores 1 … 160. -/
abbrev osem : Fin 160 → SemLoc sig := fun i => .dma ⟨1 + i.val, show 1 + i.val < 161 by have := i.isLt; omega⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outB m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The body lemma's pre and post -/

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

def bodyPre (K : Dev nD × CIx → ℕ) (c : Dev nD) : sProp 𝕄 :=
  iprop((ghost m K c ∗ creds c ∗ levAts L lv ∗ argPts m c ∗ scratches c)
    ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outB m c))

/-- The kernel function as the pipeline calls it at its one point. -/
abbrev theBody : Prog (TpuEff nD τ sig (Elt F) Λ₀ .tc) PUnit :=
  cc0_body (Memref.whole main_arg0) (Memref.isWhole_whole _) (Memref.whole cc0_stg0_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6 cc0_scratch7

/-- The statement of the body lemma (proved in Body.lean): from `bodyPre`, one device's kernel function runs to `bodyPost`. -/
def SoundBody : Prop :=
  ∀ (K : Dev nD × CIx → ℕ) (c : Dev nD) (Kt : PUnit → sProp 𝕄),
    iprop(bodyPre m ρ K c ∗ (bodyPost m ρ c -∗ Kt ⟨⟩))
      ⊢ wp frame (wpE (defs₀ (F := F)) 𝒱₀ c none) Set.univ (theBody (F := F)) Kt

end Cert.KernelIdeal.AR

end
-- ==== Proof.Levels.lean ====
/-
  The level lemmas: a device may wait on one of its cells while it still owes its last r paying actions, provided that
  cell lies strictly below every cell those actions pay.  Barrier cells sit at level 1, the landing cells of the first
  exchange at 2, those of the second at 3, and every other cell at 0; the paying actions are ordered so that what is
  left to pay always lies above what is being waited on.
-/
import proofs.«900152_g7700000000000153_dist_ar_v7x_xy2x2_y_m8192_n1024_bf16_1_alg».proof.Proof.Protocol

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The levels of the protocol's cells -/

theorem lv_bar (d : Dev nD) : lv (barCell d) () = 1 := if_pos rfl
theorem lv_x (d : Dev nD) (j : Fin 5) (k : Fin 32) : lv (xcell d j k) () = if j = 2 then 2 else if j = 4 then 3 else 0 := by
  dsimp only [lv]; rw [if_neg (xsem_ne_bar j k), kindOf_semA]
theorem lv_r1 (d : Dev nD) (k : Fin 32) : lv (xcell d 2 k) () = 2 := by rw [lv_x]; rfl
theorem lv_r2 (d : Dev nD) (k : Fin 32) : lv (xcell d 4 k) () = 3 := by rw [lv_x]; rfl
theorem lv_x0 (d : Dev nD) (j : Fin 5) (k : Fin 32) (h2 : j ≠ 2) (h4 : j ≠ 4) : lv (xcell d j k) () = 0 := by
  rw [lv_x, if_neg h2, if_neg h4]

/-! ## The cells of the paying actions -/

theorem actCell_zero (c : Dev nD) : actCell c 0 = barCell (ynbr c) := if_pos rfl
theorem actCell_one (c : Dev nD) : actCell c 1 = barCell (xnbr c) := by unfold actCell; rw [if_neg (by decide), if_pos rfl]
theorem actCell_ph1 (c : Dev nD) (i : ℕ) (h2 : 2 ≤ i) (h : i < 34) :
    actCell c i = xcell (ynbr c) 2 ⟨(i - 2) % 32, Nat.mod_lt _ (by decide)⟩ := by
  unfold actCell; rw [if_neg (by omega), if_neg (by omega), dif_pos h]
theorem actCell_ph2 (c : Dev nD) (i : ℕ) (h : 34 ≤ i) :
    actCell c i = xcell (xnbr c) 4 ⟨(i - 34) % 32, Nat.mod_lt _ (by decide)⟩ := by
  unfold actCell; rw [if_neg (by omega), if_neg (by omega), dif_neg (by omega)]
/-- The k-th copy of the first exchange is action 2 + k, of the second action 34 + k. -/
theorem actCell_ph1' (c : Dev nD) (k : Fin 32) : actCell c (2 + k.val) = xcell (ynbr c) 2 k := by
  rw [actCell_ph1 c _ (by omega) (by have := k.isLt; omega)]
  congr 2; have := k.isLt; omega
theorem actCell_ph2' (c : Dev nD) (k : Fin 32) : actCell c (34 + k.val) = xcell (xnbr c) 4 k := by
  rw [actCell_ph2 c _ (by omega)]
  congr 2; have := k.isLt; omega

theorem actCell_tc (c : Dev nD) (i : ℕ) : (actCell c i).1.2 = .tc := by
  unfold actCell; split_ifs <;> rfl

/-- Every paying action from the third on pays a cell at level 2 or more; from the 35th on, at level 3. -/
theorem lv_act_ge2 (c : Dev nD) (i : ℕ) (h : 2 ≤ i) : 2 ≤ lv (actCell c i) () := by
  by_cases h34 : i < 34
  · rw [actCell_ph1 c i h h34, lv_r1]
  · rw [actCell_ph2 c i (by omega), lv_r2]; decide
theorem lv_act_eq3 (c : Dev nD) (i : ℕ) (h : 34 ≤ i) : lv (actCell c i) () = 3 := by
  rw [actCell_ph2 c i h, lv_r2]

/-! ## What is still owed is owed to the cells of the actions that are left -/

theorem owe_pos (c : Dev nD) : ∀ (r : ℕ), r ≤ 66 → ∀ (g : GSem nD τ sig) (u : Unit), 0 < owe c r g u →
    ∃ i, 66 - r ≤ i ∧ i < 66 ∧ g = actCell c i
  | 0, _, g, u, h => by
    exfalso; change 0 < (0 : CellTallies nD τ sig Unit) g u at h
    rw [Pi.zero_apply, Finsupp.zero_apply] at h; exact Nat.lt_irrefl 0 h
  | r + 1, hr, g, u, h => by
    rw [owe_succ, Pi.add_apply, Finsupp.add_apply] at h
    rcases Nat.pos_of_ne_zero (fun h0 => by omega) |> fun (_ : 0 < owe c r g u + tallyAt (actCell c (65 - r)) () (actAmt (65 - r)) g u) =>
        (Nat.eq_zero_or_pos (owe c r g u)) with h0 | hp
    · rw [h0, Nat.zero_add, tallyAt_apply] at h
      by_cases hh : g = actCell c (65 - r) ∧ u = ()
      · exact ⟨65 - r, by omega, by omega, hh.1⟩
      · rw [if_neg hh] at h; exact absurd h (Nat.lt_irrefl 0)
    · obtain ⟨i, h1, h2, h3⟩ := owe_pos c r (by omega) g u hp
      exact ⟨i, by omega, h2, h3⟩

/-- A device may wait on its cell (c, sm) while its last r paying actions are left, when that cell lies strictly below
    the cell of each of them. -/
theorem mayWait_owe (c : Dev nD) (sm : SemLoc sig) (r : ℕ) (hr : r ≤ 66)
    (hlt : ∀ i, 66 - r ≤ i → i < 66 → lv ((c : Thread nD τ), sm) () < lv (actCell c i) ()) :
    (levAts L lv : sProp 𝕄) ⊢ MayWait (c : Thread nD τ) sm () (owe c r) :=
  MayOwe.of_levAts (L := L) (lev := lv)
    (fun p hp => by rw [Finset.mem_singleton.mp hp, L_tc]; exact Finset.mem_singleton_self _)
    (fun g u hg => by
      obtain ⟨i, _, _, rfl⟩ := owe_pos c r hr g u hg
      unfold L; rw [if_pos (actCell_tc c i)]; exact Finset.mem_singleton_self _)
    (fun g u hg p hp => by
      obtain ⟨i, h1, h2, rfl⟩ := owe_pos c r hr g u hg
      rw [Finset.mem_singleton.mp hp]; exact hlt i h1 h2)

/-- At its barrier wait a device has paid its two signals: the 64 copies are left, all to landing cells. -/
theorem mayWait_bar (c : Dev nD) :
    (levAts L lv : sProp 𝕄) ⊢ MayWait (c : Thread nD τ) (.reg barS) () (owe c 64) :=
  mayWait_owe c (.reg barS) 64 (by decide) fun i h1 h2 => by
    show lv (barCell c) () < _; rw [lv_bar]; exact lv_act_ge2 c i (by omega)

/-- A wait on a cell at level 0 (a local copy's, a departure's), the two signals paid. -/
theorem mayWait_x0 (c : Dev nD) (j : Fin 5) (k : Fin 32) (h2 : j ≠ 2) (h4 : j ≠ 4) (r : ℕ) (hr : r ≤ 64) :
    (levAts L lv : sProp 𝕄) ⊢ MayWait (c : Thread nD τ) (.dma (semA (arrJ j) k)) () (owe c r) :=
  mayWait_owe c _ r (by omega) fun i h1 _ => by
    show lv (xcell c j k) () < _; rw [lv_x0 c j k h2 h4]; exact lt_of_lt_of_le (by decide) (lv_act_ge2 c i (by omega))

theorem mayWait_ld (c : Dev nD) (k : Fin 32) (r : ℕ) (hr : r ≤ 64) :
    (levAts L lv : sProp 𝕄) ⊢ MayWait (c : Thread nD τ) (.dma (semA (arrJ 0) k)) () (owe c r) :=
  mayWait_x0 c 0 k (by decide) (by decide) r hr

/-- A wait on a landing cell of the first exchange, only copies of the second exchange left. -/
theorem mayWait_r1 (c : Dev nD) (k : Fin 32) (r : ℕ) (hr : r ≤ 32) :
    (levAts L lv : sProp 𝕄) ⊢ MayWait (c : Thread nD τ) (.dma (semA (arrJ 2) k)) () (owe c r) :=
  mayWait_owe c _ r (by omega) fun i h1 _ => by
    show lv (xcell c 2 k) () < _; rw [lv_r1, lv_act_eq3 c i (by omega)]; decide

/-- Owing nothing, a device may wait anywhere. -/
theorem mayWait_done (c : Dev nD) (sm : SemLoc sig) :
    (levAts L lv : sProp 𝕄) ⊢ MayWait (c : Thread nD τ) sm () (owe c 0) := by
  show _ ⊢ MayWait (c : Thread nD τ) sm () 0
  rw [MayWait_zero]; iintro -; iempintro

end Cert.KernelIdeal.AR

end
-- ==== Proof.Alloc.lean ====
/-
  The launch's ghost state for the protocol's cells, the launch credit, and the pipeline's own waits.

  Every device owns one barrier cell and 160 transfer cells.  The launch element holds, per cell, its round state, its
  owner's position and the mark of round 0, and one token per duty; allocating every cell's invariant for all devices
  under one update lets the tokens travel to the devices that pay the duties: a barrier cell's two tokens to the two
  neighbours, the token of a landing cell to the neighbour whose copy lands there, the others stay.  What a device
  owes at launch is a sum over its 66 paying actions; summed over the devices it gives each cell's launch credit:
  two units on a barrier cell, one chunk's credit on each landing cell, nothing elsewhere.
-/
import proofs.«900152_g7700000000000153_dist_ar_v7x_xy2x2_y_m8192_n1024_bf16_1_alg».proof.Proof.Data
import proofs.«900152_g7700000000000153_dist_ar_v7x_xy2x2_y_m8192_n1024_bf16_1_alg».proof.Proof.Levels

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, and the duty tokens minted with them -/

/-- A cell's index is read back off its semaphore. -/
theorem al_kindOf_kcell (ck : Dev nD × CIx) : kindOf (kcell ck).2 = ck.2 := by
  rcases ck with ⟨c, _ | ⟨j, k⟩⟩
  · exact kindOf_bar
  · exact kindOf_semA j k

theorem kcell_injective : Function.Injective (kcell : Dev nD × CIx → GSem nD τ sig) := by
  rintro ⟨c, i⟩ ⟨c', i'⟩ h
  have h1 : c = c' := by
    have := congrArg (fun g : GSem nD τ sig => g.1.1) h
    rcases i with _ | ⟨j, k⟩ <;> rcases i' with _ | ⟨j', k'⟩ <;> exact this
  have h2 : kindOf (kcell (c, i)).2 = kindOf (kcell (c', i')).2 := congrArg (fun g : GSem nD τ sig => kindOf g.2) h
  rw [al_kindOf_kcell, al_kindOf_kcell] at h2
  have h2' : i = i' := h2
  rw [h1, h2']

def ringCells : Finset (GSem nD τ sig) := Finset.univ.map ⟨kcell, kcell_injective⟩

/-- The duty tokens minted for a device's own cells: its barrier cell's two, and one per transfer cell. -/
abbrev al_TIx : Type := Bool ⊕ (Fin 5 × Fin 32)
abbrev al_tokOf (ct : Dev nD × al_TIx) : GSem nD τ sig × ℕ × Bool := match ct.2 with
  | .inl b => (barCell ct.1, 0, b)
  | .inr jk => (xcell ct.1 jk.1 jk.2, 0, false)

theorem al_tokOf_injective : Function.Injective (al_tokOf : Dev nD × al_TIx → GSem nD τ sig × ℕ × Bool) := by
  rintro ⟨c, t⟩ ⟨c', t'⟩ h
  have h1 : c = c' := by
    have := congrArg (fun x : GSem nD τ sig × ℕ × Bool => x.1.1.1) h
    rcases t with b | ⟨j, k⟩ <;> rcases t' with b' | ⟨j', k'⟩ <;> exact this
  subst h1
  have hk := congrArg (fun x : GSem nD τ sig × ℕ × Bool => kindOf x.1.2) h
  have hb := congrArg (fun x : GSem nD τ sig × ℕ × Bool => x.2.2) h
  rcases t with b | ⟨j, k⟩ <;> rcases t' with b' | ⟨j', k'⟩
  · have : b = b' := hb
    rw [this]
  · exfalso; have : kindOf (SemLoc.reg barS : SemLoc sig) = kindOf (.dma (semA (arrJ j') k')) := hk
    rw [kindOf_bar, kindOf_semA] at this; cases this
  · exfalso; have : kindOf (.dma (semA (arrJ j) k)) = kindOf (SemLoc.reg barS : SemLoc sig) := hk
    rw [kindOf_bar, kindOf_semA] at this; cases this
  · have : kindOf (.dma (semA (arrJ j) k)) = kindOf (.dma (semA (arrJ j') k') : SemLoc sig) := hk
    rw [kindOf_semA, kindOf_semA] at this
    cases this; rfl

def ringToks : Finset (GSem nD τ sig × ℕ × Bool) := Finset.univ.map ⟨al_tokOf, al_tokOf_injective⟩

def u₀ : UU :=
  (initOf (Pipeline.cells cfgs cellOf_inj) (Pipeline.launchToks cfgs cellOf_inj), initOf ringCells ringToks)

/-- The duty tokens of device c's own cells. -/
def al_toks (c : Dev nD) : sProp 𝕄 :=
  iprop(dutyTok ER (barCell c) 0 false ∗ dutyTok ER (barCell c) 0 true
    ∗ bigSep Finset.univ fun jk : Fin 5 × Fin 32 => dutyTok ER (xcell c jk.1 jk.2) 0 false)

/-- What the launch element deals device c: the round state of each of its cells, its position at and the mark of
    round 0 of each, and the tokens of its own cells' duties. -/
def G (c : Dev nD) : sProp 𝕄 :=
  iprop((bigSep Finset.univ fun i : CIx => roundState ER (Rd m) (kcell (c, i)) 0)
    ∗ (bigSep Finset.univ fun i : CIx => iprop(atPos ER (kcell (c, i)) 0 ∅ 0 ∗ reached ER (kcell (c, i)) 0)) ∗ al_toks c)

/-- What the global step makes of it. -/
def G' (c : Dev nD) : sProp 𝕄 := iprop(∃ K, ghost m K c)

theorem al_bigSep_bool (Φ : Bool → sProp 𝕄) : bigSep Finset.univ Φ = iprop(Φ false ∗ Φ true) := by
  rw [bigSep_univ_eq_bigSepL [false, true] (by decide) (by decide), bigSepL_cons_cons, bigSepL_singleton]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) ⊢ bigSep Finset.univ fun c : Dev nD => al_toks c := by
    unfold ringToks; rw [bigSep_map, bigSep_univ_prod]
    refine bigSep_mono fun c _ => ?_
    rw [bigSep_univ_sum, al_bigSep_bool]
    show iprop((dutyTok ER (barCell c) 0 false ∗ dutyTok ER (barCell c) 0 true)
      ∗ bigSep Finset.univ fun jk : Fin 5 × Fin 32 => dutyTok ER (xcell c jk.1 jk.2) 0 false) ⊢ al_toks c
    unfold al_toks
    iintro ⟨⟨H1, H2⟩, H3⟩
    isplitl [H1]; · iexact H1
    isplitl [H2]; · iexact H2
    iexact H3
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores at zero -/

theorem al_semA_val (j : Fin 5) (k : Fin 32) : (semA (arrJ j) k).val = 1 + 32 * j.val + k.val := by
  revert j k; decide +kernel

/-- Transfer cell (j, k) is the kernel's own semaphore number 32 j + k. -/
def al_ownIx : Fin 5 × Fin 32 ≃ Fin 160 where
  toFun jk := ⟨32 * jk.1.val + jk.2.val, by have := jk.1.isLt; have := jk.2.isLt; omega⟩
  invFun i := (⟨i.val / 32, by have := i.isLt; omega⟩, ⟨i.val % 32, Nat.mod_lt _ (by decide)⟩)
  left_inv jk := by
    rcases jk with ⟨j, k⟩
    refine Prod.ext (Fin.ext ?_) (Fin.ext ?_)
    · show (32 * j.val + k.val) / 32 = j.val; have := k.isLt; omega
    · show (32 * j.val + k.val) % 32 = k.val; have := k.isLt; omega
  right_inv i := Fin.ext (by show 32 * (i.val / 32) + i.val % 32 = i.val; omega)

theorem al_osem_ownIx (jk : Fin 5 × Fin 32) : osem (al_ownIx jk) = .dma (semA (arrJ jk.1) jk.2) := by
  show SemLoc.dma _ = SemLoc.dma _
  congr 1; apply Fin.ext; rw [al_semA_val]; show 1 + (32 * jk.1.val + jk.2.val) = _; omega

theorem ownSemFacts : Pipeline.OwnSemFacts cfg0.spec osem where
  isScoped := by decide +kernel
  inj i i' h := by
    have : (1 + i.val) = 1 + i'.val := congrArg (fun s : SemLoc sig => match s with | .dma q => q.val | _ => 0) h
    exact Fin.ext (by omega)
  disj := by decide +kernel

theorem ownSems0_eq (c : Dev nD) : (Pipeline.ownSems0 (Ix := Unit) (Name := ℕ) (U := UU) (Lvl := ℕ) (Val := Elt F) (τ := τ) osem c : sProp 𝕄) = xferSems c := by
  unfold Pipeline.ownSems0 xferSems
  rw [bigSep_univ_equiv al_ownIx]
  exact bigSep_congr fun jk _ => by rw [al_osem_ownIx]

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem al_bigSep_cix (Φ : CIx → sProp 𝕄) : bigSep Finset.univ Φ = iprop(Φ none ∗ bigSep Finset.univ fun jk : Fin 5 × Fin 32 => Φ (some jk)) := by
  rw [bigSep_univ_equiv (Equiv.optionEquivSumPUnit.{0, 0} (Fin 5 × Fin 32)).symm Φ, bigSep_univ_sum, bigSep_univ_of_subsingleton (PUnit.unit.{1})]
  refine equiv_iff.mp ⟨?_, ?_⟩
  · show iprop((bigSep Finset.univ fun jk : Fin 5 × Fin 32 => Φ (some jk)) ∗ Φ none) ⊢ iprop(Φ none ∗ bigSep Finset.univ fun jk : Fin 5 × Fin 32 => Φ (some jk))
    exact BI.sep_comm
  · show iprop(Φ none ∗ bigSep Finset.univ fun jk : Fin 5 × Fin 32 => Φ (some jk)) ⊢ iprop((bigSep Finset.univ fun jk : Fin 5 × Fin 32 => Φ (some jk)) ∗ Φ none)
    exact BI.sep_comm

theorem al_sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [ownSems0_eq, unscopedSems0_eq, al_bigSep_cix]
  unfold xferSems
  iintro ⟨HS, HB⟩
  isplitl [HB]; · iexact HB
  iexact HS

theorem al_core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (Rd m) κ (kcell (c, i))))
          ∗ (bigSep Finset.univ fun i : CIx => iprop(atPos ER (kcell (c, i)) 0 ∅ 0 ∗ reached ER (kcell (c, i)) 0)) ∗ al_toks c) := by
  unfold G
  iintro ⟨Hos, Hus, Hst, Hat, Htok⟩
  ihave Hv := (al_sems0_eq (F := F) c) $$ [Hos Hus]
  · isplitl [Hos] <;> iassumption
  imod (show iprop((bigSep Finset.univ fun i : CIx => semVal (kcell (c, i)) 0) ∗ bigSep Finset.univ fun i : CIx => roundState ER (Rd m) (kcell (c, i)) 0)
      ⊢ (|={Set.univ}=> bigSep Finset.univ fun i : CIx => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens travel to the devices that pay the duties -/

theorem al_inv_at (K : Dev nD × CIx → ℕ) (ck : Dev nD × CIx) :
    (bigSep Finset.univ fun ck : Dev nD × CIx => (cellInv ER (Rd m) (K ck) (kcell ck) : sProp 𝕄)) ⊢ cellInv ER (Rd m) (K ck) (kcell ck) :=
  bigSep_elim (Finset.mem_univ ck)
theorem al_reached_at (ck : Dev nD × CIx) :
    (bigSep Finset.univ fun ck : Dev nD × CIx => (reached ER (kcell ck) 0 : sProp 𝕄)) ⊢ reached ER (kcell ck) 0 :=
  bigSep_elim (Finset.mem_univ ck)

theorem al_ghost_intro (K : Dev nD × CIx → ℕ) (c : Dev nD) : iprop(records m K ∗ positions c ∗ payToks c) ⊢ G' m c := by
  unfold G' ghost
  iintro ⟨HR, HP, HT⟩
  iexists K
  isplitl [HR]; · iexact HR
  isplitl [HP]; · iexact HP
  iexact HT

def al_yE : Dev nD ≃ Dev nD := ⟨ynbr, ynbr, ynbr_ynbr, ynbr_ynbr⟩
def al_xE : Dev nD ≃ Dev nD := ⟨xnbr, xnbr, xnbr_xnbr, xnbr_xnbr⟩

theorem al_bigSep_fin5 (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide), bigSepL_cons_cons, bigSepL_cons_cons, bigSepL_cons_cons,
    bigSepL_cons_cons, bigSepL_singleton]
  rfl

/-- Over the transfer cells: chunk by chunk, the five arrays side by side. -/
theorem al_bigSep_jk (Φ : Fin 5 × Fin 32 → sProp 𝕄) :
    bigSep Finset.univ Φ = bigSep Finset.univ fun k : Fin 32 => iprop(Φ (0, k) ∗ Φ (1, k) ∗ Φ (2, k) ∗ Φ (3, k) ∗ Φ (4, k)) := by
  rw [bigSep_univ_prod, bigSep_univ_comm]
  exact bigSep_congr fun k _ => al_bigSep_fin5 _

/-- A barrier cell's token for the second-axis signal goes to the second-axis neighbour, the one for the first-axis
    signal to the first-axis neighbour; the token of a landing cell goes to the neighbour whose copy lands there. -/
theorem al_toks_around : (bigSep Finset.univ fun c : Dev nD => (al_toks c : sProp 𝕄)) ⊢ bigSep Finset.univ fun c : Dev nD => payToks c := by
  unfold al_toks payToks chunkToks
  simp only [al_bigSep_jk, bigSep_sep']
  rw [bigSep_univ_equiv al_yE (fun c : Dev nD => (dutyTok ER (barCell c) 0 false : sProp 𝕄)),
    bigSep_univ_equiv al_xE (fun c : Dev nD => (dutyTok ER (barCell c) 0 true : sProp 𝕄)),
    bigSep_univ_equiv al_yE (fun c : Dev nD => bigSep Finset.univ fun k : Fin 32 => (dutyTok ER (xcell c 2 k) 0 false : sProp 𝕄)),
    bigSep_univ_equiv al_xE (fun c : Dev nD => bigSep Finset.univ fun k : Fin 32 => (dutyTok ER (xcell c 4 k) 0 false : sProp 𝕄))]
  exact .rfl

theorem al_bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem al_regroup :
    (bigSep Finset.univ fun c : Dev nD => iprop((bigSep Finset.univ fun i : CIx => iprop(∃ κ : ℕ, cellInv ER (Rd m) κ (kcell (c, i))))
          ∗ (bigSep Finset.univ fun i : CIx => iprop(atPos ER (kcell (c, i)) 0 ∅ 0 ∗ reached ER (kcell (c, i)) 0)) ∗ al_toks c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (al_toks_around (F := F)) $$ Htok
  iapply (al_bigSep_with_persistent (R := records m K) fun c _ => al_ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => al_core_alloc m c).trans (bigSep_fupd _ _)).trans (BI.fupd_mono (al_regroup m))

/-! ## The launch credit -/

/-- The cell of paying action a of device d, as (device, index). -/
def al_actK (d : Dev nD) (a : ℕ) : Dev nD × CIx :=
  if a = 0 then (ynbr d, none) else if a = 1 then (xnbr d, none)
  else if a < 34 then (ynbr d, some (2, ⟨(a - 2) % 32, Nat.mod_lt _ (by decide)⟩))
  else (xnbr d, some (4, ⟨(a - 34) % 32, Nat.mod_lt _ (by decide)⟩))

theorem al_actCell_eq (d : Dev nD) (a : ℕ) : actCell d a = kcell (al_actK d a) := by
  unfold actCell al_actK; split_ifs <;> rfl

/-- What a device still owes a cell: the amounts of the actions left that pay it. -/
theorem al_owe_apply (d : Dev nD) (g : GSem nD τ sig) :
    ∀ r, owe d r g () = ∑ i ∈ Finset.range r, if g = actCell d (65 - i) then actAmt (65 - i) else 0
  | 0 => by
    rw [Finset.range_zero, Finset.sum_empty]
    show (0 : CellTallies nD τ sig Unit) g () = 0
    rw [Pi.zero_apply, Finsupp.zero_apply]
  | r + 1 => by
    rw [owe_succ, Pi.add_apply, Finsupp.add_apply, al_owe_apply d g r, Finset.sum_range_succ, tallyAt_apply]
    congr 1
    by_cases h : g = actCell d (65 - r)
    · rw [if_pos ⟨h, rfl⟩, if_pos h]
    · rw [if_neg (fun h' => h h'.1), if_neg h]

/-- At launch, over all 66 actions. -/
theorem al_O₀_apply (d : Dev nD) (ck : Dev nD × CIx) : O₀ d (kcell ck) () = ∑ a ∈ Finset.range 66, if ck = al_actK d a then actAmt a else 0 := by
  unfold O₀
  rw [al_owe_apply]
  refine Finset.sum_nbij' (fun i => 65 - i) (fun a => 65 - a)
    (fun i hi => by have := Finset.mem_range.mp hi; exact Finset.mem_range.mpr (by show 65 - i < 66; omega))
    (fun a ha => by have := Finset.mem_range.mp ha; exact Finset.mem_range.mpr (by show 65 - a < 66; omega))
    (fun i hi => by have := Finset.mem_range.mp hi; show 65 - (65 - i) = i; omega)
    (fun a ha => by have := Finset.mem_range.mp ha; show 65 - (65 - a) = a; omega)
    (fun i _ => ?_)
  show (if kcell ck = actCell d (65 - i) then actAmt (65 - i) else 0) = if ck = al_actK d (65 - i) then actAmt (65 - i) else 0
  rw [al_actCell_eq]
  exact if_congr kcell_injective.eq_iff rfl rfl

/-- Which actions pay a barrier cell, a landing cell of the first exchange, one of the second. -/
theorem al_act_bar : ∀ (c d : Dev nD) (a : Fin 66), ((c, (none : CIx)) = al_actK d a.val) ↔ ((a.val = 0 ∧ d = ynbr c) ∨ (a.val = 1 ∧ d = xnbr c)) := by
  decide +kernel
theorem al_act_r1 : ∀ (c d : Dev nD) (k : Fin 32) (a : Fin 66), ((c, (some (2, k) : CIx)) = al_actK d a.val) ↔ (a.val = 2 + k.val ∧ d = ynbr c) := by
  decide +kernel
theorem al_act_r2 : ∀ (c d : Dev nD) (k : Fin 32) (a : Fin 66), ((c, (some (4, k) : CIx)) = al_actK d a.val) ↔ (a.val = 34 + k.val ∧ d = xnbr c) := by
  decide +kernel

theorem al_sum_pair (a₀ : ℕ) (ha : a₀ < 66) (d₀ : Dev nD) (n : ℕ) :
    ∑ d : Dev nD, ∑ a ∈ Finset.range 66, (if a = a₀ ∧ d = d₀ then n else 0) = n := by
  rw [Finset.sum_eq_single d₀, Finset.sum_eq_single a₀]
  · rw [if_pos ⟨rfl, rfl⟩]
  · intro a _ hne; rw [if_neg (fun h => hne h.1)]
  · intro h; exact absurd (Finset.mem_range.mpr ha) h
  · intro d _ hne; exact Finset.sum_eq_zero fun a _ => if_neg (fun h => hne h.2)
  · intro h; exact absurd (Finset.mem_univ _) h

/-- A barrier cell is owed two units: one by each neighbour. -/
theorem al_sum_O₀_bar (c : Dev nD) : ∑ d : Dev nD, O₀ d (barCell c) () = 2 := by
  have key : ∀ d : Dev nD, O₀ d (barCell c) ()
      = ∑ a ∈ Finset.range 66, ((if a = 0 ∧ d = ynbr c then 1 else 0) + (if a = 1 ∧ d = xnbr c then 1 else 0)) := fun d => by
    rw [show barCell c = kcell (c, none) from rfl, al_O₀_apply]
    refine Finset.sum_congr rfl fun a ha => ?_
    have h := al_act_bar c d ⟨a, Finset.mem_range.mp ha⟩
    by_cases h0 : a = 0 ∧ d = ynbr c
    · rw [if_pos (h.mpr (Or.inl h0)), if_pos h0, if_neg (fun h1 => by have := h0.1; have := h1.1; omega), h0.1]; rfl
    · by_cases h1 : a = 1 ∧ d = xnbr c
      · rw [if_pos (h.mpr (Or.inr h1)), if_neg h0, if_pos h1, h1.1]; rfl
      · rw [if_neg (fun hh => (h.mp hh).elim h0 h1), if_neg h0, if_neg h1]
  rw [Finset.sum_congr rfl fun d _ => key d]
  simp only [Finset.sum_add_distrib]
  rw [al_sum_pair 0 (by decide) (ynbr c) 1, al_sum_pair 1 (by decide) (xnbr c) 1]

/-- A landing cell of the first exchange is owed one chunk's credit, by the second-axis neighbour. -/
theorem al_sum_O₀_r1 (c : Dev nD) (k : Fin 32) : ∑ d : Dev nD, O₀ d (xcell c 2 k) () = N := by
  have key : ∀ d : Dev nD, O₀ d (xcell c 2 k) () = ∑ a ∈ Finset.range 66, if a = 2 + k.val ∧ d = ynbr c then N else 0 := fun d => by
    rw [show xcell c 2 k = kcell (c, some (2, k)) from rfl, al_O₀_apply]
    refine Finset.sum_congr rfl fun a ha => ?_
    have h := al_act_r1 c d k ⟨a, Finset.mem_range.mp ha⟩
    by_cases h0 : a = 2 + k.val ∧ d = ynbr c
    · rw [if_pos (h.mpr h0), if_pos h0]; unfold actAmt; rw [if_neg (by have := h0.1; omega)]
    · rw [if_neg (fun hh => h0 (h.mp hh)), if_neg h0]
  rw [Finset.sum_congr rfl fun d _ => key d, al_sum_pair (2 + k.val) (by have := k.isLt; omega) (ynbr c) N]

/-- A landing cell of the second exchange is owed one chunk's credit, by the first-axis neighbour. -/
theorem al_sum_O₀_r2 (c : Dev nD) (k : Fin 32) : ∑ d : Dev nD, O₀ d (xcell c 4 k) () = N := by
  have key : ∀ d : Dev nD, O₀ d (xcell c 4 k) () = ∑ a ∈ Finset.range 66, if a = 34 + k.val ∧ d = xnbr c then N else 0 := fun d => by
    rw [show xcell c 4 k = kcell (c, some (4, k)) from rfl, al_O₀_apply]
    refine Finset.sum_congr rfl fun a ha => ?_
    have h := al_act_r2 c d k ⟨a, Finset.mem_range.mp ha⟩
    by_cases h0 : a = 34 + k.val ∧ d = xnbr c
    · rw [if_pos (h.mpr h0), if_pos h0]; unfold actAmt; rw [if_neg (by have := h0.1; omega)]
    · rw [if_neg (fun hh => h0 (h.mp hh)), if_neg h0]
  rw [Finset.sum_congr rfl fun d _ => key d, al_sum_pair (34 + k.val) (by have := k.isLt; omega) (xnbr c) N]

theorem al_launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem al_launch_bar (c : Dev nD) :
    tallyOn (barCell c) (launchCredit (Pipeline.owing O₀) 0 (barCell c)) = (tallyAt (barCell c) () 2 : CellTallies nD τ sig Unit) :=
  al_launch_at _ _ (al_sum_O₀_bar c)
theorem al_launch_r1 (c : Dev nD) (k : Fin 32) :
    tallyOn (xcell c 2 k) (launchCredit (Pipeline.owing O₀) 0 (xcell c 2 k)) = (tallyAt (xcell c 2 k) () N : CellTallies nD τ sig Unit) :=
  al_launch_at _ _ (al_sum_O₀_r1 c k)
theorem al_launch_r2 (c : Dev nD) (k : Fin 32) :
    tallyOn (xcell c 4 k) (launchCredit (Pipeline.owing O₀) 0 (xcell c 4 k)) = (tallyAt (xcell c 4 k) () N : CellTallies nD τ sig Unit) :=
  al_launch_at _ _ (al_sum_O₀_r2 c k)

theorem al_semOf_injective (c : Dev nD) : Function.Injective (fun i : CIx => (kcell (c, i)).2) := fun i i' h => by
  have h2 : kindOf (kcell (c, i)).2 = kindOf (kcell (c, i')).2 := congrArg kindOf h
  rw [al_kindOf_kcell, al_kindOf_kcell] at h2
  exact h2

/-- The launch credit of one cell. -/
def al_lcAt (g : GSem nD τ sig) : sProp 𝕄 := cred (tallyOn g (launchCredit (Pipeline.owing O₀) 0 g))
theorem al_lcAt_bar (c : Dev nD) : (al_lcAt (barCell c) : sProp 𝕄) = cred (tallyAt (barCell c) () 2) := by unfold al_lcAt; rw [al_launch_bar]
theorem al_lcAt_r1 (c : Dev nD) (k : Fin 32) : (al_lcAt (xcell c 2 k) : sProp 𝕄) = cred (tallyAt (xcell c 2 k) () N) := by unfold al_lcAt; rw [al_launch_r1]
theorem al_lcAt_r2 (c : Dev nD) (k : Fin 32) : (al_lcAt (xcell c 4 k) : sProp 𝕄) = cred (tallyAt (xcell c 4 k) () N) := by unfold al_lcAt; rw [al_launch_r2]

/-- The credit tokens the launch deals device c: two units on its barrier cell, a chunk's credit on each landing cell. -/
theorem creds_intro (c : Dev nD) : (Pipeline.launchCred O₀ c : sProp 𝕄) ⊢ creds c := by
  unfold Pipeline.launchCred
  refine (bigSep_subset (Finset.subset_univ (Finset.univ.map ⟨fun i : CIx => (kcell (c, i)).2, al_semOf_injective c⟩))).trans ?_
  rw [bigSep_map, al_bigSep_cix, al_bigSep_jk]
  show iprop(al_lcAt (barCell c) ∗ bigSep Finset.univ fun k : Fin 32 =>
    iprop(al_lcAt (xcell c 0 k) ∗ al_lcAt (xcell c 1 k) ∗ al_lcAt (xcell c 2 k) ∗ al_lcAt (xcell c 3 k) ∗ al_lcAt (xcell c 4 k))) ⊢ creds c
  unfold creds
  rw [al_lcAt_bar]
  refine sep_mono_right (bigSep_mono fun k _ => ?_)
  rw [al_lcAt_r1, al_lcAt_r2]
  show iprop(al_lcAt (xcell c 0 k) ∗ al_lcAt (xcell c 1 k) ∗ cred (tallyAt (xcell c 2 k) () N) ∗ al_lcAt (xcell c 3 k) ∗ cred (tallyAt (xcell c 4 k) () N))
    ⊢ iprop(cred (tallyAt (xcell c 2 k) () N) ∗ cred (tallyAt (xcell c 4 k) () N))
  iintro ⟨-, -, H2, -, H4⟩
  isplitl [H2]; · iexact H2
  iexact H4

/-! ## The pipeline's own waits -/

theorem al_lv_stage (c : Dev nD) (w : Fin cfg0.W) (s : Fin (cfg0.win w).nbuf) : lv ((c : Thread nD τ), .dma ((cfg0.win w).sem s)) () = 0 := by
  have hq : ((cfg0.win w).sem s).val = 0 := by revert w s; decide
  dsimp only [lv]
  rw [if_neg (fun h => by cases h), show kindOf (SemLoc.dma ((cfg0.win w).sem s)) = none from dif_neg (by omega)]

theorem al_lv_act_pos (c : Dev nD) (i : ℕ) : 0 < lv (actCell c i) () := by
  by_cases h0 : i = 0
  · rw [h0, actCell_zero, lv_bar]; decide
  by_cases h1 : i = 1
  · rw [h1, actCell_one, lv_bar]; decide
  exact lt_of_lt_of_le (by decide) (lv_act_ge2 c i (by omega))

/-- The result's staging cell lies below every cell a device pays. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | t, ht⟩
    · show _ ⊢ MayWait (c : Thread nD τ) _ () (owe c 66)
      exact mayWait_owe c _ 66 le_rfl fun i _ _ => by rw [al_lv_stage]; exact al_lv_act_pos c i
    · show _ ⊢ MayWait (c : Thread nD τ) _ () 0
      rw [MayWait_zero]; iintro -; iempintro

end Cert.KernelIdeal.AR

end
-- ==== Proof.Launch.lean ====
/-
  The launch of the two-phase all-reduce: the body lemma in the form the pipeline asks it, what a device holds when
  its kernel starts and what it hands back at the end, and the run of the whole program on the four devices.  After
  the run every device's result array is `outW` of the argument blocks and its argument block is unchanged.
-/
import proofs.«900152_g7700000000000153_dist_ar_v7x_xy2x2_y_m8192_n1024_bf16_1_alg».proof.Proof.Data
import proofs.«900152_g7700000000000153_dist_ar_v7x_xy2x2_y_m8192_n1024_bf16_1_alg».proof.Proof.Alloc

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body lemma as the pipeline asks it -/

theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = stg c b Xc := by
  unfold owns; simp only [Memref.view_whole, View.read_whole, View.set_whole]

set_option maxRecDepth 8000 in
/-- What the pipeline hands the body at its one point. -/
def bodyPre' (c : Dev nD) : sProp 𝕄 :=
  iprop(Φ₀ m c ∗ (dats m ρ 0 c).owesAt () t₀.castSucc
    ∗ (∃ d, stg c cc0_stg0_0 ((dats m ρ 0 c).before (0 : Fin 1) t₀ d)))

set_option maxRecDepth 100000 in
theorem body_obligation (hb : SoundBody m ρ) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hcr, Hlev, Harg⟩, Hscr⟩, Ho, Hout⟩
  iapply (hb K c fun _ => bodyPost m ρ c)
  unfold bodyPre
  isplitr []
  · isplitl [Hg Hcr Hlev Harg Hscr]
    · isplitl [Hg]; · iexact Hg
      isplitl [Hcr]; · iexact Hcr
      isplitl [Hlev]; · iexact Hlev
      isplitl [Harg]; · iexact Harg
      iexact Hscr
    isplitl [Ho]; · iexact Ho
    iexact Hout
  · iintro H; iexact H

theorem share_eq (c : Dev nD) (w : Fin cfg0.W) : (dats m ρ 0 c).share w = fullShare := by unfold Dat.share; split <;> rfl

/-! ## The launch theorem's side conditions -/

/-- At launch a device holds its argument block, the level facts, its launch credit and its share of the ghost
    state: together, what its kernel starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨Harg, Hlev, Hcr, -, HG⟩
  ihave Hc := (creds_intro (F := F) c) $$ Hcr
  imodintro
  unfold start argPts
  isplitl
  · isplitl [HG]; · iexact HG
    isplitl [Hc]; · iexact Hc
    isplitl [Hlev]; · iexact Hlev
    iexact Harg
  · iempintro

/-- With the three scratch buffers the region allocates, that is the invariant before the one point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

/-- After the point the device gives back the scratch buffers and its transfer semaphores at zero, and keeps its
    argument block. -/
theorem phi1_exit (c : Dev nD) :
    (dats m ρ 0 c).Φ (Fin.last cfg0.N) ⊢ iprop(argPts m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ scratches
  iintro ⟨Hr, Hx, Ha⟩
  isplitl [Ha]; · iexact Ha
  isplitl [Hx]; · iexact Hx
  iexact Hr

/-! ## The result array after the run -/

/-- The one point writes the whole staging buffer back over the whole result array. -/
theorem final_out (c : Dev nD) : (dats m ρ 0 c).arrAt (0 : Fin 1) cfg0.N = outB m c := by
  have h := (dats m ρ 0 c).arrAt_succ (0 : Fin 1) t₀
  rw [flush0_0 t₀, if_pos rfl] at h
  have hN : cfg0.N = t₀.val + 1 := rfl
  rw [hN, h]
  have hz' : (fun a => win0_0.index t₀ a * main_v1.ty.shape.size a) = fun _ => 0 := funext fun a => by fin_cases a <;> decide
  exact Memref.write_access_unit_zero_univ (Elt F) main_v1 hz' (fun a => by rw [congrFun hz' a]; simp) _ (outB m c)

/-! ## The run -/

set_option maxRecDepth 100000 in
/-- On the mesh of four devices, for any float values, from any memory with every counter at zero: every weakly fair
    execution of the program — the four kernels handshaking, exchanging their halves along the second mesh axis, adding,
    and exchanging the sums along the first — terminates, and in every final state each device's result array holds
    `outW` of the argument blocks and its argument block is unchanged. -/
theorem run_main (hb : SoundBody m ρ) : θ_run defs (onTc (τ := τ) (main (F := F))) (s₀ m ρ) (fun r => ∀ c : Dev nD,
      r.2.mem ((c.tc : Thread nD τ).loc main_v1) = outB m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hb) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := argPts m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold argPts
      iintro ⟨Hx, -, HSI⟩
      icombine HSI Hx gives %hx
      imodintro
      isplitr; · ipureintro; exact Buf.eq_of_forall_mem_univ hx
      iexact HSI)
    (hQ := fun s h c => ⟨((h c).1 0).trans (final_out m ρ c), (h c).2.2⟩)

/-- info: 'Cert.KernelIdeal.AR.run_main' depends on axioms: [propext, Classical.choice, Quot.sound] -/
#guard_msgs in #print axioms run_main

end Cert.KernelIdeal.AR

end
-- ==== Proof.Chunk.lean ====
/-
  The resources of ONE chunk k of ONE device, stage by stage of the kernel: before its local copy is started (st0), while
  that copy is in flight (st1), after its phase-1 copy is started (st2), after its phase-2 copy is started (st3) and
  after the three closing waits (st4); what the barrier hands over and brings per chunk; and what a device owes before
  and after each paying action.
-/
import proofs.«900152_g7700000000000153_dist_ar_v7x_xy2x2_y_m8192_n1024_bf16_1_alg».proof.Proof.Data
import proofs.«900152_g7700000000000153_dist_ar_v7x_xy2x2_y_m8192_n1024_bf16_1_alg».proof.Proof.Levels

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The records, cell by cell -/

theorem inv_at (K : Dev nD × CIx → ℕ) (ck : Dev nD × CIx) :
    (bigSep Finset.univ fun ck : Dev nD × CIx => (cellInv ER (Rd m) (K ck) (kcell ck) : sProp 𝕄)) ⊢ cellInv ER (Rd m) (K ck) (kcell ck) :=
  bigSep_elim (Finset.mem_univ ck)
theorem reached_at (ck : Dev nD × CIx) :
    (bigSep Finset.univ fun ck : Dev nD × CIx => (reached ER (kcell ck) 0 : sProp 𝕄)) ⊢ reached ER (kcell ck) 0 :=
  bigSep_elim (Finset.mem_univ ck)

theorem inv_of_records (K : Dev nD × CIx → ℕ) (ck : Dev nD × CIx) :
    records m K ⊢ cellInv ER (Rd m) (K ck) (kcell ck) := by
  unfold records
  iintro ⟨#HI, -⟩
  iapply (inv_at m K ck); iexact HI

theorem reached_of_records (K : Dev nD × CIx → ℕ) (ck : Dev nD × CIx) :
    records m K ⊢ reached ER (kcell ck) 0 := by
  unfold records
  iintro ⟨-, #HR⟩
  iapply (reached_at (F := F) ck); iexact HR

/-! ## What a device owes around its paying actions -/

/-- Device c's debt with its last r paying actions left, whatever waits it has recorded. -/
def owesX (c : Dev nD) (r : ℕ) : sProp 𝕄 := iprop(∃ W, owes (c : Thread nD τ) (owe c r) W)

theorem owe_sigY (c : Dev nD) : owe c 66 = owe c 65 + tallyAt (barCell (ynbr c)) () 1 := rfl
theorem owe_sigX (c : Dev nD) : owe c 65 = owe c 64 + tallyAt (barCell (xnbr c)) () 1 := rfl
theorem actAmt_big (i : ℕ) (h : 2 ≤ i) : actAmt i = N := by unfold actAmt; exact if_neg (by omega)
theorem owe_p1 (c : Dev nD) (k : Fin 32) : owe c (64 - k.val) = owe c (63 - k.val) + tallyAt (xcell (ynbr c) 2 k) () N := by
  have hk := k.isLt
  have h : 64 - k.val = (63 - k.val) + 1 := by omega
  have h2 : 65 - (63 - k.val) = 2 + k.val := by omega
  rw [h, owe_succ, h2, actCell_ph1', actAmt_big _ (by omega)]
theorem owe_p2 (c : Dev nD) (k : Fin 32) : owe c (32 - k.val) = owe c (31 - k.val) + tallyAt (xcell (xnbr c) 4 k) () N := by
  have hk := k.isLt
  have h : 32 - k.val = (31 - k.val) + 1 := by omega
  have h2 : 65 - (31 - k.val) = 34 + k.val := by omega
  rw [h, owe_succ, h2, actCell_ph2', actAmt_big _ (by omega)]

/-! ## The chunk's resources, stage by stage -/

abbrev posJ (c : Dev nD) (j : Fin 5) (k : Fin 32) : sProp 𝕄 := atPos ER (xcell c j k) 0 ∅ 0
abbrev credJ (c : Dev nD) (j : Fin 5) (k : Fin 32) : sProp 𝕄 := cred (tallyAt (xcell c j k) () (amt j))

/-- Before the local copy of chunk k is started. -/
def st0 (c : Dev nD) (k : Fin 32) : sProp 𝕄 :=
  iprop(pts (xSl (hf c) k) c fullShare (X m c) ∗ (∃ f, pts (vSl k) c fullShare f) ∗ (∃ f, pts (sSl k) c fullShare f)
    ∗ (∃ f, pts (oSl (hf c) k) c fullShare f) ∗ chunkToks c k
    ∗ (posJ c 0 k ∗ posJ c 1 k ∗ posJ c 2 k ∗ posJ c 3 k ∗ posJ c 4 k) ∗ credJ c 2 k ∗ credJ c 4 k)

/-- The local copy of chunk k in flight. -/
def st1 (c : Dev nD) (k : Fin 32) : sProp 𝕄 :=
  iprop(credJ c 0 k ∗ (∃ f, pts (sSl k) c fullShare f) ∗ (∃ f, pts (oSl (hf c) k) c fullShare f)
    ∗ (dutyTok ER (xcell c 1 k) 0 false ∗ dutyTok ER (xcell (ynbr c) 2 k) 0 false ∗ dutyTok ER (xcell c 3 k) 0 false
        ∗ dutyTok ER (xcell (xnbr c) 4 k) 0 false)
    ∗ (posJ c 0 k ∗ posJ c 1 k ∗ posJ c 2 k ∗ posJ c 3 k ∗ posJ c 4 k) ∗ credJ c 2 k ∗ credJ c 4 k)

/-- What the second-axis neighbour's barrier signal brings for chunk k: that neighbour's receive chunk. -/
def gotY (c : Dev nD) (k : Fin 32) : sProp 𝕄 := iprop(∃ f, pts (rSl k) (ynbr c) fullShare f)
/-- What the first-axis neighbour's barrier signal brings for chunk k: that neighbour's result chunk in c's half. -/
def gotX (c : Dev nD) (k : Fin 32) : sProp 𝕄 := iprop(∃ f, pts (oSl (hf c) k) (xnbr c) fullShare f)
/-- What device c hands over with its two barrier signals: its receive chunks, and its result chunks in the other half. -/
def giveY (c : Dev nD) : sProp 𝕄 := bigSep Finset.univ fun k : Fin 32 => iprop(∃ f, pts (rSl k) c fullShare f)
def giveX (c : Dev nD) : sProp 𝕄 := bigSep Finset.univ fun k : Fin 32 => iprop(∃ f, pts (oSl (hf (xnbr c)) k) c fullShare f)

/-- After the phase-1 copy of chunk k is started: the f32 chunk has landed, the send chunk holds the cast rows, half of it
    lent to the copy. -/
def st2 (c : Dev nD) (k : Fin 32) : sProp 𝕄 :=
  iprop(pts (xSl (hf c) k) c fullShare (X m c) ∗ pts (vSl k) c fullShare (xvB m c) ∗ pts (sSl k) c fullShare.right (sendB m c)
    ∗ credJ c 1 k ∗ (∃ f, pts (oSl (hf c) k) c fullShare f)
    ∗ (dutyTok ER (xcell c 3 k) 0 false ∗ dutyTok ER (xcell (xnbr c) 4 k) 0 false)
    ∗ (posJ c 1 k ∗ posJ c 2 k ∗ posJ c 3 k ∗ posJ c 4 k) ∗ credJ c 2 k ∗ credJ c 4 k ∗ semVal (xcell c 0 k) 0)

/-- After the phase-2 copy of chunk k is started: the neighbour's rows have landed, the sum is stored and lent to the copy. -/
def st3 (c : Dev nD) (k : Fin 32) : sProp 𝕄 :=
  iprop(pts (xSl (hf c) k) c fullShare (X m c) ∗ pts (vSl k) c fullShare (xvB m c) ∗ pts (sSl k) c fullShare.right (sendB m c)
    ∗ credJ c 1 k ∗ pts (rSl k) c fullShare (recvB m c) ∗ credJ c 3 k
    ∗ (posJ c 1 k ∗ posJ c 3 k ∗ posJ c 4 k) ∗ credJ c 4 k ∗ semVal (xcell c 0 k) 0 ∗ semVal (xcell c 2 k) 0)

/-- After the closing waits of chunk k: every chunk back whole at its final contents, the five cells closed. -/
def st4 (c : Dev nD) (k : Fin 32) : sProp 𝕄 :=
  iprop(pts (xSl (hf c) k) c fullShare (X m c) ∗ pts (vSl k) c fullShare (xvB m c) ∗ pts (sSl k) c fullShare (sendB m c)
    ∗ pts (rSl k) c fullShare (recvB m c) ∗ pts (oSl (hf c) k) c fullShare (outB m c) ∗ pts (oSl (hf (xnbr c)) k) c fullShare (outB m c)
    ∗ semVal (xcell c 0 k) 0 ∗ semVal (xcell c 1 k) 0 ∗ semVal (xcell c 2 k) 0 ∗ semVal (xcell c 3 k) 0 ∗ semVal (xcell c 4 k) 0)

/-! ## The kernel's own spellings of the chunk memrefs whose offset depends on the device -/

/-- The input chunk and the result chunk as the kernel spells them (offsets through the printed chains). -/
abbrev xSlP (c : Dev nD) (k : Fin 32) : Memref sig .tc .hbm S128x1024 .f32 :=
  xM.slice (Rect.unit (s := S8192x1024) (k0_off1 c (BitVec.ofNat 32 (128 * k.val))) S128x1024.size (k0_off1_inb c k)) (fun _ => rfl)
abbrev oSlP1 (c : Dev nD) (k : Fin 32) : Memref sig .tc .vmem S128x1024 .bf16 :=
  oM.slice (Rect.unit (s := S8192x1024) (k0_off1 c (BitVec.ofNat 32 (128 * k.val))) S128x1024.size (k0_off1_inb c k)) (fun _ => rfl)
abbrev rOP2 (c : Dev nD) (k : Fin 32) : Rect S8192x1024 :=
  Rect.unit (s := S8192x1024) (k0_off2 c (BitVec.ofNat 32 (128 * k.val))) S128x1024.size (k0_off2_inb c k)

theorem off1_closed (c : Dev nD) (k : Fin 32) : k0_off1 c (BitVec.ofNat 32 (128 * k.val)) = ![4096 * (hf c).val + 128 * k.val, 0] := k0_off1_eq c k
theorem off2_closed (c : Dev nD) (k : Fin 32) : k0_off2 c (BitVec.ofNat 32 (128 * k.val)) = ![4096 * (hf c).val + 128 * k.val, 0] := k0_off2_eq c k

theorem rect_congr {s : Shape} {o o' : Fin s.rank → Nat} (h : o = o') (sz : Fin s.rank → Nat) (i : ∀ a, o a + sz a ≤ s.size a) (i' : ∀ a, o' a + sz a ≤ s.size a) :
    Rect.unit (s := s) o sz i = Rect.unit (s := s) o' sz i' := by subst h; rfl

theorem rOP2_eq (c : Dev nD) (k : Fin 32) : rOP2 c k = rO (hf c) k := rect_congr (off2_closed c k) _ _ _
theorem xSlP_eq (c : Dev nD) (k : Fin 32) : xSlP c k = xSl (hf c) k := by
  unfold xSlP xSl; congr 1; exact rect_congr (off1_closed c k) _ _ _
theorem oSlP1_eq (c : Dev nD) (k : Fin 32) : oSlP1 c k = oSl (hf c) k := by
  unfold oSlP1 oSl; congr 1; exact rect_congr (off1_closed c k) _ _ _

end Cert.KernelIdeal.AR

end
-- ==== Proof.Phase0.lean ====
/-
  Starting the local copy of chunk k: the input rows and the f32 chunk go into the copy, which pays the one duty of the
  chunk's local-copy cell; the device keeps the credit to wait for it.
-/
import proofs.«900152_g7700000000000153_dist_ar_v7x_xy2x2_y_m8192_n1024_bf16_1_alg».proof.Proof.Chunk

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem amount_v (k : Fin 32) (sm : DmaSem sig) : (vSl k).view.amount (.dma sm) = Nv := rfl

/-- The value fact this step needs (discharged from the geometry module): the copy's landing leaves the f32 chunk at
    its final contents. -/
abbrev LandV (c : Dev nD) (k : Fin 32) : Prop :=
  ∀ fd : Buf (Elt F) ((vSl k).view.loc (c : Thread nD τ)),
    pts (vSl k) c fullShare ((vSl k).view.write (Elt F) fd ((xSl (hf c) k).view.read (Elt F) (X m c)) Finset.univ)
      = (pts (vSl k) c fullShare (xvB m c) : sProp 𝕄)

theorem phase0_chunk (K : Dev nD × CIx → ℕ) (c : Dev nD) (k : Fin 32) (hv : LandV m c k)
    {hsrc : (xSlP c k).view.WordExact} {hdst : (vSl k).view.WordExact}
    {hsem : DmaTarget.Typed (nD := nD) .hbm (.dma (semA cc0_scratch3 k)) (DmaTarget.here (vSl k) : DmaTarget nD τ sig (c : Thread nD τ).2 .vmem S128x1024 .f32)}
    {α : Type} {Q : α → sProp 𝕄} {rest : PUnit → Prog (TpuEff nD τ sig (Elt F) Λ₀ .tc) α} :
    iprop(records m K ∗ st0 m c k)
      ⊢ iprop((st1 c k -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma (xSlP c k) (.here (vSl k)) (.dma (semA cc0_scratch3 k)) hsrc hdst hsem) rest) Q) := by
  unfold st0 st1 chunkToks
  revert hsrc
  rw [xSlP_eq c k]
  intro hsrc
  iintro ⟨#Hrec, Hx, ⟨%fv, Hv⟩, Hs, Ho, ⟨Ht0, Ht1, Ht2, Ht3, Ht4⟩, Hpos, Hc2, Hc4⟩ Hk
  ihave #HI := (inv_of_records m K (c, some (0, k))) $$ Hrec
  ihave #HR := (reached_of_records m K (c, some (0, k))) $$ Hrec
  iapply (Rounds.wp_copy_pointsTo 𝒱₀ ER (Rd m) (c : Thread nD τ) none (κ := K (c, some (0, k))) (r := 0) (d := false) (fd := fv) (q := fullShare) (fs := X m c)
      (by rw [duties_x]; exact Finset.mem_singleton_self _) () Nv (amount_v k _) (amount_x m c 0 k false)
      (by rw [payload_x]; exact sep_mono_left (Entails.of_eq (hv fv)))) $$ [Hx Hv Ht0]
  · isplitr; · iexact HI
    isplitl [Hx]; · iexact Hx
    isplitl [Hv]; · iexact Hv
    isplitl [Ht0]; · iexact Ht0
    iexact HR
  iintro Hc0
  iapply Hk
  isplitl [Hc0]; · iexact Hc0
  isplitl [Hs]; · iexact Hs
  isplitl [Ho]; · iexact Ho
  isplitl [Ht1 Ht2 Ht3 Ht4]
  · isplitl [Ht1]; · iexact Ht1
    isplitl [Ht2]; · iexact Ht2
    isplitl [Ht3]; · iexact Ht3
    iexact Ht4
  isplitl [Hpos]; · iexact Hpos
  isplitl [Hc2]; · iexact Hc2
  iexact Hc4

end Cert.KernelIdeal.AR

end
-- ==== Proof.Geom.lean ====
/-
  Where the elements of a chunk sit, and what the chunks hold after each step of the all-reduce.

  Element x of chunk k of a 4096-row buffer sits at row 128 k + x₀; element x of chunk (h, k) of an 8192-row array at
  row 4096 h + (128 k + x₀), which is row 128 k + x₀ of half h.  With these two facts each step's new contents of a chunk are
  read off element by element: the local copy lands the device's half of its block; the cast stores the sent values;
  the second-axis neighbour's copy lands that neighbour's sent values, which are the received values of the device;
  the sum of sent and received is the device's result on its half of the rows; and the first-axis neighbour, whose
  result on those rows is the same sum, receives it there.
-/
import proofs.«900152_g7700000000000153_dist_ar_v7x_xy2x2_y_m8192_n1024_bf16_1_alg».proof.Proof.Protocol
import Idealize.ShloMosaic.Rules.PointsTo
import Idealize.ShloMosaic.Lib.Pipeline.Value

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Where a chunk's element sits -/

/-- Element x of chunk (h, k) of an 8192-row array is element x of chunk k of half h. -/
theorem rO_emb (h : Fin 2) (k : Fin 32) (x : S128x1024.Idx) :
    (rO h k).emb x = halfRow h.val h.isLt ((rS k).emb x) := by
  funext a
  apply Fin.ext
  revert a
  refine Fin.forall_fin_two.mpr ⟨?_, ?_⟩
  · show 4096 * h.val + 128 * k.val + 1 * (x 0).val = 4096 * h.val + (128 * k.val + 1 * (x 0).val)
    omega
  · show 0 + 1 * (x 1).val = 0 + 1 * (x 1).val
    rfl

/-- Its row lies in half h … -/
theorem rO_emb_half (h : Fin 2) (k : Fin 32) (x : S128x1024.Idx) : ((rO h k).emb x 0).val / 4096 = h.val := by
  have hx : (x 0).val < 128 := (x 0).isLt
  have hk := k.isLt
  show (4096 * h.val + 128 * k.val + 1 * (x 0).val) / 4096 = h.val
  omega

/-- … at the place of element x of chunk k. -/
theorem inHalf_rO_emb (h : Fin 2) (k : Fin 32) (x : S128x1024.Idx) : inHalf ((rO h k).emb x) = (rS k).emb x := by
  have hx : (x 0).val < 128 := (x 0).isLt
  have hk := k.isLt
  funext a
  apply Fin.ext
  revert a
  refine Fin.forall_fin_two.mpr ⟨?_, ?_⟩
  · show (4096 * h.val + 128 * k.val + 1 * (x 0).val) % 4096 = 128 * k.val + 1 * (x 0).val
    omega
  · show 0 + 1 * (x 1).val = 0 + 1 * (x 1).val
    rfl

/-! ## The result array on the rows of one half -/

/-- On the rows of its own half a device's result is its own sum. -/
theorem outW_own (X : Blocks F) (c : Dev nD) (k : Fin 32) (x : S128x1024.Idx) :
    outW X c ((rO (hf c) k).emb x) = sumW X c ((rS k).emb x) := by
  unfold outW
  rw [if_pos (show ((rO (hf c) k).emb x 0).val / 4096 = c.val / 2 from rO_emb_half (hf c) k x), inHalf_rO_emb]

/-- On those rows the first-axis neighbour's result is the same sum: they are the rows of the other half for it. -/
theorem outW_xnbr (X : Blocks F) (c : Dev nD) (k : Fin 32) (x : S128x1024.Idx) :
    outW X (xnbr c) ((rO (hf c) k).emb x) = sumW X c ((rS k).emb x) := by
  have hne : ¬ ((rO (hf c) k).emb x 0).val / 4096 = (xnbr c).val / 2 := by
    rw [rO_emb_half, xnbr_half]
    have := half_lt c
    show ¬ c.val / 2 = 1 - c.val / 2
    omega
  unfold outW
  rw [if_neg hne, xnbr_xnbr, inHalf_rO_emb]

/-! ## The rectangles the body names by its own offset arithmetic -/

theorem off1_rect (c : Dev nD) (k : Fin 32) :
    Rect.unit (s := S8192x1024) (k0_off1 c (BitVec.ofNat 32 (128 * k.val))) S128x1024.size (k0_off1_inb c k) = rO (hf c) k :=
  Rect.unit_congr (k0_off1_eq c k) _ _

theorem off2_rect (c : Dev nD) (k : Fin 32) :
    Rect.unit (s := S8192x1024) (k0_off2 c (BitVec.ofNat 32 (128 * k.val))) S128x1024.size (k0_off2_inb c k) = rO (hf c) k :=
  Rect.unit_congr (k0_off2_eq c k) _ _

/-- The slices of an 8192-row memref through them are the chunks. -/
theorem off1_slice {sp : Space} {e : EltTy} (M : Memref sig .tc sp S8192x1024 e) (c : Dev nD) (k : Fin 32) (hs hs') :
    M.slice (Rect.unit (s := S8192x1024) (k0_off1 c (BitVec.ofNat 32 (128 * k.val))) S128x1024.size (k0_off1_inb c k)) hs
      = M.slice (rO (hf c) k) hs' :=
  Memref.slice_unit_congr M (k0_off1_eq c k) _ _ hs hs'

theorem off2_slice {sp : Space} {e : EltTy} (M : Memref sig .tc sp S8192x1024 e) (c : Dev nD) (k : Fin 32) (hs hs') :
    M.slice (Rect.unit (s := S8192x1024) (k0_off2 c (BitVec.ofNat 32 (128 * k.val))) S128x1024.size (k0_off2_inb c k)) hs
      = M.slice (rO (hf c) k) hs' :=
  Memref.slice_unit_congr M (k0_off2_eq c k) _ _ hs hs'

/-! ## The payloads of the two stores -/

theorem pay_cast_eq (v : Vec F S128x1024 .f32) :
    shapeCast S128x1024 (truncf .bf16 v bitsLt_bf16_f32) shapeCasts_S128x1024_S128x1024 = truncf .bf16 v bitsLt_bf16_f32 :=
  shapeCast_self _ _

example (v : Vec F S128x1024 .f32) :
    Gen.k0_pay1 v = shapeCast S128x1024 (truncf .bf16 v bitsLt_bf16_f32) shapeCasts_S128x1024_S128x1024 := rfl
example (v : Vec F S128x1024 .f32) :
    Gen.k0_pay36 v = shapeCast S128x1024 (truncf .bf16 v bitsLt_bf16_f32) shapeCasts_S128x1024_S128x1024 := rfl
example (v w : Vec F S128x1024 .bf16) : Gen.k0_pay37 v w = addf v w := rfl

variable (m : (ℓ : Loc nD τ sig) → Buf (Elt F) ℓ)

/-! ## What each step leaves in a chunk -/

/-- (1) The local copy of chunk k of the device's half of its block leaves the f32 scratch chunk at its final contents. -/
theorem ld_landed (c : Dev nD) (k : Fin 32) (fd : Buf (Elt F) ((c : Thread nD τ).loc cc0_scratch0)) :
    ∀ i ∈ (vSl k).view.set,
      (vSl k).view.write (Elt F) fd ((xSl (hf c) k).view.read (Elt F) (X m c)) Finset.univ i = xvB m c i := by
  intro i hi
  obtain ⟨x, rfl⟩ := View.exists_emb_of_mem_set _ hi
  rw [View.write_emb_of_mem _ _ (Finset.mem_univ x), View.read_apply]
  show X m c ((rO (hf c) k).emb x) = X m c (halfRow (c.val / 2) (half_lt c) ((rS k).emb x))
  rw [rO_emb]
  rfl

/-- Chunk k of the f32 scratch, of the send buffer and of the receive buffer at their final contents, as the loads read them. -/
abbrev xvChunk (c : Dev nD) (k : Fin 32) : Vec F S128x1024 .f32 := vM.view.readAt (Elt F) (rS k).toLoadRect (xvB m c)
abbrev sendChunk (c : Dev nD) (k : Fin 32) : Vec F S128x1024 .bf16 := sM.view.readAt (Elt F) (rS k).toLoadRect (sendB m c)
abbrev recvChunk (c : Dev nD) (k : Fin 32) : Vec F S128x1024 .bf16 := rM.view.readAt (Elt F) (rS k).toLoadRect (recvB m c)

/-- (2) The cast of the loaded f32 chunk, stored, leaves the send chunk at its final contents. -/
theorem st1_value_of (c : Dev nD) (k : Fin 32) (fs : Buf (Elt F) ((c : Thread nD τ).loc cc0_scratch1))
    (v : Vec F S128x1024 .f32) (hv : v = vM.view.readAt (Elt F) (rS k).toLoadRect (xvB m c)) :
    ∀ i ∈ (sSl k).view.set,
      (sM.access (rS k)).write (Elt F) fs
        (shapeCast S128x1024 (truncf .bf16 v bitsLt_bf16_f32) shapeCasts_S128x1024_S128x1024) Finset.univ i
        = sendB m c i := by
  intro i hi
  obtain ⟨x, rfl⟩ := View.exists_emb_of_mem_set _ hi
  rw [shapeCast_self]
  subst hv
  show (sSl k).view.write (Elt F) fs _ Finset.univ ((sSl k).view.emb x) = _
  rw [View.write_emb_of_mem _ _ (Finset.mem_univ x)]
  rfl

theorem st1_value (c : Dev nD) (k : Fin 32) (fs : Buf (Elt F) ((c : Thread nD τ).loc cc0_scratch1)) :
    ∀ i ∈ (sSl k).view.set,
      (sM.access (rS k)).write (Elt F) fs
        (shapeCast S128x1024 (truncf .bf16 (xvChunk m c k) bitsLt_bf16_f32) shapeCasts_S128x1024_S128x1024) Finset.univ i
        = sendB m c i :=
  st1_value_of m c k fs _ rfl

/-- (3) The second-axis neighbour's copy of its send chunk leaves the receive chunk at its final contents. -/
theorem r1_landed (c : Dev nD) (k : Fin 32) (fd : Buf (Elt F) ((ynbr c : Thread nD τ).loc cc0_scratch2)) :
    ∀ i ∈ (rSl k).view.set,
      (rSl k).view.write (Elt F) fd ((sSl k).view.read (Elt F) (sendB m c)) Finset.univ i = recvB m (ynbr c) i := by
  intro i hi
  obtain ⟨x, rfl⟩ := View.exists_emb_of_mem_set _ hi
  rw [View.write_emb_of_mem _ _ (Finset.mem_univ x), View.read_apply]
  show sendW (X m) c ((rS k).emb x) = sendW (X m) (ynbr (ynbr c)) ((rS k).emb x)
  rw [ynbr_ynbr]

/-- (4) The sum of the loaded send and receive chunks, stored, leaves the result chunk at its final contents. -/
theorem st2_value_of (c : Dev nD) (k : Fin 32) (fo : Buf (Elt F) ((c : Thread nD τ).loc cc0_stg0_0))
    (a b : Vec F S128x1024 .bf16) (ha : a = sM.view.readAt (Elt F) (rS k).toLoadRect (sendB m c))
    (hb : b = rM.view.readAt (Elt F) (rS k).toLoadRect (recvB m c)) :
    ∀ i ∈ (oSl (hf c) k).view.set,
      (oM.access (rO (hf c) k)).write (Elt F) fo (addf a b) Finset.univ i = outB m c i := by
  intro i hi
  obtain ⟨x, rfl⟩ := View.exists_emb_of_mem_set _ hi
  subst ha hb
  show (oSl (hf c) k).view.write (Elt F) fo _ Finset.univ ((oSl (hf c) k).view.emb x) = _
  rw [View.write_emb_of_mem _ _ (Finset.mem_univ x)]
  show FloatOps.addf (sendW (X m) c ((rS k).emb x)) (recvW (X m) c ((rS k).emb x)) = outW (X m) c ((rO (hf c) k).emb x)
  rw [outW_own]
  rfl

theorem st2_value (c : Dev nD) (k : Fin 32) (fo : Buf (Elt F) ((c : Thread nD τ).loc cc0_stg0_0)) :
    ∀ i ∈ (oSl (hf c) k).view.set,
      (oM.access (rO (hf c) k)).write (Elt F) fo (addf (sendChunk m c k) (recvChunk m c k)) Finset.univ i = outB m c i :=
  st2_value_of m c k fo _ _ rfl rfl

/-- (5) The copy of that result chunk to the first-axis neighbour leaves the neighbour's chunk at its final contents. -/
theorem r2_landed (c : Dev nD) (k : Fin 32) (fd : Buf (Elt F) ((xnbr c : Thread nD τ).loc cc0_stg0_0)) :
    ∀ i ∈ (oSl (hf c) k).view.set,
      (oSl (hf c) k).view.write (Elt F) fd ((oSl (hf c) k).view.read (Elt F) (outB m c)) Finset.univ i
        = outB m (xnbr c) i := by
  intro i hi
  obtain ⟨x, rfl⟩ := View.exists_emb_of_mem_set _ hi
  rw [View.write_emb_of_mem _ _ (Finset.mem_univ x), View.read_apply]
  show outW (X m) c ((rO (hf c) k).emb x) = outW (X m) (xnbr c) ((rO (hf c) k).emb x)
  rw [outW_own, outW_xnbr]

/-! ## The same, as equalities of the chunks' points-tos -/

variable (q : PosShare TreeShare)

theorem pts_ld_landed (c : Dev nD) (k : Fin 32) (fd : Buf (Elt F) ((c : Thread nD τ).loc cc0_scratch0)) :
    (pts (vSl k) c q ((vSl k).view.write (Elt F) fd ((xSl (hf c) k).view.read (Elt F) (X m c)) Finset.univ) : sProp 𝕄)
      = pts (vSl k) c q (xvB m c) :=
  pointsTo_congr (ld_landed m c k fd)

theorem pts_st1_value (c : Dev nD) (k : Fin 32) (fs : Buf (Elt F) ((c : Thread nD τ).loc cc0_scratch1)) :
    (pts (sSl k) c q ((sM.access (rS k)).write (Elt F) fs
        (shapeCast S128x1024 (truncf .bf16 (xvChunk m c k) bitsLt_bf16_f32) shapeCasts_S128x1024_S128x1024) Finset.univ) : sProp 𝕄)
      = pts (sSl k) c q (sendB m c) :=
  pointsTo_congr (st1_value m c k fs)

theorem pts_r1_landed (c : Dev nD) (k : Fin 32) (fd : Buf (Elt F) ((ynbr c : Thread nD τ).loc cc0_scratch2)) :
    (pts (rSl k) (ynbr c) q ((rSl k).view.write (Elt F) fd ((sSl k).view.read (Elt F) (sendB m c)) Finset.univ) : sProp 𝕄)
      = pts (rSl k) (ynbr c) q (recvB m (ynbr c)) :=
  pointsTo_congr (r1_landed m c k fd)

theorem pts_st2_value (c : Dev nD) (k : Fin 32) (fo : Buf (Elt F) ((c : Thread nD τ).loc cc0_stg0_0)) :
    (pts (oSl (hf c) k) c q ((oM.access (rO (hf c) k)).write (Elt F) fo
        (addf (sendChunk m c k) (recvChunk m c k)) Finset.univ) : sProp 𝕄)
      = pts (oSl (hf c) k) c q (outB m c) :=
  pointsTo_congr (st2_value m c k fo)

theorem pts_r2_landed (c : Dev nD) (k : Fin 32) (fd : Buf (Elt F) ((xnbr c : Thread nD τ).loc cc0_stg0_0)) :
    (pts (oSl (hf c) k) (xnbr c) q
        ((oSl (hf c) k).view.write (Elt F) fd ((oSl (hf c) k).view.read (Elt F) (outB m c)) Finset.univ) : sProp 𝕄)
      = pts (oSl (hf c) k) (xnbr c) q (outB m (xnbr c)) :=
  pointsTo_congr (r2_landed m c k fd)

end Cert.KernelIdeal.AR

end
-- ==== Proof.Split.lean ====
/-
  The row chunks of the buffers.

  A 4096-row buffer is cut into 32 chunks of 128 rows, chunk k holding rows [128 k, 128 k + 128); an 8192-row buffer into
  2 × 32 chunks, chunk (h, k) holding rows [4096 h + 128 k, 4096 h + 128 k + 128).  A row r of the first lies in chunk
  r / 128 and no other; a row r of the second in chunk (r / 4096, (r % 4096) / 128) and no other.  So the chunks are pairwise
  disjoint and cover the buffer, and owning a share of the whole buffer is owning that share of every chunk.
-/
import proofs.«900152_g7700000000000153_dist_ar_v7x_xy2x2_y_m8192_n1024_bf16_1_alg».proof.Proof.Protocol
import Idealize.ShloMosaic.Rules.PointsTo

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Which rows a chunk holds -/

/-- Chunk k of a 4096-row buffer holds the elements of rows [128 k, 128 k + 128). -/
theorem mem_rS (k : Fin 32) (i : S4096x1024.Idx) :
    i ∈ (rS k).set ↔ 128 * k.val ≤ (i 0).val ∧ (i 0).val < 128 * k.val + 128 := by
  have h1 : (i 1).val < 1024 := (i 1).isLt
  rw [Rect.mem_set_unit, Fin.forall_fin_two]
  show (128 * k.val ≤ (i 0).val ∧ (i 0).val < 128 * k.val + 128) ∧ (0 ≤ (i 1).val ∧ (i 1).val < 0 + 1024) ↔ _
  omega

/-- Chunk (h, k) of an 8192-row buffer holds the elements of rows [4096 h + 128 k, 4096 h + 128 k + 128). -/
theorem mem_rO (h : Fin 2) (k : Fin 32) (i : S8192x1024.Idx) :
    i ∈ (rO h k).set ↔ 4096 * h.val + 128 * k.val ≤ (i 0).val ∧ (i 0).val < 4096 * h.val + 128 * k.val + 128 := by
  have h1 : (i 1).val < 1024 := (i 1).isLt
  rw [Rect.mem_set_unit, Fin.forall_fin_two]
  show (4096 * h.val + 128 * k.val ≤ (i 0).val ∧ (i 0).val < 4096 * h.val + 128 * k.val + 128)
    ∧ (0 ≤ (i 1).val ∧ (i 1).val < 0 + 1024) ↔ _
  omega

/-! ## The chunks are pairwise disjoint and cover the buffer -/

theorem rS_disjoint {k k' : Fin 32} (h : k ≠ k') : Disjoint (rS k).set (rS k').set := by
  rw [Finset.disjoint_left]
  intro i hi hi'
  rw [mem_rS] at hi hi'
  exact h (Fin.ext (by omega))

theorem rS_cover (i : S4096x1024.Idx) : ∃ k : Fin 32, i ∈ (rS k).set := by
  have h0 : (i 0).val < 4096 := (i 0).isLt
  refine ⟨⟨(i 0).val / 128, by omega⟩, (mem_rS _ i).mpr ?_⟩
  show 128 * ((i 0).val / 128) ≤ (i 0).val ∧ (i 0).val < 128 * ((i 0).val / 128) + 128
  omega

theorem rO_disjoint {p p' : Fin 2 × Fin 32} (h : p ≠ p') : Disjoint (rO p.1 p.2).set (rO p'.1 p'.2).set := by
  rw [Finset.disjoint_left]
  intro i hi hi'
  rw [mem_rO] at hi hi'
  have hk := p.2.isLt
  have hk' := p'.2.isLt
  have e1 : p.1 = p'.1 := Fin.ext (by omega)
  have e2 : p.2 = p'.2 := Fin.ext (by have := congrArg Fin.val e1; omega)
  exact h (Prod.ext e1 e2)

theorem rO_cover (i : S8192x1024.Idx) : ∃ p : Fin 2 × Fin 32, i ∈ (rO p.1 p.2).set := by
  have h0 : (i 0).val < 8192 := (i 0).isLt
  refine ⟨(⟨(i 0).val / 4096, by omega⟩, ⟨(i 0).val % 4096 / 128, by omega⟩), (mem_rO _ _ i).mpr ?_⟩
  show 4096 * ((i 0).val / 4096) + 128 * ((i 0).val % 4096 / 128) ≤ (i 0).val
    ∧ (i 0).val < 4096 * ((i 0).val / 4096) + 128 * ((i 0).val % 4096 / 128) + 128
  omega

/-! ## The element sets of the chunk memrefs -/

theorem vSl_set (k : Fin 32) : (vSl k).view.set = (rS k).set := View.set_slice_whole cc0_scratch0 (rS k)
theorem sSl_set (k : Fin 32) : (sSl k).view.set = (rS k).set := View.set_slice_whole cc0_scratch1 (rS k)
theorem rSl_set (k : Fin 32) : (rSl k).view.set = (rS k).set := View.set_slice_whole cc0_scratch2 (rS k)
theorem oSl_set (h : Fin 2) (k : Fin 32) : (oSl h k).view.set = (rO h k).set := View.set_slice_whole cc0_stg0_0 (rO h k)
theorem xSl_set (h : Fin 2) (k : Fin 32) : (xSl h k).view.set = (rO h k).set := View.set_slice_whole main_arg0 (rO h k)

theorem vSl_disjoint {k k' : Fin 32} (h : k ≠ k') : Disjoint (vSl k).view.set (vSl k').view.set := by
  rw [vSl_set, vSl_set]; exact rS_disjoint h
theorem sSl_disjoint {k k' : Fin 32} (h : k ≠ k') : Disjoint (sSl k).view.set (sSl k').view.set := by
  rw [sSl_set, sSl_set]; exact rS_disjoint h
theorem rSl_disjoint {k k' : Fin 32} (h : k ≠ k') : Disjoint (rSl k).view.set (rSl k').view.set := by
  rw [rSl_set, rSl_set]; exact rS_disjoint h
theorem oSl_disjoint {p p' : Fin 2 × Fin 32} (h : p ≠ p') : Disjoint (oSl p.1 p.2).view.set (oSl p'.1 p'.2).view.set := by
  rw [oSl_set, oSl_set]; exact rO_disjoint h
theorem xSl_disjoint {p p' : Fin 2 × Fin 32} (h : p ≠ p') : Disjoint (xSl p.1 p.2).view.set (xSl p'.1 p'.2).view.set := by
  rw [xSl_set, xSl_set]; exact rO_disjoint h

theorem vSl_cover (i : S4096x1024.Idx) : ∃ k : Fin 32, i ∈ (vSl k).view.set := by
  obtain ⟨k, hk⟩ := rS_cover i; exact ⟨k, by rw [vSl_set]; exact hk⟩
theorem sSl_cover (i : S4096x1024.Idx) : ∃ k : Fin 32, i ∈ (sSl k).view.set := by
  obtain ⟨k, hk⟩ := rS_cover i; exact ⟨k, by rw [sSl_set]; exact hk⟩
theorem rSl_cover (i : S4096x1024.Idx) : ∃ k : Fin 32, i ∈ (rSl k).view.set := by
  obtain ⟨k, hk⟩ := rS_cover i; exact ⟨k, by rw [rSl_set]; exact hk⟩
theorem oSl_cover (i : S8192x1024.Idx) : ∃ p : Fin 2 × Fin 32, i ∈ (oSl p.1 p.2).view.set := by
  obtain ⟨p, hp⟩ := rO_cover i; exact ⟨p, by rw [oSl_set]; exact hp⟩
theorem xSl_cover (i : S8192x1024.Idx) : ∃ p : Fin 2 × Fin 32, i ∈ (xSl p.1 p.2).view.set := by
  obtain ⟨p, hp⟩ := rO_cover i; exact ⟨p, by rw [xSl_set]; exact hp⟩

/-! ## Owning a buffer is owning its chunks

  For a family of pairwise disjoint element sets that cover a buffer, share q of the whole buffer at contents f is the
  separating conjunction over the family of share q of each set at f. -/

theorem pointsTo_univ_eq_bigSep {T : Type} [Fintype T] {ℓ : Loc nD τ sig} (K : T → Finset (Idx ℓ))
    (hd : ∀ t t', t ≠ t' → Disjoint (K t) (K t')) (hc : ∀ i : Idx ℓ, ∃ t, i ∈ K t)
    (q : PosShare TreeShare) (f : Buf (Elt F) ℓ) :
    (ℓ ↦{q} f : sProp 𝕄) = bigSep Finset.univ fun t => ℓ ↦[K t]{q} f := by
  have hu : (Finset.univ : Finset T).biUnion K = Finset.univ := by
    ext i
    simp only [Finset.mem_biUnion, Finset.mem_univ, true_and, iff_true]
    exact hc i
  rw [← pointsTo_biUnion Finset.univ K (fun t _ t' _ h => hd t t' h), hu]

variable (c : Dev nD) (q : PosShare TreeShare)

theorem split32_v_eq (f : Buf (Elt F) ((c : Thread nD τ).loc cc0_scratch0)) :
    ((((c : Thread nD τ).loc cc0_scratch0) ↦{q} f : sProp 𝕄)) = bigSep Finset.univ fun k : Fin 32 => pts (vSl k) c q f :=
  pointsTo_univ_eq_bigSep (ℓ := (c : Thread nD τ).loc cc0_scratch0) (fun k : Fin 32 => (vSl k).view.set) (fun _ _ h => vSl_disjoint h) (fun i => vSl_cover i) q f
theorem split32_s_eq (f : Buf (Elt F) ((c : Thread nD τ).loc cc0_scratch1)) :
    ((((c : Thread nD τ).loc cc0_scratch1) ↦{q} f : sProp 𝕄)) = bigSep Finset.univ fun k : Fin 32 => pts (sSl k) c q f :=
  pointsTo_univ_eq_bigSep (ℓ := (c : Thread nD τ).loc cc0_scratch1) (fun k : Fin 32 => (sSl k).view.set) (fun _ _ h => sSl_disjoint h) (fun i => sSl_cover i) q f
theorem split32_r_eq (f : Buf (Elt F) ((c : Thread nD τ).loc cc0_scratch2)) :
    ((((c : Thread nD τ).loc cc0_scratch2) ↦{q} f : sProp 𝕄)) = bigSep Finset.univ fun k : Fin 32 => pts (rSl k) c q f :=
  pointsTo_univ_eq_bigSep (ℓ := (c : Thread nD τ).loc cc0_scratch2) (fun k : Fin 32 => (rSl k).view.set) (fun _ _ h => rSl_disjoint h) (fun i => rSl_cover i) q f
theorem split64_o_eq (f : Buf (Elt F) ((c : Thread nD τ).loc cc0_stg0_0)) :
    ((((c : Thread nD τ).loc cc0_stg0_0) ↦{q} f : sProp 𝕄))
      = bigSep Finset.univ fun hk : Fin 2 × Fin 32 => pts (oSl hk.1 hk.2) c q f :=
  pointsTo_univ_eq_bigSep (ℓ := (c : Thread nD τ).loc cc0_stg0_0) (fun p : Fin 2 × Fin 32 => (oSl p.1 p.2).view.set) (fun _ _ h => oSl_disjoint h) (fun i => oSl_cover i) q f
theorem split64_x_eq (f : Buf (Elt F) ((c : Thread nD τ).loc main_arg0)) :
    ((((c : Thread nD τ).loc main_arg0) ↦{q} f : sProp 𝕄))
      = bigSep Finset.univ fun hk : Fin 2 × Fin 32 => pts (xSl hk.1 hk.2) c q f :=
  pointsTo_univ_eq_bigSep (ℓ := (c : Thread nD τ).loc main_arg0) (fun p : Fin 2 × Fin 32 => (xSl p.1 p.2).view.set) (fun _ _ h => xSl_disjoint h) (fun i => xSl_cover i) q f

/-- Both directions of each, as entailments. -/
theorem split32_v (f : Buf (Elt F) ((c : Thread nD τ).loc cc0_scratch0)) :
    ((((c : Thread nD τ).loc cc0_scratch0) ↦{q} f : sProp 𝕄)) ⊣⊢ bigSep Finset.univ fun k : Fin 32 => pts (vSl k) c q f :=
  .of_eq (split32_v_eq c q f)
theorem split32_s (f : Buf (Elt F) ((c : Thread nD τ).loc cc0_scratch1)) :
    ((((c : Thread nD τ).loc cc0_scratch1) ↦{q} f : sProp 𝕄)) ⊣⊢ bigSep Finset.univ fun k : Fin 32 => pts (sSl k) c q f :=
  .of_eq (split32_s_eq c q f)
theorem split32_r (f : Buf (Elt F) ((c : Thread nD τ).loc cc0_scratch2)) :
    ((((c : Thread nD τ).loc cc0_scratch2) ↦{q} f : sProp 𝕄)) ⊣⊢ bigSep Finset.univ fun k : Fin 32 => pts (rSl k) c q f :=
  .of_eq (split32_r_eq c q f)
theorem split64_o (f : Buf (Elt F) ((c : Thread nD τ).loc cc0_stg0_0)) :
    ((((c : Thread nD τ).loc cc0_stg0_0) ↦{q} f : sProp 𝕄))
      ⊣⊢ bigSep Finset.univ fun hk : Fin 2 × Fin 32 => pts (oSl hk.1 hk.2) c q f :=
  .of_eq (split64_o_eq c q f)
theorem split64_x (f : Buf (Elt F) ((c : Thread nD τ).loc main_arg0)) :
    ((((c : Thread nD τ).loc main_arg0) ↦{q} f : sProp 𝕄))
      ⊣⊢ bigSep Finset.univ fun hk : Fin 2 × Fin 32 => pts (xSl hk.1 hk.2) c q f :=
  .of_eq (split64_x_eq c q f)

/-! ## One chunk's full share is its two halves -/

theorem pts_halves {sp : Space} {s : Shape} {e : EltTy} (M : Memref sig .tc sp s e)
    (f : Buf (Elt F) (M.view.loc (c : Thread nD τ))) :
    (pts M c fullShare f : sProp 𝕄) ⊣⊢ iprop(pts M c halfShare f ∗ pts M c fullShare.right f) :=
  pointsTo_share (PosShare.mem_left_op_right fullShare)

end Cert.KernelIdeal.AR

end
-- ==== Proof.Phase1.lean ====
/-
  One chunk's step of the first exchange.  The device waits for the local copy of chunk k of its half of its block: the
  f32 scratch chunk comes back at its final contents together with the input rows, and the copy's cell, which has no later
  round, closes at zero.  It loads the f32 chunk, casts it to bf16 and stores the cast into chunk k of its send buffer, which
  thereby holds its final contents.  It then starts the copy of that chunk into chunk k of the receive buffer of its
  neighbour along the second mesh axis: half of the send chunk's share is lent to the copy (it comes back with the
  departure cell's credit), the neighbour's receive chunk, which the barrier brought, is handed to the neighbour's landing
  cell at its final contents, and one paying action is taken off what the device owes.
-/
import proofs.«900152_g7700000000000153_dist_ar_v7x_xy2x2_y_m8192_n1024_bf16_1_alg».proof.Proof.Chunk
import proofs.«900152_g7700000000000153_dist_ar_v7x_xy2x2_y_m8192_n1024_bf16_1_alg».proof.Proof.Geom
import proofs.«900152_g7700000000000153_dist_ar_v7x_xy2x2_y_m8192_n1024_bf16_1_alg».proof.Proof.Split

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The credit of chunk k's local copy and of its remote copies: one f32 chunk's, one bf16 chunk's, whatever k. -/
theorem credit_v (k : Fin 32) : (vSl k).view.dmaCredit = amt 0 := rfl
theorem amount_r (k : Fin 32) (sm : DmaSem sig) : (rSl k).view.amount (.dma sm) = N := rfl
theorem amt_one : amt 1 = N := rfl
theorem amt_two : amt 2 = N := rfl

/-- The elements a load of chunk k through the whole scratch reads are the chunk's. -/
theorem load_sub_v (k : Fin 32) : (vM : Memref sig .tc .vmem S4096x1024 .f32).view.setOn (rS k).toLoadRect.set ⊆ (vSl k).view.set := by
  show _ ⊆ ((vM : Memref sig .tc .vmem S4096x1024 .f32).view.slice (rS k)).set
  rw [View.set_slice]; exact Finset.Subset.refl _
theorem load_sub_s (k : Fin 32) : (sM : Memref sig .tc .vmem S4096x1024 .bf16).view.setOn (rS k).toLoadRect.set ⊆ (sSl k).view.set := by
  show _ ⊆ ((sM : Memref sig .tc .vmem S4096x1024 .bf16).view.slice (rS k)).set
  rw [View.set_slice]; exact Finset.Subset.refl _
theorem store_sub_s (k : Fin 32) : ((sM : Memref sig .tc .vmem S4096x1024 .bf16).access (rS k)).setOn Finset.univ ⊆ (sSl k).view.set :=
  Finset.Subset.refl _

/-- The step of chunk k in the first exchange: from the chunk's resources while its local copy is in flight and the
    neighbour's receive chunk, to its resources once its first remote copy is started.  The remote copy is addressed to
    n, which is the second-axis neighbour; pay is the cast to bf16. -/
theorem phase1_chunk (K : Dev nD × CIx → ℕ) (c : Dev nD) (k : Fin 32) (n : Dev nD) (hn : n = ynbr c)
    {pay : Vec F S128x1024 .f32 → FVec F S128x1024 .bf16}
    (hpay : pay = fun v => shapeCast S128x1024 (truncf .bf16 v bitsLt_bf16_f32) shapeCasts_S128x1024_S128x1024)
    {hws : (xSlP c k).view.WordExact} {hwd : (vSl k).view.WordExact}
    {hl1 : (vM : Memref sig .tc .vmem S4096x1024 .f32).view.LoadsAt (rS k).toLoadRect}
    {hl2 : (sM : Memref sig .tc .vmem S4096x1024 .bf16).view.LoadsAt (rS k).toLoadRect}
    {hx : ((sM : Memref sig .tc .vmem S4096x1024 .bf16).access (rS k)).Stores Finset.univ}
    {hm : (Finset.univ : Finset (rS k).shape.Idx) = Finset.univ ∨ ∀ a, (rS k).stride a = 1}
    {hsc : (rSl k : Memref sig (Dev.tc n : Thread nD τ).2.kind .vmem S128x1024 .bf16).view.ref.isScScratch = false}
    {hsrc : (sSl k).view.WordExact} {hdst : (rSl k).view.WordExact}
    {hsem : DmaTarget.Typed .vmem (.dma (semA cc0_scratch5 k)) (.remote (Dev.tc n : Thread nD τ) (rSl k) (.dma (semA cc0_scratch4 k)) hsc)}
    {α : Type} {Q : α → sProp 𝕄} {rest : Prog (TpuEff nD τ sig (Elt F) Λ₀ .tc) α} :
    iprop(records m K ∗ levAts L lv ∗ st1 c k ∗ gotY c k ∗ owesX c (64 - k.val))
      ⊢ iprop(((st2 m c k ∗ owesX c (63 - k.val)) -∗ wp frame (wpE (defs₀ (F := F)) 𝒱₀ (c : Thread nD τ) none) Set.univ rest Q)
          -∗ wp frame (wpE (defs₀ (F := F)) 𝒱₀ (c : Thread nD τ) none) Set.univ
              (.op (.waitDma2 (semA cc0_scratch3 k) (xSlP c k) (vSl k) hws hwd) fun _ =>
               .op (.load vM (rS k).toLoadRect hl1) fun v =>
               .op (.load sM (rS k).toLoadRect hl2) fun _ =>
               .op (.store sM (rS k) (pay v) Finset.univ hx hm) fun _ =>
               .op (.enqueueDma (sSl k) (.remote (Dev.tc n) (rSl k) (.dma (semA cc0_scratch4 k)) hsc) (.dma (semA cc0_scratch5 k)) hsrc hdst hsem) fun _ => rest) Q) := by
  subst hn
  subst hpay
  unfold st1 gotY owesX
  iintro ⟨#Hrec, #Hlev, ⟨Hc0, ⟨%fs, Hs⟩, Ho, ⟨Ht1, Ht2, Ht3, Ht4⟩, ⟨Hp0, Hp1, Hp2, Hp3, Hp4⟩, Hc2, Hc4⟩, ⟨%fr, Hr⟩, ⟨%W, HO⟩⟩ Hk
  ihave #HI0 := (inv_of_records m K (c, some (0, k))) $$ Hrec
  ihave #HI1 := (inv_of_records m K (c, some (1, k))) $$ Hrec
  ihave #HI2 := (inv_of_records m K (ynbr c, some (2, k))) $$ Hrec
  ihave #HR1 := (reached_of_records m K (c, some (1, k))) $$ Hrec
  ihave #HR2 := (reached_of_records m K (ynbr c, some (2, k))) $$ Hrec
  -- the wait for the local copy of chunk k: the f32 chunk at its final contents and the input chunk come back
  iapply (Rounds.wp_wait_rest_token 𝒱₀ ER (Rd m) (c : Thread nD τ) none (κ := K (c, some (0, k)))
      (wpE_waitDma2_eq 𝒱₀ (c : Thread nD τ) none Set.univ) (Set.mem_univ _) () (O := owe c (64 - k.val)) (W := W) (R := 0) (m := 0) (T := ∅)
      ((Nat.zero_add _).trans ((credit_v k).trans (expect_x m c 0 k).symm))) $$ [Hc0 HO Hp0]
  · isplitr; · iexact HI0
    isplitl [Hc0]; · iexact Hc0
    isplitl [HO]; · iexact HO
    isplitr; · iapply (mayWait_ld c k (64 - k.val) (by omega)); iexact Hlev
    iexact Hp0
  iintro ⟨HO, Hp0, -, Hpay⟩
  ihave Hp := (Entails.of_eq ((rest_x m c 0 k).trans
      (show xPay m c 0 k = iprop(pts (vSl k) c fullShare (xvB m c) ∗ pts (xSl (hf c) k) c fullShare (X m c)) from rfl))) $$ Hpay
  icases Hp with ⟨Hv, Hx⟩
  -- that cell has no later round: it closes, its counter at zero
  imod (Rounds.cell_close ER (Rd m) (Set.mem_univ (K (c, some (0, k)))) (fun h => h) (R := 0 + 1) (duties_later m (xcell c 0 k))) $$ [Hp0] with Hz0
  · isplitr; · iexact HI0
    iexact Hp0
  -- the load of the f32 chunk, the (dead) load of the send chunk, the store of the cast
  iapply (wp_load 𝒱₀ (c : Thread nD τ) none Set.univ (m := vM) (S := (vSl k).view.set) (load_sub_v k)) $$ Hv; iintro Hv
  iapply (wp_load 𝒱₀ (c : Thread nD τ) none Set.univ (m := sM) (S := (sSl k).view.set) (load_sub_s k)) $$ Hs; iintro Hs
  iapply (wp_store 𝒱₀ (c : Thread nD τ) none Set.univ (m := sM) (r := rS k) (Mk := Finset.univ) (S := (sSl k).view.set) (store_sub_s k)) $$ Hs; iintro Hs
  ihave Hs := (Entails.of_eq (pts_st1_value m fullShare c k fs)) $$ Hs
  ihave Hs2 := (pts_halves c (sSl k) (sendB m c)).1 $$ Hs
  icases Hs2 with ⟨HsL, HsR⟩
  -- the copy of the send chunk to the second-axis neighbour's receive chunk: half the send chunk is lent to it
  iapply (Rounds.wp_send_pointsTo 𝒱₀ ER (Rd m) (c : Thread nD τ) none (c' := (ynbr c : Thread nD τ))
      (κ₁ := K (c, some (1, k))) (κ₂ := K (ynbr c, some (2, k)))
      (r₁ := 0) (r₂ := 0) (d₁ := false) (d₂ := false) (q := halfShare) (fs := sendB m c) (fd := fr)
      (show false ∈ (Rd m).duties (xcell c 1 k) 0 by rw [duties_x]; exact Finset.mem_singleton_self _)
      (show false ∈ (Rd m).duties (xcell (ynbr c) 2 k) 0 by rw [duties_x]; exact Finset.mem_singleton_self _)
      () () N (amount_r k _) ((amount_x m c 1 k false).trans amt_one) ((amount_x m (ynbr c) 2 k false).trans amt_two)
      (owe c (63 - k.val)) (owe_p1 c k)
      (show _ ⊢ (Rd m).payload (xcell c 1 k) 0 false by rw [payload_x]; exact Entails.refl _)
      (show _ ⊢ (Rd m).payload (xcell (ynbr c) 2 k) 0 false by
        rw [payload_x]; exact Entails.of_eq (pts_r1_landed m fullShare c k fr))) $$ [HsL Hr HO Ht1 Ht2]
  · isplitr; · iexact HI1
    isplitr; · iexact HI2
    isplitl [HsL]; · iexact HsL
    isplitl [Hr]; · iexact Hr
    isplitl [HO]; · iexact HO
    isplitl [Ht1]; · iexact Ht1
    isplitr; · iexact HR1
    isplitl [Ht2]; · iexact Ht2
    iexact HR2
  iintro ⟨Hc1, HO⟩
  iapply Hk
  unfold st2
  isplitr [HO]
  · isplitl [Hx]; · iexact Hx
    isplitl [Hv]; · iexact Hv
    isplitl [HsR]; · iexact HsR
    isplitl [Hc1]; · iexact Hc1
    isplitl [Ho]; · iexact Ho
    isplitl [Ht3 Ht4]
    · isplitl [Ht3]; · iexact Ht3
      iexact Ht4
    isplitl [Hp1 Hp2 Hp3 Hp4]
    · isplitl [Hp1]; · iexact Hp1
      isplitl [Hp2]; · iexact Hp2
      isplitl [Hp3]; · iexact Hp3
      iexact Hp4
    isplitl [Hc2]; · iexact Hc2
    isplitl [Hc4]; · iexact Hc4
    iexact Hz0
  iexists _
  iexact HO

end Cert.KernelIdeal.AR

end
-- ==== Proof.Phase2.lean ====
/-
  One chunk of the second exchange of the all-reduce.  When the rows of chunk k sent by the neighbour along the second
  mesh axis have landed in the receive buffer, the device reads the rows it sent and the rows it received, stores their
  sum in chunk k of its own half of the result buffer, and starts the copy of that chunk to the same rows of the result
  buffer of its neighbour along the first mesh axis.  The stored sum is the device's final result on those rows, and it
  is also the neighbour's final result there, since for the neighbour they are rows of the other half.
-/
import proofs.«900152_g7700000000000153_dist_ar_v7x_xy2x2_y_m8192_n1024_bf16_1_alg».proof.Proof.Chunk
import proofs.«900152_g7700000000000153_dist_ar_v7x_xy2x2_y_m8192_n1024_bf16_1_alg».proof.Proof.Geom
import proofs.«900152_g7700000000000153_dist_ar_v7x_xy2x2_y_m8192_n1024_bf16_1_alg».proof.Proof.Split

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One chunk of the second exchange

After the first-axis neighbour's rows of chunk k have landed in the receive buffer, the device adds them to the rows
it sent, stores the sum in its half of the result buffer, and copies the sum to the same rows of the first-axis
neighbour's result buffer. -/

/-- Chunk rows of the 8192-row array that start at a row given as an offset function. -/
abbrev p2_rOv (o : Fin 2 → Nat) (p : ∀ a, o a + S128x1024.size a ≤ S8192x1024.size a) : Rect S8192x1024 :=
  Rect.unit (s := S8192x1024) o S128x1024.size p
abbrev p2_oSlv (o : Fin 2 → Nat) (p : ∀ a, o a + S128x1024.size a ≤ S8192x1024.size a) : Memref sig .tc .vmem S128x1024 .bf16 :=
  oM.slice (p2_rOv o p) (fun _ => rfl)

theorem p2_inv_x (K : Dev nD × CIx → ℕ) (c : Dev nD) (j : Fin 5) (k : Fin 32) :
    records m K ⊢ cellInv ER (Rd m) (K (c, some (j, k))) (xcell c j k) := inv_of_records m K (c, some (j, k))
theorem p2_reached_x (K : Dev nD × CIx → ℕ) (c : Dev nD) (j : Fin 5) (k : Fin 32) :
    records m K ⊢ reached ER (xcell c j k) 0 := reached_of_records m K (c, some (j, k))

theorem p2_amt_two : amt 2 = N := rfl
theorem p2_amt_three : amt 3 = N := rfl
theorem p2_amt_four : amt 4 = N := rfl
theorem p2_credit_r (k : Fin 32) : (rSl k).view.dmaCredit = N := rfl
theorem p2_credit_o (h : Fin 2) (k : Fin 32) : (oSl h k).view.dmaCredit = N := rfl

theorem p2_xPay_two (c : Dev nD) (k : Fin 32) : xPay m c 2 k = pts (rSl k) c fullShare (recvB m c) := rfl
theorem p2_xPay_three (c : Dev nD) (k : Fin 32) : xPay m c 3 k = pts (oSl (hf c) k) c fullShare (outB m c) := rfl
theorem p2_xPay_four (c : Dev nD) (k : Fin 32) : xPay m c 4 k = pts (oSl (hf (xnbr c)) k) c fullShare (outB m c) := rfl

/-- The elements a load of chunk rows reads are the chunk's. -/
theorem p2_setOn_chunk {sp : Space} {s : Shape} {e : EltTy} (M : Memref sig .tc sp s e) (r : Rect s) (hs) :
    M.view.setOn r.toLoadRect.set ⊆ (M.slice r hs).view.set :=
  Finset.subset_of_eq (View.set_slice M.view r).symm

theorem phase2_chunk_at (K : Dev nD × CIx → ℕ) (c : Dev nD) (k : Fin 32) (n : Dev nD) (hn : n = xnbr c)
    (o1 o2 : Fin 2 → Nat) (ho1 : o1 = ![4096 * (hf c).val + 128 * k.val, 0]) (ho2 : o2 = ![4096 * (hf c).val + 128 * k.val, 0])
    (p1 : ∀ a, o1 a + S128x1024.size a ≤ S8192x1024.size a) (p2 : ∀ a, o2 a + S128x1024.size a ≤ S8192x1024.size a)
    {pay : Vec F S128x1024 .bf16 → Vec F S128x1024 .bf16 → FVec F S128x1024 .bf16} (hpay : pay = fun a b => addf a b)
    {hw1 : (sSl k).view.WordExact} {hw2 : (rSl k).view.WordExact}
    {hl1 : (sM : Memref sig .tc .vmem S4096x1024 .bf16).view.LoadsAt (rS k).toLoadRect}
    {hl2 : (rM : Memref sig .tc .vmem S4096x1024 .bf16).view.LoadsAt (rS k).toLoadRect}
    {hl3 : (oM : Memref sig .tc .vmem S8192x1024 .bf16).view.LoadsAt (p2_rOv o2 p2).toLoadRect}
    {hx : ((oM : Memref sig .tc .vmem S8192x1024 .bf16).access (p2_rOv o2 p2)).Stores Finset.univ}
    {hm : (Finset.univ : Finset (p2_rOv o2 p2).shape.Idx) = Finset.univ ∨ ∀ a, (p2_rOv o2 p2).stride a = 1}
    {hsc : (p2_oSlv o1 p1 : Memref sig (Dev.tc n : Thread nD τ).2.kind .vmem S128x1024 .bf16).view.ref.isScScratch = false}
    {hsrc : (p2_oSlv o1 p1).view.WordExact} {hdst : (p2_oSlv o1 p1).view.WordExact}
    {hsem : DmaTarget.Typed .vmem (.dma (semA cc0_scratch7 k)) (.remote (Dev.tc n : Thread nD τ) (p2_oSlv o1 p1) (.dma (semA cc0_scratch6 k)) hsc)}
    {α : Type} {Q : α → sProp 𝕄} {rest : Prog (TpuEff nD τ sig (Elt F) Λ₀ .tc) α} :
    iprop(records m K ∗ levAts L lv ∗ st2 m c k ∗ gotX c k ∗ owesX c (32 - k.val))
      ⊢ iprop(((st3 m c k ∗ owesX c (31 - k.val)) -∗ wp frame (wpE (defs₀ (F := F)) 𝒱₀ (c : Thread nD τ) none) Set.univ rest Q)
          -∗ wp frame (wpE (defs₀ (F := F)) 𝒱₀ (c : Thread nD τ) none) Set.univ
              (.op (.waitDma2 (semA cc0_scratch5 k) (sSl k) (rSl k) hw1 hw2) fun _ =>
               .op (.load sM (rS k).toLoadRect hl1) fun a =>
               .op (.load rM (rS k).toLoadRect hl2) fun b =>
               .op (.load oM (p2_rOv o2 p2).toLoadRect hl3) fun _ =>
               .op (.store oM (p2_rOv o2 p2) (pay a b) Finset.univ hx hm) fun _ =>
               .op (.enqueueDma (p2_oSlv o1 p1) (.remote (Dev.tc n) (p2_oSlv o1 p1) (.dma (semA cc0_scratch6 k)) hsc) (.dma (semA cc0_scratch7 k)) hsrc hdst hsem) fun _ => rest) Q) := by
  subst hn hpay ho1 ho2
  unfold st2 gotX owesX
  iintro ⟨#Hrec, #Hlev, ⟨Hx, Hv, Hs, Hc1, ⟨%fo, Ho⟩, ⟨Ht3, Ht4⟩, ⟨Hp1, Hp2, Hp3, Hp4⟩, Hc2, Hc4, Hz0⟩, ⟨%fn, Hn⟩, ⟨%W, HO⟩⟩ Hk
  ihave #HI2 := (p2_inv_x m K c 2 k) $$ Hrec
  ihave #HI3 := (p2_inv_x m K c 3 k) $$ Hrec
  ihave #HI4 := (p2_inv_x m K (xnbr c) 4 k) $$ Hrec
  ihave #HR3 := (p2_reached_x m K c 3 k) $$ Hrec
  ihave #HR4 := (p2_reached_x m K (xnbr c) 4 k) $$ Hrec
  -- the rows of the neighbour along the second axis have landed: the wait spends the landing cell's credit
  iapply (Rounds.wp_wait_rest_token 𝒱₀ ER (Rd m) (c : Thread nD τ) none (κ := K (c, some (2, k))) (sm := .dma (semA (arrJ 2) k))
      (wpE_waitDma2_eq 𝒱₀ (c : Thread nD τ) none Set.univ) (Set.mem_univ _) () (O := owe c (32 - k.val)) (W := W) (R := 0) (m := 0) (T := ∅)
      (show 0 + (rSl k).view.dmaCredit = (Rd m).expect (xcell c 2 k) 0 by rw [Nat.zero_add, expect_x]; rfl)) $$ [Hc2 HO Hp2]
  · isplitr; · iexact HI2
    isplitl [Hc2]; · iexact Hc2
    isplitl [HO]; · iexact HO
    isplitr; · iapply (mayWait_r1 c k (32 - k.val) (by omega)); iexact Hlev
    iexact Hp2
  iintro ⟨HO, Hp2, -, Hpay⟩
  ihave Hr := (Entails.of_eq ((rest_x m c 2 k).trans (p2_xPay_two m c k))) $$ Hpay
  imod (Rounds.cell_close ER (Rd m) (Set.mem_univ (K (c, some (2, k)))) (fun h => h) (R := 0 + 1) (duties_later m (xcell c 2 k))) $$ [Hp2] with Hz2
  · isplitr; · iexact HI2
    iexact Hp2
  -- the sent rows and the received rows are read, and the result chunk is overwritten by their sum
  iapply (wp_load 𝒱₀ (c : Thread nD τ) none Set.univ (m := sM) (S := (sSl k).view.set) (p2_setOn_chunk sM (rS k) _)) $$ Hs
  iintro Hs
  iapply (wp_load 𝒱₀ (c : Thread nD τ) none Set.univ (m := rM) (S := (rSl k).view.set) (p2_setOn_chunk rM (rS k) _)) $$ Hr
  iintro Hr
  iapply (wp_load 𝒱₀ (c : Thread nD τ) none Set.univ (m := oM) (S := (oSl (hf c) k).view.set) (p2_setOn_chunk oM (rO (hf c) k) _)) $$ Ho
  iintro Ho
  iapply (wp_store 𝒱₀ (c : Thread nD τ) none Set.univ (m := oM) (r := rO (hf c) k) (Mk := Finset.univ) (S := (oSl (hf c) k).view.set)
      (Finset.Subset.refl _)) $$ Ho
  iintro Ho
  ihave Ho := (Entails.of_eq (pts_st2_value m fullShare c k fo)) $$ Ho
  -- the sum goes to the same rows of the first-axis neighbour's result buffer: the copy pays the departure cell here
  -- and the landing cell there, whose payload is the neighbour's chunk holding what the neighbour's result has on these rows
  iapply (Rounds.wp_send_pointsTo 𝒱₀ ER (Rd m) (c : Thread nD τ) none (c' := (xnbr c : Thread nD τ)) (src := oSl (hf c) k) (dst := oSl (hf c) k)
      (sS := .dma (semA (arrJ 3) k)) (sem := .dma (semA (arrJ 4) k))
      (κ₁ := K (c, some (3, k))) (κ₂ := K (xnbr c, some (4, k)))
      (r₁ := 0) (r₂ := 0) (d₁ := false) (d₂ := false) (q := fullShare) (fs := outB m c) (fd := fn)
      (show false ∈ (Rd m).duties (xcell c 3 k) 0 by rw [duties_x]; exact Finset.mem_singleton_self _)
      (show false ∈ (Rd m).duties (xcell (xnbr c) 4 k) 0 by rw [duties_x]; exact Finset.mem_singleton_self _)
      () () N (p2_credit_o (hf c) k) ((amount_x m c 3 k false).trans p2_amt_three) ((amount_x m (xnbr c) 4 k false).trans p2_amt_four)
      (owe c (31 - k.val)) (owe_p2 c k) (W := insert (SemLoc.dma (semA (arrJ 2) k), ()) W)
      (show pts (oSl (hf c) k) c fullShare (outB m c) ⊢ (Rd m).payload (xcell c 3 k) 0 false by
        rw [payload_x]; exact BI.Entails.refl _)
      (show pts (oSl (hf c) k) (xnbr c) fullShare
            ((oSl (hf c) k).view.write (Elt F) fn ((oSl (hf c) k).view.read (Elt F) (outB m c)) Finset.univ)
          ⊢ (Rd m).payload (xcell (xnbr c) 4 k) 0 false by
        rw [payload_x, p2_xPay_four, xnbr_xnbr]; exact Entails.of_eq (pts_r2_landed m fullShare c k fn))) $$ [Ho Hn HO Ht3 Ht4]
  · isplitr; · iexact HI3
    isplitr; · iexact HI4
    isplitl [Ho]; · iexact Ho
    isplitl [Hn]; · iexact Hn
    isplitl [HO]; · iexact HO
    isplitl [Ht3]; · iexact Ht3
    isplitr; · iexact HR3
    isplitl [Ht4]; · iexact Ht4
    iexact HR4
  iintro ⟨Hc3, HO⟩
  iapply Hk
  isplitl [Hx Hv Hs Hc1 Hr Hc3 Hp1 Hp3 Hp4 Hc4 Hz0 Hz2]
  · unfold st3
    isplitl [Hx]; · iexact Hx
    isplitl [Hv]; · iexact Hv
    isplitl [Hs]; · iexact Hs
    isplitl [Hc1]; · iexact Hc1
    isplitl [Hr]; · iexact Hr
    isplitl [Hc3]; · iexact Hc3
    isplitl [Hp1 Hp3 Hp4]
    · isplitl [Hp1]; · iexact Hp1
      isplitl [Hp3]; · iexact Hp3
      iexact Hp4
    isplitl [Hc4]; · iexact Hc4
    isplitl [Hz0]; · iexact Hz0
    iexact Hz2
  iexists _
  iexact HO

/-- One chunk of the second exchange, over the result chunk as the program spells its rows. -/
theorem phase2_chunk (K : Dev nD × CIx → ℕ) (c : Dev nD) (k : Fin 32) (n : Dev nD) (hn : n = xnbr c)
    {pay : Vec F S128x1024 .bf16 → Vec F S128x1024 .bf16 → FVec F S128x1024 .bf16} (hpay : pay = fun a b => addf a b)
    {hw1 : (sSl k).view.WordExact} {hw2 : (rSl k).view.WordExact}
    {hl1 : (sM : Memref sig .tc .vmem S4096x1024 .bf16).view.LoadsAt (rS k).toLoadRect}
    {hl2 : (rM : Memref sig .tc .vmem S4096x1024 .bf16).view.LoadsAt (rS k).toLoadRect}
    {hl3 : (oM : Memref sig .tc .vmem S8192x1024 .bf16).view.LoadsAt (rOP2 c k).toLoadRect}
    {hx : ((oM : Memref sig .tc .vmem S8192x1024 .bf16).access (rOP2 c k)).Stores Finset.univ}
    {hm : (Finset.univ : Finset (rOP2 c k).shape.Idx) = Finset.univ ∨ ∀ a, (rOP2 c k).stride a = 1}
    {hsc : (oSlP1 c k : Memref sig (Dev.tc n : Thread nD τ).2.kind .vmem S128x1024 .bf16).view.ref.isScScratch = false}
    {hsrc : (oSlP1 c k).view.WordExact} {hdst : (oSlP1 c k).view.WordExact}
    {hsem : DmaTarget.Typed .vmem (.dma (semA cc0_scratch7 k)) (.remote (Dev.tc n : Thread nD τ) (oSlP1 c k) (.dma (semA cc0_scratch6 k)) hsc)}
    {α : Type} {Q : α → sProp 𝕄} {rest : Prog (TpuEff nD τ sig (Elt F) Λ₀ .tc) α} :
    iprop(records m K ∗ levAts L lv ∗ st2 m c k ∗ gotX c k ∗ owesX c (32 - k.val))
      ⊢ iprop(((st3 m c k ∗ owesX c (31 - k.val)) -∗ wp frame (wpE (defs₀ (F := F)) 𝒱₀ (c : Thread nD τ) none) Set.univ rest Q)
          -∗ wp frame (wpE (defs₀ (F := F)) 𝒱₀ (c : Thread nD τ) none) Set.univ
              (.op (.waitDma2 (semA cc0_scratch5 k) (sSl k) (rSl k) hw1 hw2) fun _ =>
               .op (.load sM (rS k).toLoadRect hl1) fun a =>
               .op (.load rM (rS k).toLoadRect hl2) fun b =>
               .op (.load oM (rOP2 c k).toLoadRect hl3) fun _ =>
               .op (.store oM (rOP2 c k) (pay a b) Finset.univ hx hm) fun _ =>
               .op (.enqueueDma (oSlP1 c k) (.remote (Dev.tc n) (oSlP1 c k) (.dma (semA cc0_scratch6 k)) hsc) (.dma (semA cc0_scratch7 k)) hsrc hdst hsem) fun _ => rest) Q) :=
  phase2_chunk_at m K c k n hn _ _ (off1_closed c k) (off2_closed c k) (k0_off1_inb c k) (k0_off2_inb c k) hpay

end Cert.KernelIdeal.AR

end
-- ==== Proof.Phase3.lean ====
/-
  The three closing waits of one chunk: the device waits on the chunk's phase-1 departure cell, on its phase-2 departure
  cell and on its phase-2 landing cell, each for the whole of the cell's one duty, and closes each cell.  What comes back
  is the lent half of the send chunk, the result chunk of the device's own half and the result chunk of the other half,
  each at its final contents.
-/
import proofs.«900152_g7700000000000153_dist_ar_v7x_xy2x2_y_m8192_n1024_bf16_1_alg».proof.Proof.Chunk

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The amounts the closing waits wait for -/

/-- A transfer cell other than a local copy's has the credit of one bf16 chunk as its duty's amount. -/
theorem amt_of_ne {j : Fin 5} (h : j ≠ 0) : amt j = N := if_neg h

/-- The credit of a bf16 chunk of the send scratch, and of the result's staging buffer, whichever chunk. -/
theorem credit_sSl (k : Fin 32) : (sSl k).view.dmaCredit = N := rfl
theorem credit_oSlP1 (c : Dev nD) (k : Fin 32) : (oSlP1 c k).view.dmaCredit = N := rfl

/-- One wait for the whole of a transfer cell's one round, followed by the cell's closing: the owner hands in the cell's
    credit and its position at round 0, owing nothing, and gets the round's payload and the cell's counter at zero. -/
theorem wait_close (K : Dev nD × CIx → ℕ) (c : Dev nD) (j : Fin 5) (hj : j ≠ 0) (k : Fin 32) (W : Waits sig Unit)
    {sp sp' : Space} {s s' : Shape} {e e' : EltTy}
    {src : Memref sig (c : Thread nD τ).2.kind sp' s' e'} {κ' : Kind} {dst : Memref sig κ' sp s e}
    {hsrc : src.view.WordExact} {hdst : dst.view.WordExact} (hamt : dst.view.dmaCredit = N)
    {α : Type} {Q : α → sProp 𝕄} {kont : PUnit → Prog (TpuEff nD τ sig (Elt F) Λ₀ .tc) α} :
    iprop(records m K ∗ levAts L lv ∗ credJ c j k ∗ posJ c j k ∗ owes (c : Thread nD τ) (owe c 0) W)
      ⊢ iprop(((xPay m c j k ∗ semVal (xcell c j k) 0 ∗ owes (c : Thread nD τ) (owe c 0) (insert (SemLoc.dma (semA (arrJ j) k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semA (arrJ j) k) src dst hsrc hdst) kont) Q) := by
  have hc : credJ (F := F) c j k = cred (tallyAt (xcell c j k) () dst.view.dmaCredit) := by
    show cred (tallyAt (xcell c j k) () (amt j)) = _
    rw [amt_of_ne hj, hamt]
  iintro ⟨#Hrec, #Hlev, Hc, Hp, HO⟩ Hk
  ihave Hc := (Entails.of_eq hc) $$ Hc
  iapply (Rounds.wp_wait_rest_token 𝒱₀ ER (Rd m) (c : Thread nD τ) none (κ := K (c, some (j, k)))
      (w := .waitDma2 (semA (arrJ j) k) src dst hsrc hdst) (sm := .dma (semA (arrJ j) k)) (k' := dst.view.dmaCredit)
      (wpE_waitDma2_eq 𝒱₀ (c : Thread nD τ) none Set.univ) (Set.mem_univ _) () (O := owe c 0) (W := W) (R := 0) (m := 0) (T := ∅)
      ((Nat.zero_add _).trans (hamt.trans ((amt_of_ne hj).symm.trans (expect_x m c j k).symm)))) $$ [Hc HO Hp]
  · isplitr; · iapply (inv_of_records m K (c, some (j, k))); iexact Hrec
    isplitl [Hc]; · iexact Hc
    isplitl [HO]; · iexact HO
    isplitr; · iapply (mayWait_done c _); iexact Hlev
    iexact Hp
  iintro ⟨HO, Hp, -, Hpay⟩
  ihave Hpay := (Entails.of_eq (rest_x m c j k)) $$ Hpay
  imod (Rounds.cell_close ER (Rd m) (Set.mem_univ (K (c, some (j, k)))) (fun h => h) (R := 0 + 1) (duties_later m (xcell c j k))) $$ [Hp] with Hz
  · isplitr; · iapply (inv_of_records m K (c, some (j, k))); iexact Hrec
    iexact Hp
  iapply Hk
  isplitl [Hpay]; · iexact Hpay
  isplitl [Hz]; · iexact Hz
  iexact HO

/-! ## One chunk's three closing waits -/

/-- The payloads of the three cells, spelled out. -/
theorem xPay_s1 (c : Dev nD) (k : Fin 32) : xPay m c 1 k = pts (sSl k) c fullShare.left (sendB m c) := rfl
theorem xPay_s2 (c : Dev nD) (k : Fin 32) : xPay m c 3 k = pts (oSl (hf c) k) c fullShare (outB m c) := rfl
theorem xPay_r2 (c : Dev nD) (k : Fin 32) : xPay m c 4 k = pts (oSl (hf (xnbr c)) k) c fullShare (outB m c) := rfl

/-- The closing waits of chunk k on device c: on its phase-1 departure cell (the lent half of the send chunk comes back and
    joins the retained half), on its phase-2 departure cell (its result chunk in its own half comes back at the sum) and
    on its phase-2 landing cell (its result chunk in the other half has landed, at the neighbour's sum).  Each cell is
    closed after its wait, so its counter is the device's again, at zero. -/
theorem phase3_chunk (K : Dev nD × CIx → ℕ) (c : Dev nD) (k : Fin 32)
    {h1s : (rSl k).view.WordExact} {h1d : (sSl k).view.WordExact}
    {h2s : (oSlP1 c k).view.WordExact} {h2d : (oSlP1 c k).view.WordExact}
    {h3s : (oSlP1 c k).view.WordExact} {h3d : (oSlP1 c k).view.WordExact}
    {α : Type} {Q : α → sProp 𝕄} {rest : Prog (TpuEff nD τ sig (Elt F) Λ₀ .tc) α} :
    iprop(records m K ∗ levAts L lv ∗ st3 m c k ∗ owesX c 0)
      ⊢ iprop(((st4 m c k ∗ owesX c 0) -∗ wp frame (wpE (defs₀ (F := F)) 𝒱₀ (c : Thread nD τ) none) Set.univ rest Q)
          -∗ wp frame (wpE (defs₀ (F := F)) 𝒱₀ (c : Thread nD τ) none) Set.univ
              (.op (.waitDma2 (semA cc0_scratch4 k) (rSl k) (sSl k) h1s h1d) fun _ =>
               .op (.waitDma2 (semA cc0_scratch6 k) (oSlP1 c k) (oSlP1 c k) h2s h2d) fun _ =>
               .op (.waitDma2 (semA cc0_scratch7 k) (oSlP1 c k) (oSlP1 c k) h3s h3d) fun _ => rest) Q) := by
  unfold st3 st4 owesX
  iintro ⟨#Hrec, #Hlev, ⟨Hx, Hv, HsR, Hc1, Hr, Hc3, ⟨Hp1, Hp3, Hp4⟩, Hc4, Hz0, Hz2⟩, ⟨%W, HO⟩⟩ Hk
  -- the phase-1 departure cell: the lent half of the send chunk comes back
  iapply (wait_close m K c 1 (by decide) k W (credit_sSl k)) $$ [Hc1 Hp1 HO]
  · isplitr; · iexact Hrec
    isplitr; · iexact Hlev
    isplitl [Hc1]; · iexact Hc1
    isplitl [Hp1]; · iexact Hp1
    iexact HO
  iintro ⟨HsL, Hz1, HO⟩
  ihave HsL := (Entails.of_eq (xPay_s1 m c k)) $$ HsL
  ihave Hs := (pointsTo_share (PosShare.mem_left_op_right fullShare)).2 $$ [HsL HsR]
  · isplitl [HsL]; · iexact HsL
    iexact HsR
  -- the phase-2 departure cell: the result chunk of the own half comes back
  iapply (wait_close m K c 3 (by decide) k _ (credit_oSlP1 c k)) $$ [Hc3 Hp3 HO]
  · isplitr; · iexact Hrec
    isplitr; · iexact Hlev
    isplitl [Hc3]; · iexact Hc3
    isplitl [Hp3]; · iexact Hp3
    iexact HO
  iintro ⟨Ho, Hz3, HO⟩
  ihave Ho := (Entails.of_eq (xPay_s2 m c k)) $$ Ho
  -- the phase-2 landing cell: the result chunk of the other half has landed
  iapply (wait_close m K c 4 (by decide) k _ (credit_oSlP1 c k)) $$ [Hc4 Hp4 HO]
  · isplitr; · iexact Hrec
    isplitr; · iexact Hlev
    isplitl [Hc4]; · iexact Hc4
    isplitl [Hp4]; · iexact Hp4
    iexact HO
  iintro ⟨Ho', Hz4, HO⟩
  ihave Ho' := (Entails.of_eq (xPay_r2 m c k)) $$ Ho'
  iapply Hk
  isplitr [HO]
  · isplitl [Hx]; · iexact Hx
    isplitl [Hv]; · iexact Hv
    isplitl [Hs]; · iexact Hs
    isplitl [Hr]; · iexact Hr
    isplitl [Ho]; · iexact Ho
    isplitl [Ho']; · iexact Ho'
    isplitl [Hz0]; · iexact Hz0
    isplitl [Hz1]; · iexact Hz1
    isplitl [Hz2]; · iexact Hz2
    isplitl [Hz3]; · iexact Hz3
    iexact Hz4
  · iexists _; iexact HO

end Cert.KernelIdeal.AR

end
-- ==== Proof.Bar.lean ====
/-
  The entry handshake of the all-reduce: each device signals the barrier cell of its second-axis neighbour and of its
  first-axis neighbour, handing over with the first signal its 32 receive chunks and with the second the 32 chunks of its
  result buffer that the first-axis neighbour will write, and then waits for the two units its own barrier cell is due,
  which bring the same chunks of its two neighbours.
-/
import proofs.«900152_g7700000000000153_dist_ar_v7x_xy2x2_y_m8192_n1024_bf16_1_alg».proof.Proof.Chunk

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two payloads a device hands over, from what it holds -/

/-- What the second-axis neighbour's barrier cell is paid by device c: c's own receive chunks, each with the mark that c's
    landing cell of the first exchange is at round 0 (the neighbour of the neighbour is c itself). -/
theorem barPayY_ynbr (c : Dev nD) :
    (barPayY (ynbr c) : sProp 𝕄)
      = bigSep Finset.univ fun k : Fin 32 => iprop((∃ f, pts (rSl k) c fullShare f) ∗ reached ER (xcell c 2 k) 0) := by
  unfold barPayY; rw [ynbr_ynbr]

/-- What the first-axis neighbour's barrier cell is paid by device c: c's result chunks in the neighbour's half, each with
    the mark that c's landing cell of the second exchange is at round 0. -/
theorem barPayX_xnbr (c : Dev nD) :
    (barPayX (xnbr c) : sProp 𝕄)
      = bigSep Finset.univ fun k : Fin 32 => iprop((∃ f, pts (oSl (hf (xnbr c)) k) c fullShare f) ∗ reached ER (xcell c 4 k) 0) := by
  unfold barPayX; rw [xnbr_xnbr]

theorem payY_of_give (K : Dev nD × CIx → ℕ) (c : Dev nD) :
    iprop(records m K ∗ giveY c) ⊢ (Rd (F := F) m).payload (barCell (ynbr c)) 0 false := by
  rw [payload_bar_false, barPayY_ynbr]; unfold giveY
  exact bigSep_with_persistent (R := records m K) fun k _ => by
    iintro ⟨#HR, H⟩
    isplitl [H]; · iexact H
    iapply (reached_of_records m K (c, some (2, k))); iexact HR

theorem payX_of_give (K : Dev nD × CIx → ℕ) (c : Dev nD) :
    iprop(records m K ∗ giveX c) ⊢ (Rd (F := F) m).payload (barCell (xnbr c)) 0 true := by
  rw [payload_bar_true, barPayX_xnbr]; unfold giveX
  exact bigSep_with_persistent (R := records m K) fun k _ => by
    iintro ⟨#HR, H⟩
    isplitl [H]; · iexact H
    iapply (reached_of_records m K (c, some (4, k))); iexact HR

omit [FloatOps F] in
theorem sep_drop_right (P R : sProp 𝕄) : iprop(P ∗ R) ⊢ P := by iintro ⟨H, -⟩; iexact H

/-- What the barrier wait brings, the round marks dropped. -/
theorem got_of_rest (c : Dev nD) :
    bigSep ((Rd (F := F) m).duties (barCell c) 0 \ ∅) (fun d => (Rd (F := F) m).payload (barCell c) 0 d)
      ⊢ iprop((bigSep Finset.univ fun k : Fin 32 => gotY c k) ∗ (bigSep Finset.univ fun k : Fin 32 => gotX c k)) := by
  rw [rest_bar]; unfold barPayY barPayX gotY gotX
  exact BI.sep_mono (bigSep_mono fun k _ => sep_drop_right _ _) (bigSep_mono fun k _ => sep_drop_right _ _)

/-! ## The entry handshake -/

/-- The two barrier signals and the wait for both neighbours' signals.  Device c pays duty false of its second-axis
    neighbour's barrier cell with its receive chunks, duty true of its first-axis neighbour's barrier cell with its result
    chunks in that neighbour's half, and, with the 64 copies still owed (all to cells above a barrier cell), waits for the
    two units on its own barrier cell, which bring the neighbours' chunks. -/
theorem barrier_step (K : Dev nD × CIx → ℕ) (c : Dev nD) (ny nx : Dev nD) (hy : ny = ynbr c) (hx : nx = xnbr c)
    {α : Type} {Q : α → sProp 𝕄} {rest : Prog (TpuEff nD τ sig (Elt F) Λ₀ .tc) α} :
    iprop(records m K ∗ levAts L lv ∗ dutyTok ER (barCell (ynbr c)) 0 false ∗ dutyTok ER (barCell (xnbr c)) 0 true
        ∗ atPos ER (barCell c) 0 ∅ 0 ∗ cred (tallyAt (barCell c) () 2) ∗ giveY c ∗ giveX c ∗ owesX c 66)
      ⊢ iprop((((bigSep Finset.univ fun k : Fin 32 => gotY c k) ∗ (bigSep Finset.univ fun k : Fin 32 => gotX c k) ∗ owesX c 64)
            -∗ wp frame (wpE (defs₀ (F := F)) 𝒱₀ (c : Thread nD τ) none) Set.univ rest Q)
          -∗ wp frame (wpE (defs₀ (F := F)) 𝒱₀ (c : Thread nD τ) none) Set.univ
              (.op (.semSignal (ny : Thread nD τ) barS 1) fun _ =>
                .op (.semSignal (nx : Thread nD τ) barS 1) fun _ =>
                  .op (.semWait barS 2) fun _ => rest) Q) := by
  subst hy hx
  unfold owesX
  iintro ⟨#HR, #Hlev, HtY, HtX, Hat, Hc, HgY, HgX, ⟨%W, HO⟩⟩ Hk
  -- the signal to the second-axis neighbour
  iapply (Rounds.wp_signal 𝒱₀ ER (Rd m) (c : Thread nD τ) none (dst := (ynbr c : Thread nD τ)) (κ := K (ynbr c, none))
      (d := false) (by rw [duties_bar]; exact Finset.mem_univ _) (amount_bar m (ynbr c) false) () (owe c 65) (owe_sigY c))
    $$ [HO HtY HgY]
  · isplitr; · iapply (inv_of_records m K (ynbr c, none)); iexact HR
    isplitl [HO]; · iexact HO
    isplitl [HtY]; · iexact HtY
    isplitl [HgY]
    · iapply (payY_of_give m K c); isplitr; · iexact HR
      iexact HgY
    · iapply (reached_of_records m K (ynbr c, none)); iexact HR
  iintro HO
  -- the signal to the first-axis neighbour
  iapply (Rounds.wp_signal 𝒱₀ ER (Rd m) (c : Thread nD τ) none (dst := (xnbr c : Thread nD τ)) (κ := K (xnbr c, none))
      (d := true) (by rw [duties_bar]; exact Finset.mem_univ _) (amount_bar m (xnbr c) true) () (owe c 64) (owe_sigX c))
    $$ [HO HtX HgX]
  · isplitr; · iapply (inv_of_records m K (xnbr c, none)); iexact HR
    isplitl [HO]; · iexact HO
    isplitl [HtX]; · iexact HtX
    isplitl [HgX]
    · iapply (payX_of_give m K c); isplitr; · iexact HR
      iexact HgX
    · iapply (reached_of_records m K (xnbr c, none)); iexact HR
  iintro HO
  -- the wait for both neighbours' signals
  iapply (Rounds.wp_wait_rest_token 𝒱₀ ER (Rd m) (c : Thread nD τ) none (κ := K (c, none))
      (wpE_semWait_eq 𝒱₀ (c : Thread nD τ) none Set.univ) (Set.mem_univ _) () (O := owe c 64) (W := W) (R := 0) (m := 0) (T := ∅)
      (by rw [expect_bar])) $$ [Hc HO Hat]
  · isplitr; · iapply (inv_of_records m K (c, none)); iexact HR
    isplitl [Hc]; · iexact Hc
    isplitl [HO]; · iexact HO
    isplitr; · iapply (mayWait_bar c); iexact Hlev
    iexact Hat
  iintro ⟨HO, -, -, Hpay⟩
  ihave Hp := (got_of_rest m c) $$ Hpay
  icases Hp with ⟨HY, HX⟩
  iapply Hk
  isplitl [HY]; · iexact HY
  isplitl [HX]; · iexact HX
  iexists (insert (SemLoc.reg barS, ()) W)
  iexact HO

end Cert.KernelIdeal.AR

end
-- ==== Proof.Ends.lean ====
/-
  The two ends of the kernel function of one device: pure regroupings of what the device holds, with no program step.

  At the start a device holds its ghost state (its position at round 0 of its barrier cell and of its 5 × 32 transfer
  cells, and the tokens of the duties it pays), its credit tokens, its argument array whole, its three scratch buffers
  and the result's staging buffer whole at some contents.  A 4096-row buffer is its 32 chunks of 128 rows, an 8192-row
  buffer the 32 chunks of the half the device works on and the 32 chunks of the other half; a conjunction over the cells
  of a device is the barrier cell's conjunct and, chunk by chunk, the five transfer cells' conjuncts.  So the start
  regroups into one stage-0 bundle per chunk, what the two barrier signals hand over (the receive chunks, and the result
  chunks of the other half), the input chunks of the other half, and the barrier cell's own tokens.  At the end the same
  equations, read backwards, rejoin the 32 closed chunk bundles into the whole buffers at their final contents and the
  160 transfer semaphores at zero.
-/
import proofs.«900152_g7700000000000153_dist_ar_v7x_xy2x2_y_m8192_n1024_bf16_1_alg».proof.Proof.Chunk
import proofs.«900152_g7700000000000153_dist_ar_v7x_xy2x2_y_m8192_n1024_bf16_1_alg».proof.Proof.Split

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite separating conjunctions written out -/

/-- The two halves of the rows, the one device c works on first. -/
theorem hf_cases (c : Dev nD) : (hf c = 0 ∧ hf (xnbr c) = 1) ∨ (hf c = 1 ∧ hf (xnbr c) = 0) := by
  revert c; decide

theorem halves_eq (c : Dev nD) (Φ : Fin 2 → sProp 𝕄) :
    bigSep Finset.univ Φ = iprop(Φ (hf c) ∗ Φ (hf (xnbr c))) := by
  rw [bigSep_univ_two]
  rcases hf_cases c with ⟨h0, h1⟩ | ⟨h0, h1⟩
  · rw [h0, h1]
  · rw [h0, h1]; exact equiv_iff.mp ⟨BI.sep_comm, BI.sep_comm⟩

theorem halves (c : Dev nD) (Φ : Fin 2 → sProp 𝕄) :
    bigSep Finset.univ Φ ⊣⊢ iprop(Φ (hf c) ∗ Φ (hf (xnbr c))) := .of_eq (halves_eq c Φ)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

/-! ## Index sets regrouped -/

/-- A conjunction over the 5 × 32 transfer cells, chunk by chunk. -/
theorem bigSep_jk (Φ : Fin 5 × Fin 32 → sProp 𝕄) :
    bigSep Finset.univ Φ = bigSep Finset.univ fun k : Fin 32 =>
      iprop(Φ (0, k) ∗ Φ (1, k) ∗ Φ (2, k) ∗ Φ (3, k) ∗ Φ (4, k)) := by
  rw [bigSep_univ_prod, bigSep_univ_comm]
  exact bigSep_congr fun k _ => bigSep_fin5 _

/-- A conjunction over all cells of a device: the barrier cell, then the transfer cells chunk by chunk. -/
theorem bigSep_cix (Φ : CIx → sProp 𝕄) :
    bigSep Finset.univ Φ = iprop(Φ none ∗ bigSep Finset.univ fun k : Fin 32 =>
      iprop(Φ (some (0, k)) ∗ Φ (some (1, k)) ∗ Φ (some (2, k)) ∗ Φ (some (3, k)) ∗ Φ (some (4, k)))) := by
  have e1 : bigSep Finset.univ Φ
      = iprop((bigSep Finset.univ fun a : Fin 5 × Fin 32 => Φ (some a)) ∗ bigSep Finset.univ fun _ : PUnit.{1} => Φ none) := by
    rw [bigSep_univ_equiv (Equiv.optionEquivSumPUnit (Fin 5 × Fin 32)).symm Φ, bigSep_univ_sum]; rfl
  have e2 : (bigSep Finset.univ fun _ : PUnit.{1} => Φ none) = Φ none := bigSep_univ_of_subsingleton PUnit.unit
  rw [e1, e2, bigSep_jk]
  exact equiv_iff.mp ⟨BI.sep_comm, BI.sep_comm⟩

theorem positions_eq (c : Dev nD) :
    (positions c : sProp 𝕄) = iprop(atPos ER (barCell c) 0 ∅ 0 ∗ bigSep Finset.univ fun k : Fin 32 =>
      iprop(posJ c 0 k ∗ posJ c 1 k ∗ posJ c 2 k ∗ posJ c 3 k ∗ posJ c 4 k)) :=
  bigSep_cix fun i : CIx => atPos ER (kcell (c, i)) 0 ∅ 0

theorem xferSems_eq (c : Dev nD) :
    (xferSems c : sProp 𝕄) = bigSep Finset.univ fun k : Fin 32 =>
      iprop(semVal (xcell c 0 k) 0 ∗ semVal (xcell c 1 k) 0 ∗ semVal (xcell c 2 k) 0 ∗ semVal (xcell c 3 k) 0 ∗ semVal (xcell c 4 k) 0) :=
  bigSep_jk fun jk : Fin 5 × Fin 32 => semVal (xcell c jk.1 jk.2) 0

/-! ## The buffers, chunk by chunk -/

/-- The input chunks of the half device c does not work on. -/
def xOther (c : Dev nD) : sProp 𝕄 :=
  bigSep Finset.univ fun k : Fin 32 => pts (xSl (hf (xnbr c)) k) c fullShare (X m c)

/-- A chunked buffer at one contents is, chunk by chunk, at some contents. -/
theorem chunks_some {Y : Type} (P : Fin 32 → Y → sProp 𝕄) (y : Y) :
    (bigSep Finset.univ fun k => P k y) ⊢ bigSep Finset.univ fun k => iprop(∃ y, P k y) := by
  have h : ∀ k, P k y ⊢ iprop(∃ y, P k y) := fun k => by iintro H; iexists y; iexact H
  exact bigSep_mono fun k _ => h k

/-- An 8192-row buffer is the chunks of the half device c works on and the chunks of the other half. -/
theorem split_o (c : Dev nD) (q : PosShare TreeShare) (f : Buf (Elt F) ((c : Thread nD τ).loc cc0_stg0_0)) :
    ((((c : Thread nD τ).loc cc0_stg0_0) ↦{q} f : sProp 𝕄))
      = iprop((bigSep Finset.univ fun k : Fin 32 => pts (oSl (hf c) k) c q f)
          ∗ bigSep Finset.univ fun k : Fin 32 => pts (oSl (hf (xnbr c)) k) c q f) := by
  rw [split64_o_eq c q f, bigSep_univ_prod, halves_eq c]
theorem split_x (c : Dev nD) (q : PosShare TreeShare) (f : Buf (Elt F) ((c : Thread nD τ).loc main_arg0)) :
    ((((c : Thread nD τ).loc main_arg0) ↦{q} f : sProp 𝕄))
      = iprop((bigSep Finset.univ fun k : Fin 32 => pts (xSl (hf c) k) c q f)
          ∗ bigSep Finset.univ fun k : Fin 32 => pts (xSl (hf (xnbr c)) k) c q f) := by
  rw [split64_x_eq c q f, bigSep_univ_prod, halves_eq c]

/-! ## All chunks at one stage -/

theorem st0_all (c : Dev nD) :
    (bigSep Finset.univ fun k : Fin 32 => st0 m c k)
      = iprop((bigSep Finset.univ fun k : Fin 32 => pts (xSl (hf c) k) c fullShare (X m c))
          ∗ (bigSep Finset.univ fun k : Fin 32 => iprop(∃ f, pts (vSl k) c fullShare f))
          ∗ (bigSep Finset.univ fun k : Fin 32 => iprop(∃ f, pts (sSl k) c fullShare f))
          ∗ (bigSep Finset.univ fun k : Fin 32 => iprop(∃ f, pts (oSl (hf c) k) c fullShare f))
          ∗ (bigSep Finset.univ fun k : Fin 32 => chunkToks c k)
          ∗ (bigSep Finset.univ fun k : Fin 32 => iprop(posJ c 0 k ∗ posJ c 1 k ∗ posJ c 2 k ∗ posJ c 3 k ∗ posJ c 4 k))
          ∗ (bigSep Finset.univ fun k : Fin 32 => iprop(credJ c 2 k ∗ credJ c 4 k))) := by
  unfold st0
  rw [bigSep_sep', bigSep_sep', bigSep_sep', bigSep_sep', bigSep_sep', bigSep_sep']

theorem st4_all (c : Dev nD) :
    (bigSep Finset.univ fun k : Fin 32 => st4 m c k)
      = iprop((bigSep Finset.univ fun k : Fin 32 => pts (xSl (hf c) k) c fullShare (X m c))
          ∗ (bigSep Finset.univ fun k : Fin 32 => pts (vSl k) c fullShare (xvB m c))
          ∗ (bigSep Finset.univ fun k : Fin 32 => pts (sSl k) c fullShare (sendB m c))
          ∗ (bigSep Finset.univ fun k : Fin 32 => pts (rSl k) c fullShare (recvB m c))
          ∗ (bigSep Finset.univ fun k : Fin 32 => pts (oSl (hf c) k) c fullShare (outB m c))
          ∗ (bigSep Finset.univ fun k : Fin 32 => pts (oSl (hf (xnbr c)) k) c fullShare (outB m c))
          ∗ (bigSep Finset.univ fun k : Fin 32 =>
              iprop(semVal (xcell c 0 k) 0 ∗ semVal (xcell c 1 k) 0 ∗ semVal (xcell c 2 k) 0 ∗ semVal (xcell c 3 k) 0 ∗ semVal (xcell c 4 k) 0))) := by
  unfold st4
  rw [bigSep_sep', bigSep_sep', bigSep_sep', bigSep_sep', bigSep_sep', bigSep_sep']

theorem cred24_eq (c : Dev nD) (k : Fin 32) :
    (iprop(credJ c 2 k ∗ credJ c 4 k) : sProp 𝕄) = iprop(cred (tallyAt (xcell c 2 k) () N) ∗ cred (tallyAt (xcell c 4 k) () N)) := rfl

/-- A chunked scratch buffer at one contents is the whole buffer at some contents. -/
theorem join_v (c : Dev nD) (f : Buf (Elt F) ((c : Thread nD τ).loc cc0_scratch0)) :
    (bigSep Finset.univ fun k : Fin 32 => pts (vSl k) c fullShare f)
      ⊢ iprop(∃ f : Buf (Elt F) ((c : Thread nD τ).loc cc0_scratch0), ((c : Thread nD τ).loc cc0_scratch0) ↦{fullShare} f) := by
  rw [← split32_v_eq c fullShare f]; iintro H; iexists f; iexact H
theorem join_s (c : Dev nD) (f : Buf (Elt F) ((c : Thread nD τ).loc cc0_scratch1)) :
    (bigSep Finset.univ fun k : Fin 32 => pts (sSl k) c fullShare f)
      ⊢ iprop(∃ f : Buf (Elt F) ((c : Thread nD τ).loc cc0_scratch1), ((c : Thread nD τ).loc cc0_scratch1) ↦{fullShare} f) := by
  rw [← split32_s_eq c fullShare f]; iintro H; iexists f; iexact H
theorem join_r (c : Dev nD) (f : Buf (Elt F) ((c : Thread nD τ).loc cc0_scratch2)) :
    (bigSep Finset.univ fun k : Fin 32 => pts (rSl k) c fullShare f)
      ⊢ iprop(∃ f : Buf (Elt F) ((c : Thread nD τ).loc cc0_scratch2), ((c : Thread nD τ).loc cc0_scratch2) ↦{fullShare} f) := by
  rw [← split32_r_eq c fullShare f]; iintro H; iexists f; iexact H

/-- A whole buffer at some contents is, chunk by chunk, at some contents. -/
theorem some_v (c : Dev nD) :
    iprop(∃ f : Buf (Elt F) ((c : Thread nD τ).loc cc0_scratch0), ((c : Thread nD τ).loc cc0_scratch0) ↦{fullShare} f)
      ⊢ (bigSep Finset.univ fun k : Fin 32 => iprop(∃ f, pts (vSl k) c fullShare f) : sProp 𝕄) := by
  iintro ⟨%f, H⟩
  iapply (chunks_some (fun k (f : Buf (Elt F) ((c : Thread nD τ).loc cc0_scratch0)) => pts (vSl k) c fullShare f) f)
  iapply (Entails.of_eq (split32_v_eq c fullShare f)); iexact H
theorem some_s (c : Dev nD) :
    iprop(∃ f : Buf (Elt F) ((c : Thread nD τ).loc cc0_scratch1), ((c : Thread nD τ).loc cc0_scratch1) ↦{fullShare} f)
      ⊢ (bigSep Finset.univ fun k : Fin 32 => iprop(∃ f, pts (sSl k) c fullShare f) : sProp 𝕄) := by
  iintro ⟨%f, H⟩
  iapply (chunks_some (fun k (f : Buf (Elt F) ((c : Thread nD τ).loc cc0_scratch1)) => pts (sSl k) c fullShare f) f)
  iapply (Entails.of_eq (split32_s_eq c fullShare f)); iexact H
theorem some_r (c : Dev nD) :
    iprop(∃ f : Buf (Elt F) ((c : Thread nD τ).loc cc0_scratch2), ((c : Thread nD τ).loc cc0_scratch2) ↦{fullShare} f)
      ⊢ (bigSep Finset.univ fun k : Fin 32 => iprop(∃ f, pts (rSl k) c fullShare f) : sProp 𝕄) := by
  iintro ⟨%f, H⟩
  iapply (chunks_some (fun k (f : Buf (Elt F) ((c : Thread nD τ).loc cc0_scratch2)) => pts (rSl k) c fullShare f) f)
  iapply (Entails.of_eq (split32_r_eq c fullShare f)); iexact H
theorem some_o (c : Dev nD) :
    iprop(∃ f : Buf (Elt F) ((c : Thread nD τ).loc cc0_stg0_0), ((c : Thread nD τ).loc cc0_stg0_0) ↦{fullShare} f)
      ⊢ (iprop((bigSep Finset.univ fun k : Fin 32 => iprop(∃ f, pts (oSl (hf c) k) c fullShare f))
          ∗ bigSep Finset.univ fun k : Fin 32 => iprop(∃ f, pts (oSl (hf (xnbr c)) k) c fullShare f)) : sProp 𝕄) := by
  iintro ⟨%f, H⟩
  ihave H2 := (Entails.of_eq (split_o c fullShare f)) $$ H
  icases H2 with ⟨HA, HB⟩
  isplitl [HA]
  · iapply (chunks_some (fun k (f : Buf (Elt F) ((c : Thread nD τ).loc cc0_stg0_0)) => pts (oSl (hf c) k) c fullShare f) f); iexact HA
  iapply (chunks_some (fun k (f : Buf (Elt F) ((c : Thread nD τ).loc cc0_stg0_0)) => pts (oSl (hf (xnbr c)) k) c fullShare f) f); iexact HB

/-! ## The two ends of the body -/

/-- What a device holds at the start of its kernel function, regrouped chunk by chunk: every chunk's stage-0 bundle,
    what the two barrier signals hand over, the input chunks of the other half, and the barrier cell's own tokens. -/
theorem prologue (K : Dev nD × CIx → ℕ) (c : Dev nD) :
    iprop(ghost m K c ∗ creds c ∗ argPts m c ∗ scratches c
        ∗ (∃ f : Buf (Elt F) ((c : Thread nD τ).loc cc0_stg0_0), ((c : Thread nD τ).loc cc0_stg0_0) ↦{fullShare} f))
      ⊢ iprop(records m K ∗ (bigSep Finset.univ fun k : Fin 32 => st0 m c k) ∗ giveY c ∗ giveX c ∗ xOther m c
          ∗ dutyTok ER (barCell (ynbr c)) 0 false ∗ dutyTok ER (barCell (xnbr c)) 0 true ∗ atPos ER (barCell c) 0 ∅ 0
          ∗ cred (tallyAt (barCell c) () 2)) := by
  unfold ghost creds scratches payToks argPts xOther giveY giveX
  rw [positions_eq c, st0_all m c, split_x c fullShare]
  iintro ⟨⟨HR, ⟨HpB, Hpos⟩, HtY, HtX, Htoks⟩, ⟨HcB, Hc24⟩, ⟨HxA, HxB⟩, ⟨Hv, Hs, Hr⟩, Ho⟩
  ihave Ho2 := (some_o c) $$ Ho
  icases Ho2 with ⟨HoA, HoB⟩
  isplitl [HR]; · iexact HR
  isplitl [HxA Hv Hs HoA Htoks Hpos Hc24]
  · isplitl [HxA]; · iexact HxA
    isplitl [Hv]; · iapply (some_v c); iexact Hv
    isplitl [Hs]; · iapply (some_s c); iexact Hs
    isplitl [HoA]; · iexact HoA
    isplitl [Htoks]; · iexact Htoks
    isplitl [Hpos]; · iexact Hpos
    iexact Hc24
  isplitl [Hr]; · iapply (some_r c); iexact Hr
  isplitl [HoB]; · iexact HoB
  isplitl [HxB]; · iexact HxB
  isplitl [HtY]; · iexact HtY
  isplitl [HtX]; · iexact HtX
  isplitl [HpB]; · iexact HpB
  iexact HcB

/-- What the closing waits leave, rejoined: the three scratch buffers and the result's staging buffer whole at their final
    contents, the argument array whole as at launch, and the 160 transfer semaphores at zero. -/
theorem epilogue (c : Dev nD) :
    iprop((bigSep Finset.univ fun k : Fin 32 => st4 m c k) ∗ xOther m c)
      ⊢ iprop(scratches c ∗ xferSems c ∗ argPts m c ∗ (((c : Thread nD τ).loc cc0_stg0_0) ↦{fullShare} outB m c)) := by
  unfold scratches argPts xOther
  rw [st4_all m c, xferSems_eq c, split_x c fullShare, split_o c fullShare (outB m c)]
  iintro ⟨⟨HxA, Hv, Hs, Hr, HoA, HoB, Hsem⟩, HxB⟩
  isplitl [Hv Hs Hr]
  · isplitl [Hv]; · iapply (join_v c (xvB m c)); iexact Hv
    isplitl [Hs]; · iapply (join_s c (sendB m c)); iexact Hs
    iapply (join_r c (recvB m c)); iexact Hr
  isplitl [Hsem]; · iexact Hsem
  isplitl [HxA HxB]
  · isplitl [HxA]; · iexact HxA
    iexact HxB
  isplitl [HoA]; · iexact HoA
  iexact HoB

end Cert.KernelIdeal.AR

end
-- ==== Proof.Glue.lean ====
/-
  The body's entry and exit, as two entailments with no program step: what the pipeline hands the body at its one point,
  cut into the chunks' resources; and the chunks' final resources, put back together as what the pipeline takes back.
-/
import proofs.«900152_g7700000000000153_dist_ar_v7x_xy2x2_y_m8192_n1024_bf16_1_alg».proof.Proof.Ends

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Entry: from what the pipeline hands the body to the chunks' resources -/

/-- At entry the body holds the protocol's ghost state, its credits, the level facts, its argument block and the scratch
    buffers, what it owes before its one point, and the result's staging buffer at whatever it held.  Cut chunk by chunk
    this is every chunk's resources before its local copy, what the two barrier signals hand over, the other half of
    the argument block, the tokens and the position of the barrier round, and the whole debt of 66 paying actions. -/
theorem body_entry (K : Dev nD × CIx → ℕ) (c : Dev nD) :
    bodyPre m ρ K c ⊢ iprop(records m K ∗ levAts L lv ∗ (bigSep Finset.univ fun k : Fin 32 => st0 m c k) ∗ giveY c ∗ giveX c ∗ xOther m c
        ∗ dutyTok ER (barCell (ynbr c)) 0 false ∗ dutyTok ER (barCell (xnbr c)) 0 true ∗ atPos ER (barCell c) 0 ∅ 0
        ∗ cred (tallyAt (barCell c) () 2) ∗ owesX c 66) := by
  unfold bodyPre owesX
  unfold Dat.owesAt Pipeline.owesWithin
  rw [show (dats m ρ 0 c).owed t₀.castSucc = owe c 66 from rfl]
  iintro ⟨⟨Hg, Hcr, #Hlev, Ha, Hs⟩, ⟨%W, %hW, HO⟩, ⟨%d, %f, %hf, Hstg⟩⟩
  ihave H := (prologue m K c) $$ [Hg Hcr Ha Hs Hstg]
  · isplitl [Hg]; · iexact Hg
    isplitl [Hcr]; · iexact Hcr
    isplitl [Ha]; · iexact Ha
    isplitl [Hs]; · iexact Hs
    iexists f; iexact Hstg
  icases H with ⟨#Hrec, Hst0, HgY, HgX, HxO, Ht1, Ht2, Hat, Hcb⟩
  isplitr; · iexact Hrec
  isplitr; · iexact Hlev
  isplitl [Hst0]; · iexact Hst0
  isplitl [HgY]; · iexact HgY
  isplitl [HgX]; · iexact HgX
  isplitl [HxO]; · iexact HxO
  isplitl [Ht1]; · iexact Ht1
  isplitl [Ht2]; · iexact Ht2
  isplitl [Hat]; · iexact Hat
  isplitl [Hcb]; · iexact Hcb
  iexists W; iexact HO

/-! ## Exit: from the chunks' final resources to what the pipeline takes back -/

/-- At exit every chunk is whole at its final contents and every transfer cell closed; with the other half of the
    argument block these are the scratch buffers, the 160 counters at zero, the argument block, and the result's staging
    buffer at the all-reduce's value; nothing is owed. -/
theorem body_exit (c : Dev nD) :
    iprop((bigSep Finset.univ fun k : Fin 32 => st4 m c k) ∗ xOther m c ∗ owesX c 0) ⊢ bodyPost m ρ c := by
  unfold bodyPost Φ₁ owesX
  unfold Dat.owesAt Pipeline.owesWithin
  rw [show (dats m ρ 0 c).owed t₀.succ = owe c 0 from rfl]
  iintro ⟨Hst, HxO, ⟨%W, HO⟩⟩
  ihave H := (epilogue m c) $$ [Hst HxO]
  · isplitl [Hst]; · iexact Hst
    iexact HxO
  icases H with ⟨Hscr, Hsem, Harg, Hout⟩
  isplitl [Hscr Hsem Harg]
  · isplitl [Hscr]; · iexact Hscr
    isplitl [Hsem]; · iexact Hsem
    iexact Harg
  isplitl [HO]
  · iexists W
    isplitr; · ipureintro; exact fun _ _ => Or.inl trivial
    iexact HO
  iexists (outB m c)
  isplitr; · ipureintro; rfl
  iexact Hout

end Cert.KernelIdeal.AR

end
-- ==== Proof.Body.lean ====
/-
  One device's kernel function, run from its resources at the grid point to its resources after it: the buffers are cut
  into their 32 chunks, every chunk goes through its five steps (local copy started; phase-1 copy; phase-2 copy; the
  three closing waits) in the kernel's order, with the entry handshake after the local copies are started, and the
  chunks are joined again.  Each step is a lemma about ONE chunk, proved for a symbolic chunk and applied 32 times.
-/
import proofs.«900152_g7700000000000153_dist_ar_v7x_xy2x2_y_m8192_n1024_bf16_1_alg».proof.Proof.Phase0
import proofs.«900152_g7700000000000153_dist_ar_v7x_xy2x2_y_m8192_n1024_bf16_1_alg».proof.Proof.Phase1
import proofs.«900152_g7700000000000153_dist_ar_v7x_xy2x2_y_m8192_n1024_bf16_1_alg».proof.Proof.Phase2
import proofs.«900152_g7700000000000153_dist_ar_v7x_xy2x2_y_m8192_n1024_bf16_1_alg».proof.Proof.Phase3
import proofs.«900152_g7700000000000153_dist_ar_v7x_xy2x2_y_m8192_n1024_bf16_1_alg».proof.Proof.Bar
import proofs.«900152_g7700000000000153_dist_ar_v7x_xy2x2_y_m8192_n1024_bf16_1_alg».proof.Proof.Glue
import proofs.«900152_g7700000000000153_dist_ar_v7x_xy2x2_y_m8192_n1024_bf16_1_alg».proof.Proof.Geom

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Lean Elab Tactic in
/-- A step of the proof written out as text and run. -/
def runTacStr (s : String) : TacticM Unit := do
  match Parser.runParserCategory (← getEnv) `tactic s with
  | .ok stx => evalTactic stx
  | .error e => throwError "runTacStr: {e}\n{s}"

open Lean Elab Tactic in
/-- The printed part n of the kernel function is replaced, where it is called, by its statements. -/
elab "up " n:num : tactic => do
  let i := n.getNat
  runTacStr s!"(simp only [k0_part{i}_eq_skeleton]; unfold k0_part{i}_skel; simp only [semSignalWord, semWaitWord, Prog.lift, Prog.bind_op, Prog.bind_ret, Prog.pure_eq_ret])"

open Lean Elab Tactic in
/-- Chunk k's local copy is started. -/
elab "s0 " k:num : tactic => do
  let i := k.getNat
  runTacStr s!"(iapply (phase0_chunk m K c {i} (fun fd => pts_ld_landed m fullShare c {i} fd)) $$ [H{i}]; (· (isplitr; (· iexact Hrec); (· iexact H{i}))); iintro H{i})"

open Lean Elab Tactic in
/-- Chunk k's phase-1 step. -/
elab "s1 " k:num : tactic => do
  let i := k.getNat
  runTacStr s!"(iapply (phase1_chunk m K c {i} ⟨k0_dev{3+i} c, k0_dev{3+i}_lt c⟩ (Fin.ext (k0_dev{3+i}_eq c)) rfl) $$ [H{i} HY{i} HO]; (· (isplitr; (· iexact Hrec); isplitr; (· iexact Hlev); isplitl [H{i}]; (· iexact H{i}); isplitl [HY{i}]; (· iexact HY{i}); iexact HO)); iintro ⟨H{i}, HO⟩)"

open Lean Elab Tactic in
/-- Chunk k's phase-2 step. -/
elab "s2 " k:num : tactic => do
  let i := k.getNat
  runTacStr s!"(iapply (phase2_chunk m K c {i} ⟨k0_dev{35+i} c, k0_dev{35+i}_lt c⟩ (Fin.ext (k0_dev{35+i}_eq c)) rfl) $$ [H{i} HX{i} HO]; (· (isplitr; (· iexact Hrec); isplitr; (· iexact Hlev); isplitl [H{i}]; (· iexact H{i}); isplitl [HX{i}]; (· iexact HX{i}); iexact HO)); iintro ⟨H{i}, HO⟩)"

open Lean Elab Tactic in
/-- Chunk k's closing waits. -/
elab "s3 " k:num : tactic => do
  let i := k.getNat
  runTacStr s!"(iapply (phase3_chunk m K c {i}) $$ [H{i} HO]; (· (isplitr; (· iexact Hrec); isplitr; (· iexact Hlev); isplitl [H{i}]; (· iexact H{i}); iexact HO)); iintro ⟨H{i}, HO⟩)"

set_option maxHeartbeats 4000000 in
set_option maxRecDepth 100000 in
theorem sound_body : SoundBody m ρ := by
  intro K c Kt
  unfold theBody
  simp only [cc0_body_eq_skeleton]; unfold cc0_body_skel
  simp only [k0_part74_eq_skeleton]; unfold k0_part74_skel
  simp only [k0_part1_eq_skeleton]; unfold k0_part1_skel
  simp only [Prog.lift, Prog.bind_op, Prog.bind_ret, Prog.pure_eq_ret, wp_deviceId]
  iintro ⟨Hpre, Hk⟩
  ihave Hent := (body_entry m ρ K c) $$ Hpre
  icases Hent with ⟨#Hrec, #Hlev, Hst, HgY, HgX, Hxo, HtY, HtX, HaB, HcB, HO⟩
  ihave Hst' := (Entails.of_eq (bigSep_fin32 (fun k : Fin 32 => st0 m c k))) $$ Hst
  icases Hst' with ⟨H0, H1, H2, H3, H4, H5, H6, H7, H8, H9, H10, H11, H12, H13, H14, H15, H16, H17, H18, H19, H20, H21, H22, H23, H24, H25, H26, H27, H28, H29, H30, H31⟩
  s0 0
  s0 1
  s0 2
  up 2
  s0 3
  s0 4
  s0 5
  s0 6
  s0 7
  s0 8
  up 3
  s0 9
  s0 10
  s0 11
  s0 12
  s0 13
  up 4
  s0 14
  s0 15
  s0 16
  s0 17
  s0 18
  s0 19
  up 5
  s0 20
  s0 21
  s0 22
  s0 23
  s0 24
  up 6
  s0 25
  s0 26
  s0 27
  s0 28
  s0 29
  s0 30
  up 7
  s0 31
  iapply (barrier_step m K c ⟨k0_dev1 c, k0_dev1_lt c⟩ ⟨k0_dev2 c, k0_dev2_lt c⟩ (Fin.ext (k0_dev1_eq c)) (Fin.ext (k0_dev2_eq c))) $$ [HtY HtX HaB HcB HgY HgX HO]
  · isplitr; · iexact Hrec
    isplitr; · iexact Hlev
    isplitl [HtY]; · iexact HtY
    isplitl [HtX]; · iexact HtX
    isplitl [HaB]; · iexact HaB
    isplitl [HcB]; · iexact HcB
    isplitl [HgY]; · iexact HgY
    isplitl [HgX]; · iexact HgX
    iexact HO
  iintro ⟨HY, HX, HO⟩
  ihave HY' := (Entails.of_eq (bigSep_fin32 (fun k : Fin 32 => gotY (F := F) c k))) $$ HY
  icases HY' with ⟨HY0, HY1, HY2, HY3, HY4, HY5, HY6, HY7, HY8, HY9, HY10, HY11, HY12, HY13, HY14, HY15, HY16, HY17, HY18, HY19, HY20, HY21, HY22, HY23, HY24, HY25, HY26, HY27, HY28, HY29, HY30, HY31⟩
  ihave HX' := (Entails.of_eq (bigSep_fin32 (fun k : Fin 32 => gotX (F := F) c k))) $$ HX
  icases HX' with ⟨HX0, HX1, HX2, HX3, HX4, HX5, HX6, HX7, HX8, HX9, HX10, HX11, HX12, HX13, HX14, HX15, HX16, HX17, HX18, HX19, HX20, HX21, HX22, HX23, HX24, HX25, HX26, HX27, HX28, HX29, HX30, HX31⟩
  up 8
  s1 0
  s1 1
  up 9
  s1 2
  up 10
  s1 3
  s1 4
  up 11
  s1 5
  up 12
  s1 6
  s1 7
  up 13
  s1 8
  up 14
  s1 9
  s1 10
  up 15
  s1 11
  s1 12
  up 16
  s1 13
  up 17
  s1 14
  s1 15
  up 18
  s1 16
  up 19
  s1 17
  s1 18
  up 20
  s1 19
  up 21
  s1 20
  s1 21
  up 22
  s1 22
  up 23
  s1 23
  s1 24
  up 24
  s1 25
  up 25
  s1 26
  s1 27
  up 26
  s1 28
  up 27
  s1 29
  s1 30
  up 28
  s1 31
  up 29
  s2 0
  s2 1
  up 30
  s2 2
  up 31
  s2 3
  up 32
  s2 4
  up 33
  s2 5
  up 34
  s2 6
  s2 7
  up 35
  s2 8
  up 36
  s2 9
  up 37
  s2 10
  up 38
  s2 11
  s2 12
  up 39
  s2 13
  up 40
  s2 14
  up 41
  s2 15
  up 42
  s2 16
  up 43
  s2 17
  s2 18
  up 44
  s2 19
  up 45
  s2 20
  up 46
  s2 21
  up 47
  s2 22
  s2 23
  up 48
  s2 24
  up 49
  s2 25
  up 50
  s2 26
  up 51
  s2 27
  s2 28
  up 52
  s2 29
  up 53
  s2 30
  up 54
  s2 31
  up 55
  s3 0
  s3 1
  up 56
  s3 2
  s3 3
  up 57
  s3 4
  up 58
  s3 5
  s3 6
  up 59
  s3 7
  up 60
  s3 8
  s3 9
  up 61
  s3 10
  up 62
  s3 11
  s3 12
  up 63
  s3 13
  s3 14
  up 64
  s3 15
  up 65
  s3 16
  s3 17
  up 66
  s3 18
  up 67
  s3 19
  s3 20
  up 68
  s3 21
  up 69
  s3 22
  s3 23
  up 70
  s3 24
  s3 25
  up 71
  s3 26
  up 72
  s3 27
  s3 28
  up 73
  s3 29
  s3 30
  s3 31
  rw [wp_ret]; imodintro
  iapply Hk
  iapply (body_exit m ρ c)
  isplitl [H0 H1 H2 H3 H4 H5 H6 H7 H8 H9 H10 H11 H12 H13 H14 H15 H16 H17 H18 H19 H20 H21 H22 H23 H24 H25 H26 H27 H28 H29 H30 H31]
  · iapply (Entails.of_eq (bigSep_fin32 (fun k : Fin 32 => st4 m c k)).symm)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  isplitl [Hxo]; · iexact Hxo
  iexact HO

/-- info: 'Cert.KernelIdeal.AR.sound_body' depends on axioms: [propext, Classical.choice, Quot.sound] -/
#guard_msgs in #print axioms sound_body

end Cert.KernelIdeal.AR

end
-- ==== Proof.Bits.Spec.lean ====
/-
  The values of the two-phase all-reduce on the 2×2 mesh, as pure functions of the devices' argument blocks.

  Device `c` sits at mesh position (c / 2, c % 2).  Its argument block `X c` has 8192 rows.  The device works on the
  half of the rows that starts at row `4096 * (c / 2)`: it casts those 4096 rows to bf16 (`sendW`), receives the same
  rows of its neighbour along the second mesh axis (`ynbr c`, whose block is the other block of the whole array), adds
  the two (`sumW`), and exchanges the sum with its neighbour along the first mesh axis (`xnbr c`), which worked on the
  other half of the rows.  So every device ends with all 8192 rows of  cast (block of c) + cast (block of ynbr c),
  the own half computed by itself and the other half by `xnbr c` (`outW`).
-/
import proofs.«900152_g7700000000000153_dist_ar_v7x_xy2x2_y_m8192_n1024_bf16_1_alg».proof.Kernel
import proofs.«900152_g7700000000000153_dist_ar_v7x_xy2x2_y_m8192_n1024_bf16_1_alg».proof.Proof.Gen.Kernel

noncomputable section

namespace Cert.Kernel.AR

open Cert.Kernel Cert.Kernel.Gen
open Idealize.ShloMosaic Idealize.ShloMosaic.TcCoe Idealize.SL.Sem

variable {F : FTy → Type} [FloatOps F]

/-- The neighbour along the second mesh axis: same c / 2, the other c % 2. -/
def ynbr (c : Dev nD) : Dev nD := ⟨(2 * (c.val / 2) + 1) - (c.val % 2), by have := c.isLt; simp only [nD] at this ⊢; omega⟩
/-- The neighbour along the first mesh axis: the other c / 2, same c % 2. -/
def xnbr (c : Dev nD) : Dev nD := ⟨((c.val % 2) + 2) - 2 * (c.val / 2), by have := c.isLt; simp only [nD] at this ⊢; omega⟩

theorem ynbr_ynbr (c : Dev nD) : ynbr (ynbr c) = c := by revert c; decide
theorem xnbr_xnbr (c : Dev nD) : xnbr (xnbr c) = c := by revert c; decide
theorem ynbr_xnbr (c : Dev nD) : ynbr (xnbr c) = xnbr (ynbr c) := by revert c; decide
theorem ynbr_ne (c : Dev nD) : ynbr c ≠ c := by revert c; decide
theorem xnbr_ne (c : Dev nD) : xnbr c ≠ c := by revert c; decide
theorem xnbr_ne_ynbr (c : Dev nD) : xnbr c ≠ ynbr c := by revert c; decide
theorem ynbr_half (c : Dev nD) : (ynbr c).val / 2 = c.val / 2 := by revert c; decide
theorem xnbr_half (c : Dev nD) : (xnbr c).val / 2 = 1 - c.val / 2 := by revert c; decide
theorem xnbr_par (c : Dev nD) : (xnbr c).val % 2 = c.val % 2 := by revert c; decide
theorem ynbr_par (c : Dev nD) : (ynbr c).val % 2 = 1 - c.val % 2 := by revert c; decide

/-- The blocks of the argument, one per device. -/
abbrev Blocks (F : FTy → Type) : Type := Dev nD → S8192x1024.Idx → Elt F .f32

/-- Row `4096 * h + r` of an 8192-row array, for a row `r` of a 4096-row half. -/
def halfRow (h : Nat) (hh : h < 2) (i : S4096x1024.Idx) : S8192x1024.Idx := fun a =>
  match a with
  | ⟨0, _⟩ => ⟨4096 * h + (i 0).val, by have h0 : (i 0).val < 4096 := (i 0).isLt; show 4096 * h + (i 0).val < 8192; omega⟩
  | ⟨1, _⟩ => ⟨(i 1).val, (i 1).isLt⟩

theorem half_lt (c : Dev nD) : c.val / 2 < 2 := by have := c.isLt; simp only [nD] at this; omega

/-- What device `c` casts and sends: its half of its block, in bf16. -/
def sendW (X : Blocks F) (c : Dev nD) : S4096x1024.Idx → Elt F .bf16 := fun i =>
  FloatOps.truncf (F := F) .bf16 bitsLt_bf16_f32 (X c (halfRow (c.val / 2) (half_lt c) i))

/-- What lands in device `c`'s receive buffer: the same rows of `ynbr c`'s block. -/
def recvW (X : Blocks F) (c : Dev nD) : S4096x1024.Idx → Elt F .bf16 := sendW X (ynbr c)

/-- The sum device `c` computes for its half of the rows. -/
def sumW (X : Blocks F) (c : Dev nD) : S4096x1024.Idx → Elt F .bf16 := fun i =>
  FloatOps.addf (F := F) (sendW X c i) (recvW X c i)

/-- Row `r` of the 8192-row result lies in half `r / 4096`, at row `r % 4096` of it. -/
def inHalf (j : S8192x1024.Idx) : S4096x1024.Idx := fun a =>
  match a with
  | ⟨0, _⟩ => ⟨(j 0).val % 4096, Nat.mod_lt _ (by decide)⟩
  | ⟨1, _⟩ => ⟨(j 1).val, (j 1).isLt⟩

/-- The result array on device `c`: the half of the rows `c` works on holds `c`'s sum, the other half `xnbr c`'s. -/
def outW (X : Blocks F) (c : Dev nD) : S8192x1024.Idx → Elt F .bf16 := fun j =>
  if (j 0).val / 4096 = c.val / 2 then sumW X c (inHalf j) else sumW X (xnbr c) (inHalf j)

end Cert.Kernel.AR

end
-- ==== Proof.Bits.Protocol.lean ====
/-
  The cross-device protocol of the two-phase all-reduce, stated over the rounds discipline.

  Every device owns one barrier cell and, per chunk k of 32, five transfer cells: ld k (its local copy of input rows
  into its f32 scratch has completed), s1 k (its phase-1 copy has been read out of its send chunk), r1 k (the phase-1
  copy of its second-axis neighbour has landed in its receive chunk), s2 k and r2 k (the same for the phase-2 copy of
  the summed rows, exchanged with the first-axis neighbour).  A barrier cell has
  two duties of one unit in its only round: the second-axis neighbour's signal hands over that neighbour's 32 receive
  chunks, the first-axis neighbour's signal hands over the 32 chunks of that neighbour's result buffer that this device
  writes.  Every transfer cell has one duty whose payload is the chunk it reports on, at its final contents.
-/
import proofs.«900152_g7700000000000153_dist_ar_v7x_xy2x2_y_m8192_n1024_bf16_1_alg».proof.Proof.Bits.Spec
import proofs.«900152_g7700000000000153_dist_ar_v7x_xy2x2_y_m8192_n1024_bf16_1_alg».proof.Proof.Gen.Kernel.Skeleton
import proofs.«900152_g7700000000000153_dist_ar_v7x_xy2x2_y_m8192_n1024_bf16_1_alg».proof.Proof.Gen.Kernel.Launch
import proofs.«900152_g7700000000000153_dist_ar_v7x_xy2x2_y_m8192_n1024_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by Bool) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-- The devices' argument blocks. -/
abbrev X : Blocks F := fun d => m ((d : Thread nD τ).loc main_arg0)

/-! ## Memrefs and their chunks -/

abbrev xM : Memref sig .tc .hbm S8192x1024 .f32 := Memref.whole main_arg0
abbrev oM : Memref sig .tc .vmem S8192x1024 .bf16 := Memref.whole cc0_stg0_0
abbrev vM : Memref sig .tc .vmem S4096x1024 .f32 := Memref.whole cc0_scratch0
abbrev sM : Memref sig .tc .vmem S4096x1024 .bf16 := Memref.whole cc0_scratch1
abbrev rM : Memref sig .tc .vmem S4096x1024 .bf16 := Memref.whole cc0_scratch2

theorem inbS (k : Fin 32) : ∀ a, (![128 * k.val, 0] : Fin 2 → Nat) a + S128x1024.size a ≤ S4096x1024.size a := by
  revert k; decide
/-- Chunk k of a 4096-row scratch: rows [128 k, 128 k + 128). -/
abbrev rS (k : Fin 32) : Rect S4096x1024 := Rect.unit (s := S4096x1024) ![128 * k.val, 0] S128x1024.size (inbS k)

theorem inbO (h : Fin 2) (k : Fin 32) : ∀ a, (![4096 * h.val + 128 * k.val, 0] : Fin 2 → Nat) a + S128x1024.size a ≤ S8192x1024.size a := by
  revert h k; decide
/-- Chunk k of half h of an 8192-row array: rows [4096 h + 128 k, + 128). -/
abbrev rO (h : Fin 2) (k : Fin 32) : Rect S8192x1024 := Rect.unit (s := S8192x1024) ![4096 * h.val + 128 * k.val, 0] S128x1024.size (inbO h k)

/-- The half of the rows device c works on. -/
def hf (c : Dev nD) : Fin 2 := ⟨c.val / 2, half_lt c⟩

abbrev vSl (k : Fin 32) : Memref sig .tc .vmem S128x1024 .f32 := vM.slice (rS k) (fun _ => rfl)
abbrev sSl (k : Fin 32) : Memref sig .tc .vmem S128x1024 .bf16 := sM.slice (rS k) (fun _ => rfl)
abbrev rSl (k : Fin 32) : Memref sig .tc .vmem S128x1024 .bf16 := rM.slice (rS k) (fun _ => rfl)
abbrev oSl (h : Fin 2) (k : Fin 32) : Memref sig .tc .vmem S128x1024 .bf16 := oM.slice (rO h k) (fun _ => rfl)
abbrev xSl (h : Fin 2) (k : Fin 32) : Memref sig .tc .hbm S128x1024 .f32 := xM.slice (rO h k) (fun _ => rfl)

/-- Share q of the elements of memref M on device c, holding f. -/
abbrev pts {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

/-! ## Cells -/

abbrev barS : Sem sig := (SemArray.scalar (sig.barrier 0 rfl) : Sems sig S_).sem

theorem inb32 (k : Fin 32) : ∀ a, (![k.val] : Fin 1 → Nat) a + S1.size a ≤ S32.size a := by revert k; decide
/-- Semaphore k of an array of 32. -/
abbrev semA (A : DmaSems sig S32) (k : Fin 32) : DmaSem sig :=
  ((A.slice (Rect.unit (s := S32) ![k.val] S1.size (inb32 k))).squeeze S_ squeezes_S1_S_).sem

/-- The five arrays of transfer semaphores: 0 = ld, 1 = s1, 2 = r1, 3 = s2, 4 = r2. -/
abbrev arrJ : Fin 5 → DmaSems sig S32 := fun j => match j with
  | 0 => cc0_scratch3 | 1 => cc0_scratch4 | 2 => cc0_scratch5 | 3 => cc0_scratch6 | 4 => cc0_scratch7

abbrev barCell (c : Dev nD) : GSem nD τ sig := ((c : Thread nD τ), .reg barS)
abbrev xcell (c : Dev nD) (j : Fin 5) (k : Fin 32) : GSem nD τ sig := ((c : Thread nD τ), .dma (semA (arrJ j) k))

/-- Which transfer cell a semaphore is, if any. -/
def kindOf (s : SemLoc sig) : Option (Fin 5 × Fin 32) := match s with
  | .dma q => if h : 1 ≤ q.val ∧ q.val < 161 then
      some (⟨(q.val - 1) / 32, by omega⟩, ⟨(q.val - 1) % 32, Nat.mod_lt _ (by decide)⟩) else none
  | _ => none

theorem kindOf_semA (j : Fin 5) (k : Fin 32) : kindOf (.dma (semA (arrJ j) k)) = some (j, k) := by
  revert j k; decide +kernel
theorem kindOf_bar : kindOf (.reg barS : SemLoc sig) = none := rfl

/-- The credit of one bf16 chunk's transfer, and of one f32 chunk's. -/
abbrev N : ℕ := (sSl 0).view.dmaCredit
theorem N_pos : 0 < N := View.dmaCredit_pos _ (by decide)
abbrev Nv : ℕ := (vSl 0).view.dmaCredit
theorem Nv_pos : 0 < Nv := View.dmaCredit_pos _ (by decide)
/-- The amount of the one duty of a transfer cell of array j. -/
def amt (j : Fin 5) : ℕ := if j = 0 then Nv else N
theorem amt_pos (j : Fin 5) : 0 < amt j := by unfold amt; split; exact Nv_pos; exact N_pos

/-! ## Contents -/

/-- The f32 scratch after the local copies: the device's half of its block. -/
def xvW (X : Blocks F) (c : Dev nD) : S4096x1024.Idx → Elt F .f32 := fun i => X c (halfRow (c.val / 2) (half_lt c) i)
abbrev xvB (c : Dev nD) : Buf (Elt F) ((c : Thread nD τ).loc cc0_scratch0) := xvW (X m) c
abbrev sendB (c : Dev nD) : Buf (Elt F) ((c : Thread nD τ).loc cc0_scratch1) := sendW (X m) c
abbrev recvB (c : Dev nD) : Buf (Elt F) ((c : Thread nD τ).loc cc0_scratch2) := recvW (X m) c
abbrev outB (c : Dev nD) : Buf (Elt F) ((c : Thread nD τ).loc cc0_stg0_0) := outW (X m) c

/-! ## The schedule -/

def halfShare : PosShare TreeShare := fullShare.left

/-- What the second-axis neighbour's signal hands device c: that neighbour's receive chunks, each at some contents,
    and that each of its r1 cells is at round 0. -/
def barPayY (c : Dev nD) : sProp 𝕄 :=
  bigSep Finset.univ fun k : Fin 32 => iprop((∃ f, pts (rSl k) (ynbr c) fullShare f) ∗ reached ER (xcell (ynbr c) 2 k) 0)
/-- What the first-axis neighbour's signal hands device c: the chunks of that neighbour's result buffer in c's half, and
    that each of its r2 cells is at round 0. -/
def barPayX (c : Dev nD) : sProp 𝕄 :=
  bigSep Finset.univ fun k : Fin 32 => iprop((∃ f, pts (oSl (hf c) k) (xnbr c) fullShare f) ∗ reached ER (xcell (xnbr c) 4 k) 0)

/-- The payload of transfer cell (j, k) of device c. -/
def xPay (c : Dev nD) (j : Fin 5) (k : Fin 32) : sProp 𝕄 := match j with
  | 0 => iprop(pts (vSl k) c fullShare (xvB m c) ∗ pts (xSl (hf c) k) c fullShare (X m c))
  | 1 => pts (sSl k) c halfShare (sendB m c)
  | 2 => pts (rSl k) c fullShare (recvB m c)
  | 3 => pts (oSl (hf c) k) c fullShare (outB m c)
  | 4 => pts (oSl (hf (xnbr c)) k) c fullShare (outB m c)

def Rd : Rounds.Schedule (GSem nD τ sig) Bool 𝕄 where
  duties g r := if r = 0 ∧ g.1.2 = .tc ∧ g.2 = .reg barS then Finset.univ
    else if r = 0 ∧ g.1.2 = .tc ∧ (kindOf g.2).isSome then {false} else ∅
  unitless _ := False
  amount g _ _ := if g.2 = .reg barS then 1 else match kindOf g.2 with
    | some (j, _) => amt j
    | none => 1
  payload g _ d :=
    if g.2 = .reg barS then (if d then barPayX g.1.1 else barPayY g.1.1)
    else match kindOf g.2 with
      | some (j, k) => xPay m g.1.1 j k
      | none => iprop(emp)
  amount_pos g _ _ _ := by
    by_cases h : g.2 = .reg barS
    · rw [if_pos h]; exact Nat.one_pos
    · rw [if_neg h]; split
      · exact amt_pos _
      · exact Nat.one_pos

instance Rd_payload_storable (g : GSem nD τ sig) (r : ℕ) (d : Bool) :
    BI.Storable (upEmb : UEmb _ 𝕄) ((Rd (F := F) m).payload g r d) := by
  show BI.Storable upEmb (if g.2 = .reg barS then (if d then barPayX g.1.1 else barPayY g.1.1)
    else match kindOf g.2 with
      | some (j, k) => xPay m g.1.1 j k
      | none => iprop(emp))
  unfold barPayX barPayY xPay
  (repeat' split) <;> infer_instance

section Tables
variable (c : Dev nD) (j : Fin 5) (k : Fin 32)

theorem xsem_ne_bar : (SemLoc.dma (semA (arrJ j) k) : SemLoc sig) ≠ .reg barS := fun h => by cases h

theorem duties_bar : (Rd (F := F) m).duties (barCell c) 0 = Finset.univ := by
  dsimp only [Rd]; exact if_pos ⟨rfl, rfl, rfl⟩
theorem duties_x : (Rd (F := F) m).duties (xcell c j k) 0 = {false} := by
  dsimp only [Rd]; rw [if_neg (fun h => xsem_ne_bar j k h.2.2)]
  exact if_pos ⟨rfl, rfl, by rw [kindOf_semA]; rfl⟩
theorem duties_later (g : GSem nD τ sig) : ∀ r, 1 ≤ r → (Rd (F := F) m).duties g r = ∅ :=
  fun r hr => by dsimp only [Rd]; rw [if_neg fun h => by omega, if_neg fun h => by omega]
theorem amount_bar (d : Bool) : (Rd (F := F) m).amount (barCell c) 0 d = 1 := by dsimp only [Rd]; exact if_pos rfl
theorem amount_x (d : Bool) : (Rd (F := F) m).amount (xcell c j k) 0 d = amt j := by
  dsimp only [Rd]; rw [if_neg (xsem_ne_bar j k), kindOf_semA]
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_x : (Rd (F := F) m).expect (xcell c j k) 0 = amt j := by
  unfold Schedule.expect Schedule.amountOf; rw [duties_x, Finset.sum_singleton, amount_x]
theorem payload_bar_true : (Rd (F := F) m).payload (barCell c) 0 true = barPayX c := by dsimp only [Rd]; rw [if_pos rfl, if_pos rfl]
theorem payload_bar_false : (Rd (F := F) m).payload (barCell c) 0 false = barPayY c := by
  dsimp only [Rd]; rw [if_pos rfl]; exact if_neg Bool.false_ne_true
theorem payload_x (d : Bool) : (Rd (F := F) m).payload (xcell c j k) 0 d = xPay m c j k := by
  dsimp only [Rd]; rw [if_neg (xsem_ne_bar j k), kindOf_semA]
theorem rest_bar : bigSep ((Rd (F := F) m).duties (barCell c) 0 \ ∅) (fun d => (Rd (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_x : bigSep ((Rd (F := F) m).duties (xcell c j k) 0 \ ∅) (fun d => (Rd (F := F) m).payload (xcell c j k) 0 d) = xPay m c j k := by
  rw [Finset.sdiff_empty, duties_x, bigSep_singleton, payload_x]

end Tables

/-! ## What each device owes, action by action -/

/-- The cell device c pays with its i-th paying action: 0 the signal to ynbr c, 1 the signal to xnbr c, 2 + k the
    phase-1 copy of chunk k (lands on ynbr c), 34 + k the phase-2 copy of chunk k (lands on xnbr c). -/
def actCell (c : Dev nD) (i : ℕ) : GSem nD τ sig :=
  if i = 0 then barCell (ynbr c) else if i = 1 then barCell (xnbr c)
  else if h : i < 34 then xcell (ynbr c) 2 ⟨(i - 2) % 32, Nat.mod_lt _ (by decide)⟩
  else xcell (xnbr c) 4 ⟨(i - 34) % 32, Nat.mod_lt _ (by decide)⟩
def actAmt (i : ℕ) : ℕ := if i < 2 then 1 else N

/-- What device c still owes when its last r paying actions are left (66 in all). -/
def owe (c : Dev nD) : ℕ → CellTallies nD τ sig Unit
  | 0 => 0
  | r + 1 => owe c r + tallyAt (actCell c (65 - r)) () (actAmt (65 - r))

theorem owe_succ (c : Dev nD) (r : ℕ) : owe c (r + 1) = owe c r + tallyAt (actCell c (65 - r)) () (actAmt (65 - r)) := rfl

def O₀ (c : Dev nD) : CellTallies nD τ sig Unit := owe c 66

/-! ## Levels: a barrier cell below a phase-1 landing cell below a phase-2 landing cell; everything else at 0 -/

def L (g : GSem nD τ sig) : Finset Unit := if g.1.2 = .tc then {()} else ∅
def lv (g : GSem nD τ sig) (_ : Unit) : ℕ :=
  if g.2 = .reg barS then 1 else match kindOf g.2 with
    | some (j, _) => if j = 2 then 2 else if j = 4 then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl

end Cert.Kernel.AR

end
-- ==== Proof.Bits.Data.lean ====
/-
  What each device holds: the protocol's ghost state, the kernel's resources before and after its one grid point, and
  the pipeline's proof data (the result's staging buffer ends at `outW`).
-/
import proofs.«900152_g7700000000000153_dist_ar_v7x_xy2x2_y_m8192_n1024_bf16_1_alg».proof.Proof.Bits.Protocol

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, indexed: none the barrier cell, some (j, k) transfer cell (j, k) -/

abbrev CIx : Type := Option (Fin 5 × Fin 32)
abbrev kcell (ck : Dev nD × CIx) : GSem nD τ sig := match ck.2 with
  | none => barCell ck.1
  | some jk => xcell ck.1 jk.1 jk.2

/-- Every cell's invariant, under the names K the launch allocated them at, and that every cell is at round 0:
    persistent, so every device has all of it. -/
def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

instance records_persistent (K : Dev nD × CIx → ℕ) : BI.Persistent (records m K) := by unfold records; infer_instance

/-- The tokens of the duties device c pays for chunk k: its local copy's, its two departures', and the two landings' on
    its neighbours. -/
def chunkToks (c : Dev nD) (k : Fin 32) : sProp 𝕄 :=
  iprop(dutyTok ER (xcell c 0 k) 0 false ∗ dutyTok ER (xcell c 1 k) 0 false ∗ dutyTok ER (xcell (ynbr c) 2 k) 0 false
    ∗ dutyTok ER (xcell c 3 k) 0 false ∗ dutyTok ER (xcell (xnbr c) 4 k) 0 false)
/-- The tokens of the duties device c pays: one at each neighbour's barrier cell, and every chunk's. -/
def payToks (c : Dev nD) : sProp 𝕄 :=
  iprop(dutyTok ER (barCell (ynbr c)) 0 false ∗ dutyTok ER (barCell (xnbr c)) 0 true
    ∗ bigSep Finset.univ fun k : Fin 32 => chunkToks c k)

/-- Device c's position at round 0 of each of its cells. -/
def positions (c : Dev nD) : sProp 𝕄 := bigSep Finset.univ fun i : CIx => atPos ER (kcell (c, i)) 0 ∅ 0

def ghost (K : Dev nD × CIx → ℕ) (c : Dev nD) : sProp 𝕄 := iprop(records m K ∗ positions c ∗ payToks c)

/-- The credit tokens device c waits with: two units on its barrier cell, a chunk's credit on each landing cell. -/
def creds (c : Dev nD) : sProp 𝕄 :=
  iprop(cred (tallyAt (barCell c) () 2)
    ∗ bigSep Finset.univ fun k : Fin 32 => iprop(cred (tallyAt (xcell c 2 k) () N) ∗ cred (tallyAt (xcell c 4 k) () N)))

/-- The 160 transfer semaphores, at zero. -/
def xferSems (c : Dev nD) : sProp 𝕄 := bigSep Finset.univ fun jk : Fin 5 × Fin 32 => semVal (xcell c jk.1 jk.2) 0

/-- The argument array, whole, at its launch contents. -/
def argPts (c : Dev nD) : sProp 𝕄 := ((c : Thread nD τ).loc main_arg0) ↦{fullShare} m ((c : Thread nD τ).loc main_arg0)

/-- The three scratch buffers, each whole at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def start (c : Dev nD) : sProp 𝕄 :=
  iprop((∃ K, ghost m K c) ∗ creds c ∗ levAts L lv ∗ argPts m c)

def Φ₀ (c : Dev nD) : sProp 𝕄 := iprop(start m c ∗ scratches c)
def Φ₁ (c : Dev nD) : sProp 𝕄 := iprop(scratches c ∗ xferSems c ∗ argPts m c)

/-- The kernel's own (scoped) semaphores other than the staging one: DMA semaphores 1 … 160. -/
abbrev osem : Fin 160 → SemLoc sig := fun i => .dma ⟨1 + i.val, show 1 + i.val < 161 by have := i.isLt; omega⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outB m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The body lemma's pre and post -/

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

def bodyPre (K : Dev nD × CIx → ℕ) (c : Dev nD) : sProp 𝕄 :=
  iprop((ghost m K c ∗ creds c ∗ levAts L lv ∗ argPts m c ∗ scratches c)
    ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outB m c))

/-- The kernel function as the pipeline calls it at its one point. -/
abbrev theBody : Prog (TpuEff nD τ sig (Elt F) Λ₀ .tc) PUnit :=
  cc0_body (Memref.whole main_arg0) (Memref.isWhole_whole _) (Memref.whole cc0_stg0_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6 cc0_scratch7

/-- The statement of the body lemma (proved in Body.lean): from `bodyPre`, one device's kernel function runs to `bodyPost`. -/
def SoundBody : Prop :=
  ∀ (K : Dev nD × CIx → ℕ) (c : Dev nD) (Kt : PUnit → sProp 𝕄),
    iprop(bodyPre m ρ K c ∗ (bodyPost m ρ c -∗ Kt ⟨⟩))
      ⊢ wp frame (wpE (defs₀ (F := F)) 𝒱₀ c none) Set.univ (theBody (F := F)) Kt

end Cert.Kernel.AR

end
-- ==== Proof.Bits.Levels.lean ====
/-
  The level lemmas: a device may wait on one of its cells while it still owes its last r paying actions, provided that
  cell lies strictly below every cell those actions pay.  Barrier cells sit at level 1, the landing cells of the first
  exchange at 2, those of the second at 3, and every other cell at 0; the paying actions are ordered so that what is
  left to pay always lies above what is being waited on.
-/
import proofs.«900152_g7700000000000153_dist_ar_v7x_xy2x2_y_m8192_n1024_bf16_1_alg».proof.Proof.Bits.Protocol

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The levels of the protocol's cells -/

theorem lv_bar (d : Dev nD) : lv (barCell d) () = 1 := if_pos rfl
theorem lv_x (d : Dev nD) (j : Fin 5) (k : Fin 32) : lv (xcell d j k) () = if j = 2 then 2 else if j = 4 then 3 else 0 := by
  dsimp only [lv]; rw [if_neg (xsem_ne_bar j k), kindOf_semA]
theorem lv_r1 (d : Dev nD) (k : Fin 32) : lv (xcell d 2 k) () = 2 := by rw [lv_x]; rfl
theorem lv_r2 (d : Dev nD) (k : Fin 32) : lv (xcell d 4 k) () = 3 := by rw [lv_x]; rfl
theorem lv_x0 (d : Dev nD) (j : Fin 5) (k : Fin 32) (h2 : j ≠ 2) (h4 : j ≠ 4) : lv (xcell d j k) () = 0 := by
  rw [lv_x, if_neg h2, if_neg h4]

/-! ## The cells of the paying actions -/

theorem actCell_zero (c : Dev nD) : actCell c 0 = barCell (ynbr c) := if_pos rfl
theorem actCell_one (c : Dev nD) : actCell c 1 = barCell (xnbr c) := by unfold actCell; rw [if_neg (by decide), if_pos rfl]
theorem actCell_ph1 (c : Dev nD) (i : ℕ) (h2 : 2 ≤ i) (h : i < 34) :
    actCell c i = xcell (ynbr c) 2 ⟨(i - 2) % 32, Nat.mod_lt _ (by decide)⟩ := by
  unfold actCell; rw [if_neg (by omega), if_neg (by omega), dif_pos h]
theorem actCell_ph2 (c : Dev nD) (i : ℕ) (h : 34 ≤ i) :
    actCell c i = xcell (xnbr c) 4 ⟨(i - 34) % 32, Nat.mod_lt _ (by decide)⟩ := by
  unfold actCell; rw [if_neg (by omega), if_neg (by omega), dif_neg (by omega)]
/-- The k-th copy of the first exchange is action 2 + k, of the second action 34 + k. -/
theorem actCell_ph1' (c : Dev nD) (k : Fin 32) : actCell c (2 + k.val) = xcell (ynbr c) 2 k := by
  rw [actCell_ph1 c _ (by omega) (by have := k.isLt; omega)]
  congr 2; have := k.isLt; omega
theorem actCell_ph2' (c : Dev nD) (k : Fin 32) : actCell c (34 + k.val) = xcell (xnbr c) 4 k := by
  rw [actCell_ph2 c _ (by omega)]
  congr 2; have := k.isLt; omega

theorem actCell_tc (c : Dev nD) (i : ℕ) : (actCell c i).1.2 = .tc := by
  unfold actCell; split_ifs <;> rfl

/-- Every paying action from the third on pays a cell at level 2 or more; from the 35th on, at level 3. -/
theorem lv_act_ge2 (c : Dev nD) (i : ℕ) (h : 2 ≤ i) : 2 ≤ lv (actCell c i) () := by
  by_cases h34 : i < 34
  · rw [actCell_ph1 c i h h34, lv_r1]
  · rw [actCell_ph2 c i (by omega), lv_r2]; decide
theorem lv_act_eq3 (c : Dev nD) (i : ℕ) (h : 34 ≤ i) : lv (actCell c i) () = 3 := by
  rw [actCell_ph2 c i h, lv_r2]

/-! ## What is still owed is owed to the cells of the actions that are left -/

theorem owe_pos (c : Dev nD) : ∀ (r : ℕ), r ≤ 66 → ∀ (g : GSem nD τ sig) (u : Unit), 0 < owe c r g u →
    ∃ i, 66 - r ≤ i ∧ i < 66 ∧ g = actCell c i
  | 0, _, g, u, h => by
    exfalso; change 0 < (0 : CellTallies nD τ sig Unit) g u at h
    rw [Pi.zero_apply, Finsupp.zero_apply] at h; exact Nat.lt_irrefl 0 h
  | r + 1, hr, g, u, h => by
    rw [owe_succ, Pi.add_apply, Finsupp.add_apply] at h
    rcases Nat.pos_of_ne_zero (fun h0 => by omega) |> fun (_ : 0 < owe c r g u + tallyAt (actCell c (65 - r)) () (actAmt (65 - r)) g u) =>
        (Nat.eq_zero_or_pos (owe c r g u)) with h0 | hp
    · rw [h0, Nat.zero_add, tallyAt_apply] at h
      by_cases hh : g = actCell c (65 - r) ∧ u = ()
      · exact ⟨65 - r, by omega, by omega, hh.1⟩
      · rw [if_neg hh] at h; exact absurd h (Nat.lt_irrefl 0)
    · obtain ⟨i, h1, h2, h3⟩ := owe_pos c r (by omega) g u hp
      exact ⟨i, by omega, h2, h3⟩

/-- A device may wait on its cell (c, sm) while its last r paying actions are left, when that cell lies strictly below
    the cell of each of them. -/
theorem mayWait_owe (c : Dev nD) (sm : SemLoc sig) (r : ℕ) (hr : r ≤ 66)
    (hlt : ∀ i, 66 - r ≤ i → i < 66 → lv ((c : Thread nD τ), sm) () < lv (actCell c i) ()) :
    (levAts L lv : sProp 𝕄) ⊢ MayWait (c : Thread nD τ) sm () (owe c r) :=
  MayOwe.of_levAts (L := L) (lev := lv)
    (fun p hp => by rw [Finset.mem_singleton.mp hp, L_tc]; exact Finset.mem_singleton_self _)
    (fun g u hg => by
      obtain ⟨i, _, _, rfl⟩ := owe_pos c r hr g u hg
      unfold L; rw [if_pos (actCell_tc c i)]; exact Finset.mem_singleton_self _)
    (fun g u hg p hp => by
      obtain ⟨i, h1, h2, rfl⟩ := owe_pos c r hr g u hg
      rw [Finset.mem_singleton.mp hp]; exact hlt i h1 h2)

/-- At its barrier wait a device has paid its two signals: the 64 copies are left, all to landing cells. -/
theorem mayWait_bar (c : Dev nD) :
    (levAts L lv : sProp 𝕄) ⊢ MayWait (c : Thread nD τ) (.reg barS) () (owe c 64) :=
  mayWait_owe c (.reg barS) 64 (by decide) fun i h1 h2 => by
    show lv (barCell c) () < _; rw [lv_bar]; exact lv_act_ge2 c i (by omega)

/-- A wait on a cell at level 0 (a local copy's, a departure's), the two signals paid. -/
theorem mayWait_x0 (c : Dev nD) (j : Fin 5) (k : Fin 32) (h2 : j ≠ 2) (h4 : j ≠ 4) (r : ℕ) (hr : r ≤ 64) :
    (levAts L lv : sProp 𝕄) ⊢ MayWait (c : Thread nD τ) (.dma (semA (arrJ j) k)) () (owe c r) :=
  mayWait_owe c _ r (by omega) fun i h1 _ => by
    show lv (xcell c j k) () < _; rw [lv_x0 c j k h2 h4]; exact lt_of_lt_of_le (by decide) (lv_act_ge2 c i (by omega))

theorem mayWait_ld (c : Dev nD) (k : Fin 32) (r : ℕ) (hr : r ≤ 64) :
    (levAts L lv : sProp 𝕄) ⊢ MayWait (c : Thread nD τ) (.dma (semA (arrJ 0) k)) () (owe c r) :=
  mayWait_x0 c 0 k (by decide) (by decide) r hr

/-- A wait on a landing cell of the first exchange, only copies of the second exchange left. -/
theorem mayWait_r1 (c : Dev nD) (k : Fin 32) (r : ℕ) (hr : r ≤ 32) :
    (levAts L lv : sProp 𝕄) ⊢ MayWait (c : Thread nD τ) (.dma (semA (arrJ 2) k)) () (owe c r) :=
  mayWait_owe c _ r (by omega) fun i h1 _ => by
    show lv (xcell c 2 k) () < _; rw [lv_r1, lv_act_eq3 c i (by omega)]; decide

/-- Owing nothing, a device may wait anywhere. -/
theorem mayWait_done (c : Dev nD) (sm : SemLoc sig) :
    (levAts L lv : sProp 𝕄) ⊢ MayWait (c : Thread nD τ) sm () (owe c 0) := by
  show _ ⊢ MayWait (c : Thread nD τ) sm () 0
  rw [MayWait_zero]; iintro -; iempintro

end Cert.Kernel.AR

end
-- ==== Proof.Bits.Alloc.lean ====
/-
  The launch's ghost state for the protocol's cells, the launch credit, and the pipeline's own waits.

  Every device owns one barrier cell and 160 transfer cells.  The launch element holds, per cell, its round state, its
  owner's position and the mark of round 0, and one token per duty; allocating every cell's invariant for all devices
  under one update lets the tokens travel to the devices that pay the duties: a barrier cell's two tokens to the two
  neighbours, the token of a landing cell to the neighbour whose copy lands there, the others stay.  What a device
  owes at launch is a sum over its 66 paying actions; summed over the devices it gives each cell's launch credit:
  two units on a barrier cell, one chunk's credit on each landing cell, nothing elsewhere.
-/
import proofs.«900152_g7700000000000153_dist_ar_v7x_xy2x2_y_m8192_n1024_bf16_1_alg».proof.Proof.Bits.Data
import proofs.«900152_g7700000000000153_dist_ar_v7x_xy2x2_y_m8192_n1024_bf16_1_alg».proof.Proof.Bits.Levels

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, and the duty tokens minted with them -/

/-- A cell's index is read back off its semaphore. -/
theorem al_kindOf_kcell (ck : Dev nD × CIx) : kindOf (kcell ck).2 = ck.2 := by
  rcases ck with ⟨c, _ | ⟨j, k⟩⟩
  · exact kindOf_bar
  · exact kindOf_semA j k

theorem kcell_injective : Function.Injective (kcell : Dev nD × CIx → GSem nD τ sig) := by
  rintro ⟨c, i⟩ ⟨c', i'⟩ h
  have h1 : c = c' := by
    have := congrArg (fun g : GSem nD τ sig => g.1.1) h
    rcases i with _ | ⟨j, k⟩ <;> rcases i' with _ | ⟨j', k'⟩ <;> exact this
  have h2 : kindOf (kcell (c, i)).2 = kindOf (kcell (c', i')).2 := congrArg (fun g : GSem nD τ sig => kindOf g.2) h
  rw [al_kindOf_kcell, al_kindOf_kcell] at h2
  have h2' : i = i' := h2
  rw [h1, h2']

def ringCells : Finset (GSem nD τ sig) := Finset.univ.map ⟨kcell, kcell_injective⟩

/-- The duty tokens minted for a device's own cells: its barrier cell's two, and one per transfer cell. -/
abbrev al_TIx : Type := Bool ⊕ (Fin 5 × Fin 32)
abbrev al_tokOf (ct : Dev nD × al_TIx) : GSem nD τ sig × ℕ × Bool := match ct.2 with
  | .inl b => (barCell ct.1, 0, b)
  | .inr jk => (xcell ct.1 jk.1 jk.2, 0, false)

theorem al_tokOf_injective : Function.Injective (al_tokOf : Dev nD × al_TIx → GSem nD τ sig × ℕ × Bool) := by
  rintro ⟨c, t⟩ ⟨c', t'⟩ h
  have h1 : c = c' := by
    have := congrArg (fun x : GSem nD τ sig × ℕ × Bool => x.1.1.1) h
    rcases t with b | ⟨j, k⟩ <;> rcases t' with b' | ⟨j', k'⟩ <;> exact this
  subst h1
  have hk := congrArg (fun x : GSem nD τ sig × ℕ × Bool => kindOf x.1.2) h
  have hb := congrArg (fun x : GSem nD τ sig × ℕ × Bool => x.2.2) h
  rcases t with b | ⟨j, k⟩ <;> rcases t' with b' | ⟨j', k'⟩
  · have : b = b' := hb
    rw [this]
  · exfalso; have : kindOf (SemLoc.reg barS : SemLoc sig) = kindOf (.dma (semA (arrJ j') k')) := hk
    rw [kindOf_bar, kindOf_semA] at this; cases this
  · exfalso; have : kindOf (.dma (semA (arrJ j) k)) = kindOf (SemLoc.reg barS : SemLoc sig) := hk
    rw [kindOf_bar, kindOf_semA] at this; cases this
  · have : kindOf (.dma (semA (arrJ j) k)) = kindOf (.dma (semA (arrJ j') k') : SemLoc sig) := hk
    rw [kindOf_semA, kindOf_semA] at this
    cases this; rfl

def ringToks : Finset (GSem nD τ sig × ℕ × Bool) := Finset.univ.map ⟨al_tokOf, al_tokOf_injective⟩

def u₀ : UU :=
  (initOf (Pipeline.cells cfgs cellOf_inj) (Pipeline.launchToks cfgs cellOf_inj), initOf ringCells ringToks)

/-- The duty tokens of device c's own cells. -/
def al_toks (c : Dev nD) : sProp 𝕄 :=
  iprop(dutyTok ER (barCell c) 0 false ∗ dutyTok ER (barCell c) 0 true
    ∗ bigSep Finset.univ fun jk : Fin 5 × Fin 32 => dutyTok ER (xcell c jk.1 jk.2) 0 false)

/-- What the launch element deals device c: the round state of each of its cells, its position at and the mark of
    round 0 of each, and the tokens of its own cells' duties. -/
def G (c : Dev nD) : sProp 𝕄 :=
  iprop((bigSep Finset.univ fun i : CIx => roundState ER (Rd m) (kcell (c, i)) 0)
    ∗ (bigSep Finset.univ fun i : CIx => iprop(atPos ER (kcell (c, i)) 0 ∅ 0 ∗ reached ER (kcell (c, i)) 0)) ∗ al_toks c)

/-- What the global step makes of it. -/
def G' (c : Dev nD) : sProp 𝕄 := iprop(∃ K, ghost m K c)

theorem al_bigSep_bool (Φ : Bool → sProp 𝕄) : bigSep Finset.univ Φ = iprop(Φ false ∗ Φ true) := by
  rw [bigSep_univ_eq_bigSepL [false, true] (by decide) (by decide), bigSepL_cons_cons, bigSepL_singleton]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) ⊢ bigSep Finset.univ fun c : Dev nD => al_toks c := by
    unfold ringToks; rw [bigSep_map, bigSep_univ_prod]
    refine bigSep_mono fun c _ => ?_
    rw [bigSep_univ_sum, al_bigSep_bool]
    show iprop((dutyTok ER (barCell c) 0 false ∗ dutyTok ER (barCell c) 0 true)
      ∗ bigSep Finset.univ fun jk : Fin 5 × Fin 32 => dutyTok ER (xcell c jk.1 jk.2) 0 false) ⊢ al_toks c
    unfold al_toks
    iintro ⟨⟨H1, H2⟩, H3⟩
    isplitl [H1]; · iexact H1
    isplitl [H2]; · iexact H2
    iexact H3
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores at zero -/

theorem al_semA_val (j : Fin 5) (k : Fin 32) : (semA (arrJ j) k).val = 1 + 32 * j.val + k.val := by
  revert j k; decide +kernel

/-- Transfer cell (j, k) is the kernel's own semaphore number 32 j + k. -/
def al_ownIx : Fin 5 × Fin 32 ≃ Fin 160 where
  toFun jk := ⟨32 * jk.1.val + jk.2.val, by have := jk.1.isLt; have := jk.2.isLt; omega⟩
  invFun i := (⟨i.val / 32, by have := i.isLt; omega⟩, ⟨i.val % 32, Nat.mod_lt _ (by decide)⟩)
  left_inv jk := by
    rcases jk with ⟨j, k⟩
    refine Prod.ext (Fin.ext ?_) (Fin.ext ?_)
    · show (32 * j.val + k.val) / 32 = j.val; have := k.isLt; omega
    · show (32 * j.val + k.val) % 32 = k.val; have := k.isLt; omega
  right_inv i := Fin.ext (by show 32 * (i.val / 32) + i.val % 32 = i.val; omega)

theorem al_osem_ownIx (jk : Fin 5 × Fin 32) : osem (al_ownIx jk) = .dma (semA (arrJ jk.1) jk.2) := by
  show SemLoc.dma _ = SemLoc.dma _
  congr 1; apply Fin.ext; rw [al_semA_val]; show 1 + (32 * jk.1.val + jk.2.val) = _; omega

theorem ownSemFacts : Pipeline.OwnSemFacts cfg0.spec osem where
  isScoped := by decide +kernel
  inj i i' h := by
    have : (1 + i.val) = 1 + i'.val := congrArg (fun s : SemLoc sig => match s with | .dma q => q.val | _ => 0) h
    exact Fin.ext (by omega)
  disj := by decide +kernel

theorem ownSems0_eq (c : Dev nD) : (Pipeline.ownSems0 (Ix := Unit) (Name := ℕ) (U := UU) (Lvl := ℕ) (Val := Elt F) (τ := τ) osem c : sProp 𝕄) = xferSems c := by
  unfold Pipeline.ownSems0 xferSems
  rw [bigSep_univ_equiv al_ownIx]
  exact bigSep_congr fun jk _ => by rw [al_osem_ownIx]

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem al_bigSep_cix (Φ : CIx → sProp 𝕄) : bigSep Finset.univ Φ = iprop(Φ none ∗ bigSep Finset.univ fun jk : Fin 5 × Fin 32 => Φ (some jk)) := by
  rw [bigSep_univ_equiv (Equiv.optionEquivSumPUnit.{0, 0} (Fin 5 × Fin 32)).symm Φ, bigSep_univ_sum, bigSep_univ_of_subsingleton (PUnit.unit.{1})]
  refine equiv_iff.mp ⟨?_, ?_⟩
  · show iprop((bigSep Finset.univ fun jk : Fin 5 × Fin 32 => Φ (some jk)) ∗ Φ none) ⊢ iprop(Φ none ∗ bigSep Finset.univ fun jk : Fin 5 × Fin 32 => Φ (some jk))
    exact BI.sep_comm
  · show iprop(Φ none ∗ bigSep Finset.univ fun jk : Fin 5 × Fin 32 => Φ (some jk)) ⊢ iprop((bigSep Finset.univ fun jk : Fin 5 × Fin 32 => Φ (some jk)) ∗ Φ none)
    exact BI.sep_comm

theorem al_sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [ownSems0_eq, unscopedSems0_eq, al_bigSep_cix]
  unfold xferSems
  iintro ⟨HS, HB⟩
  isplitl [HB]; · iexact HB
  iexact HS

theorem al_core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (Rd m) κ (kcell (c, i))))
          ∗ (bigSep Finset.univ fun i : CIx => iprop(atPos ER (kcell (c, i)) 0 ∅ 0 ∗ reached ER (kcell (c, i)) 0)) ∗ al_toks c) := by
  unfold G
  iintro ⟨Hos, Hus, Hst, Hat, Htok⟩
  ihave Hv := (al_sems0_eq (F := F) c) $$ [Hos Hus]
  · isplitl [Hos] <;> iassumption
  imod (show iprop((bigSep Finset.univ fun i : CIx => semVal (kcell (c, i)) 0) ∗ bigSep Finset.univ fun i : CIx => roundState ER (Rd m) (kcell (c, i)) 0)
      ⊢ (|={Set.univ}=> bigSep Finset.univ fun i : CIx => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens travel to the devices that pay the duties -/

theorem al_inv_at (K : Dev nD × CIx → ℕ) (ck : Dev nD × CIx) :
    (bigSep Finset.univ fun ck : Dev nD × CIx => (cellInv ER (Rd m) (K ck) (kcell ck) : sProp 𝕄)) ⊢ cellInv ER (Rd m) (K ck) (kcell ck) :=
  bigSep_elim (Finset.mem_univ ck)
theorem al_reached_at (ck : Dev nD × CIx) :
    (bigSep Finset.univ fun ck : Dev nD × CIx => (reached ER (kcell ck) 0 : sProp 𝕄)) ⊢ reached ER (kcell ck) 0 :=
  bigSep_elim (Finset.mem_univ ck)

theorem al_ghost_intro (K : Dev nD × CIx → ℕ) (c : Dev nD) : iprop(records m K ∗ positions c ∗ payToks c) ⊢ G' m c := by
  unfold G' ghost
  iintro ⟨HR, HP, HT⟩
  iexists K
  isplitl [HR]; · iexact HR
  isplitl [HP]; · iexact HP
  iexact HT

def al_yE : Dev nD ≃ Dev nD := ⟨ynbr, ynbr, ynbr_ynbr, ynbr_ynbr⟩
def al_xE : Dev nD ≃ Dev nD := ⟨xnbr, xnbr, xnbr_xnbr, xnbr_xnbr⟩

theorem al_bigSep_fin5 (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide), bigSepL_cons_cons, bigSepL_cons_cons, bigSepL_cons_cons,
    bigSepL_cons_cons, bigSepL_singleton]
  rfl

/-- Over the transfer cells: chunk by chunk, the five arrays side by side. -/
theorem al_bigSep_jk (Φ : Fin 5 × Fin 32 → sProp 𝕄) :
    bigSep Finset.univ Φ = bigSep Finset.univ fun k : Fin 32 => iprop(Φ (0, k) ∗ Φ (1, k) ∗ Φ (2, k) ∗ Φ (3, k) ∗ Φ (4, k)) := by
  rw [bigSep_univ_prod, bigSep_univ_comm]
  exact bigSep_congr fun k _ => al_bigSep_fin5 _

/-- A barrier cell's token for the second-axis signal goes to the second-axis neighbour, the one for the first-axis
    signal to the first-axis neighbour; the token of a landing cell goes to the neighbour whose copy lands there. -/
theorem al_toks_around : (bigSep Finset.univ fun c : Dev nD => (al_toks c : sProp 𝕄)) ⊢ bigSep Finset.univ fun c : Dev nD => payToks c := by
  unfold al_toks payToks chunkToks
  simp only [al_bigSep_jk, bigSep_sep']
  rw [bigSep_univ_equiv al_yE (fun c : Dev nD => (dutyTok ER (barCell c) 0 false : sProp 𝕄)),
    bigSep_univ_equiv al_xE (fun c : Dev nD => (dutyTok ER (barCell c) 0 true : sProp 𝕄)),
    bigSep_univ_equiv al_yE (fun c : Dev nD => bigSep Finset.univ fun k : Fin 32 => (dutyTok ER (xcell c 2 k) 0 false : sProp 𝕄)),
    bigSep_univ_equiv al_xE (fun c : Dev nD => bigSep Finset.univ fun k : Fin 32 => (dutyTok ER (xcell c 4 k) 0 false : sProp 𝕄))]
  exact .rfl

theorem al_bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem al_regroup :
    (bigSep Finset.univ fun c : Dev nD => iprop((bigSep Finset.univ fun i : CIx => iprop(∃ κ : ℕ, cellInv ER (Rd m) κ (kcell (c, i))))
          ∗ (bigSep Finset.univ fun i : CIx => iprop(atPos ER (kcell (c, i)) 0 ∅ 0 ∗ reached ER (kcell (c, i)) 0)) ∗ al_toks c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (al_toks_around (F := F)) $$ Htok
  iapply (al_bigSep_with_persistent (R := records m K) fun c _ => al_ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => al_core_alloc m c).trans (bigSep_fupd _ _)).trans (BI.fupd_mono (al_regroup m))

/-! ## The launch credit -/

/-- The cell of paying action a of device d, as (device, index). -/
def al_actK (d : Dev nD) (a : ℕ) : Dev nD × CIx :=
  if a = 0 then (ynbr d, none) else if a = 1 then (xnbr d, none)
  else if a < 34 then (ynbr d, some (2, ⟨(a - 2) % 32, Nat.mod_lt _ (by decide)⟩))
  else (xnbr d, some (4, ⟨(a - 34) % 32, Nat.mod_lt _ (by decide)⟩))

theorem al_actCell_eq (d : Dev nD) (a : ℕ) : actCell d a = kcell (al_actK d a) := by
  unfold actCell al_actK; split_ifs <;> rfl

/-- What a device still owes a cell: the amounts of the actions left that pay it. -/
theorem al_owe_apply (d : Dev nD) (g : GSem nD τ sig) :
    ∀ r, owe d r g () = ∑ i ∈ Finset.range r, if g = actCell d (65 - i) then actAmt (65 - i) else 0
  | 0 => by
    rw [Finset.range_zero, Finset.sum_empty]
    show (0 : CellTallies nD τ sig Unit) g () = 0
    rw [Pi.zero_apply, Finsupp.zero_apply]
  | r + 1 => by
    rw [owe_succ, Pi.add_apply, Finsupp.add_apply, al_owe_apply d g r, Finset.sum_range_succ, tallyAt_apply]
    congr 1
    by_cases h : g = actCell d (65 - r)
    · rw [if_pos ⟨h, rfl⟩, if_pos h]
    · rw [if_neg (fun h' => h h'.1), if_neg h]

/-- At launch, over all 66 actions. -/
theorem al_O₀_apply (d : Dev nD) (ck : Dev nD × CIx) : O₀ d (kcell ck) () = ∑ a ∈ Finset.range 66, if ck = al_actK d a then actAmt a else 0 := by
  unfold O₀
  rw [al_owe_apply]
  refine Finset.sum_nbij' (fun i => 65 - i) (fun a => 65 - a)
    (fun i hi => by have := Finset.mem_range.mp hi; exact Finset.mem_range.mpr (by show 65 - i < 66; omega))
    (fun a ha => by have := Finset.mem_range.mp ha; exact Finset.mem_range.mpr (by show 65 - a < 66; omega))
    (fun i hi => by have := Finset.mem_range.mp hi; show 65 - (65 - i) = i; omega)
    (fun a ha => by have := Finset.mem_range.mp ha; show 65 - (65 - a) = a; omega)
    (fun i _ => ?_)
  show (if kcell ck = actCell d (65 - i) then actAmt (65 - i) else 0) = if ck = al_actK d (65 - i) then actAmt (65 - i) else 0
  rw [al_actCell_eq]
  exact if_congr kcell_injective.eq_iff rfl rfl

/-- Which actions pay a barrier cell, a landing cell of the first exchange, one of the second. -/
theorem al_act_bar : ∀ (c d : Dev nD) (a : Fin 66), ((c, (none : CIx)) = al_actK d a.val) ↔ ((a.val = 0 ∧ d = ynbr c) ∨ (a.val = 1 ∧ d = xnbr c)) := by
  decide +kernel
theorem al_act_r1 : ∀ (c d : Dev nD) (k : Fin 32) (a : Fin 66), ((c, (some (2, k) : CIx)) = al_actK d a.val) ↔ (a.val = 2 + k.val ∧ d = ynbr c) := by
  decide +kernel
theorem al_act_r2 : ∀ (c d : Dev nD) (k : Fin 32) (a : Fin 66), ((c, (some (4, k) : CIx)) = al_actK d a.val) ↔ (a.val = 34 + k.val ∧ d = xnbr c) := by
  decide +kernel

theorem al_sum_pair (a₀ : ℕ) (ha : a₀ < 66) (d₀ : Dev nD) (n : ℕ) :
    ∑ d : Dev nD, ∑ a ∈ Finset.range 66, (if a = a₀ ∧ d = d₀ then n else 0) = n := by
  rw [Finset.sum_eq_single d₀, Finset.sum_eq_single a₀]
  · rw [if_pos ⟨rfl, rfl⟩]
  · intro a _ hne; rw [if_neg (fun h => hne h.1)]
  · intro h; exact absurd (Finset.mem_range.mpr ha) h
  · intro d _ hne; exact Finset.sum_eq_zero fun a _ => if_neg (fun h => hne h.2)
  · intro h; exact absurd (Finset.mem_univ _) h

/-- A barrier cell is owed two units: one by each neighbour. -/
theorem al_sum_O₀_bar (c : Dev nD) : ∑ d : Dev nD, O₀ d (barCell c) () = 2 := by
  have key : ∀ d : Dev nD, O₀ d (barCell c) ()
      = ∑ a ∈ Finset.range 66, ((if a = 0 ∧ d = ynbr c then 1 else 0) + (if a = 1 ∧ d = xnbr c then 1 else 0)) := fun d => by
    rw [show barCell c = kcell (c, none) from rfl, al_O₀_apply]
    refine Finset.sum_congr rfl fun a ha => ?_
    have h := al_act_bar c d ⟨a, Finset.mem_range.mp ha⟩
    by_cases h0 : a = 0 ∧ d = ynbr c
    · rw [if_pos (h.mpr (Or.inl h0)), if_pos h0, if_neg (fun h1 => by have := h0.1; have := h1.1; omega), h0.1]; rfl
    · by_cases h1 : a = 1 ∧ d = xnbr c
      · rw [if_pos (h.mpr (Or.inr h1)), if_neg h0, if_pos h1, h1.1]; rfl
      · rw [if_neg (fun hh => (h.mp hh).elim h0 h1), if_neg h0, if_neg h1]
  rw [Finset.sum_congr rfl fun d _ => key d]
  simp only [Finset.sum_add_distrib]
  rw [al_sum_pair 0 (by decide) (ynbr c) 1, al_sum_pair 1 (by decide) (xnbr c) 1]

/-- A landing cell of the first exchange is owed one chunk's credit, by the second-axis neighbour. -/
theorem al_sum_O₀_r1 (c : Dev nD) (k : Fin 32) : ∑ d : Dev nD, O₀ d (xcell c 2 k) () = N := by
  have key : ∀ d : Dev nD, O₀ d (xcell c 2 k) () = ∑ a ∈ Finset.range 66, if a = 2 + k.val ∧ d = ynbr c then N else 0 := fun d => by
    rw [show xcell c 2 k = kcell (c, some (2, k)) from rfl, al_O₀_apply]
    refine Finset.sum_congr rfl fun a ha => ?_
    have h := al_act_r1 c d k ⟨a, Finset.mem_range.mp ha⟩
    by_cases h0 : a = 2 + k.val ∧ d = ynbr c
    · rw [if_pos (h.mpr h0), if_pos h0]; unfold actAmt; rw [if_neg (by have := h0.1; omega)]
    · rw [if_neg (fun hh => h0 (h.mp hh)), if_neg h0]
  rw [Finset.sum_congr rfl fun d _ => key d, al_sum_pair (2 + k.val) (by have := k.isLt; omega) (ynbr c) N]

/-- A landing cell of the second exchange is owed one chunk's credit, by the first-axis neighbour. -/
theorem al_sum_O₀_r2 (c : Dev nD) (k : Fin 32) : ∑ d : Dev nD, O₀ d (xcell c 4 k) () = N := by
  have key : ∀ d : Dev nD, O₀ d (xcell c 4 k) () = ∑ a ∈ Finset.range 66, if a = 34 + k.val ∧ d = xnbr c then N else 0 := fun d => by
    rw [show xcell c 4 k = kcell (c, some (4, k)) from rfl, al_O₀_apply]
    refine Finset.sum_congr rfl fun a ha => ?_
    have h := al_act_r2 c d k ⟨a, Finset.mem_range.mp ha⟩
    by_cases h0 : a = 34 + k.val ∧ d = xnbr c
    · rw [if_pos (h.mpr h0), if_pos h0]; unfold actAmt; rw [if_neg (by have := h0.1; omega)]
    · rw [if_neg (fun hh => h0 (h.mp hh)), if_neg h0]
  rw [Finset.sum_congr rfl fun d _ => key d, al_sum_pair (34 + k.val) (by have := k.isLt; omega) (xnbr c) N]

theorem al_launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem al_launch_bar (c : Dev nD) :
    tallyOn (barCell c) (launchCredit (Pipeline.owing O₀) 0 (barCell c)) = (tallyAt (barCell c) () 2 : CellTallies nD τ sig Unit) :=
  al_launch_at _ _ (al_sum_O₀_bar c)
theorem al_launch_r1 (c : Dev nD) (k : Fin 32) :
    tallyOn (xcell c 2 k) (launchCredit (Pipeline.owing O₀) 0 (xcell c 2 k)) = (tallyAt (xcell c 2 k) () N : CellTallies nD τ sig Unit) :=
  al_launch_at _ _ (al_sum_O₀_r1 c k)
theorem al_launch_r2 (c : Dev nD) (k : Fin 32) :
    tallyOn (xcell c 4 k) (launchCredit (Pipeline.owing O₀) 0 (xcell c 4 k)) = (tallyAt (xcell c 4 k) () N : CellTallies nD τ sig Unit) :=
  al_launch_at _ _ (al_sum_O₀_r2 c k)

theorem al_semOf_injective (c : Dev nD) : Function.Injective (fun i : CIx => (kcell (c, i)).2) := fun i i' h => by
  have h2 : kindOf (kcell (c, i)).2 = kindOf (kcell (c, i')).2 := congrArg kindOf h
  rw [al_kindOf_kcell, al_kindOf_kcell] at h2
  exact h2

/-- The launch credit of one cell. -/
def al_lcAt (g : GSem nD τ sig) : sProp 𝕄 := cred (tallyOn g (launchCredit (Pipeline.owing O₀) 0 g))
theorem al_lcAt_bar (c : Dev nD) : (al_lcAt (barCell c) : sProp 𝕄) = cred (tallyAt (barCell c) () 2) := by unfold al_lcAt; rw [al_launch_bar]
theorem al_lcAt_r1 (c : Dev nD) (k : Fin 32) : (al_lcAt (xcell c 2 k) : sProp 𝕄) = cred (tallyAt (xcell c 2 k) () N) := by unfold al_lcAt; rw [al_launch_r1]
theorem al_lcAt_r2 (c : Dev nD) (k : Fin 32) : (al_lcAt (xcell c 4 k) : sProp 𝕄) = cred (tallyAt (xcell c 4 k) () N) := by unfold al_lcAt; rw [al_launch_r2]

/-- The credit tokens the launch deals device c: two units on its barrier cell, a chunk's credit on each landing cell. -/
theorem creds_intro (c : Dev nD) : (Pipeline.launchCred O₀ c : sProp 𝕄) ⊢ creds c := by
  unfold Pipeline.launchCred
  refine (bigSep_subset (Finset.subset_univ (Finset.univ.map ⟨fun i : CIx => (kcell (c, i)).2, al_semOf_injective c⟩))).trans ?_
  rw [bigSep_map, al_bigSep_cix, al_bigSep_jk]
  show iprop(al_lcAt (barCell c) ∗ bigSep Finset.univ fun k : Fin 32 =>
    iprop(al_lcAt (xcell c 0 k) ∗ al_lcAt (xcell c 1 k) ∗ al_lcAt (xcell c 2 k) ∗ al_lcAt (xcell c 3 k) ∗ al_lcAt (xcell c 4 k))) ⊢ creds c
  unfold creds
  rw [al_lcAt_bar]
  refine sep_mono_right (bigSep_mono fun k _ => ?_)
  rw [al_lcAt_r1, al_lcAt_r2]
  show iprop(al_lcAt (xcell c 0 k) ∗ al_lcAt (xcell c 1 k) ∗ cred (tallyAt (xcell c 2 k) () N) ∗ al_lcAt (xcell c 3 k) ∗ cred (tallyAt (xcell c 4 k) () N))
    ⊢ iprop(cred (tallyAt (xcell c 2 k) () N) ∗ cred (tallyAt (xcell c 4 k) () N))
  iintro ⟨-, -, H2, -, H4⟩
  isplitl [H2]; · iexact H2
  iexact H4

/-! ## The pipeline's own waits -/

theorem al_lv_stage (c : Dev nD) (w : Fin cfg0.W) (s : Fin (cfg0.win w).nbuf) : lv ((c : Thread nD τ), .dma ((cfg0.win w).sem s)) () = 0 := by
  have hq : ((cfg0.win w).sem s).val = 0 := by revert w s; decide
  dsimp only [lv]
  rw [if_neg (fun h => by cases h), show kindOf (SemLoc.dma ((cfg0.win w).sem s)) = none from dif_neg (by omega)]

theorem al_lv_act_pos (c : Dev nD) (i : ℕ) : 0 < lv (actCell c i) () := by
  by_cases h0 : i = 0
  · rw [h0, actCell_zero, lv_bar]; decide
  by_cases h1 : i = 1
  · rw [h1, actCell_one, lv_bar]; decide
  exact lt_of_lt_of_le (by decide) (lv_act_ge2 c i (by omega))

/-- The result's staging cell lies below every cell a device pays. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | t, ht⟩
    · show _ ⊢ MayWait (c : Thread nD τ) _ () (owe c 66)
      exact mayWait_owe c _ 66 le_rfl fun i _ _ => by rw [al_lv_stage]; exact al_lv_act_pos c i
    · show _ ⊢ MayWait (c : Thread nD τ) _ () 0
      rw [MayWait_zero]; iintro -; iempintro

end Cert.Kernel.AR

end
-- ==== Proof.Bits.Launch.lean ====
/-
  The launch of the two-phase all-reduce: the body lemma in the form the pipeline asks it, what a device holds when
  its kernel starts and what it hands back at the end, and the run of the whole program on the four devices.  After
  the run every device's result array is `outW` of the argument blocks and its argument block is unchanged.
-/
import proofs.«900152_g7700000000000153_dist_ar_v7x_xy2x2_y_m8192_n1024_bf16_1_alg».proof.Proof.Bits.Data
import proofs.«900152_g7700000000000153_dist_ar_v7x_xy2x2_y_m8192_n1024_bf16_1_alg».proof.Proof.Bits.Alloc

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body lemma as the pipeline asks it -/

theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = stg c b Xc := by
  unfold owns; simp only [Memref.view_whole, View.read_whole, View.set_whole]

set_option maxRecDepth 8000 in
/-- What the pipeline hands the body at its one point. -/
def bodyPre' (c : Dev nD) : sProp 𝕄 :=
  iprop(Φ₀ m c ∗ (dats m ρ 0 c).owesAt () t₀.castSucc
    ∗ (∃ d, stg c cc0_stg0_0 ((dats m ρ 0 c).before (0 : Fin 1) t₀ d)))

set_option maxRecDepth 100000 in
theorem body_obligation (hb : SoundBody m ρ) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hcr, Hlev, Harg⟩, Hscr⟩, Ho, Hout⟩
  iapply (hb K c fun _ => bodyPost m ρ c)
  unfold bodyPre
  isplitr []
  · isplitl [Hg Hcr Hlev Harg Hscr]
    · isplitl [Hg]; · iexact Hg
      isplitl [Hcr]; · iexact Hcr
      isplitl [Hlev]; · iexact Hlev
      isplitl [Harg]; · iexact Harg
      iexact Hscr
    isplitl [Ho]; · iexact Ho
    iexact Hout
  · iintro H; iexact H

theorem share_eq (c : Dev nD) (w : Fin cfg0.W) : (dats m ρ 0 c).share w = fullShare := by unfold Dat.share; split <;> rfl

/-! ## The launch theorem's side conditions -/

/-- At launch a device holds its argument block, the level facts, its launch credit and its share of the ghost
    state: together, what its kernel starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨Harg, Hlev, Hcr, -, HG⟩
  ihave Hc := (creds_intro (F := F) c) $$ Hcr
  imodintro
  unfold start argPts
  isplitl
  · isplitl [HG]; · iexact HG
    isplitl [Hc]; · iexact Hc
    isplitl [Hlev]; · iexact Hlev
    iexact Harg
  · iempintro

/-- With the three scratch buffers the region allocates, that is the invariant before the one point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

/-- After the point the device gives back the scratch buffers and its transfer semaphores at zero, and keeps its
    argument block. -/
theorem phi1_exit (c : Dev nD) :
    (dats m ρ 0 c).Φ (Fin.last cfg0.N) ⊢ iprop(argPts m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ scratches
  iintro ⟨Hr, Hx, Ha⟩
  isplitl [Ha]; · iexact Ha
  isplitl [Hx]; · iexact Hx
  iexact Hr

/-! ## The result array after the run -/

/-- The one point writes the whole staging buffer back over the whole result array. -/
theorem final_out (c : Dev nD) : (dats m ρ 0 c).arrAt (0 : Fin 1) cfg0.N = outB m c := by
  have h := (dats m ρ 0 c).arrAt_succ (0 : Fin 1) t₀
  rw [flush0_0 t₀, if_pos rfl] at h
  have hN : cfg0.N = t₀.val + 1 := rfl
  rw [hN, h]
  have hz' : (fun a => win0_0.index t₀ a * main_v1.ty.shape.size a) = fun _ => 0 := funext fun a => by fin_cases a <;> decide
  exact Memref.write_access_unit_zero_univ (Elt F) main_v1 hz' (fun a => by rw [congrFun hz' a]; simp) _ (outB m c)

/-! ## The run -/

set_option maxRecDepth 100000 in
/-- On the mesh of four devices, for any float values, from any memory with every counter at zero: every weakly fair
    execution of the program — the four kernels handshaking, exchanging their halves along the second mesh axis, adding,
    and exchanging the sums along the first — terminates, and in every final state each device's result array holds
    `outW` of the argument blocks and its argument block is unchanged. -/
theorem run_main (hb : SoundBody m ρ) : θ_run defs (onTc (τ := τ) (main (F := F))) (s₀ m ρ) (fun r => ∀ c : Dev nD,
      r.2.mem ((c.tc : Thread nD τ).loc main_v1) = outB m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hb) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := argPts m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold argPts
      iintro ⟨Hx, -, HSI⟩
      icombine HSI Hx gives %hx
      imodintro
      isplitr; · ipureintro; exact Buf.eq_of_forall_mem_univ hx
      iexact HSI)
    (hQ := fun s h c => ⟨((h c).1 0).trans (final_out m ρ c), (h c).2.2⟩)

/-- info: 'Cert.Kernel.AR.run_main' depends on axioms: [propext, Classical.choice, Quot.sound] -/
#guard_msgs in #print axioms run_main

end Cert.Kernel.AR

end
-- ==== Proof.Bits.Chunk.lean ====
/-
  The resources of ONE chunk k of ONE device, stage by stage of the kernel: before its local copy is started (st0), while
  that copy is in flight (st1), after its phase-1 copy is started (st2), after its phase-2 copy is started (st3) and
  after the three closing waits (st4); what the barrier hands over and brings per chunk; and what a device owes before
  and after each paying action.
-/
import proofs.«900152_g7700000000000153_dist_ar_v7x_xy2x2_y_m8192_n1024_bf16_1_alg».proof.Proof.Bits.Data
import proofs.«900152_g7700000000000153_dist_ar_v7x_xy2x2_y_m8192_n1024_bf16_1_alg».proof.Proof.Bits.Levels

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The records, cell by cell -/

theorem inv_at (K : Dev nD × CIx → ℕ) (ck : Dev nD × CIx) :
    (bigSep Finset.univ fun ck : Dev nD × CIx => (cellInv ER (Rd m) (K ck) (kcell ck) : sProp 𝕄)) ⊢ cellInv ER (Rd m) (K ck) (kcell ck) :=
  bigSep_elim (Finset.mem_univ ck)
theorem reached_at (ck : Dev nD × CIx) :
    (bigSep Finset.univ fun ck : Dev nD × CIx => (reached ER (kcell ck) 0 : sProp 𝕄)) ⊢ reached ER (kcell ck) 0 :=
  bigSep_elim (Finset.mem_univ ck)

theorem inv_of_records (K : Dev nD × CIx → ℕ) (ck : Dev nD × CIx) :
    records m K ⊢ cellInv ER (Rd m) (K ck) (kcell ck) := by
  unfold records
  iintro ⟨#HI, -⟩
  iapply (inv_at m K ck); iexact HI

theorem reached_of_records (K : Dev nD × CIx → ℕ) (ck : Dev nD × CIx) :
    records m K ⊢ reached ER (kcell ck) 0 := by
  unfold records
  iintro ⟨-, #HR⟩
  iapply (reached_at (F := F) ck); iexact HR

/-! ## What a device owes around its paying actions -/

/-- Device c's debt with its last r paying actions left, whatever waits it has recorded. -/
def owesX (c : Dev nD) (r : ℕ) : sProp 𝕄 := iprop(∃ W, owes (c : Thread nD τ) (owe c r) W)

theorem owe_sigY (c : Dev nD) : owe c 66 = owe c 65 + tallyAt (barCell (ynbr c)) () 1 := rfl
theorem owe_sigX (c : Dev nD) : owe c 65 = owe c 64 + tallyAt (barCell (xnbr c)) () 1 := rfl
theorem actAmt_big (i : ℕ) (h : 2 ≤ i) : actAmt i = N := by unfold actAmt; exact if_neg (by omega)
theorem owe_p1 (c : Dev nD) (k : Fin 32) : owe c (64 - k.val) = owe c (63 - k.val) + tallyAt (xcell (ynbr c) 2 k) () N := by
  have hk := k.isLt
  have h : 64 - k.val = (63 - k.val) + 1 := by omega
  have h2 : 65 - (63 - k.val) = 2 + k.val := by omega
  rw [h, owe_succ, h2, actCell_ph1', actAmt_big _ (by omega)]
theorem owe_p2 (c : Dev nD) (k : Fin 32) : owe c (32 - k.val) = owe c (31 - k.val) + tallyAt (xcell (xnbr c) 4 k) () N := by
  have hk := k.isLt
  have h : 32 - k.val = (31 - k.val) + 1 := by omega
  have h2 : 65 - (31 - k.val) = 34 + k.val := by omega
  rw [h, owe_succ, h2, actCell_ph2', actAmt_big _ (by omega)]

/-! ## The chunk's resources, stage by stage -/

abbrev posJ (c : Dev nD) (j : Fin 5) (k : Fin 32) : sProp 𝕄 := atPos ER (xcell c j k) 0 ∅ 0
abbrev credJ (c : Dev nD) (j : Fin 5) (k : Fin 32) : sProp 𝕄 := cred (tallyAt (xcell c j k) () (amt j))

/-- Before the local copy of chunk k is started. -/
def st0 (c : Dev nD) (k : Fin 32) : sProp 𝕄 :=
  iprop(pts (xSl (hf c) k) c fullShare (X m c) ∗ (∃ f, pts (vSl k) c fullShare f) ∗ (∃ f, pts (sSl k) c fullShare f)
    ∗ (∃ f, pts (oSl (hf c) k) c fullShare f) ∗ chunkToks c k
    ∗ (posJ c 0 k ∗ posJ c 1 k ∗ posJ c 2 k ∗ posJ c 3 k ∗ posJ c 4 k) ∗ credJ c 2 k ∗ credJ c 4 k)

/-- The local copy of chunk k in flight. -/
def st1 (c : Dev nD) (k : Fin 32) : sProp 𝕄 :=
  iprop(credJ c 0 k ∗ (∃ f, pts (sSl k) c fullShare f) ∗ (∃ f, pts (oSl (hf c) k) c fullShare f)
    ∗ (dutyTok ER (xcell c 1 k) 0 false ∗ dutyTok ER (xcell (ynbr c) 2 k) 0 false ∗ dutyTok ER (xcell c 3 k) 0 false
        ∗ dutyTok ER (xcell (xnbr c) 4 k) 0 false)
    ∗ (posJ c 0 k ∗ posJ c 1 k ∗ posJ c 2 k ∗ posJ c 3 k ∗ posJ c 4 k) ∗ credJ c 2 k ∗ credJ c 4 k)

/-- What the second-axis neighbour's barrier signal brings for chunk k: that neighbour's receive chunk. -/
def gotY (c : Dev nD) (k : Fin 32) : sProp 𝕄 := iprop(∃ f, pts (rSl k) (ynbr c) fullShare f)
/-- What the first-axis neighbour's barrier signal brings for chunk k: that neighbour's result chunk in c's half. -/
def gotX (c : Dev nD) (k : Fin 32) : sProp 𝕄 := iprop(∃ f, pts (oSl (hf c) k) (xnbr c) fullShare f)
/-- What device c hands over with its two barrier signals: its receive chunks, and its result chunks in the other half. -/
def giveY (c : Dev nD) : sProp 𝕄 := bigSep Finset.univ fun k : Fin 32 => iprop(∃ f, pts (rSl k) c fullShare f)
def giveX (c : Dev nD) : sProp 𝕄 := bigSep Finset.univ fun k : Fin 32 => iprop(∃ f, pts (oSl (hf (xnbr c)) k) c fullShare f)

/-- After the phase-1 copy of chunk k is started: the f32 chunk has landed, the send chunk holds the cast rows, half of it
    lent to the copy. -/
def st2 (c : Dev nD) (k : Fin 32) : sProp 𝕄 :=
  iprop(pts (xSl (hf c) k) c fullShare (X m c) ∗ pts (vSl k) c fullShare (xvB m c) ∗ pts (sSl k) c fullShare.right (sendB m c)
    ∗ credJ c 1 k ∗ (∃ f, pts (oSl (hf c) k) c fullShare f)
    ∗ (dutyTok ER (xcell c 3 k) 0 false ∗ dutyTok ER (xcell (xnbr c) 4 k) 0 false)
    ∗ (posJ c 1 k ∗ posJ c 2 k ∗ posJ c 3 k ∗ posJ c 4 k) ∗ credJ c 2 k ∗ credJ c 4 k ∗ semVal (xcell c 0 k) 0)

/-- After the phase-2 copy of chunk k is started: the neighbour's rows have landed, the sum is stored and lent to the copy. -/
def st3 (c : Dev nD) (k : Fin 32) : sProp 𝕄 :=
  iprop(pts (xSl (hf c) k) c fullShare (X m c) ∗ pts (vSl k) c fullShare (xvB m c) ∗ pts (sSl k) c fullShare.right (sendB m c)
    ∗ credJ c 1 k ∗ pts (rSl k) c fullShare (recvB m c) ∗ credJ c 3 k
    ∗ (posJ c 1 k ∗ posJ c 3 k ∗ posJ c 4 k) ∗ credJ c 4 k ∗ semVal (xcell c 0 k) 0 ∗ semVal (xcell c 2 k) 0)

/-- After the closing waits of chunk k: every chunk back whole at its final contents, the five cells closed. -/
def st4 (c : Dev nD) (k : Fin 32) : sProp 𝕄 :=
  iprop(pts (xSl (hf c) k) c fullShare (X m c) ∗ pts (vSl k) c fullShare (xvB m c) ∗ pts (sSl k) c fullShare (sendB m c)
    ∗ pts (rSl k) c fullShare (recvB m c) ∗ pts (oSl (hf c) k) c fullShare (outB m c) ∗ pts (oSl (hf (xnbr c)) k) c fullShare (outB m c)
    ∗ semVal (xcell c 0 k) 0 ∗ semVal (xcell c 1 k) 0 ∗ semVal (xcell c 2 k) 0 ∗ semVal (xcell c 3 k) 0 ∗ semVal (xcell c 4 k) 0)

/-! ## The kernel's own spellings of the chunk memrefs whose offset depends on the device -/

/-- The input chunk and the result chunk as the kernel spells them (offsets through the printed chains). -/
abbrev xSlP (c : Dev nD) (k : Fin 32) : Memref sig .tc .hbm S128x1024 .f32 :=
  xM.slice (Rect.unit (s := S8192x1024) (k0_off1 c (BitVec.ofNat 32 (128 * k.val))) S128x1024.size (k0_off1_inb c k)) (fun _ => rfl)
abbrev oSlP1 (c : Dev nD) (k : Fin 32) : Memref sig .tc .vmem S128x1024 .bf16 :=
  oM.slice (Rect.unit (s := S8192x1024) (k0_off1 c (BitVec.ofNat 32 (128 * k.val))) S128x1024.size (k0_off1_inb c k)) (fun _ => rfl)
abbrev rOP2 (c : Dev nD) (k : Fin 32) : Rect S8192x1024 :=
  Rect.unit (s := S8192x1024) (k0_off2 c (BitVec.ofNat 32 (128 * k.val))) S128x1024.size (k0_off2_inb c k)

theorem off1_closed (c : Dev nD) (k : Fin 32) : k0_off1 c (BitVec.ofNat 32 (128 * k.val)) = ![4096 * (hf c).val + 128 * k.val, 0] := k0_off1_eq c k
theorem off2_closed (c : Dev nD) (k : Fin 32) : k0_off2 c (BitVec.ofNat 32 (128 * k.val)) = ![4096 * (hf c).val + 128 * k.val, 0] := k0_off2_eq c k

theorem rect_congr {s : Shape} {o o' : Fin s.rank → Nat} (h : o = o') (sz : Fin s.rank → Nat) (i : ∀ a, o a + sz a ≤ s.size a) (i' : ∀ a, o' a + sz a ≤ s.size a) :
    Rect.unit (s := s) o sz i = Rect.unit (s := s) o' sz i' := by subst h; rfl

theorem rOP2_eq (c : Dev nD) (k : Fin 32) : rOP2 c k = rO (hf c) k := rect_congr (off2_closed c k) _ _ _
theorem xSlP_eq (c : Dev nD) (k : Fin 32) : xSlP c k = xSl (hf c) k := by
  unfold xSlP xSl; congr 1; exact rect_congr (off1_closed c k) _ _ _
theorem oSlP1_eq (c : Dev nD) (k : Fin 32) : oSlP1 c k = oSl (hf c) k := by
  unfold oSlP1 oSl; congr 1; exact rect_congr (off1_closed c k) _ _ _

end Cert.Kernel.AR

end
-- ==== Proof.Bits.Phase0.lean ====
/-
  Starting the local copy of chunk k: the input rows and the f32 chunk go into the copy, which pays the one duty of the
  chunk's local-copy cell; the device keeps the credit to wait for it.
-/
import proofs.«900152_g7700000000000153_dist_ar_v7x_xy2x2_y_m8192_n1024_bf16_1_alg».proof.Proof.Bits.Chunk

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem amount_v (k : Fin 32) (sm : DmaSem sig) : (vSl k).view.amount (.dma sm) = Nv := rfl

/-- The value fact this step needs (discharged from the geometry module): the copy's landing leaves the f32 chunk at
    its final contents. -/
abbrev LandV (c : Dev nD) (k : Fin 32) : Prop :=
  ∀ fd : Buf (Elt F) ((vSl k).view.loc (c : Thread nD τ)),
    pts (vSl k) c fullShare ((vSl k).view.write (Elt F) fd ((xSl (hf c) k).view.read (Elt F) (X m c)) Finset.univ)
      = (pts (vSl k) c fullShare (xvB m c) : sProp 𝕄)

theorem phase0_chunk (K : Dev nD × CIx → ℕ) (c : Dev nD) (k : Fin 32) (hv : LandV m c k)
    {hsrc : (xSlP c k).view.WordExact} {hdst : (vSl k).view.WordExact}
    {hsem : DmaTarget.Typed (nD := nD) .hbm (.dma (semA cc0_scratch3 k)) (DmaTarget.here (vSl k) : DmaTarget nD τ sig (c : Thread nD τ).2 .vmem S128x1024 .f32)}
    {α : Type} {Q : α → sProp 𝕄} {rest : PUnit → Prog (TpuEff nD τ sig (Elt F) Λ₀ .tc) α} :
    iprop(records m K ∗ st0 m c k)
      ⊢ iprop((st1 c k -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma (xSlP c k) (.here (vSl k)) (.dma (semA cc0_scratch3 k)) hsrc hdst hsem) rest) Q) := by
  unfold st0 st1 chunkToks
  revert hsrc
  rw [xSlP_eq c k]
  intro hsrc
  iintro ⟨#Hrec, Hx, ⟨%fv, Hv⟩, Hs, Ho, ⟨Ht0, Ht1, Ht2, Ht3, Ht4⟩, Hpos, Hc2, Hc4⟩ Hk
  ihave #HI := (inv_of_records m K (c, some (0, k))) $$ Hrec
  ihave #HR := (reached_of_records m K (c, some (0, k))) $$ Hrec
  iapply (Rounds.wp_copy_pointsTo 𝒱₀ ER (Rd m) (c : Thread nD τ) none (κ := K (c, some (0, k))) (r := 0) (d := false) (fd := fv) (q := fullShare) (fs := X m c)
      (by rw [duties_x]; exact Finset.mem_singleton_self _) () Nv (amount_v k _) (amount_x m c 0 k false)
      (by rw [payload_x]; exact sep_mono_left (Entails.of_eq (hv fv)))) $$ [Hx Hv Ht0]
  · isplitr; · iexact HI
    isplitl [Hx]; · iexact Hx
    isplitl [Hv]; · iexact Hv
    isplitl [Ht0]; · iexact Ht0
    iexact HR
  iintro Hc0
  iapply Hk
  isplitl [Hc0]; · iexact Hc0
  isplitl [Hs]; · iexact Hs
  isplitl [Ho]; · iexact Ho
  isplitl [Ht1 Ht2 Ht3 Ht4]
  · isplitl [Ht1]; · iexact Ht1
    isplitl [Ht2]; · iexact Ht2
    isplitl [Ht3]; · iexact Ht3
    iexact Ht4
  isplitl [Hpos]; · iexact Hpos
  isplitl [Hc2]; · iexact Hc2
  iexact Hc4

end Cert.Kernel.AR

end
-- ==== Proof.Bits.Geom.lean ====
/-
  Where the elements of a chunk sit, and what the chunks hold after each step of the all-reduce.

  Element x of chunk k of a 4096-row buffer sits at row 128 k + x₀; element x of chunk (h, k) of an 8192-row array at
  row 4096 h + (128 k + x₀), which is row 128 k + x₀ of half h.  With these two facts each step's new contents of a chunk are
  read off element by element: the local copy lands the device's half of its block; the cast stores the sent values;
  the second-axis neighbour's copy lands that neighbour's sent values, which are the received values of the device;
  the sum of sent and received is the device's result on its half of the rows; and the first-axis neighbour, whose
  result on those rows is the same sum, receives it there.
-/
import proofs.«900152_g7700000000000153_dist_ar_v7x_xy2x2_y_m8192_n1024_bf16_1_alg».proof.Proof.Bits.Protocol
import Idealize.ShloMosaic.Rules.PointsTo
import Idealize.ShloMosaic.Lib.Pipeline.Value

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Where a chunk's element sits -/

/-- Element x of chunk (h, k) of an 8192-row array is element x of chunk k of half h. -/
theorem rO_emb (h : Fin 2) (k : Fin 32) (x : S128x1024.Idx) :
    (rO h k).emb x = halfRow h.val h.isLt ((rS k).emb x) := by
  funext a
  apply Fin.ext
  revert a
  refine Fin.forall_fin_two.mpr ⟨?_, ?_⟩
  · show 4096 * h.val + 128 * k.val + 1 * (x 0).val = 4096 * h.val + (128 * k.val + 1 * (x 0).val)
    omega
  · show 0 + 1 * (x 1).val = 0 + 1 * (x 1).val
    rfl

/-- Its row lies in half h … -/
theorem rO_emb_half (h : Fin 2) (k : Fin 32) (x : S128x1024.Idx) : ((rO h k).emb x 0).val / 4096 = h.val := by
  have hx : (x 0).val < 128 := (x 0).isLt
  have hk := k.isLt
  show (4096 * h.val + 128 * k.val + 1 * (x 0).val) / 4096 = h.val
  omega

/-- … at the place of element x of chunk k. -/
theorem inHalf_rO_emb (h : Fin 2) (k : Fin 32) (x : S128x1024.Idx) : inHalf ((rO h k).emb x) = (rS k).emb x := by
  have hx : (x 0).val < 128 := (x 0).isLt
  have hk := k.isLt
  funext a
  apply Fin.ext
  revert a
  refine Fin.forall_fin_two.mpr ⟨?_, ?_⟩
  · show (4096 * h.val + 128 * k.val + 1 * (x 0).val) % 4096 = 128 * k.val + 1 * (x 0).val
    omega
  · show 0 + 1 * (x 1).val = 0 + 1 * (x 1).val
    rfl

/-! ## The result array on the rows of one half -/

/-- On the rows of its own half a device's result is its own sum. -/
theorem outW_own (X : Blocks F) (c : Dev nD) (k : Fin 32) (x : S128x1024.Idx) :
    outW X c ((rO (hf c) k).emb x) = sumW X c ((rS k).emb x) := by
  unfold outW
  rw [if_pos (show ((rO (hf c) k).emb x 0).val / 4096 = c.val / 2 from rO_emb_half (hf c) k x), inHalf_rO_emb]

/-- On those rows the first-axis neighbour's result is the same sum: they are the rows of the other half for it. -/
theorem outW_xnbr (X : Blocks F) (c : Dev nD) (k : Fin 32) (x : S128x1024.Idx) :
    outW X (xnbr c) ((rO (hf c) k).emb x) = sumW X c ((rS k).emb x) := by
  have hne : ¬ ((rO (hf c) k).emb x 0).val / 4096 = (xnbr c).val / 2 := by
    rw [rO_emb_half, xnbr_half]
    have := half_lt c
    show ¬ c.val / 2 = 1 - c.val / 2
    omega
  unfold outW
  rw [if_neg hne, xnbr_xnbr, inHalf_rO_emb]

/-! ## The rectangles the body names by its own offset arithmetic -/

theorem off1_rect (c : Dev nD) (k : Fin 32) :
    Rect.unit (s := S8192x1024) (k0_off1 c (BitVec.ofNat 32 (128 * k.val))) S128x1024.size (k0_off1_inb c k) = rO (hf c) k :=
  Rect.unit_congr (k0_off1_eq c k) _ _

theorem off2_rect (c : Dev nD) (k : Fin 32) :
    Rect.unit (s := S8192x1024) (k0_off2 c (BitVec.ofNat 32 (128 * k.val))) S128x1024.size (k0_off2_inb c k) = rO (hf c) k :=
  Rect.unit_congr (k0_off2_eq c k) _ _

/-- The slices of an 8192-row memref through them are the chunks. -/
theorem off1_slice {sp : Space} {e : EltTy} (M : Memref sig .tc sp S8192x1024 e) (c : Dev nD) (k : Fin 32) (hs hs') :
    M.slice (Rect.unit (s := S8192x1024) (k0_off1 c (BitVec.ofNat 32 (128 * k.val))) S128x1024.size (k0_off1_inb c k)) hs
      = M.slice (rO (hf c) k) hs' :=
  Memref.slice_unit_congr M (k0_off1_eq c k) _ _ hs hs'

theorem off2_slice {sp : Space} {e : EltTy} (M : Memref sig .tc sp S8192x1024 e) (c : Dev nD) (k : Fin 32) (hs hs') :
    M.slice (Rect.unit (s := S8192x1024) (k0_off2 c (BitVec.ofNat 32 (128 * k.val))) S128x1024.size (k0_off2_inb c k)) hs
      = M.slice (rO (hf c) k) hs' :=
  Memref.slice_unit_congr M (k0_off2_eq c k) _ _ hs hs'

/-! ## The payloads of the two stores -/

theorem pay_cast_eq (v : Vec F S128x1024 .f32) :
    shapeCast S128x1024 (truncf .bf16 v bitsLt_bf16_f32) shapeCasts_S128x1024_S128x1024 = truncf .bf16 v bitsLt_bf16_f32 :=
  shapeCast_self _ _

example (v : Vec F S128x1024 .f32) :
    Gen.k0_pay1 v = shapeCast S128x1024 (truncf .bf16 v bitsLt_bf16_f32) shapeCasts_S128x1024_S128x1024 := rfl
example (v : Vec F S128x1024 .f32) :
    Gen.k0_pay36 v = shapeCast S128x1024 (truncf .bf16 v bitsLt_bf16_f32) shapeCasts_S128x1024_S128x1024 := rfl
example (v w : Vec F S128x1024 .bf16) : Gen.k0_pay37 v w = addf v w := rfl

variable (m : (ℓ : Loc nD τ sig) → Buf (Elt F) ℓ)

/-! ## What each step leaves in a chunk -/

/-- (1) The local copy of chunk k of the device's half of its block leaves the f32 scratch chunk at its final contents. -/
theorem ld_landed (c : Dev nD) (k : Fin 32) (fd : Buf (Elt F) ((c : Thread nD τ).loc cc0_scratch0)) :
    ∀ i ∈ (vSl k).view.set,
      (vSl k).view.write (Elt F) fd ((xSl (hf c) k).view.read (Elt F) (X m c)) Finset.univ i = xvB m c i := by
  intro i hi
  obtain ⟨x, rfl⟩ := View.exists_emb_of_mem_set _ hi
  rw [View.write_emb_of_mem _ _ (Finset.mem_univ x), View.read_apply]
  show X m c ((rO (hf c) k).emb x) = X m c (halfRow (c.val / 2) (half_lt c) ((rS k).emb x))
  rw [rO_emb]
  rfl

/-- Chunk k of the f32 scratch, of the send buffer and of the receive buffer at their final contents, as the loads read them. -/
abbrev xvChunk (c : Dev nD) (k : Fin 32) : Vec F S128x1024 .f32 := vM.view.readAt (Elt F) (rS k).toLoadRect (xvB m c)
abbrev sendChunk (c : Dev nD) (k : Fin 32) : Vec F S128x1024 .bf16 := sM.view.readAt (Elt F) (rS k).toLoadRect (sendB m c)
abbrev recvChunk (c : Dev nD) (k : Fin 32) : Vec F S128x1024 .bf16 := rM.view.readAt (Elt F) (rS k).toLoadRect (recvB m c)

/-- (2) The cast of the loaded f32 chunk, stored, leaves the send chunk at its final contents. -/
theorem st1_value_of (c : Dev nD) (k : Fin 32) (fs : Buf (Elt F) ((c : Thread nD τ).loc cc0_scratch1))
    (v : Vec F S128x1024 .f32) (hv : v = vM.view.readAt (Elt F) (rS k).toLoadRect (xvB m c)) :
    ∀ i ∈ (sSl k).view.set,
      (sM.access (rS k)).write (Elt F) fs
        (shapeCast S128x1024 (truncf .bf16 v bitsLt_bf16_f32) shapeCasts_S128x1024_S128x1024) Finset.univ i
        = sendB m c i := by
  intro i hi
  obtain ⟨x, rfl⟩ := View.exists_emb_of_mem_set _ hi
  rw [shapeCast_self]
  subst hv
  show (sSl k).view.write (Elt F) fs _ Finset.univ ((sSl k).view.emb x) = _
  rw [View.write_emb_of_mem _ _ (Finset.mem_univ x)]
  rfl

theorem st1_value (c : Dev nD) (k : Fin 32) (fs : Buf (Elt F) ((c : Thread nD τ).loc cc0_scratch1)) :
    ∀ i ∈ (sSl k).view.set,
      (sM.access (rS k)).write (Elt F) fs
        (shapeCast S128x1024 (truncf .bf16 (xvChunk m c k) bitsLt_bf16_f32) shapeCasts_S128x1024_S128x1024) Finset.univ i
        = sendB m c i :=
  st1_value_of m c k fs _ rfl

/-- (3) The second-axis neighbour's copy of its send chunk leaves the receive chunk at its final contents. -/
theorem r1_landed (c : Dev nD) (k : Fin 32) (fd : Buf (Elt F) ((ynbr c : Thread nD τ).loc cc0_scratch2)) :
    ∀ i ∈ (rSl k).view.set,
      (rSl k).view.write (Elt F) fd ((sSl k).view.read (Elt F) (sendB m c)) Finset.univ i = recvB m (ynbr c) i := by
  intro i hi
  obtain ⟨x, rfl⟩ := View.exists_emb_of_mem_set _ hi
  rw [View.write_emb_of_mem _ _ (Finset.mem_univ x), View.read_apply]
  show sendW (X m) c ((rS k).emb x) = sendW (X m) (ynbr (ynbr c)) ((rS k).emb x)
  rw [ynbr_ynbr]

/-- (4) The sum of the loaded send and receive chunks, stored, leaves the result chunk at its final contents. -/
theorem st2_value_of (c : Dev nD) (k : Fin 32) (fo : Buf (Elt F) ((c : Thread nD τ).loc cc0_stg0_0))
    (a b : Vec F S128x1024 .bf16) (ha : a = sM.view.readAt (Elt F) (rS k).toLoadRect (sendB m c))
    (hb : b = rM.view.readAt (Elt F) (rS k).toLoadRect (recvB m c)) :
    ∀ i ∈ (oSl (hf c) k).view.set,
      (oM.access (rO (hf c) k)).write (Elt F) fo (addf a b) Finset.univ i = outB m c i := by
  intro i hi
  obtain ⟨x, rfl⟩ := View.exists_emb_of_mem_set _ hi
  subst ha hb
  show (oSl (hf c) k).view.write (Elt F) fo _ Finset.univ ((oSl (hf c) k).view.emb x) = _
  rw [View.write_emb_of_mem _ _ (Finset.mem_univ x)]
  show FloatOps.addf (sendW (X m) c ((rS k).emb x)) (recvW (X m) c ((rS k).emb x)) = outW (X m) c ((rO (hf c) k).emb x)
  rw [outW_own]
  rfl

theorem st2_value (c : Dev nD) (k : Fin 32) (fo : Buf (Elt F) ((c : Thread nD τ).loc cc0_stg0_0)) :
    ∀ i ∈ (oSl (hf c) k).view.set,
      (oM.access (rO (hf c) k)).write (Elt F) fo (addf (sendChunk m c k) (recvChunk m c k)) Finset.univ i = outB m c i :=
  st2_value_of m c k fo _ _ rfl rfl

/-- (5) The copy of that result chunk to the first-axis neighbour leaves the neighbour's chunk at its final contents. -/
theorem r2_landed (c : Dev nD) (k : Fin 32) (fd : Buf (Elt F) ((xnbr c : Thread nD τ).loc cc0_stg0_0)) :
    ∀ i ∈ (oSl (hf c) k).view.set,
      (oSl (hf c) k).view.write (Elt F) fd ((oSl (hf c) k).view.read (Elt F) (outB m c)) Finset.univ i
        = outB m (xnbr c) i := by
  intro i hi
  obtain ⟨x, rfl⟩ := View.exists_emb_of_mem_set _ hi
  rw [View.write_emb_of_mem _ _ (Finset.mem_univ x), View.read_apply]
  show outW (X m) c ((rO (hf c) k).emb x) = outW (X m) (xnbr c) ((rO (hf c) k).emb x)
  rw [outW_own, outW_xnbr]

/-! ## The same, as equalities of the chunks' points-tos -/

variable (q : PosShare TreeShare)

theorem pts_ld_landed (c : Dev nD) (k : Fin 32) (fd : Buf (Elt F) ((c : Thread nD τ).loc cc0_scratch0)) :
    (pts (vSl k) c q ((vSl k).view.write (Elt F) fd ((xSl (hf c) k).view.read (Elt F) (X m c)) Finset.univ) : sProp 𝕄)
      = pts (vSl k) c q (xvB m c) :=
  pointsTo_congr (ld_landed m c k fd)

theorem pts_st1_value (c : Dev nD) (k : Fin 32) (fs : Buf (Elt F) ((c : Thread nD τ).loc cc0_scratch1)) :
    (pts (sSl k) c q ((sM.access (rS k)).write (Elt F) fs
        (shapeCast S128x1024 (truncf .bf16 (xvChunk m c k) bitsLt_bf16_f32) shapeCasts_S128x1024_S128x1024) Finset.univ) : sProp 𝕄)
      = pts (sSl k) c q (sendB m c) :=
  pointsTo_congr (st1_value m c k fs)

theorem pts_r1_landed (c : Dev nD) (k : Fin 32) (fd : Buf (Elt F) ((ynbr c : Thread nD τ).loc cc0_scratch2)) :
    (pts (rSl k) (ynbr c) q ((rSl k).view.write (Elt F) fd ((sSl k).view.read (Elt F) (sendB m c)) Finset.univ) : sProp 𝕄)
      = pts (rSl k) (ynbr c) q (recvB m (ynbr c)) :=
  pointsTo_congr (r1_landed m c k fd)

theorem pts_st2_value (c : Dev nD) (k : Fin 32) (fo : Buf (Elt F) ((c : Thread nD τ).loc cc0_stg0_0)) :
    (pts (oSl (hf c) k) c q ((oM.access (rO (hf c) k)).write (Elt F) fo
        (addf (sendChunk m c k) (recvChunk m c k)) Finset.univ) : sProp 𝕄)
      = pts (oSl (hf c) k) c q (outB m c) :=
  pointsTo_congr (st2_value m c k fo)

theorem pts_r2_landed (c : Dev nD) (k : Fin 32) (fd : Buf (Elt F) ((xnbr c : Thread nD τ).loc cc0_stg0_0)) :
    (pts (oSl (hf c) k) (xnbr c) q
        ((oSl (hf c) k).view.write (Elt F) fd ((oSl (hf c) k).view.read (Elt F) (outB m c)) Finset.univ) : sProp 𝕄)
      = pts (oSl (hf c) k) (xnbr c) q (outB m (xnbr c)) :=
  pointsTo_congr (r2_landed m c k fd)

end Cert.Kernel.AR

end
-- ==== Proof.Bits.Split.lean ====
/-
  The row chunks of the buffers.

  A 4096-row buffer is cut into 32 chunks of 128 rows, chunk k holding rows [128 k, 128 k + 128); an 8192-row buffer into
  2 × 32 chunks, chunk (h, k) holding rows [4096 h + 128 k, 4096 h + 128 k + 128).  A row r of the first lies in chunk
  r / 128 and no other; a row r of the second in chunk (r / 4096, (r % 4096) / 128) and no other.  So the chunks are pairwise
  disjoint and cover the buffer, and owning a share of the whole buffer is owning that share of every chunk.
-/
import proofs.«900152_g7700000000000153_dist_ar_v7x_xy2x2_y_m8192_n1024_bf16_1_alg».proof.Proof.Bits.Protocol
import Idealize.ShloMosaic.Rules.PointsTo

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Which rows a chunk holds -/

/-- Chunk k of a 4096-row buffer holds the elements of rows [128 k, 128 k + 128). -/
theorem mem_rS (k : Fin 32) (i : S4096x1024.Idx) :
    i ∈ (rS k).set ↔ 128 * k.val ≤ (i 0).val ∧ (i 0).val < 128 * k.val + 128 := by
  have h1 : (i 1).val < 1024 := (i 1).isLt
  rw [Rect.mem_set_unit, Fin.forall_fin_two]
  show (128 * k.val ≤ (i 0).val ∧ (i 0).val < 128 * k.val + 128) ∧ (0 ≤ (i 1).val ∧ (i 1).val < 0 + 1024) ↔ _
  omega

/-- Chunk (h, k) of an 8192-row buffer holds the elements of rows [4096 h + 128 k, 4096 h + 128 k + 128). -/
theorem mem_rO (h : Fin 2) (k : Fin 32) (i : S8192x1024.Idx) :
    i ∈ (rO h k).set ↔ 4096 * h.val + 128 * k.val ≤ (i 0).val ∧ (i 0).val < 4096 * h.val + 128 * k.val + 128 := by
  have h1 : (i 1).val < 1024 := (i 1).isLt
  rw [Rect.mem_set_unit, Fin.forall_fin_two]
  show (4096 * h.val + 128 * k.val ≤ (i 0).val ∧ (i 0).val < 4096 * h.val + 128 * k.val + 128)
    ∧ (0 ≤ (i 1).val ∧ (i 1).val < 0 + 1024) ↔ _
  omega

/-! ## The chunks are pairwise disjoint and cover the buffer -/

theorem rS_disjoint {k k' : Fin 32} (h : k ≠ k') : Disjoint (rS k).set (rS k').set := by
  rw [Finset.disjoint_left]
  intro i hi hi'
  rw [mem_rS] at hi hi'
  exact h (Fin.ext (by omega))

theorem rS_cover (i : S4096x1024.Idx) : ∃ k : Fin 32, i ∈ (rS k).set := by
  have h0 : (i 0).val < 4096 := (i 0).isLt
  refine ⟨⟨(i 0).val / 128, by omega⟩, (mem_rS _ i).mpr ?_⟩
  show 128 * ((i 0).val / 128) ≤ (i 0).val ∧ (i 0).val < 128 * ((i 0).val / 128) + 128
  omega

theorem rO_disjoint {p p' : Fin 2 × Fin 32} (h : p ≠ p') : Disjoint (rO p.1 p.2).set (rO p'.1 p'.2).set := by
  rw [Finset.disjoint_left]
  intro i hi hi'
  rw [mem_rO] at hi hi'
  have hk := p.2.isLt
  have hk' := p'.2.isLt
  have e1 : p.1 = p'.1 := Fin.ext (by omega)
  have e2 : p.2 = p'.2 := Fin.ext (by have := congrArg Fin.val e1; omega)
  exact h (Prod.ext e1 e2)

theorem rO_cover (i : S8192x1024.Idx) : ∃ p : Fin 2 × Fin 32, i ∈ (rO p.1 p.2).set := by
  have h0 : (i 0).val < 8192 := (i 0).isLt
  refine ⟨(⟨(i 0).val / 4096, by omega⟩, ⟨(i 0).val % 4096 / 128, by omega⟩), (mem_rO _ _ i).mpr ?_⟩
  show 4096 * ((i 0).val / 4096) + 128 * ((i 0).val % 4096 / 128) ≤ (i 0).val
    ∧ (i 0).val < 4096 * ((i 0).val / 4096) + 128 * ((i 0).val % 4096 / 128) + 128
  omega

/-! ## The element sets of the chunk memrefs -/

theorem vSl_set (k : Fin 32) : (vSl k).view.set = (rS k).set := View.set_slice_whole cc0_scratch0 (rS k)
theorem sSl_set (k : Fin 32) : (sSl k).view.set = (rS k).set := View.set_slice_whole cc0_scratch1 (rS k)
theorem rSl_set (k : Fin 32) : (rSl k).view.set = (rS k).set := View.set_slice_whole cc0_scratch2 (rS k)
theorem oSl_set (h : Fin 2) (k : Fin 32) : (oSl h k).view.set = (rO h k).set := View.set_slice_whole cc0_stg0_0 (rO h k)
theorem xSl_set (h : Fin 2) (k : Fin 32) : (xSl h k).view.set = (rO h k).set := View.set_slice_whole main_arg0 (rO h k)

theorem vSl_disjoint {k k' : Fin 32} (h : k ≠ k') : Disjoint (vSl k).view.set (vSl k').view.set := by
  rw [vSl_set, vSl_set]; exact rS_disjoint h
theorem sSl_disjoint {k k' : Fin 32} (h : k ≠ k') : Disjoint (sSl k).view.set (sSl k').view.set := by
  rw [sSl_set, sSl_set]; exact rS_disjoint h
theorem rSl_disjoint {k k' : Fin 32} (h : k ≠ k') : Disjoint (rSl k).view.set (rSl k').view.set := by
  rw [rSl_set, rSl_set]; exact rS_disjoint h
theorem oSl_disjoint {p p' : Fin 2 × Fin 32} (h : p ≠ p') : Disjoint (oSl p.1 p.2).view.set (oSl p'.1 p'.2).view.set := by
  rw [oSl_set, oSl_set]; exact rO_disjoint h
theorem xSl_disjoint {p p' : Fin 2 × Fin 32} (h : p ≠ p') : Disjoint (xSl p.1 p.2).view.set (xSl p'.1 p'.2).view.set := by
  rw [xSl_set, xSl_set]; exact rO_disjoint h

theorem vSl_cover (i : S4096x1024.Idx) : ∃ k : Fin 32, i ∈ (vSl k).view.set := by
  obtain ⟨k, hk⟩ := rS_cover i; exact ⟨k, by rw [vSl_set]; exact hk⟩
theorem sSl_cover (i : S4096x1024.Idx) : ∃ k : Fin 32, i ∈ (sSl k).view.set := by
  obtain ⟨k, hk⟩ := rS_cover i; exact ⟨k, by rw [sSl_set]; exact hk⟩
theorem rSl_cover (i : S4096x1024.Idx) : ∃ k : Fin 32, i ∈ (rSl k).view.set := by
  obtain ⟨k, hk⟩ := rS_cover i; exact ⟨k, by rw [rSl_set]; exact hk⟩
theorem oSl_cover (i : S8192x1024.Idx) : ∃ p : Fin 2 × Fin 32, i ∈ (oSl p.1 p.2).view.set := by
  obtain ⟨p, hp⟩ := rO_cover i; exact ⟨p, by rw [oSl_set]; exact hp⟩
theorem xSl_cover (i : S8192x1024.Idx) : ∃ p : Fin 2 × Fin 32, i ∈ (xSl p.1 p.2).view.set := by
  obtain ⟨p, hp⟩ := rO_cover i; exact ⟨p, by rw [xSl_set]; exact hp⟩

/-! ## Owning a buffer is owning its chunks

  For a family of pairwise disjoint element sets that cover a buffer, share q of the whole buffer at contents f is the
  separating conjunction over the family of share q of each set at f. -/

theorem pointsTo_univ_eq_bigSep {T : Type} [Fintype T] {ℓ : Loc nD τ sig} (K : T → Finset (Idx ℓ))
    (hd : ∀ t t', t ≠ t' → Disjoint (K t) (K t')) (hc : ∀ i : Idx ℓ, ∃ t, i ∈ K t)
    (q : PosShare TreeShare) (f : Buf (Elt F) ℓ) :
    (ℓ ↦{q} f : sProp 𝕄) = bigSep Finset.univ fun t => ℓ ↦[K t]{q} f := by
  have hu : (Finset.univ : Finset T).biUnion K = Finset.univ := by
    ext i
    simp only [Finset.mem_biUnion, Finset.mem_univ, true_and, iff_true]
    exact hc i
  rw [← pointsTo_biUnion Finset.univ K (fun t _ t' _ h => hd t t' h), hu]

variable (c : Dev nD) (q : PosShare TreeShare)

theorem split32_v_eq (f : Buf (Elt F) ((c : Thread nD τ).loc cc0_scratch0)) :
    ((((c : Thread nD τ).loc cc0_scratch0) ↦{q} f : sProp 𝕄)) = bigSep Finset.univ fun k : Fin 32 => pts (vSl k) c q f :=
  pointsTo_univ_eq_bigSep (ℓ := (c : Thread nD τ).loc cc0_scratch0) (fun k : Fin 32 => (vSl k).view.set) (fun _ _ h => vSl_disjoint h) (fun i => vSl_cover i) q f
theorem split32_s_eq (f : Buf (Elt F) ((c : Thread nD τ).loc cc0_scratch1)) :
    ((((c : Thread nD τ).loc cc0_scratch1) ↦{q} f : sProp 𝕄)) = bigSep Finset.univ fun k : Fin 32 => pts (sSl k) c q f :=
  pointsTo_univ_eq_bigSep (ℓ := (c : Thread nD τ).loc cc0_scratch1) (fun k : Fin 32 => (sSl k).view.set) (fun _ _ h => sSl_disjoint h) (fun i => sSl_cover i) q f
theorem split32_r_eq (f : Buf (Elt F) ((c : Thread nD τ).loc cc0_scratch2)) :
    ((((c : Thread nD τ).loc cc0_scratch2) ↦{q} f : sProp 𝕄)) = bigSep Finset.univ fun k : Fin 32 => pts (rSl k) c q f :=
  pointsTo_univ_eq_bigSep (ℓ := (c : Thread nD τ).loc cc0_scratch2) (fun k : Fin 32 => (rSl k).view.set) (fun _ _ h => rSl_disjoint h) (fun i => rSl_cover i) q f
theorem split64_o_eq (f : Buf (Elt F) ((c : Thread nD τ).loc cc0_stg0_0)) :
    ((((c : Thread nD τ).loc cc0_stg0_0) ↦{q} f : sProp 𝕄))
      = bigSep Finset.univ fun hk : Fin 2 × Fin 32 => pts (oSl hk.1 hk.2) c q f :=
  pointsTo_univ_eq_bigSep (ℓ := (c : Thread nD τ).loc cc0_stg0_0) (fun p : Fin 2 × Fin 32 => (oSl p.1 p.2).view.set) (fun _ _ h => oSl_disjoint h) (fun i => oSl_cover i) q f
theorem split64_x_eq (f : Buf (Elt F) ((c : Thread nD τ).loc main_arg0)) :
    ((((c : Thread nD τ).loc main_arg0) ↦{q} f : sProp 𝕄))
      = bigSep Finset.univ fun hk : Fin 2 × Fin 32 => pts (xSl hk.1 hk.2) c q f :=
  pointsTo_univ_eq_bigSep (ℓ := (c : Thread nD τ).loc main_arg0) (fun p : Fin 2 × Fin 32 => (xSl p.1 p.2).view.set) (fun _ _ h => xSl_disjoint h) (fun i => xSl_cover i) q f

/-- Both directions of each, as entailments. -/
theorem split32_v (f : Buf (Elt F) ((c : Thread nD τ).loc cc0_scratch0)) :
    ((((c : Thread nD τ).loc cc0_scratch0) ↦{q} f : sProp 𝕄)) ⊣⊢ bigSep Finset.univ fun k : Fin 32 => pts (vSl k) c q f :=
  .of_eq (split32_v_eq c q f)
theorem split32_s (f : Buf (Elt F) ((c : Thread nD τ).loc cc0_scratch1)) :
    ((((c : Thread nD τ).loc cc0_scratch1) ↦{q} f : sProp 𝕄)) ⊣⊢ bigSep Finset.univ fun k : Fin 32 => pts (sSl k) c q f :=
  .of_eq (split32_s_eq c q f)
theorem split32_r (f : Buf (Elt F) ((c : Thread nD τ).loc cc0_scratch2)) :
    ((((c : Thread nD τ).loc cc0_scratch2) ↦{q} f : sProp 𝕄)) ⊣⊢ bigSep Finset.univ fun k : Fin 32 => pts (rSl k) c q f :=
  .of_eq (split32_r_eq c q f)
theorem split64_o (f : Buf (Elt F) ((c : Thread nD τ).loc cc0_stg0_0)) :
    ((((c : Thread nD τ).loc cc0_stg0_0) ↦{q} f : sProp 𝕄))
      ⊣⊢ bigSep Finset.univ fun hk : Fin 2 × Fin 32 => pts (oSl hk.1 hk.2) c q f :=
  .of_eq (split64_o_eq c q f)
theorem split64_x (f : Buf (Elt F) ((c : Thread nD τ).loc main_arg0)) :
    ((((c : Thread nD τ).loc main_arg0) ↦{q} f : sProp 𝕄))
      ⊣⊢ bigSep Finset.univ fun hk : Fin 2 × Fin 32 => pts (xSl hk.1 hk.2) c q f :=
  .of_eq (split64_x_eq c q f)

/-! ## One chunk's full share is its two halves -/

theorem pts_halves {sp : Space} {s : Shape} {e : EltTy} (M : Memref sig .tc sp s e)
    (f : Buf (Elt F) (M.view.loc (c : Thread nD τ))) :
    (pts M c fullShare f : sProp 𝕄) ⊣⊢ iprop(pts M c halfShare f ∗ pts M c fullShare.right f) :=
  pointsTo_share (PosShare.mem_left_op_right fullShare)

end Cert.Kernel.AR

end
-- ==== Proof.Bits.Phase1.lean ====
/-
  One chunk's step of the first exchange.  The device waits for the local copy of chunk k of its half of its block: the
  f32 scratch chunk comes back at its final contents together with the input rows, and the copy's cell, which has no later
  round, closes at zero.  It loads the f32 chunk, casts it to bf16 and stores the cast into chunk k of its send buffer, which
  thereby holds its final contents.  It then starts the copy of that chunk into chunk k of the receive buffer of its
  neighbour along the second mesh axis: half of the send chunk's share is lent to the copy (it comes back with the
  departure cell's credit), the neighbour's receive chunk, which the barrier brought, is handed to the neighbour's landing
  cell at its final contents, and one paying action is taken off what the device owes.
-/
import proofs.«900152_g7700000000000153_dist_ar_v7x_xy2x2_y_m8192_n1024_bf16_1_alg».proof.Proof.Bits.Chunk
import proofs.«900152_g7700000000000153_dist_ar_v7x_xy2x2_y_m8192_n1024_bf16_1_alg».proof.Proof.Bits.Geom
import proofs.«900152_g7700000000000153_dist_ar_v7x_xy2x2_y_m8192_n1024_bf16_1_alg».proof.Proof.Bits.Split

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The credit of chunk k's local copy and of its remote copies: one f32 chunk's, one bf16 chunk's, whatever k. -/
theorem credit_v (k : Fin 32) : (vSl k).view.dmaCredit = amt 0 := rfl
theorem amount_r (k : Fin 32) (sm : DmaSem sig) : (rSl k).view.amount (.dma sm) = N := rfl
theorem amt_one : amt 1 = N := rfl
theorem amt_two : amt 2 = N := rfl

/-- The elements a load of chunk k through the whole scratch reads are the chunk's. -/
theorem load_sub_v (k : Fin 32) : (vM : Memref sig .tc .vmem S4096x1024 .f32).view.setOn (rS k).toLoadRect.set ⊆ (vSl k).view.set := by
  show _ ⊆ ((vM : Memref sig .tc .vmem S4096x1024 .f32).view.slice (rS k)).set
  rw [View.set_slice]; exact Finset.Subset.refl _
theorem load_sub_s (k : Fin 32) : (sM : Memref sig .tc .vmem S4096x1024 .bf16).view.setOn (rS k).toLoadRect.set ⊆ (sSl k).view.set := by
  show _ ⊆ ((sM : Memref sig .tc .vmem S4096x1024 .bf16).view.slice (rS k)).set
  rw [View.set_slice]; exact Finset.Subset.refl _
theorem store_sub_s (k : Fin 32) : ((sM : Memref sig .tc .vmem S4096x1024 .bf16).access (rS k)).setOn Finset.univ ⊆ (sSl k).view.set :=
  Finset.Subset.refl _

/-- The step of chunk k in the first exchange: from the chunk's resources while its local copy is in flight and the
    neighbour's receive chunk, to its resources once its first remote copy is started.  The remote copy is addressed to
    n, which is the second-axis neighbour; pay is the cast to bf16. -/
theorem phase1_chunk (K : Dev nD × CIx → ℕ) (c : Dev nD) (k : Fin 32) (n : Dev nD) (hn : n = ynbr c)
    {pay : Vec F S128x1024 .f32 → FVec F S128x1024 .bf16}
    (hpay : pay = fun v => shapeCast S128x1024 (truncf .bf16 v bitsLt_bf16_f32) shapeCasts_S128x1024_S128x1024)
    {hws : (xSlP c k).view.WordExact} {hwd : (vSl k).view.WordExact}
    {hl1 : (vM : Memref sig .tc .vmem S4096x1024 .f32).view.LoadsAt (rS k).toLoadRect}
    {hl2 : (sM : Memref sig .tc .vmem S4096x1024 .bf16).view.LoadsAt (rS k).toLoadRect}
    {hx : ((sM : Memref sig .tc .vmem S4096x1024 .bf16).access (rS k)).Stores Finset.univ}
    {hm : (Finset.univ : Finset (rS k).shape.Idx) = Finset.univ ∨ ∀ a, (rS k).stride a = 1}
    {hsc : (rSl k : Memref sig (Dev.tc n : Thread nD τ).2.kind .vmem S128x1024 .bf16).view.ref.isScScratch = false}
    {hsrc : (sSl k).view.WordExact} {hdst : (rSl k).view.WordExact}
    {hsem : DmaTarget.Typed .vmem (.dma (semA cc0_scratch5 k)) (.remote (Dev.tc n : Thread nD τ) (rSl k) (.dma (semA cc0_scratch4 k)) hsc)}
    {α : Type} {Q : α → sProp 𝕄} {rest : Prog (TpuEff nD τ sig (Elt F) Λ₀ .tc) α} :
    iprop(records m K ∗ levAts L lv ∗ st1 c k ∗ gotY c k ∗ owesX c (64 - k.val))
      ⊢ iprop(((st2 m c k ∗ owesX c (63 - k.val)) -∗ wp frame (wpE (defs₀ (F := F)) 𝒱₀ (c : Thread nD τ) none) Set.univ rest Q)
          -∗ wp frame (wpE (defs₀ (F := F)) 𝒱₀ (c : Thread nD τ) none) Set.univ
              (.op (.waitDma2 (semA cc0_scratch3 k) (xSlP c k) (vSl k) hws hwd) fun _ =>
               .op (.load vM (rS k).toLoadRect hl1) fun v =>
               .op (.load sM (rS k).toLoadRect hl2) fun _ =>
               .op (.store sM (rS k) (pay v) Finset.univ hx hm) fun _ =>
               .op (.enqueueDma (sSl k) (.remote (Dev.tc n) (rSl k) (.dma (semA cc0_scratch4 k)) hsc) (.dma (semA cc0_scratch5 k)) hsrc hdst hsem) fun _ => rest) Q) := by
  subst hn
  subst hpay
  unfold st1 gotY owesX
  iintro ⟨#Hrec, #Hlev, ⟨Hc0, ⟨%fs, Hs⟩, Ho, ⟨Ht1, Ht2, Ht3, Ht4⟩, ⟨Hp0, Hp1, Hp2, Hp3, Hp4⟩, Hc2, Hc4⟩, ⟨%fr, Hr⟩, ⟨%W, HO⟩⟩ Hk
  ihave #HI0 := (inv_of_records m K (c, some (0, k))) $$ Hrec
  ihave #HI1 := (inv_of_records m K (c, some (1, k))) $$ Hrec
  ihave #HI2 := (inv_of_records m K (ynbr c, some (2, k))) $$ Hrec
  ihave #HR1 := (reached_of_records m K (c, some (1, k))) $$ Hrec
  ihave #HR2 := (reached_of_records m K (ynbr c, some (2, k))) $$ Hrec
  -- the wait for the local copy of chunk k: the f32 chunk at its final contents and the input chunk come back
  iapply (Rounds.wp_wait_rest_token 𝒱₀ ER (Rd m) (c : Thread nD τ) none (κ := K (c, some (0, k)))
      (wpE_waitDma2_eq 𝒱₀ (c : Thread nD τ) none Set.univ) (Set.mem_univ _) () (O := owe c (64 - k.val)) (W := W) (R := 0) (m := 0) (T := ∅)
      ((Nat.zero_add _).trans ((credit_v k).trans (expect_x m c 0 k).symm))) $$ [Hc0 HO Hp0]
  · isplitr; · iexact HI0
    isplitl [Hc0]; · iexact Hc0
    isplitl [HO]; · iexact HO
    isplitr; · iapply (mayWait_ld c k (64 - k.val) (by omega)); iexact Hlev
    iexact Hp0
  iintro ⟨HO, Hp0, -, Hpay⟩
  ihave Hp := (Entails.of_eq ((rest_x m c 0 k).trans
      (show xPay m c 0 k = iprop(pts (vSl k) c fullShare (xvB m c) ∗ pts (xSl (hf c) k) c fullShare (X m c)) from rfl))) $$ Hpay
  icases Hp with ⟨Hv, Hx⟩
  -- that cell has no later round: it closes, its counter at zero
  imod (Rounds.cell_close ER (Rd m) (Set.mem_univ (K (c, some (0, k)))) (fun h => h) (R := 0 + 1) (duties_later m (xcell c 0 k))) $$ [Hp0] with Hz0
  · isplitr; · iexact HI0
    iexact Hp0
  -- the load of the f32 chunk, the (dead) load of the send chunk, the store of the cast
  iapply (wp_load 𝒱₀ (c : Thread nD τ) none Set.univ (m := vM) (S := (vSl k).view.set) (load_sub_v k)) $$ Hv; iintro Hv
  iapply (wp_load 𝒱₀ (c : Thread nD τ) none Set.univ (m := sM) (S := (sSl k).view.set) (load_sub_s k)) $$ Hs; iintro Hs
  iapply (wp_store 𝒱₀ (c : Thread nD τ) none Set.univ (m := sM) (r := rS k) (Mk := Finset.univ) (S := (sSl k).view.set) (store_sub_s k)) $$ Hs; iintro Hs
  ihave Hs := (Entails.of_eq (pts_st1_value m fullShare c k fs)) $$ Hs
  ihave Hs2 := (pts_halves c (sSl k) (sendB m c)).1 $$ Hs
  icases Hs2 with ⟨HsL, HsR⟩
  -- the copy of the send chunk to the second-axis neighbour's receive chunk: half the send chunk is lent to it
  iapply (Rounds.wp_send_pointsTo 𝒱₀ ER (Rd m) (c : Thread nD τ) none (c' := (ynbr c : Thread nD τ))
      (κ₁ := K (c, some (1, k))) (κ₂ := K (ynbr c, some (2, k)))
      (r₁ := 0) (r₂ := 0) (d₁ := false) (d₂ := false) (q := halfShare) (fs := sendB m c) (fd := fr)
      (show false ∈ (Rd m).duties (xcell c 1 k) 0 by rw [duties_x]; exact Finset.mem_singleton_self _)
      (show false ∈ (Rd m).duties (xcell (ynbr c) 2 k) 0 by rw [duties_x]; exact Finset.mem_singleton_self _)
      () () N (amount_r k _) ((amount_x m c 1 k false).trans amt_one) ((amount_x m (ynbr c) 2 k false).trans amt_two)
      (owe c (63 - k.val)) (owe_p1 c k)
      (show _ ⊢ (Rd m).payload (xcell c 1 k) 0 false by rw [payload_x]; exact Entails.refl _)
      (show _ ⊢ (Rd m).payload (xcell (ynbr c) 2 k) 0 false by
        rw [payload_x]; exact Entails.of_eq (pts_r1_landed m fullShare c k fr))) $$ [HsL Hr HO Ht1 Ht2]
  · isplitr; · iexact HI1
    isplitr; · iexact HI2
    isplitl [HsL]; · iexact HsL
    isplitl [Hr]; · iexact Hr
    isplitl [HO]; · iexact HO
    isplitl [Ht1]; · iexact Ht1
    isplitr; · iexact HR1
    isplitl [Ht2]; · iexact Ht2
    iexact HR2
  iintro ⟨Hc1, HO⟩
  iapply Hk
  unfold st2
  isplitr [HO]
  · isplitl [Hx]; · iexact Hx
    isplitl [Hv]; · iexact Hv
    isplitl [HsR]; · iexact HsR
    isplitl [Hc1]; · iexact Hc1
    isplitl [Ho]; · iexact Ho
    isplitl [Ht3 Ht4]
    · isplitl [Ht3]; · iexact Ht3
      iexact Ht4
    isplitl [Hp1 Hp2 Hp3 Hp4]
    · isplitl [Hp1]; · iexact Hp1
      isplitl [Hp2]; · iexact Hp2
      isplitl [Hp3]; · iexact Hp3
      iexact Hp4
    isplitl [Hc2]; · iexact Hc2
    isplitl [Hc4]; · iexact Hc4
    iexact Hz0
  iexists _
  iexact HO

end Cert.Kernel.AR

end
-- ==== Proof.Bits.Phase2.lean ====
/-
  One chunk of the second exchange of the all-reduce.  When the rows of chunk k sent by the neighbour along the second
  mesh axis have landed in the receive buffer, the device reads the rows it sent and the rows it received, stores their
  sum in chunk k of its own half of the result buffer, and starts the copy of that chunk to the same rows of the result
  buffer of its neighbour along the first mesh axis.  The stored sum is the device's final result on those rows, and it
  is also the neighbour's final result there, since for the neighbour they are rows of the other half.
-/
import proofs.«900152_g7700000000000153_dist_ar_v7x_xy2x2_y_m8192_n1024_bf16_1_alg».proof.Proof.Bits.Chunk
import proofs.«900152_g7700000000000153_dist_ar_v7x_xy2x2_y_m8192_n1024_bf16_1_alg».proof.Proof.Bits.Geom
import proofs.«900152_g7700000000000153_dist_ar_v7x_xy2x2_y_m8192_n1024_bf16_1_alg».proof.Proof.Bits.Split

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One chunk of the second exchange

After the first-axis neighbour's rows of chunk k have landed in the receive buffer, the device adds them to the rows
it sent, stores the sum in its half of the result buffer, and copies the sum to the same rows of the first-axis
neighbour's result buffer. -/

/-- Chunk rows of the 8192-row array that start at a row given as an offset function. -/
abbrev p2_rOv (o : Fin 2 → Nat) (p : ∀ a, o a + S128x1024.size a ≤ S8192x1024.size a) : Rect S8192x1024 :=
  Rect.unit (s := S8192x1024) o S128x1024.size p
abbrev p2_oSlv (o : Fin 2 → Nat) (p : ∀ a, o a + S128x1024.size a ≤ S8192x1024.size a) : Memref sig .tc .vmem S128x1024 .bf16 :=
  oM.slice (p2_rOv o p) (fun _ => rfl)

theorem p2_inv_x (K : Dev nD × CIx → ℕ) (c : Dev nD) (j : Fin 5) (k : Fin 32) :
    records m K ⊢ cellInv ER (Rd m) (K (c, some (j, k))) (xcell c j k) := inv_of_records m K (c, some (j, k))
theorem p2_reached_x (K : Dev nD × CIx → ℕ) (c : Dev nD) (j : Fin 5) (k : Fin 32) :
    records m K ⊢ reached ER (xcell c j k) 0 := reached_of_records m K (c, some (j, k))

theorem p2_amt_two : amt 2 = N := rfl
theorem p2_amt_three : amt 3 = N := rfl
theorem p2_amt_four : amt 4 = N := rfl
theorem p2_credit_r (k : Fin 32) : (rSl k).view.dmaCredit = N := rfl
theorem p2_credit_o (h : Fin 2) (k : Fin 32) : (oSl h k).view.dmaCredit = N := rfl

theorem p2_xPay_two (c : Dev nD) (k : Fin 32) : xPay m c 2 k = pts (rSl k) c fullShare (recvB m c) := rfl
theorem p2_xPay_three (c : Dev nD) (k : Fin 32) : xPay m c 3 k = pts (oSl (hf c) k) c fullShare (outB m c) := rfl
theorem p2_xPay_four (c : Dev nD) (k : Fin 32) : xPay m c 4 k = pts (oSl (hf (xnbr c)) k) c fullShare (outB m c) := rfl

/-- The elements a load of chunk rows reads are the chunk's. -/
theorem p2_setOn_chunk {sp : Space} {s : Shape} {e : EltTy} (M : Memref sig .tc sp s e) (r : Rect s) (hs) :
    M.view.setOn r.toLoadRect.set ⊆ (M.slice r hs).view.set :=
  Finset.subset_of_eq (View.set_slice M.view r).symm

theorem phase2_chunk_at (K : Dev nD × CIx → ℕ) (c : Dev nD) (k : Fin 32) (n : Dev nD) (hn : n = xnbr c)
    (o1 o2 : Fin 2 → Nat) (ho1 : o1 = ![4096 * (hf c).val + 128 * k.val, 0]) (ho2 : o2 = ![4096 * (hf c).val + 128 * k.val, 0])
    (p1 : ∀ a, o1 a + S128x1024.size a ≤ S8192x1024.size a) (p2 : ∀ a, o2 a + S128x1024.size a ≤ S8192x1024.size a)
    {pay : Vec F S128x1024 .bf16 → Vec F S128x1024 .bf16 → FVec F S128x1024 .bf16} (hpay : pay = fun a b => addf a b)
    {hw1 : (sSl k).view.WordExact} {hw2 : (rSl k).view.WordExact}
    {hl1 : (sM : Memref sig .tc .vmem S4096x1024 .bf16).view.LoadsAt (rS k).toLoadRect}
    {hl2 : (rM : Memref sig .tc .vmem S4096x1024 .bf16).view.LoadsAt (rS k).toLoadRect}
    {hl3 : (oM : Memref sig .tc .vmem S8192x1024 .bf16).view.LoadsAt (p2_rOv o2 p2).toLoadRect}
    {hx : ((oM : Memref sig .tc .vmem S8192x1024 .bf16).access (p2_rOv o2 p2)).Stores Finset.univ}
    {hm : (Finset.univ : Finset (p2_rOv o2 p2).shape.Idx) = Finset.univ ∨ ∀ a, (p2_rOv o2 p2).stride a = 1}
    {hsc : (p2_oSlv o1 p1 : Memref sig (Dev.tc n : Thread nD τ).2.kind .vmem S128x1024 .bf16).view.ref.isScScratch = false}
    {hsrc : (p2_oSlv o1 p1).view.WordExact} {hdst : (p2_oSlv o1 p1).view.WordExact}
    {hsem : DmaTarget.Typed .vmem (.dma (semA cc0_scratch7 k)) (.remote (Dev.tc n : Thread nD τ) (p2_oSlv o1 p1) (.dma (semA cc0_scratch6 k)) hsc)}
    {α : Type} {Q : α → sProp 𝕄} {rest : Prog (TpuEff nD τ sig (Elt F) Λ₀ .tc) α} :
    iprop(records m K ∗ levAts L lv ∗ st2 m c k ∗ gotX c k ∗ owesX c (32 - k.val))
      ⊢ iprop(((st3 m c k ∗ owesX c (31 - k.val)) -∗ wp frame (wpE (defs₀ (F := F)) 𝒱₀ (c : Thread nD τ) none) Set.univ rest Q)
          -∗ wp frame (wpE (defs₀ (F := F)) 𝒱₀ (c : Thread nD τ) none) Set.univ
              (.op (.waitDma2 (semA cc0_scratch5 k) (sSl k) (rSl k) hw1 hw2) fun _ =>
               .op (.load sM (rS k).toLoadRect hl1) fun a =>
               .op (.load rM (rS k).toLoadRect hl2) fun b =>
               .op (.load oM (p2_rOv o2 p2).toLoadRect hl3) fun _ =>
               .op (.store oM (p2_rOv o2 p2) (pay a b) Finset.univ hx hm) fun _ =>
               .op (.enqueueDma (p2_oSlv o1 p1) (.remote (Dev.tc n) (p2_oSlv o1 p1) (.dma (semA cc0_scratch6 k)) hsc) (.dma (semA cc0_scratch7 k)) hsrc hdst hsem) fun _ => rest) Q) := by
  subst hn hpay ho1 ho2
  unfold st2 gotX owesX
  iintro ⟨#Hrec, #Hlev, ⟨Hx, Hv, Hs, Hc1, ⟨%fo, Ho⟩, ⟨Ht3, Ht4⟩, ⟨Hp1, Hp2, Hp3, Hp4⟩, Hc2, Hc4, Hz0⟩, ⟨%fn, Hn⟩, ⟨%W, HO⟩⟩ Hk
  ihave #HI2 := (p2_inv_x m K c 2 k) $$ Hrec
  ihave #HI3 := (p2_inv_x m K c 3 k) $$ Hrec
  ihave #HI4 := (p2_inv_x m K (xnbr c) 4 k) $$ Hrec
  ihave #HR3 := (p2_reached_x m K c 3 k) $$ Hrec
  ihave #HR4 := (p2_reached_x m K (xnbr c) 4 k) $$ Hrec
  -- the rows of the neighbour along the second axis have landed: the wait spends the landing cell's credit
  iapply (Rounds.wp_wait_rest_token 𝒱₀ ER (Rd m) (c : Thread nD τ) none (κ := K (c, some (2, k))) (sm := .dma (semA (arrJ 2) k))
      (wpE_waitDma2_eq 𝒱₀ (c : Thread nD τ) none Set.univ) (Set.mem_univ _) () (O := owe c (32 - k.val)) (W := W) (R := 0) (m := 0) (T := ∅)
      (show 0 + (rSl k).view.dmaCredit = (Rd m).expect (xcell c 2 k) 0 by rw [Nat.zero_add, expect_x]; rfl)) $$ [Hc2 HO Hp2]
  · isplitr; · iexact HI2
    isplitl [Hc2]; · iexact Hc2
    isplitl [HO]; · iexact HO
    isplitr; · iapply (mayWait_r1 c k (32 - k.val) (by omega)); iexact Hlev
    iexact Hp2
  iintro ⟨HO, Hp2, -, Hpay⟩
  ihave Hr := (Entails.of_eq ((rest_x m c 2 k).trans (p2_xPay_two m c k))) $$ Hpay
  imod (Rounds.cell_close ER (Rd m) (Set.mem_univ (K (c, some (2, k)))) (fun h => h) (R := 0 + 1) (duties_later m (xcell c 2 k))) $$ [Hp2] with Hz2
  · isplitr; · iexact HI2
    iexact Hp2
  -- the sent rows and the received rows are read, and the result chunk is overwritten by their sum
  iapply (wp_load 𝒱₀ (c : Thread nD τ) none Set.univ (m := sM) (S := (sSl k).view.set) (p2_setOn_chunk sM (rS k) _)) $$ Hs
  iintro Hs
  iapply (wp_load 𝒱₀ (c : Thread nD τ) none Set.univ (m := rM) (S := (rSl k).view.set) (p2_setOn_chunk rM (rS k) _)) $$ Hr
  iintro Hr
  iapply (wp_load 𝒱₀ (c : Thread nD τ) none Set.univ (m := oM) (S := (oSl (hf c) k).view.set) (p2_setOn_chunk oM (rO (hf c) k) _)) $$ Ho
  iintro Ho
  iapply (wp_store 𝒱₀ (c : Thread nD τ) none Set.univ (m := oM) (r := rO (hf c) k) (Mk := Finset.univ) (S := (oSl (hf c) k).view.set)
      (Finset.Subset.refl _)) $$ Ho
  iintro Ho
  ihave Ho := (Entails.of_eq (pts_st2_value m fullShare c k fo)) $$ Ho
  -- the sum goes to the same rows of the first-axis neighbour's result buffer: the copy pays the departure cell here
  -- and the landing cell there, whose payload is the neighbour's chunk holding what the neighbour's result has on these rows
  iapply (Rounds.wp_send_pointsTo 𝒱₀ ER (Rd m) (c : Thread nD τ) none (c' := (xnbr c : Thread nD τ)) (src := oSl (hf c) k) (dst := oSl (hf c) k)
      (sS := .dma (semA (arrJ 3) k)) (sem := .dma (semA (arrJ 4) k))
      (κ₁ := K (c, some (3, k))) (κ₂ := K (xnbr c, some (4, k)))
      (r₁ := 0) (r₂ := 0) (d₁ := false) (d₂ := false) (q := fullShare) (fs := outB m c) (fd := fn)
      (show false ∈ (Rd m).duties (xcell c 3 k) 0 by rw [duties_x]; exact Finset.mem_singleton_self _)
      (show false ∈ (Rd m).duties (xcell (xnbr c) 4 k) 0 by rw [duties_x]; exact Finset.mem_singleton_self _)
      () () N (p2_credit_o (hf c) k) ((amount_x m c 3 k false).trans p2_amt_three) ((amount_x m (xnbr c) 4 k false).trans p2_amt_four)
      (owe c (31 - k.val)) (owe_p2 c k) (W := insert (SemLoc.dma (semA (arrJ 2) k), ()) W)
      (show pts (oSl (hf c) k) c fullShare (outB m c) ⊢ (Rd m).payload (xcell c 3 k) 0 false by
        rw [payload_x]; exact BI.Entails.refl _)
      (show pts (oSl (hf c) k) (xnbr c) fullShare
            ((oSl (hf c) k).view.write (Elt F) fn ((oSl (hf c) k).view.read (Elt F) (outB m c)) Finset.univ)
          ⊢ (Rd m).payload (xcell (xnbr c) 4 k) 0 false by
        rw [payload_x, p2_xPay_four, xnbr_xnbr]; exact Entails.of_eq (pts_r2_landed m fullShare c k fn))) $$ [Ho Hn HO Ht3 Ht4]
  · isplitr; · iexact HI3
    isplitr; · iexact HI4
    isplitl [Ho]; · iexact Ho
    isplitl [Hn]; · iexact Hn
    isplitl [HO]; · iexact HO
    isplitl [Ht3]; · iexact Ht3
    isplitr; · iexact HR3
    isplitl [Ht4]; · iexact Ht4
    iexact HR4
  iintro ⟨Hc3, HO⟩
  iapply Hk
  isplitl [Hx Hv Hs Hc1 Hr Hc3 Hp1 Hp3 Hp4 Hc4 Hz0 Hz2]
  · unfold st3
    isplitl [Hx]; · iexact Hx
    isplitl [Hv]; · iexact Hv
    isplitl [Hs]; · iexact Hs
    isplitl [Hc1]; · iexact Hc1
    isplitl [Hr]; · iexact Hr
    isplitl [Hc3]; · iexact Hc3
    isplitl [Hp1 Hp3 Hp4]
    · isplitl [Hp1]; · iexact Hp1
      isplitl [Hp3]; · iexact Hp3
      iexact Hp4
    isplitl [Hc4]; · iexact Hc4
    isplitl [Hz0]; · iexact Hz0
    iexact Hz2
  iexists _
  iexact HO

/-- One chunk of the second exchange, over the result chunk as the program spells its rows. -/
theorem phase2_chunk (K : Dev nD × CIx → ℕ) (c : Dev nD) (k : Fin 32) (n : Dev nD) (hn : n = xnbr c)
    {pay : Vec F S128x1024 .bf16 → Vec F S128x1024 .bf16 → FVec F S128x1024 .bf16} (hpay : pay = fun a b => addf a b)
    {hw1 : (sSl k).view.WordExact} {hw2 : (rSl k).view.WordExact}
    {hl1 : (sM : Memref sig .tc .vmem S4096x1024 .bf16).view.LoadsAt (rS k).toLoadRect}
    {hl2 : (rM : Memref sig .tc .vmem S4096x1024 .bf16).view.LoadsAt (rS k).toLoadRect}
    {hl3 : (oM : Memref sig .tc .vmem S8192x1024 .bf16).view.LoadsAt (rOP2 c k).toLoadRect}
    {hx : ((oM : Memref sig .tc .vmem S8192x1024 .bf16).access (rOP2 c k)).Stores Finset.univ}
    {hm : (Finset.univ : Finset (rOP2 c k).shape.Idx) = Finset.univ ∨ ∀ a, (rOP2 c k).stride a = 1}
    {hsc : (oSlP1 c k : Memref sig (Dev.tc n : Thread nD τ).2.kind .vmem S128x1024 .bf16).view.ref.isScScratch = false}
    {hsrc : (oSlP1 c k).view.WordExact} {hdst : (oSlP1 c k).view.WordExact}
    {hsem : DmaTarget.Typed .vmem (.dma (semA cc0_scratch7 k)) (.remote (Dev.tc n : Thread nD τ) (oSlP1 c k) (.dma (semA cc0_scratch6 k)) hsc)}
    {α : Type} {Q : α → sProp 𝕄} {rest : Prog (TpuEff nD τ sig (Elt F) Λ₀ .tc) α} :
    iprop(records m K ∗ levAts L lv ∗ st2 m c k ∗ gotX c k ∗ owesX c (32 - k.val))
      ⊢ iprop(((st3 m c k ∗ owesX c (31 - k.val)) -∗ wp frame (wpE (defs₀ (F := F)) 𝒱₀ (c : Thread nD τ) none) Set.univ rest Q)
          -∗ wp frame (wpE (defs₀ (F := F)) 𝒱₀ (c : Thread nD τ) none) Set.univ
              (.op (.waitDma2 (semA cc0_scratch5 k) (sSl k) (rSl k) hw1 hw2) fun _ =>
               .op (.load sM (rS k).toLoadRect hl1) fun a =>
               .op (.load rM (rS k).toLoadRect hl2) fun b =>
               .op (.load oM (rOP2 c k).toLoadRect hl3) fun _ =>
               .op (.store oM (rOP2 c k) (pay a b) Finset.univ hx hm) fun _ =>
               .op (.enqueueDma (oSlP1 c k) (.remote (Dev.tc n) (oSlP1 c k) (.dma (semA cc0_scratch6 k)) hsc) (.dma (semA cc0_scratch7 k)) hsrc hdst hsem) fun _ => rest) Q) :=
  phase2_chunk_at m K c k n hn _ _ (off1_closed c k) (off2_closed c k) (k0_off1_inb c k) (k0_off2_inb c k) hpay

end Cert.Kernel.AR

end
-- ==== Proof.Bits.Phase3.lean ====
/-
  The three closing waits of one chunk: the device waits on the chunk's phase-1 departure cell, on its phase-2 departure
  cell and on its phase-2 landing cell, each for the whole of the cell's one duty, and closes each cell.  What comes back
  is the lent half of the send chunk, the result chunk of the device's own half and the result chunk of the other half,
  each at its final contents.
-/
import proofs.«900152_g7700000000000153_dist_ar_v7x_xy2x2_y_m8192_n1024_bf16_1_alg».proof.Proof.Bits.Chunk

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The amounts the closing waits wait for -/

/-- A transfer cell other than a local copy's has the credit of one bf16 chunk as its duty's amount. -/
theorem amt_of_ne {j : Fin 5} (h : j ≠ 0) : amt j = N := if_neg h

/-- The credit of a bf16 chunk of the send scratch, and of the result's staging buffer, whichever chunk. -/
theorem credit_sSl (k : Fin 32) : (sSl k).view.dmaCredit = N := rfl
theorem credit_oSlP1 (c : Dev nD) (k : Fin 32) : (oSlP1 c k).view.dmaCredit = N := rfl

/-- One wait for the whole of a transfer cell's one round, followed by the cell's closing: the owner hands in the cell's
    credit and its position at round 0, owing nothing, and gets the round's payload and the cell's counter at zero. -/
theorem wait_close (K : Dev nD × CIx → ℕ) (c : Dev nD) (j : Fin 5) (hj : j ≠ 0) (k : Fin 32) (W : Waits sig Unit)
    {sp sp' : Space} {s s' : Shape} {e e' : EltTy}
    {src : Memref sig (c : Thread nD τ).2.kind sp' s' e'} {κ' : Kind} {dst : Memref sig κ' sp s e}
    {hsrc : src.view.WordExact} {hdst : dst.view.WordExact} (hamt : dst.view.dmaCredit = N)
    {α : Type} {Q : α → sProp 𝕄} {kont : PUnit → Prog (TpuEff nD τ sig (Elt F) Λ₀ .tc) α} :
    iprop(records m K ∗ levAts L lv ∗ credJ c j k ∗ posJ c j k ∗ owes (c : Thread nD τ) (owe c 0) W)
      ⊢ iprop(((xPay m c j k ∗ semVal (xcell c j k) 0 ∗ owes (c : Thread nD τ) (owe c 0) (insert (SemLoc.dma (semA (arrJ j) k), ()) W))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semA (arrJ j) k) src dst hsrc hdst) kont) Q) := by
  have hc : credJ (F := F) c j k = cred (tallyAt (xcell c j k) () dst.view.dmaCredit) := by
    show cred (tallyAt (xcell c j k) () (amt j)) = _
    rw [amt_of_ne hj, hamt]
  iintro ⟨#Hrec, #Hlev, Hc, Hp, HO⟩ Hk
  ihave Hc := (Entails.of_eq hc) $$ Hc
  iapply (Rounds.wp_wait_rest_token 𝒱₀ ER (Rd m) (c : Thread nD τ) none (κ := K (c, some (j, k)))
      (w := .waitDma2 (semA (arrJ j) k) src dst hsrc hdst) (sm := .dma (semA (arrJ j) k)) (k' := dst.view.dmaCredit)
      (wpE_waitDma2_eq 𝒱₀ (c : Thread nD τ) none Set.univ) (Set.mem_univ _) () (O := owe c 0) (W := W) (R := 0) (m := 0) (T := ∅)
      ((Nat.zero_add _).trans (hamt.trans ((amt_of_ne hj).symm.trans (expect_x m c j k).symm)))) $$ [Hc HO Hp]
  · isplitr; · iapply (inv_of_records m K (c, some (j, k))); iexact Hrec
    isplitl [Hc]; · iexact Hc
    isplitl [HO]; · iexact HO
    isplitr; · iapply (mayWait_done c _); iexact Hlev
    iexact Hp
  iintro ⟨HO, Hp, -, Hpay⟩
  ihave Hpay := (Entails.of_eq (rest_x m c j k)) $$ Hpay
  imod (Rounds.cell_close ER (Rd m) (Set.mem_univ (K (c, some (j, k)))) (fun h => h) (R := 0 + 1) (duties_later m (xcell c j k))) $$ [Hp] with Hz
  · isplitr; · iapply (inv_of_records m K (c, some (j, k))); iexact Hrec
    iexact Hp
  iapply Hk
  isplitl [Hpay]; · iexact Hpay
  isplitl [Hz]; · iexact Hz
  iexact HO

/-! ## One chunk's three closing waits -/

/-- The payloads of the three cells, spelled out. -/
theorem xPay_s1 (c : Dev nD) (k : Fin 32) : xPay m c 1 k = pts (sSl k) c fullShare.left (sendB m c) := rfl
theorem xPay_s2 (c : Dev nD) (k : Fin 32) : xPay m c 3 k = pts (oSl (hf c) k) c fullShare (outB m c) := rfl
theorem xPay_r2 (c : Dev nD) (k : Fin 32) : xPay m c 4 k = pts (oSl (hf (xnbr c)) k) c fullShare (outB m c) := rfl

/-- The closing waits of chunk k on device c: on its phase-1 departure cell (the lent half of the send chunk comes back and
    joins the retained half), on its phase-2 departure cell (its result chunk in its own half comes back at the sum) and
    on its phase-2 landing cell (its result chunk in the other half has landed, at the neighbour's sum).  Each cell is
    closed after its wait, so its counter is the device's again, at zero. -/
theorem phase3_chunk (K : Dev nD × CIx → ℕ) (c : Dev nD) (k : Fin 32)
    {h1s : (rSl k).view.WordExact} {h1d : (sSl k).view.WordExact}
    {h2s : (oSlP1 c k).view.WordExact} {h2d : (oSlP1 c k).view.WordExact}
    {h3s : (oSlP1 c k).view.WordExact} {h3d : (oSlP1 c k).view.WordExact}
    {α : Type} {Q : α → sProp 𝕄} {rest : Prog (TpuEff nD τ sig (Elt F) Λ₀ .tc) α} :
    iprop(records m K ∗ levAts L lv ∗ st3 m c k ∗ owesX c 0)
      ⊢ iprop(((st4 m c k ∗ owesX c 0) -∗ wp frame (wpE (defs₀ (F := F)) 𝒱₀ (c : Thread nD τ) none) Set.univ rest Q)
          -∗ wp frame (wpE (defs₀ (F := F)) 𝒱₀ (c : Thread nD τ) none) Set.univ
              (.op (.waitDma2 (semA cc0_scratch4 k) (rSl k) (sSl k) h1s h1d) fun _ =>
               .op (.waitDma2 (semA cc0_scratch6 k) (oSlP1 c k) (oSlP1 c k) h2s h2d) fun _ =>
               .op (.waitDma2 (semA cc0_scratch7 k) (oSlP1 c k) (oSlP1 c k) h3s h3d) fun _ => rest) Q) := by
  unfold st3 st4 owesX
  iintro ⟨#Hrec, #Hlev, ⟨Hx, Hv, HsR, Hc1, Hr, Hc3, ⟨Hp1, Hp3, Hp4⟩, Hc4, Hz0, Hz2⟩, ⟨%W, HO⟩⟩ Hk
  -- the phase-1 departure cell: the lent half of the send chunk comes back
  iapply (wait_close m K c 1 (by decide) k W (credit_sSl k)) $$ [Hc1 Hp1 HO]
  · isplitr; · iexact Hrec
    isplitr; · iexact Hlev
    isplitl [Hc1]; · iexact Hc1
    isplitl [Hp1]; · iexact Hp1
    iexact HO
  iintro ⟨HsL, Hz1, HO⟩
  ihave HsL := (Entails.of_eq (xPay_s1 m c k)) $$ HsL
  ihave Hs := (pointsTo_share (PosShare.mem_left_op_right fullShare)).2 $$ [HsL HsR]
  · isplitl [HsL]; · iexact HsL
    iexact HsR
  -- the phase-2 departure cell: the result chunk of the own half comes back
  iapply (wait_close m K c 3 (by decide) k _ (credit_oSlP1 c k)) $$ [Hc3 Hp3 HO]
  · isplitr; · iexact Hrec
    isplitr; · iexact Hlev
    isplitl [Hc3]; · iexact Hc3
    isplitl [Hp3]; · iexact Hp3
    iexact HO
  iintro ⟨Ho, Hz3, HO⟩
  ihave Ho := (Entails.of_eq (xPay_s2 m c k)) $$ Ho
  -- the phase-2 landing cell: the result chunk of the other half has landed
  iapply (wait_close m K c 4 (by decide) k _ (credit_oSlP1 c k)) $$ [Hc4 Hp4 HO]
  · isplitr; · iexact Hrec
    isplitr; · iexact Hlev
    isplitl [Hc4]; · iexact Hc4
    isplitl [Hp4]; · iexact Hp4
    iexact HO
  iintro ⟨Ho', Hz4, HO⟩
  ihave Ho' := (Entails.of_eq (xPay_r2 m c k)) $$ Ho'
  iapply Hk
  isplitr [HO]
  · isplitl [Hx]; · iexact Hx
    isplitl [Hv]; · iexact Hv
    isplitl [Hs]; · iexact Hs
    isplitl [Hr]; · iexact Hr
    isplitl [Ho]; · iexact Ho
    isplitl [Ho']; · iexact Ho'
    isplitl [Hz0]; · iexact Hz0
    isplitl [Hz1]; · iexact Hz1
    isplitl [Hz2]; · iexact Hz2
    isplitl [Hz3]; · iexact Hz3
    iexact Hz4
  · iexists _; iexact HO

end Cert.Kernel.AR

end
-- ==== Proof.Bits.Bar.lean ====
/-
  The entry handshake of the all-reduce: each device signals the barrier cell of its second-axis neighbour and of its
  first-axis neighbour, handing over with the first signal its 32 receive chunks and with the second the 32 chunks of its
  result buffer that the first-axis neighbour will write, and then waits for the two units its own barrier cell is due,
  which bring the same chunks of its two neighbours.
-/
import proofs.«900152_g7700000000000153_dist_ar_v7x_xy2x2_y_m8192_n1024_bf16_1_alg».proof.Proof.Bits.Chunk

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two payloads a device hands over, from what it holds -/

/-- What the second-axis neighbour's barrier cell is paid by device c: c's own receive chunks, each with the mark that c's
    landing cell of the first exchange is at round 0 (the neighbour of the neighbour is c itself). -/
theorem barPayY_ynbr (c : Dev nD) :
    (barPayY (ynbr c) : sProp 𝕄)
      = bigSep Finset.univ fun k : Fin 32 => iprop((∃ f, pts (rSl k) c fullShare f) ∗ reached ER (xcell c 2 k) 0) := by
  unfold barPayY; rw [ynbr_ynbr]

/-- What the first-axis neighbour's barrier cell is paid by device c: c's result chunks in the neighbour's half, each with
    the mark that c's landing cell of the second exchange is at round 0. -/
theorem barPayX_xnbr (c : Dev nD) :
    (barPayX (xnbr c) : sProp 𝕄)
      = bigSep Finset.univ fun k : Fin 32 => iprop((∃ f, pts (oSl (hf (xnbr c)) k) c fullShare f) ∗ reached ER (xcell c 4 k) 0) := by
  unfold barPayX; rw [xnbr_xnbr]

theorem payY_of_give (K : Dev nD × CIx → ℕ) (c : Dev nD) :
    iprop(records m K ∗ giveY c) ⊢ (Rd (F := F) m).payload (barCell (ynbr c)) 0 false := by
  rw [payload_bar_false, barPayY_ynbr]; unfold giveY
  exact bigSep_with_persistent (R := records m K) fun k _ => by
    iintro ⟨#HR, H⟩
    isplitl [H]; · iexact H
    iapply (reached_of_records m K (c, some (2, k))); iexact HR

theorem payX_of_give (K : Dev nD × CIx → ℕ) (c : Dev nD) :
    iprop(records m K ∗ giveX c) ⊢ (Rd (F := F) m).payload (barCell (xnbr c)) 0 true := by
  rw [payload_bar_true, barPayX_xnbr]; unfold giveX
  exact bigSep_with_persistent (R := records m K) fun k _ => by
    iintro ⟨#HR, H⟩
    isplitl [H]; · iexact H
    iapply (reached_of_records m K (c, some (4, k))); iexact HR

omit [FloatOps F] in
theorem sep_drop_right (P R : sProp 𝕄) : iprop(P ∗ R) ⊢ P := by iintro ⟨H, -⟩; iexact H

/-- What the barrier wait brings, the round marks dropped. -/
theorem got_of_rest (c : Dev nD) :
    bigSep ((Rd (F := F) m).duties (barCell c) 0 \ ∅) (fun d => (Rd (F := F) m).payload (barCell c) 0 d)
      ⊢ iprop((bigSep Finset.univ fun k : Fin 32 => gotY c k) ∗ (bigSep Finset.univ fun k : Fin 32 => gotX c k)) := by
  rw [rest_bar]; unfold barPayY barPayX gotY gotX
  exact BI.sep_mono (bigSep_mono fun k _ => sep_drop_right _ _) (bigSep_mono fun k _ => sep_drop_right _ _)

/-! ## The entry handshake -/

/-- The two barrier signals and the wait for both neighbours' signals.  Device c pays duty false of its second-axis
    neighbour's barrier cell with its receive chunks, duty true of its first-axis neighbour's barrier cell with its result
    chunks in that neighbour's half, and, with the 64 copies still owed (all to cells above a barrier cell), waits for the
    two units on its own barrier cell, which bring the neighbours' chunks. -/
theorem barrier_step (K : Dev nD × CIx → ℕ) (c : Dev nD) (ny nx : Dev nD) (hy : ny = ynbr c) (hx : nx = xnbr c)
    {α : Type} {Q : α → sProp 𝕄} {rest : Prog (TpuEff nD τ sig (Elt F) Λ₀ .tc) α} :
    iprop(records m K ∗ levAts L lv ∗ dutyTok ER (barCell (ynbr c)) 0 false ∗ dutyTok ER (barCell (xnbr c)) 0 true
        ∗ atPos ER (barCell c) 0 ∅ 0 ∗ cred (tallyAt (barCell c) () 2) ∗ giveY c ∗ giveX c ∗ owesX c 66)
      ⊢ iprop((((bigSep Finset.univ fun k : Fin 32 => gotY c k) ∗ (bigSep Finset.univ fun k : Fin 32 => gotX c k) ∗ owesX c 64)
            -∗ wp frame (wpE (defs₀ (F := F)) 𝒱₀ (c : Thread nD τ) none) Set.univ rest Q)
          -∗ wp frame (wpE (defs₀ (F := F)) 𝒱₀ (c : Thread nD τ) none) Set.univ
              (.op (.semSignal (ny : Thread nD τ) barS 1) fun _ =>
                .op (.semSignal (nx : Thread nD τ) barS 1) fun _ =>
                  .op (.semWait barS 2) fun _ => rest) Q) := by
  subst hy hx
  unfold owesX
  iintro ⟨#HR, #Hlev, HtY, HtX, Hat, Hc, HgY, HgX, ⟨%W, HO⟩⟩ Hk
  -- the signal to the second-axis neighbour
  iapply (Rounds.wp_signal 𝒱₀ ER (Rd m) (c : Thread nD τ) none (dst := (ynbr c : Thread nD τ)) (κ := K (ynbr c, none))
      (d := false) (by rw [duties_bar]; exact Finset.mem_univ _) (amount_bar m (ynbr c) false) () (owe c 65) (owe_sigY c))
    $$ [HO HtY HgY]
  · isplitr; · iapply (inv_of_records m K (ynbr c, none)); iexact HR
    isplitl [HO]; · iexact HO
    isplitl [HtY]; · iexact HtY
    isplitl [HgY]
    · iapply (payY_of_give m K c); isplitr; · iexact HR
      iexact HgY
    · iapply (reached_of_records m K (ynbr c, none)); iexact HR
  iintro HO
  -- the signal to the first-axis neighbour
  iapply (Rounds.wp_signal 𝒱₀ ER (Rd m) (c : Thread nD τ) none (dst := (xnbr c : Thread nD τ)) (κ := K (xnbr c, none))
      (d := true) (by rw [duties_bar]; exact Finset.mem_univ _) (amount_bar m (xnbr c) true) () (owe c 64) (owe_sigX c))
    $$ [HO HtX HgX]
  · isplitr; · iapply (inv_of_records m K (xnbr c, none)); iexact HR
    isplitl [HO]; · iexact HO
    isplitl [HtX]; · iexact HtX
    isplitl [HgX]
    · iapply (payX_of_give m K c); isplitr; · iexact HR
      iexact HgX
    · iapply (reached_of_records m K (xnbr c, none)); iexact HR
  iintro HO
  -- the wait for both neighbours' signals
  iapply (Rounds.wp_wait_rest_token 𝒱₀ ER (Rd m) (c : Thread nD τ) none (κ := K (c, none))
      (wpE_semWait_eq 𝒱₀ (c : Thread nD τ) none Set.univ) (Set.mem_univ _) () (O := owe c 64) (W := W) (R := 0) (m := 0) (T := ∅)
      (by rw [expect_bar])) $$ [Hc HO Hat]
  · isplitr; · iapply (inv_of_records m K (c, none)); iexact HR
    isplitl [Hc]; · iexact Hc
    isplitl [HO]; · iexact HO
    isplitr; · iapply (mayWait_bar c); iexact Hlev
    iexact Hat
  iintro ⟨HO, -, -, Hpay⟩
  ihave Hp := (got_of_rest m c) $$ Hpay
  icases Hp with ⟨HY, HX⟩
  iapply Hk
  isplitl [HY]; · iexact HY
  isplitl [HX]; · iexact HX
  iexists (insert (SemLoc.reg barS, ()) W)
  iexact HO

end Cert.Kernel.AR

end
-- ==== Proof.Bits.Ends.lean ====
/-
  The two ends of the kernel function of one device: pure regroupings of what the device holds, with no program step.

  At the start a device holds its ghost state (its position at round 0 of its barrier cell and of its 5 × 32 transfer
  cells, and the tokens of the duties it pays), its credit tokens, its argument array whole, its three scratch buffers
  and the result's staging buffer whole at some contents.  A 4096-row buffer is its 32 chunks of 128 rows, an 8192-row
  buffer the 32 chunks of the half the device works on and the 32 chunks of the other half; a conjunction over the cells
  of a device is the barrier cell's conjunct and, chunk by chunk, the five transfer cells' conjuncts.  So the start
  regroups into one stage-0 bundle per chunk, what the two barrier signals hand over (the receive chunks, and the result
  chunks of the other half), the input chunks of the other half, and the barrier cell's own tokens.  At the end the same
  equations, read backwards, rejoin the 32 closed chunk bundles into the whole buffers at their final contents and the
  160 transfer semaphores at zero.
-/
import proofs.«900152_g7700000000000153_dist_ar_v7x_xy2x2_y_m8192_n1024_bf16_1_alg».proof.Proof.Bits.Chunk
import proofs.«900152_g7700000000000153_dist_ar_v7x_xy2x2_y_m8192_n1024_bf16_1_alg».proof.Proof.Bits.Split

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite separating conjunctions written out -/

/-- The two halves of the rows, the one device c works on first. -/
theorem hf_cases (c : Dev nD) : (hf c = 0 ∧ hf (xnbr c) = 1) ∨ (hf c = 1 ∧ hf (xnbr c) = 0) := by
  revert c; decide

theorem halves_eq (c : Dev nD) (Φ : Fin 2 → sProp 𝕄) :
    bigSep Finset.univ Φ = iprop(Φ (hf c) ∗ Φ (hf (xnbr c))) := by
  rw [bigSep_univ_two]
  rcases hf_cases c with ⟨h0, h1⟩ | ⟨h0, h1⟩
  · rw [h0, h1]
  · rw [h0, h1]; exact equiv_iff.mp ⟨BI.sep_comm, BI.sep_comm⟩

theorem halves (c : Dev nD) (Φ : Fin 2 → sProp 𝕄) :
    bigSep Finset.univ Φ ⊣⊢ iprop(Φ (hf c) ∗ Φ (hf (xnbr c))) := .of_eq (halves_eq c Φ)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

/-! ## Index sets regrouped -/

/-- A conjunction over the 5 × 32 transfer cells, chunk by chunk. -/
theorem bigSep_jk (Φ : Fin 5 × Fin 32 → sProp 𝕄) :
    bigSep Finset.univ Φ = bigSep Finset.univ fun k : Fin 32 =>
      iprop(Φ (0, k) ∗ Φ (1, k) ∗ Φ (2, k) ∗ Φ (3, k) ∗ Φ (4, k)) := by
  rw [bigSep_univ_prod, bigSep_univ_comm]
  exact bigSep_congr fun k _ => bigSep_fin5 _

/-- A conjunction over all cells of a device: the barrier cell, then the transfer cells chunk by chunk. -/
theorem bigSep_cix (Φ : CIx → sProp 𝕄) :
    bigSep Finset.univ Φ = iprop(Φ none ∗ bigSep Finset.univ fun k : Fin 32 =>
      iprop(Φ (some (0, k)) ∗ Φ (some (1, k)) ∗ Φ (some (2, k)) ∗ Φ (some (3, k)) ∗ Φ (some (4, k)))) := by
  have e1 : bigSep Finset.univ Φ
      = iprop((bigSep Finset.univ fun a : Fin 5 × Fin 32 => Φ (some a)) ∗ bigSep Finset.univ fun _ : PUnit.{1} => Φ none) := by
    rw [bigSep_univ_equiv (Equiv.optionEquivSumPUnit (Fin 5 × Fin 32)).symm Φ, bigSep_univ_sum]; rfl
  have e2 : (bigSep Finset.univ fun _ : PUnit.{1} => Φ none) = Φ none := bigSep_univ_of_subsingleton PUnit.unit
  rw [e1, e2, bigSep_jk]
  exact equiv_iff.mp ⟨BI.sep_comm, BI.sep_comm⟩

theorem positions_eq (c : Dev nD) :
    (positions c : sProp 𝕄) = iprop(atPos ER (barCell c) 0 ∅ 0 ∗ bigSep Finset.univ fun k : Fin 32 =>
      iprop(posJ c 0 k ∗ posJ c 1 k ∗ posJ c 2 k ∗ posJ c 3 k ∗ posJ c 4 k)) :=
  bigSep_cix fun i : CIx => atPos ER (kcell (c, i)) 0 ∅ 0

theorem xferSems_eq (c : Dev nD) :
    (xferSems c : sProp 𝕄) = bigSep Finset.univ fun k : Fin 32 =>
      iprop(semVal (xcell c 0 k) 0 ∗ semVal (xcell c 1 k) 0 ∗ semVal (xcell c 2 k) 0 ∗ semVal (xcell c 3 k) 0 ∗ semVal (xcell c 4 k) 0) :=
  bigSep_jk fun jk : Fin 5 × Fin 32 => semVal (xcell c jk.1 jk.2) 0

/-! ## The buffers, chunk by chunk -/

/-- The input chunks of the half device c does not work on. -/
def xOther (c : Dev nD) : sProp 𝕄 :=
  bigSep Finset.univ fun k : Fin 32 => pts (xSl (hf (xnbr c)) k) c fullShare (X m c)

/-- A chunked buffer at one contents is, chunk by chunk, at some contents. -/
theorem chunks_some {Y : Type} (P : Fin 32 → Y → sProp 𝕄) (y : Y) :
    (bigSep Finset.univ fun k => P k y) ⊢ bigSep Finset.univ fun k => iprop(∃ y, P k y) := by
  have h : ∀ k, P k y ⊢ iprop(∃ y, P k y) := fun k => by iintro H; iexists y; iexact H
  exact bigSep_mono fun k _ => h k

/-- An 8192-row buffer is the chunks of the half device c works on and the chunks of the other half. -/
theorem split_o (c : Dev nD) (q : PosShare TreeShare) (f : Buf (Elt F) ((c : Thread nD τ).loc cc0_stg0_0)) :
    ((((c : Thread nD τ).loc cc0_stg0_0) ↦{q} f : sProp 𝕄))
      = iprop((bigSep Finset.univ fun k : Fin 32 => pts (oSl (hf c) k) c q f)
          ∗ bigSep Finset.univ fun k : Fin 32 => pts (oSl (hf (xnbr c)) k) c q f) := by
  rw [split64_o_eq c q f, bigSep_univ_prod, halves_eq c]
theorem split_x (c : Dev nD) (q : PosShare TreeShare) (f : Buf (Elt F) ((c : Thread nD τ).loc main_arg0)) :
    ((((c : Thread nD τ).loc main_arg0) ↦{q} f : sProp 𝕄))
      = iprop((bigSep Finset.univ fun k : Fin 32 => pts (xSl (hf c) k) c q f)
          ∗ bigSep Finset.univ fun k : Fin 32 => pts (xSl (hf (xnbr c)) k) c q f) := by
  rw [split64_x_eq c q f, bigSep_univ_prod, halves_eq c]

/-! ## All chunks at one stage -/

theorem st0_all (c : Dev nD) :
    (bigSep Finset.univ fun k : Fin 32 => st0 m c k)
      = iprop((bigSep Finset.univ fun k : Fin 32 => pts (xSl (hf c) k) c fullShare (X m c))
          ∗ (bigSep Finset.univ fun k : Fin 32 => iprop(∃ f, pts (vSl k) c fullShare f))
          ∗ (bigSep Finset.univ fun k : Fin 32 => iprop(∃ f, pts (sSl k) c fullShare f))
          ∗ (bigSep Finset.univ fun k : Fin 32 => iprop(∃ f, pts (oSl (hf c) k) c fullShare f))
          ∗ (bigSep Finset.univ fun k : Fin 32 => chunkToks c k)
          ∗ (bigSep Finset.univ fun k : Fin 32 => iprop(posJ c 0 k ∗ posJ c 1 k ∗ posJ c 2 k ∗ posJ c 3 k ∗ posJ c 4 k))
          ∗ (bigSep Finset.univ fun k : Fin 32 => iprop(credJ c 2 k ∗ credJ c 4 k))) := by
  unfold st0
  rw [bigSep_sep', bigSep_sep', bigSep_sep', bigSep_sep', bigSep_sep', bigSep_sep']

theorem st4_all (c : Dev nD) :
    (bigSep Finset.univ fun k : Fin 32 => st4 m c k)
      = iprop((bigSep Finset.univ fun k : Fin 32 => pts (xSl (hf c) k) c fullShare (X m c))
          ∗ (bigSep Finset.univ fun k : Fin 32 => pts (vSl k) c fullShare (xvB m c))
          ∗ (bigSep Finset.univ fun k : Fin 32 => pts (sSl k) c fullShare (sendB m c))
          ∗ (bigSep Finset.univ fun k : Fin 32 => pts (rSl k) c fullShare (recvB m c))
          ∗ (bigSep Finset.univ fun k : Fin 32 => pts (oSl (hf c) k) c fullShare (outB m c))
          ∗ (bigSep Finset.univ fun k : Fin 32 => pts (oSl (hf (xnbr c)) k) c fullShare (outB m c))
          ∗ (bigSep Finset.univ fun k : Fin 32 =>
              iprop(semVal (xcell c 0 k) 0 ∗ semVal (xcell c 1 k) 0 ∗ semVal (xcell c 2 k) 0 ∗ semVal (xcell c 3 k) 0 ∗ semVal (xcell c 4 k) 0))) := by
  unfold st4
  rw [bigSep_sep', bigSep_sep', bigSep_sep', bigSep_sep', bigSep_sep', bigSep_sep']

theorem cred24_eq (c : Dev nD) (k : Fin 32) :
    (iprop(credJ c 2 k ∗ credJ c 4 k) : sProp 𝕄) = iprop(cred (tallyAt (xcell c 2 k) () N) ∗ cred (tallyAt (xcell c 4 k) () N)) := rfl

/-- A chunked scratch buffer at one contents is the whole buffer at some contents. -/
theorem join_v (c : Dev nD) (f : Buf (Elt F) ((c : Thread nD τ).loc cc0_scratch0)) :
    (bigSep Finset.univ fun k : Fin 32 => pts (vSl k) c fullShare f)
      ⊢ iprop(∃ f : Buf (Elt F) ((c : Thread nD τ).loc cc0_scratch0), ((c : Thread nD τ).loc cc0_scratch0) ↦{fullShare} f) := by
  rw [← split32_v_eq c fullShare f]; iintro H; iexists f; iexact H
theorem join_s (c : Dev nD) (f : Buf (Elt F) ((c : Thread nD τ).loc cc0_scratch1)) :
    (bigSep Finset.univ fun k : Fin 32 => pts (sSl k) c fullShare f)
      ⊢ iprop(∃ f : Buf (Elt F) ((c : Thread nD τ).loc cc0_scratch1), ((c : Thread nD τ).loc cc0_scratch1) ↦{fullShare} f) := by
  rw [← split32_s_eq c fullShare f]; iintro H; iexists f; iexact H
theorem join_r (c : Dev nD) (f : Buf (Elt F) ((c : Thread nD τ).loc cc0_scratch2)) :
    (bigSep Finset.univ fun k : Fin 32 => pts (rSl k) c fullShare f)
      ⊢ iprop(∃ f : Buf (Elt F) ((c : Thread nD τ).loc cc0_scratch2), ((c : Thread nD τ).loc cc0_scratch2) ↦{fullShare} f) := by
  rw [← split32_r_eq c fullShare f]; iintro H; iexists f; iexact H

/-- A whole buffer at some contents is, chunk by chunk, at some contents. -/
theorem some_v (c : Dev nD) :
    iprop(∃ f : Buf (Elt F) ((c : Thread nD τ).loc cc0_scratch0), ((c : Thread nD τ).loc cc0_scratch0) ↦{fullShare} f)
      ⊢ (bigSep Finset.univ fun k : Fin 32 => iprop(∃ f, pts (vSl k) c fullShare f) : sProp 𝕄) := by
  iintro ⟨%f, H⟩
  iapply (chunks_some (fun k (f : Buf (Elt F) ((c : Thread nD τ).loc cc0_scratch0)) => pts (vSl k) c fullShare f) f)
  iapply (Entails.of_eq (split32_v_eq c fullShare f)); iexact H
theorem some_s (c : Dev nD) :
    iprop(∃ f : Buf (Elt F) ((c : Thread nD τ).loc cc0_scratch1), ((c : Thread nD τ).loc cc0_scratch1) ↦{fullShare} f)
      ⊢ (bigSep Finset.univ fun k : Fin 32 => iprop(∃ f, pts (sSl k) c fullShare f) : sProp 𝕄) := by
  iintro ⟨%f, H⟩
  iapply (chunks_some (fun k (f : Buf (Elt F) ((c : Thread nD τ).loc cc0_scratch1)) => pts (sSl k) c fullShare f) f)
  iapply (Entails.of_eq (split32_s_eq c fullShare f)); iexact H
theorem some_r (c : Dev nD) :
    iprop(∃ f : Buf (Elt F) ((c : Thread nD τ).loc cc0_scratch2), ((c : Thread nD τ).loc cc0_scratch2) ↦{fullShare} f)
      ⊢ (bigSep Finset.univ fun k : Fin 32 => iprop(∃ f, pts (rSl k) c fullShare f) : sProp 𝕄) := by
  iintro ⟨%f, H⟩
  iapply (chunks_some (fun k (f : Buf (Elt F) ((c : Thread nD τ).loc cc0_scratch2)) => pts (rSl k) c fullShare f) f)
  iapply (Entails.of_eq (split32_r_eq c fullShare f)); iexact H
theorem some_o (c : Dev nD) :
    iprop(∃ f : Buf (Elt F) ((c : Thread nD τ).loc cc0_stg0_0), ((c : Thread nD τ).loc cc0_stg0_0) ↦{fullShare} f)
      ⊢ (iprop((bigSep Finset.univ fun k : Fin 32 => iprop(∃ f, pts (oSl (hf c) k) c fullShare f))
          ∗ bigSep Finset.univ fun k : Fin 32 => iprop(∃ f, pts (oSl (hf (xnbr c)) k) c fullShare f)) : sProp 𝕄) := by
  iintro ⟨%f, H⟩
  ihave H2 := (Entails.of_eq (split_o c fullShare f)) $$ H
  icases H2 with ⟨HA, HB⟩
  isplitl [HA]
  · iapply (chunks_some (fun k (f : Buf (Elt F) ((c : Thread nD τ).loc cc0_stg0_0)) => pts (oSl (hf c) k) c fullShare f) f); iexact HA
  iapply (chunks_some (fun k (f : Buf (Elt F) ((c : Thread nD τ).loc cc0_stg0_0)) => pts (oSl (hf (xnbr c)) k) c fullShare f) f); iexact HB

/-! ## The two ends of the body -/

/-- What a device holds at the start of its kernel function, regrouped chunk by chunk: every chunk's stage-0 bundle,
    what the two barrier signals hand over, the input chunks of the other half, and the barrier cell's own tokens. -/
theorem prologue (K : Dev nD × CIx → ℕ) (c : Dev nD) :
    iprop(ghost m K c ∗ creds c ∗ argPts m c ∗ scratches c
        ∗ (∃ f : Buf (Elt F) ((c : Thread nD τ).loc cc0_stg0_0), ((c : Thread nD τ).loc cc0_stg0_0) ↦{fullShare} f))
      ⊢ iprop(records m K ∗ (bigSep Finset.univ fun k : Fin 32 => st0 m c k) ∗ giveY c ∗ giveX c ∗ xOther m c
          ∗ dutyTok ER (barCell (ynbr c)) 0 false ∗ dutyTok ER (barCell (xnbr c)) 0 true ∗ atPos ER (barCell c) 0 ∅ 0
          ∗ cred (tallyAt (barCell c) () 2)) := by
  unfold ghost creds scratches payToks argPts xOther giveY giveX
  rw [positions_eq c, st0_all m c, split_x c fullShare]
  iintro ⟨⟨HR, ⟨HpB, Hpos⟩, HtY, HtX, Htoks⟩, ⟨HcB, Hc24⟩, ⟨HxA, HxB⟩, ⟨Hv, Hs, Hr⟩, Ho⟩
  ihave Ho2 := (some_o c) $$ Ho
  icases Ho2 with ⟨HoA, HoB⟩
  isplitl [HR]; · iexact HR
  isplitl [HxA Hv Hs HoA Htoks Hpos Hc24]
  · isplitl [HxA]; · iexact HxA
    isplitl [Hv]; · iapply (some_v c); iexact Hv
    isplitl [Hs]; · iapply (some_s c); iexact Hs
    isplitl [HoA]; · iexact HoA
    isplitl [Htoks]; · iexact Htoks
    isplitl [Hpos]; · iexact Hpos
    iexact Hc24
  isplitl [Hr]; · iapply (some_r c); iexact Hr
  isplitl [HoB]; · iexact HoB
  isplitl [HxB]; · iexact HxB
  isplitl [HtY]; · iexact HtY
  isplitl [HtX]; · iexact HtX
  isplitl [HpB]; · iexact HpB
  iexact HcB

/-- What the closing waits leave, rejoined: the three scratch buffers and the result's staging buffer whole at their final
    contents, the argument array whole as at launch, and the 160 transfer semaphores at zero. -/
theorem epilogue (c : Dev nD) :
    iprop((bigSep Finset.univ fun k : Fin 32 => st4 m c k) ∗ xOther m c)
      ⊢ iprop(scratches c ∗ xferSems c ∗ argPts m c ∗ (((c : Thread nD τ).loc cc0_stg0_0) ↦{fullShare} outB m c)) := by
  unfold scratches argPts xOther
  rw [st4_all m c, xferSems_eq c, split_x c fullShare, split_o c fullShare (outB m c)]
  iintro ⟨⟨HxA, Hv, Hs, Hr, HoA, HoB, Hsem⟩, HxB⟩
  isplitl [Hv Hs Hr]
  · isplitl [Hv]; · iapply (join_v c (xvB m c)); iexact Hv
    isplitl [Hs]; · iapply (join_s c (sendB m c)); iexact Hs
    iapply (join_r c (recvB m c)); iexact Hr
  isplitl [Hsem]; · iexact Hsem
  isplitl [HxA HxB]
  · isplitl [HxA]; · iexact HxA
    iexact HxB
  isplitl [HoA]; · iexact HoA
  iexact HoB

end Cert.Kernel.AR

end
-- ==== Proof.Bits.Glue.lean ====
/-
  The body's entry and exit, as two entailments with no program step: what the pipeline hands the body at its one point,
  cut into the chunks' resources; and the chunks' final resources, put back together as what the pipeline takes back.
-/
import proofs.«900152_g7700000000000153_dist_ar_v7x_xy2x2_y_m8192_n1024_bf16_1_alg».proof.Proof.Bits.Ends

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Entry: from what the pipeline hands the body to the chunks' resources -/

/-- At entry the body holds the protocol's ghost state, its credits, the level facts, its argument block and the scratch
    buffers, what it owes before its one point, and the result's staging buffer at whatever it held.  Cut chunk by chunk
    this is every chunk's resources before its local copy, what the two barrier signals hand over, the other half of
    the argument block, the tokens and the position of the barrier round, and the whole debt of 66 paying actions. -/
theorem body_entry (K : Dev nD × CIx → ℕ) (c : Dev nD) :
    bodyPre m ρ K c ⊢ iprop(records m K ∗ levAts L lv ∗ (bigSep Finset.univ fun k : Fin 32 => st0 m c k) ∗ giveY c ∗ giveX c ∗ xOther m c
        ∗ dutyTok ER (barCell (ynbr c)) 0 false ∗ dutyTok ER (barCell (xnbr c)) 0 true ∗ atPos ER (barCell c) 0 ∅ 0
        ∗ cred (tallyAt (barCell c) () 2) ∗ owesX c 66) := by
  unfold bodyPre owesX
  unfold Dat.owesAt Pipeline.owesWithin
  rw [show (dats m ρ 0 c).owed t₀.castSucc = owe c 66 from rfl]
  iintro ⟨⟨Hg, Hcr, #Hlev, Ha, Hs⟩, ⟨%W, %hW, HO⟩, ⟨%d, %f, %hf, Hstg⟩⟩
  ihave H := (prologue m K c) $$ [Hg Hcr Ha Hs Hstg]
  · isplitl [Hg]; · iexact Hg
    isplitl [Hcr]; · iexact Hcr
    isplitl [Ha]; · iexact Ha
    isplitl [Hs]; · iexact Hs
    iexists f; iexact Hstg
  icases H with ⟨#Hrec, Hst0, HgY, HgX, HxO, Ht1, Ht2, Hat, Hcb⟩
  isplitr; · iexact Hrec
  isplitr; · iexact Hlev
  isplitl [Hst0]; · iexact Hst0
  isplitl [HgY]; · iexact HgY
  isplitl [HgX]; · iexact HgX
  isplitl [HxO]; · iexact HxO
  isplitl [Ht1]; · iexact Ht1
  isplitl [Ht2]; · iexact Ht2
  isplitl [Hat]; · iexact Hat
  isplitl [Hcb]; · iexact Hcb
  iexists W; iexact HO

/-! ## Exit: from the chunks' final resources to what the pipeline takes back -/

/-- At exit every chunk is whole at its final contents and every transfer cell closed; with the other half of the
    argument block these are the scratch buffers, the 160 counters at zero, the argument block, and the result's staging
    buffer at the all-reduce's value; nothing is owed. -/
theorem body_exit (c : Dev nD) :
    iprop((bigSep Finset.univ fun k : Fin 32 => st4 m c k) ∗ xOther m c ∗ owesX c 0) ⊢ bodyPost m ρ c := by
  unfold bodyPost Φ₁ owesX
  unfold Dat.owesAt Pipeline.owesWithin
  rw [show (dats m ρ 0 c).owed t₀.succ = owe c 0 from rfl]
  iintro ⟨Hst, HxO, ⟨%W, HO⟩⟩
  ihave H := (epilogue m c) $$ [Hst HxO]
  · isplitl [Hst]; · iexact Hst
    iexact HxO
  icases H with ⟨Hscr, Hsem, Harg, Hout⟩
  isplitl [Hscr Hsem Harg]
  · isplitl [Hscr]; · iexact Hscr
    isplitl [Hsem]; · iexact Hsem
    iexact Harg
  isplitl [HO]
  · iexists W
    isplitr; · ipureintro; exact fun _ _ => Or.inl trivial
    iexact HO
  iexists (outB m c)
  isplitr; · ipureintro; rfl
  iexact Hout

end Cert.Kernel.AR

end
-- ==== Proof.Bits.Body.lean ====
/-
  One device's kernel function, run from its resources at the grid point to its resources after it: the buffers are cut
  into their 32 chunks, every chunk goes through its five steps (local copy started; phase-1 copy; phase-2 copy; the
  three closing waits) in the kernel's order, with the entry handshake after the local copies are started, and the
  chunks are joined again.  Each step is a lemma about ONE chunk, proved for a symbolic chunk and applied 32 times.
-/
import proofs.«900152_g7700000000000153_dist_ar_v7x_xy2x2_y_m8192_n1024_bf16_1_alg».proof.Proof.Bits.Phase0
import proofs.«900152_g7700000000000153_dist_ar_v7x_xy2x2_y_m8192_n1024_bf16_1_alg».proof.Proof.Bits.Phase1
import proofs.«900152_g7700000000000153_dist_ar_v7x_xy2x2_y_m8192_n1024_bf16_1_alg».proof.Proof.Bits.Phase2
import proofs.«900152_g7700000000000153_dist_ar_v7x_xy2x2_y_m8192_n1024_bf16_1_alg».proof.Proof.Bits.Phase3
import proofs.«900152_g7700000000000153_dist_ar_v7x_xy2x2_y_m8192_n1024_bf16_1_alg».proof.Proof.Bits.Bar
import proofs.«900152_g7700000000000153_dist_ar_v7x_xy2x2_y_m8192_n1024_bf16_1_alg».proof.Proof.Bits.Glue
import proofs.«900152_g7700000000000153_dist_ar_v7x_xy2x2_y_m8192_n1024_bf16_1_alg».proof.Proof.Bits.Geom

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Lean Elab Tactic in
/-- A step of the proof written out as text and run. -/
def runTacStr (s : String) : TacticM Unit := do
  match Parser.runParserCategory (← getEnv) `tactic s with
  | .ok stx => evalTactic stx
  | .error e => throwError "runTacStr: {e}\n{s}"

open Lean Elab Tactic in
/-- The printed part n of the kernel function is replaced, where it is called, by its statements. -/
elab "up " n:num : tactic => do
  let i := n.getNat
  runTacStr s!"(simp only [k0_part{i}_eq_skeleton]; unfold k0_part{i}_skel; simp only [semSignalWord, semWaitWord, Prog.lift, Prog.bind_op, Prog.bind_ret, Prog.pure_eq_ret])"

open Lean Elab Tactic in
/-- Chunk k's local copy is started. -/
elab "s0 " k:num : tactic => do
  let i := k.getNat
  runTacStr s!"(iapply (phase0_chunk m K c {i} (fun fd => pts_ld_landed m fullShare c {i} fd)) $$ [H{i}]; (· (isplitr; (· iexact Hrec); (· iexact H{i}))); iintro H{i})"

open Lean Elab Tactic in
/-- Chunk k's phase-1 step. -/
elab "s1 " k:num : tactic => do
  let i := k.getNat
  runTacStr s!"(iapply (phase1_chunk m K c {i} ⟨k0_dev{3+i} c, k0_dev{3+i}_lt c⟩ (Fin.ext (k0_dev{3+i}_eq c)) rfl) $$ [H{i} HY{i} HO]; (· (isplitr; (· iexact Hrec); isplitr; (· iexact Hlev); isplitl [H{i}]; (· iexact H{i}); isplitl [HY{i}]; (· iexact HY{i}); iexact HO)); iintro ⟨H{i}, HO⟩)"

open Lean Elab Tactic in
/-- Chunk k's phase-2 step. -/
elab "s2 " k:num : tactic => do
  let i := k.getNat
  runTacStr s!"(iapply (phase2_chunk m K c {i} ⟨k0_dev{35+i} c, k0_dev{35+i}_lt c⟩ (Fin.ext (k0_dev{35+i}_eq c)) rfl) $$ [H{i} HX{i} HO]; (· (isplitr; (· iexact Hrec); isplitr; (· iexact Hlev); isplitl [H{i}]; (· iexact H{i}); isplitl [HX{i}]; (· iexact HX{i}); iexact HO)); iintro ⟨H{i}, HO⟩)"

open Lean Elab Tactic in
/-- Chunk k's closing waits. -/
elab "s3 " k:num : tactic => do
  let i := k.getNat
  runTacStr s!"(iapply (phase3_chunk m K c {i}) $$ [H{i} HO]; (· (isplitr; (· iexact Hrec); isplitr; (· iexact Hlev); isplitl [H{i}]; (· iexact H{i}); iexact HO)); iintro ⟨H{i}, HO⟩)"

set_option maxHeartbeats 4000000 in
set_option maxRecDepth 100000 in
theorem sound_body : SoundBody m ρ := by
  intro K c Kt
  unfold theBody
  simp only [cc0_body_eq_skeleton]; unfold cc0_body_skel
  simp only [k0_part74_eq_skeleton]; unfold k0_part74_skel
  simp only [k0_part1_eq_skeleton]; unfold k0_part1_skel
  simp only [Prog.lift, Prog.bind_op, Prog.bind_ret, Prog.pure_eq_ret, wp_deviceId]
  iintro ⟨Hpre, Hk⟩
  ihave Hent := (body_entry m ρ K c) $$ Hpre
  icases Hent with ⟨#Hrec, #Hlev, Hst, HgY, HgX, Hxo, HtY, HtX, HaB, HcB, HO⟩
  ihave Hst' := (Entails.of_eq (bigSep_fin32 (fun k : Fin 32 => st0 m c k))) $$ Hst
  icases Hst' with ⟨H0, H1, H2, H3, H4, H5, H6, H7, H8, H9, H10, H11, H12, H13, H14, H15, H16, H17, H18, H19, H20, H21, H22, H23, H24, H25, H26, H27, H28, H29, H30, H31⟩
  s0 0
  s0 1
  s0 2
  up 2
  s0 3
  s0 4
  s0 5
  s0 6
  s0 7
  s0 8
  up 3
  s0 9
  s0 10
  s0 11
  s0 12
  s0 13
  up 4
  s0 14
  s0 15
  s0 16
  s0 17
  s0 18
  s0 19
  up 5
  s0 20
  s0 21
  s0 22
  s0 23
  s0 24
  up 6
  s0 25
  s0 26
  s0 27
  s0 28
  s0 29
  s0 30
  up 7
  s0 31
  iapply (barrier_step m K c ⟨k0_dev1 c, k0_dev1_lt c⟩ ⟨k0_dev2 c, k0_dev2_lt c⟩ (Fin.ext (k0_dev1_eq c)) (Fin.ext (k0_dev2_eq c))) $$ [HtY HtX HaB HcB HgY HgX HO]
  · isplitr; · iexact Hrec
    isplitr; · iexact Hlev
    isplitl [HtY]; · iexact HtY
    isplitl [HtX]; · iexact HtX
    isplitl [HaB]; · iexact HaB
    isplitl [HcB]; · iexact HcB
    isplitl [HgY]; · iexact HgY
    isplitl [HgX]; · iexact HgX
    iexact HO
  iintro ⟨HY, HX, HO⟩
  ihave HY' := (Entails.of_eq (bigSep_fin32 (fun k : Fin 32 => gotY (F := F) c k))) $$ HY
  icases HY' with ⟨HY0, HY1, HY2, HY3, HY4, HY5, HY6, HY7, HY8, HY9, HY10, HY11, HY12, HY13, HY14, HY15, HY16, HY17, HY18, HY19, HY20, HY21, HY22, HY23, HY24, HY25, HY26, HY27, HY28, HY29, HY30, HY31⟩
  ihave HX' := (Entails.of_eq (bigSep_fin32 (fun k : Fin 32 => gotX (F := F) c k))) $$ HX
  icases HX' with ⟨HX0, HX1, HX2, HX3, HX4, HX5, HX6, HX7, HX8, HX9, HX10, HX11, HX12, HX13, HX14, HX15, HX16, HX17, HX18, HX19, HX20, HX21, HX22, HX23, HX24, HX25, HX26, HX27, HX28, HX29, HX30, HX31⟩
  up 8
  s1 0
  s1 1
  up 9
  s1 2
  up 10
  s1 3
  s1 4
  up 11
  s1 5
  up 12
  s1 6
  s1 7
  up 13
  s1 8
  up 14
  s1 9
  s1 10
  up 15
  s1 11
  s1 12
  up 16
  s1 13
  up 17
  s1 14
  s1 15
  up 18
  s1 16
  up 19
  s1 17
  s1 18
  up 20
  s1 19
  up 21
  s1 20
  s1 21
  up 22
  s1 22
  up 23
  s1 23
  s1 24
  up 24
  s1 25
  up 25
  s1 26
  s1 27
  up 26
  s1 28
  up 27
  s1 29
  s1 30
  up 28
  s1 31
  up 29
  s2 0
  s2 1
  up 30
  s2 2
  up 31
  s2 3
  up 32
  s2 4
  up 33
  s2 5
  up 34
  s2 6
  s2 7
  up 35
  s2 8
  up 36
  s2 9
  up 37
  s2 10
  up 38
  s2 11
  s2 12
  up 39
  s2 13
  up 40
  s2 14
  up 41
  s2 15
  up 42
  s2 16
  up 43
  s2 17
  s2 18
  up 44
  s2 19
  up 45
  s2 20
  up 46
  s2 21
  up 47
  s2 22
  s2 23
  up 48
  s2 24
  up 49
  s2 25
  up 50
  s2 26
  up 51
  s2 27
  s2 28
  up 52
  s2 29
  up 53
  s2 30
  up 54
  s2 31
  up 55
  s3 0
  s3 1
  up 56
  s3 2
  s3 3
  up 57
  s3 4
  up 58
  s3 5
  s3 6
  up 59
  s3 7
  up 60
  s3 8
  s3 9
  up 61
  s3 10
  up 62
  s3 11
  s3 12
  up 63
  s3 13
  s3 14
  up 64
  s3 15
  up 65
  s3 16
  s3 17
  up 66
  s3 18
  up 67
  s3 19
  s3 20
  up 68
  s3 21
  up 69
  s3 22
  s3 23
  up 70
  s3 24
  s3 25
  up 71
  s3 26
  up 72
  s3 27
  s3 28
  up 73
  s3 29
  s3 30
  s3 31
  rw [wp_ret]; imodintro
  iapply Hk
  iapply (body_exit m ρ c)
  isplitl [H0 H1 H2 H3 H4 H5 H6 H7 H8 H9 H10 H11 H12 H13 H14 H15 H16 H17 H18 H19 H20 H21 H22 H23 H24 H25 H26 H27 H28 H29 H30 H31]
  · iapply (Entails.of_eq (bigSep_fin32 (fun k : Fin 32 => st4 m c k)).symm)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  isplitl [Hxo]; · iexact Hxo
  iexact HO

/-- info: 'Cert.Kernel.AR.sound_body' depends on axioms: [propext, Classical.choice, Quot.sound] -/
#guard_msgs in #print axioms sound_body

end Cert.Kernel.AR

end
-- ==== Proof.lean ====
/-
  The all-reduce on the 2×2 mesh against the one-device sum of the two blocks of the whole array.

  Every device casts its half of its block to bf16, exchanges it with its neighbour along the second mesh axis (which
  holds the other block) and adds the two; then it exchanges the summed half with its neighbour along the first mesh axis
  (which holds the same block and worked on the other half of the rows).  So every device ends with all 8192 rows of
  block 0 + block 1, which over the extended reals is the reference's sum over the leading axis of the reshaped array;
  the casts change no value there and + is commutative.

  The run of the kernel on all four devices — it terminates, nothing faults, the arguments are unchanged and the result
  array ends at that value — is proved once, generically in the float instance: the word-level program's frame is that run
  with the value dropped, the idealized program's frame and the equivalence are its instance at the extended reals.  The
  devices meet only through an entry handshake on the barrier semaphore and the 64 remote copies per device, each copy
  waited for on both its ends before its chunk is touched again; the idealization rewrote no operation.
-/
import proofs.«900152_g7700000000000153_dist_ar_v7x_xy2x2_y_m8192_n1024_bf16_1_alg».proof.Proof.Claims
import proofs.«900152_g7700000000000153_dist_ar_v7x_xy2x2_y_m8192_n1024_bf16_1_alg».proof.Proof.Launch
import proofs.«900152_g7700000000000153_dist_ar_v7x_xy2x2_y_m8192_n1024_bf16_1_alg».proof.Proof.Body
import proofs.«900152_g7700000000000153_dist_ar_v7x_xy2x2_y_m8192_n1024_bf16_1_alg».proof.Proof.Bits.Launch
import proofs.«900152_g7700000000000153_dist_ar_v7x_xy2x2_y_m8192_n1024_bf16_1_alg».proof.Proof.Bits.Body

noncomputable section

namespace Cert.Proof

open Idealize.ShloMosaic Idealize.SL.Sem

theorem claim : Cert.Claim :=
  Cert.Proof.ARClaims.claim_of_runs
    (fun m ρ => (θ_run _ _ _).mono (fun _ h c => (h c).2)
      (Cert.Kernel.AR.run_main m ρ (Cert.Kernel.AR.sound_body m ρ)))
    (fun m ρ => Cert.KernelIdeal.AR.run_main m ρ (Cert.KernelIdeal.AR.sound_body m ρ))

end Cert.Proof

end
